-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v374)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v374) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v471) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131071x256 : Shape := ⟨2, ![131071, 256]⟩
abbrev S768x256 : Shape := ⟨2, ![768, 256]⟩
abbrev S768 : Shape := ⟨1, ![768]⟩
abbrev S256x512 : Shape := ⟨2, ![256, 512]⟩
abbrev S512x512 : Shape := ⟨2, ![512, 512]⟩
abbrev S_ : Shape := ⟨0, ![]⟩

class Facts : Prop where
  bcast_S_S131071x256 : S_.BroadcastsInDim S131071x256 (![] : Fin 0 → Fin S131071x256.rank)
  reducesTo_S131071x256_S_d0_1 : S131071x256.ReducesTo [0, 1] S_
  h_S_ : 0 < S_.numel
  bcast_S_S768x256 : S_.BroadcastsInDim S768x256 (![] : Fin 0 → Fin S768x256.rank)
  reducesTo_S768x256_S_d0_1 : S768x256.ReducesTo [0, 1] S_
  bcast_S_S768 : S_.BroadcastsInDim S768 (![] : Fin 0 → Fin S768.rank)
  reducesTo_S768_S_d0 : S768.ReducesTo [0] S_
  bcast_S_S256x512 : S_.BroadcastsInDim S256x512 (![] : Fin 0 → Fin S256x512.rank)
  reducesTo_S256x512_S_d0_1 : S256x512.ReducesTo [0, 1] S_
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_arg4 : FVec F S512x512 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  main_v23

def fn {F : FTy → Type} [FloatOps F] (main_arg0 : FVec F S131071x256 .f32) (main_arg1 : FVec F S768x256 .f32) (main_arg2 : FVec F S768 .f32) (main_arg3 : FVec F S256x512 .f32) (main_arg4 : FVec F S512x512 .f32) : IVec S_ 1 :=
  let main_v0 : FVec F S131071x256 .f32 := Host.absf main_arg0
  let main_cst : FVec F S_ .f32 := constant S_ .f32 0x7F800000#32
  let main_v1 : FVec F S131071x256 .f32 := broadcastInDim S131071x256 ![] bcast_S_S131071x256 main_cst
  let main_v2 : IVec S131071x256 1 := cmpf .olt main_v0 main_v1
  let main_c : IVec S_ 1 := constantI S_ 1 1#1
  let main_v3 : IVec S_ 1 := (fun x v => Host.reduce IntOp.andi x v reducesTo_S131071x256_S_d0_1 h_S_) main_v2 main_c
  let main_v4 : FVec F S768x256 .f32 := Host.absf main_arg1
  let main_cst_0 : FVec F S_ .f32 := constant S_ .f32 0x7F800000#32
  let main_v5 : FVec F S768x256 .f32 := broadcastInDim S768x256 ![] bcast_S_S768x256 main_cst_0
  let main_v6 : IVec S768x256 1 := cmpf .olt main_v4 main_v5
  let main_c_1 : IVec S_ 1 := constantI S_ 1 1#1
  let main_v7 : IVec S_ 1 := (fun x v => Host.reduce IntOp.andi x v reducesTo_S768x256_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S256x512 .f32 := Host.absf main_arg3
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg4 main_v13 main_v16
-- ==== Kernel.lean ====
abbrev S131071x256 : Shape := ⟨2, ![131071, 256]⟩
abbrev S768x256 : Shape := ⟨2, ![768, 256]⟩
abbrev S768 : Shape := ⟨1, ![768]⟩
abbrev S256x512 : Shape := ⟨2, ![256, 512]⟩
abbrev S512x512 : Shape := ⟨2, ![512, 512]⟩
abbrev S256x768 : Shape := ⟨2, ![256, 768]⟩
abbrev S1x768 : Shape := ⟨2, ![1, 768]⟩
abbrev S512x256 : Shape := ⟨2, ![512, 256]⟩
abbrev S256x256 : Shape := ⟨2, ![256, 256]⟩
abbrev S65536x256 : Shape := ⟨2, ![65536, 256]⟩
abbrev S4096x256 : Shape := ⟨2, ![4096, 256]⟩
abbrev S4096x768 : Shape := ⟨2, ![4096, 768]⟩
abbrev S4096x512 : Shape := ⟨2, ![4096, 512]⟩
abbrev S32768x256 : Shape := ⟨2, ![32768, 256]⟩
abbrev S32768x512 : Shape := ⟨2, ![32768, 512]⟩
abbrev S2048x256 : Shape := ⟨2, ![2048, 256]⟩
abbrev S2048x512 : Shape := ⟨2, ![2048, 512]⟩
abbrev S2048x768 : Shape := ⟨2, ![2048, 768]⟩
abbrev S16384x256 : Shape := ⟨2, ![16384, 256]⟩
abbrev S16384x512 : Shape := ⟨2, ![16384, 512]⟩
abbrev S8192x256 : Shape := ⟨2, ![8192, 256]⟩
abbrev S8192x512 : Shape := ⟨2, ![8192, 512]⟩
abbrev S1024x256 : Shape := ⟨2, ![1024, 256]⟩
abbrev S1024x512 : Shape := ⟨2, ![1024, 512]⟩
abbrev S1024x768 : Shape := ⟨2, ![1024, 768]⟩
abbrev S512x768 : Shape := ⟨2, ![512, 768]⟩
abbrev S512x2x256 : Shape := ⟨3, ![512, 2, 256]⟩
abbrev S_ : Shape := ⟨0, ![]⟩
abbrev S256x2x256 : Shape := ⟨3, ![256, 2, 256]⟩
abbrev S128x256 : Shape := ⟨2, ![128, 256]⟩
abbrev S128x768 : Shape := ⟨2, ![128, 768]⟩
abbrev S128x512 : Shape := ⟨2, ![128, 512]⟩
abbrev S128x2x256 : Shape := ⟨3, ![128, 2, 256]⟩
abbrev S64x256 : Shape := ⟨2, ![64, 256]⟩
abbrev S64x768 : Shape := ⟨2, ![64, 768]⟩
abbrev S64x512 : Shape := ⟨2, ![64, 512]⟩
abbrev S64x2x256 : Shape := ⟨3, ![64, 2, 256]⟩
abbrev S32x256 : Shape := ⟨2, ![32, 256]⟩
abbrev S32x768 : Shape := ⟨2, ![32, 768]⟩
abbrev S32x512 : Shape := ⟨2, ![32, 512]⟩
abbrev S32x2x256 : Shape := ⟨3, ![32, 2, 256]⟩
abbrev S16x256 : Shape := ⟨2, ![16, 256]⟩
abbrev S16x768 : Shape := ⟨2, ![16, 768]⟩
abbrev S16x512 : Shape := ⟨2, ![16, 512]⟩
abbrev S16x2x256 : Shape := ⟨3, ![16, 2, 256]⟩
abbrev S8x256 : Shape := ⟨2, ![8, 256]⟩
abbrev S8x768 : Shape := ⟨2, ![8, 768]⟩
abbrev S8x512 : Shape := ⟨2, ![8, 512]⟩
abbrev S8x2x256 : Shape := ⟨3, ![8, 2, 256]⟩
abbrev S4x256 : Shape := ⟨2, ![4, 256]⟩
abbrev S4x768 : Shape := ⟨2, ![4, 768]⟩
abbrev S4x512 : Shape := ⟨2, ![4, 512]⟩
abbrev S4x2x256 : Shape := ⟨3, ![4, 2, 256]⟩
abbrev S2x256 : Shape := ⟨2, ![2, 256]⟩
abbrev S2x768 : Shape := ⟨2, ![2, 768]⟩
abbrev S2x512 : Shape := ⟨2, ![2, 512]⟩
abbrev S2x2x256 : Shape := ⟨3, ![2, 2, 256]⟩
abbrev S1x256 : Shape := ⟨2, ![1, 256]⟩
abbrev S1x512 : Shape := ⟨2, ![1, 512]⟩
abbrev S1x2x256 : Shape := ⟨3, ![1, 2, 256]⟩
abbrev S1 : Shape := ⟨1, ![1]⟩

abbrev nBuf : Space → Nat
  | .hbm => 448
  | .vmem => 72
  | .smem => 0
  | _ => 0

abbrev hbmTy0_0 (i : Nat) : BufTy := match i % 128 with
  | 0 => ⟨S131071x256, .f32⟩
  | 1 => ⟨S768x256, .f32⟩
  | 2 => ⟨S768, .f32⟩
  | 3 => ⟨S256x512, .f32⟩
  | 4 => ⟨S512x512, .f32⟩
  | 5 => ⟨S256x768, .f32⟩
  | 6 => ⟨S256x768, .bf16⟩
  | 7 => ⟨S1x768, .f32⟩
  | 8 => ⟨S512x256, .f32⟩
  | 9 => ⟨S256x512, .f32⟩
  | 10 => ⟨S512x256, .f32⟩
  | 11 => ⟨S256x512, .f32⟩
  | 12 => ⟨S256x256, .f32⟩
  | 13 => ⟨S256x256, .f32⟩
  | 14 => ⟨S256x256, .f32⟩
  | 15 => ⟨S256x256, .f32⟩
  | 16 => ⟨S65536x256, .f32⟩
  | 17 => ⟨S65536x256, .f32⟩
  | 18 => ⟨S32768x256, .f32⟩
  | 19 => ⟨S32768x512, .f32⟩
  | 20 => ⟨S32768x256, .f32⟩
  | 21 => ⟨S16384x256, .f32⟩
  | 22 => ⟨S16384x512, .f32⟩
  | 23 => ⟨S16384x256, .f32⟩
  | 24 => ⟨S8192x256, .f32⟩
  | 25 => ⟨S8192x512, .f32⟩
  | 26 => ⟨S8192x256, .f32⟩
  | 27 => ⟨S4096x256, .f32⟩
  | 28 => ⟨S4096x512, .f32⟩
  | 29 => ⟨S4096x256, .f32⟩
  | 30 => ⟨S2048x256, .f32⟩
  | 31 => ⟨S2048x512, .f32⟩
  | 32 => ⟨S2048x256, .f32⟩
  | 33 => ⟨S1024x256, .f32⟩
  | 34 => ⟨S1024x512, .f32⟩
  | 35 => ⟨S1024x256, .f32⟩
  | 36 => ⟨S512x256, .f32⟩
  | 37 => ⟨S256x768, .f32⟩
  | 38 => ⟨S512x768, .f32⟩
  | 39 => ⟨S1x768, .f32⟩
  | 40 => ⟨S512x768, .f32⟩
  | 41 => ⟨S512x768, .f32⟩
  | 42 => ⟨S512x256, .f32⟩
  | 43 => ⟨S512x512, .f32⟩
  | 44 => ⟨S512x512, .f32⟩
  | 45 => ⟨S512x512, .f32⟩
  | 46 => ⟨S512x512, .f32⟩
  | 47 => ⟨S512x512, .f32⟩
  | 48 => ⟨S512x256, .f32⟩
  | 49 => ⟨S512x256, .f32⟩
  | 50 => ⟨S512x2x256, .f32⟩
  | 51 => ⟨S_, .f32⟩
  | 52 => ⟨S512x256, .f32⟩
  | 53 => ⟨S512x512, .f32⟩
  | 54 => ⟨S512x512, .f32⟩
  | 55 => ⟨S512x512, .f32⟩
  | 56 => ⟨S_, .f32⟩
  | 57 => ⟨S512x512, .f32⟩
  | 58 => ⟨S512x512, .f32⟩
  | 59 => ⟨S_, .f32⟩
  | 60 => ⟨S512x512, .f32⟩
  | 61 => ⟨S512x512, .f32⟩
  | 62 => ⟨S512x2x256, .f32⟩
  | 63 => ⟨S_, .f32⟩
  | 64 => ⟨S512x256, .f32⟩
  | 65 => ⟨S_, .f32⟩
  | 66 => ⟨S512x256, .f32⟩
  | 67 => ⟨S512x256, .f32⟩
  | 68 => ⟨S512x256, .f32⟩
  | 69 => ⟨S512x256, .f32⟩
  | 70 => ⟨S512x256, .f32⟩
  | 71 => ⟨S512x256, .f32⟩
  | 72 => ⟨S256x256, .f32⟩
  | 73 => ⟨S256x768, .f32⟩
  | 74 => ⟨S256x768, .f32⟩
  | 75 => ⟨S1x768, .f32⟩
  | 76 => ⟨S256x768, .f32⟩
  | 77 => ⟨S256x768, .f32⟩
  | 78 => ⟨S256x256, .f32⟩
  | 79 => ⟨S256x512, .f32⟩
  | 80 => ⟨S256x512, .f32⟩
  | 81 => ⟨S512x512, .f32⟩
  | 82 => ⟨S256x512, .f32⟩
  | 83 => ⟨S256x512, .f32⟩
  | 84 => ⟨S512x256, .f32⟩
  | 85 => ⟨S256x256, .f32⟩
  | 86 => ⟨S256x2x256, .f32⟩
  | 87 => ⟨S_, .f32⟩
  | 88 => ⟨S256x256, .f32⟩
  | 89 => ⟨S256x512, .f32⟩
  | 90 => ⟨S256x512, .f32⟩
  | 91 => ⟨S256x512, .f32⟩
  | 92 => ⟨S_, .f32⟩
  | 93 => ⟨S256x512, .f32⟩
  | 94 => ⟨S256x512, .f32⟩
  | 95 => ⟨S_, .f32⟩
  | 96 => ⟨S256x512, .f32⟩
  | 97 => ⟨S256x512, .f32⟩
  | 98 => ⟨S256x2x256, .f32⟩
  | 99 => ⟨S_, .f32⟩
  | 100 => ⟨S256x256, .f32⟩
  | 101 => ⟨S_, .f32⟩
  | 102 => ⟨S256x256, .f32⟩
  | 103 => ⟨S256x256, .f32⟩
  | 104 => ⟨S256x256, .f32⟩
  | 105 => ⟨S256x256, .f32⟩
  | 106 => ⟨S256x256, .f32⟩
  | 107 => ⟨S256x256, .f32⟩
  | 108 => ⟨S128x256, .f32⟩
  | 109 => ⟨S256x768, .f32⟩
  | 110 => ⟨S128x768, .f32⟩
  | 111 => ⟨S1x768, .f32⟩
  | 112 => ⟨S128x768, .f32⟩
  | 113 => ⟨S128x768, .f32⟩
  | 114 => ⟨S128x256, .f32⟩
  | 115 => ⟨S128x512, .f32⟩
  | 116 => ⟨S128x512, .f32⟩
  | 117 => ⟨S512x512, .f32⟩
  | 118 => ⟨S128x512, .f32⟩
  | 119 => ⟨S128x512, .f32⟩
  | 120 => ⟨S512x256, .f32⟩
  | 121 => ⟨S128x256, .f32⟩
  | 122 => ⟨S128x2x256, .f32⟩
  | 123 => ⟨S_, .f32⟩
  | 124 => ⟨S128x256, .f32⟩
  | 125 => ⟨S128x512, .f32⟩
  | 126 => ⟨S128x512, .f32⟩
  | 127 => ⟨S128x512, .f32⟩
  | _ => ⟨S131071x256, .f32⟩

abbrev hbmTy0_1 (i : Nat) : BufTy := match i % 128 with
  | 0 => ⟨S_, .f32⟩
  | 1 => ⟨S128x512, .f32⟩
  | 2 => ⟨S128x512, .f32⟩
  | 3 => ⟨S_, .f32⟩
  | 4 => ⟨S128x512, .f32⟩
  | 5 => ⟨S128x512, .f32⟩
  | 6 => ⟨S128x2x256, .f32⟩
  | 7 => ⟨S_, .f32⟩
  | 8 => ⟨S128x256, .f32⟩
  | 9 => ⟨S_, .f32⟩
  | 10 => ⟨S128x256, .f32⟩
  | 11 => ⟨S128x256, .f32⟩
  | 12 => ⟨S128x256, .f32⟩
  | 13 => ⟨S128x256, .f32⟩
  | 14 => ⟨S128x256, .f32⟩
  | 15 => ⟨S128x256, .f32⟩
  | 16 => ⟨S64x256, .f32⟩
  | 17 => ⟨S256x768, .f32⟩
  | 18 => ⟨S64x768, .f32⟩
  | 19 => ⟨S1x768, .f32⟩
  | 20 => ⟨S64x768, .f32⟩
  | 21 => ⟨S64x768, .f32⟩
  | 22 => ⟨S64x256, .f32⟩
  | 23 => ⟨S64x512, .f32⟩
  | 24 => ⟨S64x512, .f32⟩
  | 25 => ⟨S512x512, .f32⟩
  | 26 => ⟨S64x512, .f32⟩
  | 27 => ⟨S64x512, .f32⟩
  | 28 => ⟨S512x256, .f32⟩
  | 29 => ⟨S64x256, .f32⟩
  | 30 => ⟨S64x2x256, .f32⟩
  | 31 => ⟨S_, .f32⟩
  | 32 => ⟨S64x256, .f32⟩
  | 33 => ⟨S64x512, .f32⟩
  | 34 => ⟨S64x512, .f32⟩
  | 35 => ⟨S64x512, .f32⟩
  | 36 => ⟨S_, .f32⟩
  | 37 => ⟨S64x512, .f32⟩
  | 38 => ⟨S64x512, .f32⟩
  | 39 => ⟨S_, .f32⟩
  | 40 => ⟨S64x512, .f32⟩
  | 41 => ⟨S64x512, .f32⟩
  | 42 => ⟨S64x2x256, .f32⟩
  | 43 => ⟨S_, .f32⟩
  | 44 => ⟨S64x256, .f32⟩
  | 45 => ⟨S_, .f32⟩
  | 46 => ⟨S64x256, .f32⟩
  | 47 => ⟨S64x256, .f32⟩
  | 48 => ⟨S64x256, .f32⟩
  | 49 => ⟨S64x256, .f32⟩
  | 50 => ⟨S64x256, .f32⟩
  | 51 => ⟨S64x256, .f32⟩
  | 52 => ⟨S32x256, .f32⟩
  | 53 => ⟨S256x768, .f32⟩
  | 54 => ⟨S32x768, .f32⟩
  | 55 => ⟨S1x768, .f32⟩
  | 56 => ⟨S32x768, .f32⟩
  | 57 => ⟨S32x768, .f32⟩
  | 58 => ⟨S32x256, .f32⟩
  | 59 => ⟨S32x512, .f32⟩
  | 60 => ⟨S32x512, .f32⟩
  | 61 => ⟨S512x512, .f32⟩
  | 62 => ⟨S32x512, .f32⟩
  | 63 => ⟨S32x512, .f32⟩
  | 64 => ⟨S512x256, .f32⟩
  | 65 => ⟨S32x256, .f32⟩
  | 66 => ⟨S32x2x256, .f32⟩
  | 67 => ⟨S_, .f32⟩
  | 68 => ⟨S32x256, .f32⟩
  | 69 => ⟨S32x512, .f32⟩
  | 70 => ⟨S32x512, .f32⟩
  | 71 => ⟨S32x512, .f32⟩
  | 72 => ⟨S_, .f32⟩
  | 73 => ⟨S32x512, .f32⟩
  | 74 => ⟨S32x512, .f32⟩
  | 75 => ⟨S_, .f32⟩
  | 76 => ⟨S32x512, .f32⟩
  | 77 => ⟨S32x512, .f32⟩
  | 78 => ⟨S32x2x256, .f32⟩
  | 79 => ⟨S_, .f32⟩
  | 80 => ⟨S32x256, .f32⟩
  | 81 => ⟨S_, .f32⟩
  | 82 => ⟨S32x256, .f32⟩
  | 83 => ⟨S32x256, .f32⟩
  | 84 => ⟨S32x256, .f32⟩
  | 85 => ⟨S32x256, .f32⟩
  | 86 => ⟨S32x256, .f32⟩
  | 87 => ⟨S32x256, .f32⟩
  | 88 => ⟨S16x256, .f32⟩
  | 89 => ⟨S256x768, .f32⟩
  | 90 => ⟨S16x768, .f32⟩
  | 91 => ⟨S1x768, .f32⟩
  | 92 => ⟨S16x768, .f32⟩
  | 93 => ⟨S16x768, .f32⟩
  | 94 => ⟨S16x256, .f32⟩
  | 95 => ⟨S16x512, .f32⟩
  | 96 => ⟨S16x512, .f32⟩
  | 97 => ⟨S512x512, .f32⟩
  | 98 => ⟨S16x512, .f32⟩
  | 99 => ⟨S16x512, .f32⟩
  | 100 => ⟨S512x256, .f32⟩
  | 101 => ⟨S16x256, .f32⟩
  | 102 => ⟨S16x2x256, .f32⟩
  | 103 => ⟨S_, .f32⟩
  | 104 => ⟨S16x256, .f32⟩
  | 105 => ⟨S16x512, .f32⟩
  | 106 => ⟨S16x512, .f32⟩
  | 107 => ⟨S16x512, .f32⟩
  | 108 => ⟨S_, .f32⟩
  | 109 => ⟨S16x512, .f32⟩
  | 110 => ⟨S16x512, .f32⟩
  | 111 => ⟨S_, .f32⟩
  | 112 => ⟨S16x512, .f32⟩
  | 113 => ⟨S16x512, .f32⟩
  | 114 => ⟨S16x2x256, .f32⟩
  | 115 => ⟨S_, .f32⟩
  | 116 => ⟨S16x256, .f32⟩
  | 117 => ⟨S_, .f32⟩
  | 118 => ⟨S16x256, .f32⟩
  | 119 => ⟨S16x256, .f32⟩
  | 120 => ⟨S16x256, .f32⟩
  | 121 => ⟨S16x256, .f32⟩
  | 122 => ⟨S16x256, .f32⟩
  | 123 => ⟨S16x256, .f32⟩
  | 124 => ⟨S8x256, .f32⟩
  | 125 => ⟨S256x768, .f32⟩
  | 126 => ⟨S8x768, .f32⟩
  | 127 => ⟨S1x768, .f32⟩
  | _ => ⟨S131071x256, .f32⟩

abbrev hbmTy0_2 (i : Nat) : BufTy := match i % 128 with
  | 0 => ⟨S8x768, .f32⟩
  | 1 => ⟨S8x768, .f32⟩
  | 2 => ⟨S8x256, .f32⟩
  | 3 => ⟨S8x512, .f32⟩
  | 4 => ⟨S8x512, .f32⟩
  | 5 => ⟨S512x512, .f32⟩
  | 6 => ⟨S8x512, .f32⟩
  | 7 => ⟨S8x512, .f32⟩
  | 8 => ⟨S512x256, .f32⟩
  | 9 => ⟨S8x256, .f32⟩
  | 10 => ⟨S8x2x256, .f32⟩
  | 11 => ⟨S_, .f32⟩
  | 12 => ⟨S8x256, .f32⟩
  | 13 => ⟨S8x512, .f32⟩
  | 14 => ⟨S8x512, .f32⟩
  | 15 => ⟨S8x512, .f32⟩
  | 16 => ⟨S_, .f32⟩
  | 17 => ⟨S8x512, .f32⟩
  | 18 => ⟨S8x512, .f32⟩
  | 19 => ⟨S_, .f32⟩
  | 20 => ⟨S8x512, .f32⟩
  | 21 => ⟨S8x512, .f32⟩
  | 22 => ⟨S8x2x256, .f32⟩
  | 23 => ⟨S_, .f32⟩
  | 24 => ⟨S8x256, .f32⟩
  | 25 => ⟨S_, .f32⟩
  | 26 => ⟨S8x256, .f32⟩
  | 27 => ⟨S8x256, .f32⟩
  | 28 => ⟨S8x256, .f32⟩
  | 29 => ⟨S8x256, .f32⟩
  | 30 => ⟨S8x256, .f32⟩
  | 31 => ⟨S8x256, .f32⟩
  | 32 => ⟨S4x256, .f32⟩
  | 33 => ⟨S256x768, .f32⟩
  | 34 => ⟨S4x768, .f32⟩
  | 35 => ⟨S1x768, .f32⟩
  | 36 => ⟨S4x768, .f32⟩
  | 37 => ⟨S4x768, .f32⟩
  | 38 => ⟨S4x256, .f32⟩
  | 39 => ⟨S4x512, .f32⟩
  | 40 => ⟨S4x512, .f32⟩
  | 41 => ⟨S512x512, .f32⟩
  | 42 => ⟨S4x512, .f32⟩
  | 43 => ⟨S4x512, .f32⟩
  | 44 => ⟨S512x256, .f32⟩
  | 45 => ⟨S4x256, .f32⟩
  | 46 => ⟨S4x2x256, .f32⟩
  | 47 => ⟨S_, .f32⟩
  | 48 => ⟨S4x256, .f32⟩
  | 49 => ⟨S4x512, .f32⟩
  | 50 => ⟨S4x512, .f32⟩
  | 51 => ⟨S4x512, .f32⟩
  | 52 => ⟨S_, .f32⟩
  | 53 => ⟨S4x512, .f32⟩
  | 54 => ⟨S4x512, .f32⟩
  | 55 => ⟨S_, .f32⟩
  | 56 => ⟨S4x512, .f32⟩
  | 57 => ⟨S4x512, .f32⟩
  | 58 => ⟨S4x2x256, .f32⟩
  | 59 => ⟨S_, .f32⟩
  | 60 => ⟨S4x256, .f32⟩
  | 61 => ⟨S_, .f32⟩
  | 62 => ⟨S4x256, .f32⟩
  | 63 => ⟨S4x256, .f32⟩
  | 64 => ⟨S4x256, .f32⟩
  | 65 => ⟨S4x256, .f32⟩
  | 66 => ⟨S4x256, .f32⟩
  | 67 => ⟨S4x256, .f32⟩
  | 68 => ⟨S2x256, .f32⟩
  | 69 => ⟨S256x768, .f32⟩
  | 70 => ⟨S2x768, .f32⟩
  | 71 => ⟨S1x768, .f32⟩
  | 72 => ⟨S2x768, .f32⟩
  | 73 => ⟨S2x768, .f32⟩
  | 74 => ⟨S2x256, .f32⟩
  | 75 => ⟨S2x512, .f32⟩
  | 76 => ⟨S2x512, .f32⟩
  | 77 => ⟨S512x512, .f32⟩
  | 78 => ⟨S2x512, .f32⟩
  | 79 => ⟨S2x512, .f32⟩
  | 80 => ⟨S512x256, .f32⟩
  | 81 => ⟨S2x256, .f32⟩
  | 82 => ⟨S2x2x256, .f32⟩
  | 83 => ⟨S_, .f32⟩
  | 84 => ⟨S2x256, .f32⟩
  | 85 => ⟨S2x512, .f32⟩
  | 86 => ⟨S2x512, .f32⟩
  | 87 => ⟨S2x512, .f32⟩
  | 88 => ⟨S_, .f32⟩
  | 89 => ⟨S2x512, .f32⟩
  | 90 => ⟨S2x512, .f32⟩
  | 91 => ⟨S_, .f32⟩
  | 92 => ⟨S2x512, .f32⟩
  | 93 => ⟨S2x512, .f32⟩
  | 94 => ⟨S2x2x256, .f32⟩
  | 95 => ⟨S_, .f32⟩
  | 96 => ⟨S2x256, .f32⟩
  | 97 => ⟨S_, .f32⟩
  | 98 => ⟨S2x256, .f32⟩
  | 99 => ⟨S2x256, .f32⟩
  | 100 => ⟨S2x256, .f32⟩
  | 101 => ⟨S2x256, .f32⟩
  | 102 => ⟨S2x256, .f32⟩
  | 103 => ⟨S2x256, .f32⟩
  | 104 => ⟨S1x256, .f32⟩
  | 105 => ⟨S256x768, .f32⟩
  | 106 => ⟨S1x768, .f32⟩
  | 107 => ⟨S1x768, .f32⟩
  | 108 => ⟨S1x768, .f32⟩
  | 109 => ⟨S1x256, .f32⟩
  | 110 => ⟨S1x512, .f32⟩
  | 111 => ⟨S1x512, .f32⟩
  | 112 => ⟨S512x512, .f32⟩
  | 113 => ⟨S1x512, .f32⟩
  | 114 => ⟨S1x512, .f32⟩
  | 115 => ⟨S512x256, .f32⟩
  | 116 => ⟨S1x256, .f32⟩
  | 117 => ⟨S1x2x256, .f32⟩
  | 118 => ⟨S_, .f32⟩
  | 119 => ⟨S1x256, .f32⟩
  | 120 => ⟨S1x512, .f32⟩
  | 121 => ⟨S1x512, .f32⟩
  | 122 => ⟨S1x512, .f32⟩
  | 123 => ⟨S_, .f32⟩
  | 124 => ⟨S1x512, .f32⟩
  | 125 => ⟨S1x512, .f32⟩
  | 126 => ⟨S_, .f32⟩
  | 127 => ⟨S1x512, .f32⟩
  | _ => ⟨S131071x256, .f32⟩

abbrev hbmTy0_3 (i : Nat) : BufTy := match i % 128 with
  | 0 => ⟨S1x512, .f32⟩
  | 1 => ⟨S1x2x256, .f32⟩
  | 2 => ⟨S_, .f32⟩
  | 3 => ⟨S1x256, .f32⟩
  | 4 => ⟨S_, .f32⟩
  | 5 => ⟨S1x256, .f32⟩
  | 6 => ⟨S1x256, .f32⟩
  | 7 => ⟨S1x256, .f32⟩
  | 8 => ⟨S1x256, .f32⟩
  | 9 => ⟨S1x256, .f32⟩
  | 10 => ⟨S1x256, .f32⟩
  | 11 => ⟨S_, .f32⟩
  | 12 => ⟨S131071x256, .f32⟩
  | 13 => ⟨S_, .i32⟩
  | 14 => ⟨S1, .i32⟩
  | 15 => ⟨S131071x256, .f32⟩
  | 16 => ⟨S_, .i32⟩
  | 17 => ⟨S1, .i32⟩
  | 18 => ⟨S131071x256, .f32⟩
  | 19 => ⟨S_, .i32⟩
  | 20 => ⟨S1, .i32⟩
  | 21 => ⟨S131071x256, .f32⟩
  | 22 => ⟨S_, .i32⟩
  | 23 => ⟨S1, .i32⟩
  | 24 => ⟨S131071x256, .f32⟩
  | 25 => ⟨S_, .i32⟩
  | 26 => ⟨S1, .i32⟩
  | 27 => ⟨S131071x256, .f32⟩
  | 28 => ⟨S_, .i32⟩
  | 29 => ⟨S1, .i32⟩
  | 30 => ⟨S131071x256, .f32⟩
  | 31 => ⟨S_, .i32⟩
  | 32 => ⟨S1, .i32⟩
  | 33 => ⟨S131071x256, .f32⟩
  | 34 => ⟨S_, .i32⟩
  | 35 => ⟨S1, .i32⟩
  | 36 => ⟨S131071x256, .f32⟩
  | 37 => ⟨S_, .i32⟩
  | 38 => ⟨S1, .i32⟩
  | 39 => ⟨S131071x256, .f32⟩
  | 40 => ⟨S_, .i32⟩
  | 41 => ⟨S1, .i32⟩
  | 42 => ⟨S131071x256, .f32⟩
  | 43 => ⟨S_, .i32⟩
  | 44 => ⟨S1, .i32⟩
  | 45 => ⟨S131071x256, .f32⟩
  | 46 => ⟨S_, .i32⟩
  | 47 => ⟨S1, .i32⟩
  | 48 => ⟨S131071x256, .f32⟩
  | 49 => ⟨S_, .i32⟩
  | 50 => ⟨S1, .i32⟩
  | 51 => ⟨S131071x256, .f32⟩
  | 52 => ⟨S_, .i32⟩
  | 53 => ⟨S1, .i32⟩
  | 54 => ⟨S131071x256, .f32⟩
  | 55 => ⟨S_, .i32⟩
  | 56 => ⟨S1, .i32⟩
  | 57 => ⟨S131071x256, .f32⟩
  | 58 => ⟨S_, .i32⟩
  | 59 => ⟨S1, .i32⟩
  | 60 => ⟨S131071x256, .f32⟩
  | 61 => ⟨S_, .i32⟩
  | 62 => ⟨S1, .i32⟩
  | 63 => ⟨S131071x256, .f32⟩
  | _ => ⟨S131071x256, .f32⟩

abbrev hbmTy (i : Nat) : BufTy := match i / 128 with
  | 0 => hbmTy0_0 i
  | 1 => hbmTy0_1 i
  | 2 => hbmTy0_2 i
  | 3 => hbmTy0_3 i
  | _ => ⟨S131071x256, .f32⟩

abbrev bufTy : (tb : Table) → Fin (tcTables nBuf tb) → BufTy
  | .hbm, ⟨i, _⟩ => hbmTy i
  | .local _ .vmem, ⟨0, _⟩ => ⟨S4096x256, .f32⟩
  | .local _ .vmem, ⟨1, _⟩ => ⟨S4096x256, .f32⟩
  | .local _ .vmem, ⟨2, _⟩ => ⟨S256x768, .bf16⟩
  | .local _ .vmem, ⟨3, _⟩ => ⟨S1x768, .f32⟩
  | .local _ .vmem, ⟨4, _⟩ => ⟨S4096x256, .f32⟩
  | .local _ .vmem, ⟨5, _⟩ => ⟨S4096x256, .f32⟩
  | .local _ .vmem, ⟨6, _⟩ => ⟨S2048x256, .f32⟩
  | .local _ .vmem, ⟨7, _⟩ => ⟨S2048x256, .f32⟩
  | .local _ .vmem, ⟨8, _⟩ => ⟨S2048x512, .f32⟩
  | .local _ .vmem, ⟨9, _⟩ => ⟨S2048x512, .f32⟩
  | .local _ .vmem, ⟨10, _⟩ => ⟨S256x768, .bf16⟩
  | .local _ .vmem, ⟨11, _⟩ => ⟨S1x768, .f32⟩
  | .local _ .vmem, ⟨12, _⟩ => ⟨S256x512, .f32⟩
  | .local _ .vmem, ⟨13, _⟩ => ⟨S256x512, .f32⟩
  | .local _ .vmem, ⟨14, _⟩ => ⟨S256x256, .f32⟩
  | .local _ .vmem, ⟨15, _⟩ => ⟨S256x256, .f32⟩
  | .local _ .vmem, ⟨16, _⟩ => ⟨S2048x256, .f32⟩
  | .local _ .vmem, ⟨17, _⟩ => ⟨S2048x256, .f32⟩
  | .local _ .vmem, ⟨18, _⟩ => ⟨S2048x256, .f32⟩
  | .local _ .vmem, ⟨19, _⟩ => ⟨S2048x256, .f32⟩
  | .local _ .vmem, ⟨20, _⟩ => ⟨S2048x512, .f32⟩
  | .local _ .vmem, ⟨21, _⟩ => ⟨S2048x512, .f32⟩
  | .local _ .vmem, ⟨22, _⟩ => ⟨S256x768, .bf16⟩
  | .local _ .vmem, ⟨23, _⟩ => ⟨S1x768, .f32⟩
  | .local _ .vmem, ⟨24, _⟩ => ⟨S256x512, .f32⟩
  | .local _ .vmem, ⟨25, _⟩ => ⟨S256x512, .f32⟩
  | .local _ .vmem, ⟨26, _⟩ => ⟨S256x256, .f32⟩
  | .local _ .vmem, ⟨27, _⟩ => ⟨S256x256, .f32⟩
  | .local _ .vmem, ⟨28, _⟩ => ⟨S2048x256, .f32⟩
  | .local _ .vmem, ⟨29, _⟩ => ⟨S2048x256, .f32⟩
  | .local _ .vmem, ⟨30, _⟩ => ⟨S2048x256, .f32⟩
  | .local _ .vmem, ⟨31, _⟩ => ⟨S2048x256, .f32⟩
  | .local _ .vmem, ⟨32, _⟩ => ⟨S2048x512, .f32⟩
  | .local _ .vmem, ⟨33, _⟩ => ⟨S2048x512, .f32⟩
  | .local _ .vmem, ⟨34, _⟩ => ⟨S256x768, .bf16⟩
  | .local _ .vmem, ⟨35, _⟩ => ⟨S1x768, .f32⟩
  | .local _ .vmem, ⟨36, _⟩ => ⟨S256x512, .f32⟩
  | .local _ .vmem, ⟨37, _⟩ => ⟨S256x512, .f32⟩
  | .local _ .vmem, ⟨38, _⟩ => ⟨S256x256, .f32⟩
  | .local _ .vmem, ⟨39, _⟩ => ⟨S256x256, .f32⟩
  | .local _ .vmem, ⟨40, _⟩ => ⟨S2048x256, .f32⟩
  | .local _ .vmem, ⟨41, _⟩ => ⟨S2048x256, .f32⟩
  | .local _ .vmem, ⟨42, _⟩ => ⟨S2048x256, .f32⟩
  | .local _ .vmem, ⟨43, _⟩ => ⟨S2048x256, .f32⟩
  | .local _ .vmem, ⟨44, _⟩ => ⟨S2048x512, .f32⟩
  | .local _ .vmem, ⟨45, _⟩ => ⟨S2048x512, .f32⟩
  | .local _ .vmem, ⟨46, _⟩ => ⟨S256x768, .bf16⟩
  | .local _ .vmem, ⟨47, _⟩ => ⟨S1x768, .f32⟩
  | .local _ .vmem, ⟨48, _⟩ => ⟨S256x512, .f32⟩
  | .local _ .vmem, ⟨49, _⟩ => ⟨S256x512, .f32⟩
  | .local _ .vmem, ⟨50, _⟩ => ⟨S256x256, .f32⟩
  | .local _ .vmem, ⟨51, _⟩ => ⟨S256x256, .f32⟩
  | .local _ .vmem, ⟨52, _⟩ => ⟨S2048x256, .f32⟩
  | .local _ .vmem, ⟨53, _⟩ => ⟨S2048x256, .f32⟩
  | .local _ .vmem, ⟨54, _⟩ => ⟨S2048x256, .f32⟩
  | .local _ .vmem, ⟨55, _⟩ => ⟨S2048x512, .f32⟩
  | .local _ .vmem, ⟨56, _⟩ => ⟨S256x768, .bf16⟩
  | .local _ .vmem, ⟨57, _⟩ => ⟨S1x768, .f32⟩
  | .local _ .vmem, ⟨58, _⟩ => ⟨S256x512, .f32⟩
  | .local _ .vmem, ⟨59, _⟩ => ⟨S256x512, .f32⟩
  | .local _ .vmem, ⟨60, _⟩ => ⟨S256x256, .f32⟩
  | .local _ .vmem, ⟨61, _⟩ => ⟨S256x256, .f32⟩
  | .local _ .vmem, ⟨62, _⟩ => ⟨S2048x256, .f32⟩
  | .local _ .vmem, ⟨63, _⟩ => ⟨S1024x256, .f32⟩
  | .local _ .vmem, ⟨64, _⟩ => ⟨S1024x512, .f32⟩
  | .local _ .vmem, ⟨65, _⟩ => ⟨S256x768, .bf16⟩
  | .local _ .vmem, ⟨66, _⟩ => ⟨S1x768, .f32⟩
  | .local _ .vmem, ⟨67, _⟩ => ⟨S256x512, .f32⟩
  | .local _ .vmem, ⟨68, _⟩ => ⟨S256x512, .f32⟩
  | .local _ .vmem, ⟨69, _⟩ => ⟨S256x256, .f32⟩
  | .local _ .vmem, ⟨70, _⟩ => ⟨S256x256, .f32⟩
  | .local _ .vmem, ⟨71, _⟩ => ⟨S1024x256, .f32⟩
  | _, _ => ⟨S131071x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_cst : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_cst_0 : Ref sig .tc := ⟨.hbm, 56, rfl⟩
abbrev main_v50 : Ref sig .tc := ⟨.hbm, 57, rfl⟩
abbrev main_v51 : Ref sig .tc := ⟨.hbm, 58, rfl⟩
abbrev main_cst_1 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_cst_2 : Ref sig .tc := ⟨.hbm, 63, rfl⟩
abbrev main_v55 : Ref sig .tc := ⟨.hbm, 64, rfl⟩
abbrev main_cst_3 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_cst_4 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_cst_5 : Ref sig .tc := ⟨.hbm, 92, rfl⟩
abbrev main_v81 : Ref sig .tc := ⟨.hbm, 93, rfl⟩
abbrev main_v82 : Ref sig .tc := ⟨.hbm, 94, rfl⟩
abbrev main_cst_6 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_cst_7 : Ref sig .tc := ⟨.hbm, 99, rfl⟩
abbrev main_v86 : Ref sig .tc := ⟨.hbm, 100, rfl⟩
abbrev main_cst_8 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_cst_9 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_cst_10 : Ref sig .tc := ⟨.hbm, 128, rfl⟩
abbrev main_v112 : Ref sig .tc := ⟨.hbm, 129, rfl⟩
abbrev main_v113 : Ref sig .tc := ⟨.hbm, 130, rfl⟩
abbrev main_cst_11 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_cst_12 : Ref sig .tc := ⟨.hbm, 135, rfl⟩
abbrev main_v117 : Ref sig .tc := ⟨.hbm, 136, rfl⟩
abbrev main_cst_13 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_cst_14 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_cst_15 : Ref sig .tc := ⟨.hbm, 164, rfl⟩
abbrev main_v143 : Ref sig .tc := ⟨.hbm, 165, rfl⟩
abbrev main_v144 : Ref sig .tc := ⟨.hbm, 166, rfl⟩
abbrev main_cst_16 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_cst_17 : Ref sig .tc := ⟨.hbm, 171, rfl⟩
abbrev main_v148 : Ref sig .tc := ⟨.hbm, 172, rfl⟩
abbrev main_cst_18 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_v161 : Ref sig .tc := ⟨.hbm, 186, rfl⟩
abbrev main_v162 : Ref sig .tc := ⟨.hbm, 187, rfl⟩
abbrev main_v163 : Ref sig .tc := ⟨.hbm, 188, rfl⟩
abbrev main_v164 : Ref sig .tc := ⟨.hbm, 189, rfl⟩
abbrev main_v165 : Ref sig .tc := ⟨.hbm, 190, rfl⟩
abbrev main_v166 : Ref sig .tc := ⟨.hbm, 191, rfl⟩
abbrev main_v167 : Ref sig .tc := ⟨.hbm, 192, rfl⟩
abbrev main_v168 : Ref sig .tc := ⟨.hbm, 193, rfl⟩
abbrev main_v169 : Ref sig .tc := ⟨.hbm, 194, rfl⟩
abbrev main_cst_19 : Ref sig .tc := ⟨.hbm, 195, rfl⟩
abbrev main_v170 : Ref sig .tc := ⟨.hbm, 196, rfl⟩
abbrev main_v171 : Ref sig .tc := ⟨.hbm, 197, rfl⟩
abbrev main_v172 : Ref sig .tc := ⟨.hbm, 198, rfl⟩
abbrev main_v173 : Ref sig .tc := ⟨.hbm, 199, rfl⟩
abbrev main_cst_20 : Ref sig .tc := ⟨.hbm, 200, rfl⟩
abbrev main_v174 : Ref sig .tc := ⟨.hbm, 201, rfl⟩
abbrev main_v175 : Ref sig .tc := ⟨.hbm, 202, rfl⟩
abbrev main_cst_21 : Ref sig .tc := ⟨.hbm, 203, rfl⟩
abbrev main_v176 : Ref sig .tc := ⟨.hbm, 204, rfl⟩
abbrev main_v177 : Ref sig .tc := ⟨.hbm, 205, rfl⟩
abbrev main_v178 : Ref sig .tc := ⟨.hbm, 206, rfl⟩
abbrev main_cst_22 : Ref sig .tc := ⟨.hbm, 207, rfl⟩
abbrev main_v179 : Ref sig .tc := ⟨.hbm, 208, rfl⟩
abbrev main_cst_23 : Ref sig .tc := ⟨.hbm, 209, rfl⟩
abbrev main_v180 : Ref sig .tc := ⟨.hbm, 210, rfl⟩
abbrev main_v181 : Ref sig .tc := ⟨.hbm, 211, rfl⟩
abbrev main_v182 : Ref sig .tc := ⟨.hbm, 212, rfl⟩
abbrev main_v183 : Ref sig .tc := ⟨.hbm, 213, rfl⟩
abbrev main_v184 : Ref sig .tc := ⟨.hbm, 214, rfl⟩
abbrev main_v185 : Ref sig .tc := ⟨.hbm, 215, rfl⟩
abbrev main_v186 : Ref sig .tc := ⟨.hbm, 216, rfl⟩
abbrev main_v187 : Ref sig .tc := ⟨.hbm, 217, rfl⟩
abbrev main_v188 : Ref sig .tc := ⟨.hbm, 218, rfl⟩
abbrev main_v189 : Ref sig .tc := ⟨.hbm, 219, rfl⟩
abbrev main_v190 : Ref sig .tc := ⟨.hbm, 220, rfl⟩
abbrev main_v191 : Ref sig .tc := ⟨.hbm, 221, rfl⟩
abbrev main_v192 : Ref sig .tc := ⟨.hbm, 222, rfl⟩
abbrev main_v193 : Ref sig .tc := ⟨.hbm, 223, rfl⟩
abbrev main_v194 : Ref sig .tc := ⟨.hbm, 224, rfl⟩
abbrev main_v195 : Ref sig .tc := ⟨.hbm, 225, rfl⟩
abbrev main_v196 : Ref sig .tc := ⟨.hbm, 226, rfl⟩
abbrev main_v197 : Ref sig .tc := ⟨.hbm, 227, rfl⟩
abbrev main_v198 : Ref sig .tc := ⟨.hbm, 228, rfl⟩
abbrev main_v199 : Ref sig .tc := ⟨.hbm, 229, rfl⟩
abbrev main_v200 : Ref sig .tc := ⟨.hbm, 230, rfl⟩
abbrev main_cst_24 : Ref sig .tc := ⟨.hbm, 231, rfl⟩
abbrev main_v201 : Ref sig .tc := ⟨.hbm, 232, rfl⟩
abbrev main_v202 : Ref sig .tc := ⟨.hbm, 233, rfl⟩
abbrev main_v203 : Ref sig .tc := ⟨.hbm, 234, rfl⟩
abbrev main_v204 : Ref sig .tc := ⟨.hbm, 235, rfl⟩
abbrev main_cst_25 : Ref sig .tc := ⟨.hbm, 236, rfl⟩
abbrev main_v205 : Ref sig .tc := ⟨.hbm, 237, rfl⟩
abbrev main_v206 : Ref sig .tc := ⟨.hbm, 238, rfl⟩
abbrev main_cst_26 : Ref sig .tc := ⟨.hbm, 239, rfl⟩
abbrev main_v207 : Ref sig .tc := ⟨.hbm, 240, rfl⟩
abbrev main_v208 : Ref sig .tc := ⟨.hbm, 241, rfl⟩
abbrev main_v209 : Ref sig .tc := ⟨.hbm, 242, rfl⟩
abbrev main_cst_27 : Ref sig .tc := ⟨.hbm, 243, rfl⟩
abbrev main_v210 : Ref sig .tc := ⟨.hbm, 244, rfl⟩
abbrev main_cst_28 : Ref sig .tc := ⟨.hbm, 245, rfl⟩
abbrev main_v211 : Ref sig .tc := ⟨.hbm, 246, rfl⟩
abbrev main_v212 : Ref sig .tc := ⟨.hbm, 247, rfl⟩
abbrev main_v213 : Ref sig .tc := ⟨.hbm, 248, rfl⟩
abbrev main_v214 : Ref sig .tc := ⟨.hbm, 249, rfl⟩
abbrev main_v215 : Ref sig .tc := ⟨.hbm, 250, rfl⟩
abbrev main_v216 : Ref sig .tc := ⟨.hbm, 251, rfl⟩
abbrev main_v217 : Ref sig .tc := ⟨.hbm, 252, rfl⟩
abbrev main_v218 : Ref sig .tc := ⟨.hbm, 253, rfl⟩
abbrev main_v219 : Ref sig .tc := ⟨.hbm, 254, rfl⟩
abbrev main_v220 : Ref sig .tc := ⟨.hbm, 255, rfl⟩
abbrev main_v221 : Ref sig .tc := ⟨.hbm, 256, rfl⟩
abbrev main_v222 : Ref sig .tc := ⟨.hbm, 257, rfl⟩
abbrev main_v223 : Ref sig .tc := ⟨.hbm, 258, rfl⟩
abbrev main_v224 : Ref sig .tc := ⟨.hbm, 259, rfl⟩
abbrev main_v225 : Ref sig .tc := ⟨.hbm, 260, rfl⟩
abbrev main_v226 : Ref sig .tc := ⟨.hbm, 261, rfl⟩
abbrev main_v227 : Ref sig .tc := ⟨.hbm, 262, rfl⟩
abbrev main_v228 : Ref sig .tc := ⟨.hbm, 263, rfl⟩
abbrev main_v229 : Ref sig .tc := ⟨.hbm, 264, rfl⟩
abbrev main_v230 : Ref sig .tc := ⟨.hbm, 265, rfl⟩
abbrev main_v231 : Ref sig .tc := ⟨.hbm, 266, rfl⟩
abbrev main_cst_29 : Ref sig .tc := ⟨.hbm, 267, rfl⟩
abbrev main_v232 : Ref sig .tc := ⟨.hbm, 268, rfl⟩
abbrev main_v233 : Ref sig .tc := ⟨.hbm, 269, rfl⟩
abbrev main_v234 : Ref sig .tc := ⟨.hbm, 270, rfl⟩
abbrev main_v235 : Ref sig .tc := ⟨.hbm, 271, rfl⟩
abbrev main_cst_30 : Ref sig .tc := ⟨.hbm, 272, rfl⟩
abbrev main_v236 : Ref sig .tc := ⟨.hbm, 273, rfl⟩
abbrev main_v237 : Ref sig .tc := ⟨.hbm, 274, rfl⟩
abbrev main_cst_31 : Ref sig .tc := ⟨.hbm, 275, rfl⟩
abbrev main_v238 : Ref sig .tc := ⟨.hbm, 276, rfl⟩
abbrev main_v239 : Ref sig .tc := ⟨.hbm, 277, rfl⟩
abbrev main_v240 : Ref sig .tc := ⟨.hbm, 278, rfl⟩
abbrev main_cst_32 : Ref sig .tc := ⟨.hbm, 279, rfl⟩
abbrev main_v241 : Ref sig .tc := ⟨.hbm, 280, rfl⟩
abbrev main_cst_33 : Ref sig .tc := ⟨.hbm, 281, rfl⟩
abbrev main_v242 : Ref sig .tc := ⟨.hbm, 282, rfl⟩
abbrev main_v243 : Ref sig .tc := ⟨.hbm, 283, rfl⟩
abbrev main_v244 : Ref sig .tc := ⟨.hbm, 284, rfl⟩
abbrev main_v245 : Ref sig .tc := ⟨.hbm, 285, rfl⟩
abbrev main_v246 : Ref sig .tc := ⟨.hbm, 286, rfl⟩
abbrev main_v247 : Ref sig .tc := ⟨.hbm, 287, rfl⟩
abbrev main_v248 : Ref sig .tc := ⟨.hbm, 288, rfl⟩
abbrev main_v249 : Ref sig .tc := ⟨.hbm, 289, rfl⟩
abbrev main_v250 : Ref sig .tc := ⟨.hbm, 290, rfl⟩
abbrev main_v251 : Ref sig .tc := ⟨.hbm, 291, rfl⟩
abbrev main_v252 : Ref sig .tc := ⟨.hbm, 292, rfl⟩
abbrev main_v253 : Ref sig .tc := ⟨.hbm, 293, rfl⟩
abbrev main_v254 : Ref sig .tc := ⟨.hbm, 294, rfl⟩
abbrev main_v255 : Ref sig .tc := ⟨.hbm, 295, rfl⟩
abbrev main_v256 : Ref sig .tc := ⟨.hbm, 296, rfl⟩
abbrev main_v257 : Ref sig .tc := ⟨.hbm, 297, rfl⟩
abbrev main_v258 : Ref sig .tc := ⟨.hbm, 298, rfl⟩
abbrev main_v259 : Ref sig .tc := ⟨.hbm, 299, rfl⟩
abbrev main_v260 : Ref sig .tc := ⟨.hbm, 300, rfl⟩
abbrev main_v261 : Ref sig .tc := ⟨.hbm, 301, rfl⟩
abbrev main_v262 : Ref sig .tc := ⟨.hbm, 302, rfl⟩
abbrev main_cst_34 : Ref sig .tc := ⟨.hbm, 303, rfl⟩
abbrev main_v263 : Ref sig .tc := ⟨.hbm, 304, rfl⟩
abbrev main_v264 : Ref sig .tc := ⟨.hbm, 305, rfl⟩
abbrev main_v265 : Ref sig .tc := ⟨.hbm, 306, rfl⟩
abbrev main_v266 : Ref sig .tc := ⟨.hbm, 307, rfl⟩
abbrev main_cst_35 : Ref sig .tc := ⟨.hbm, 308, rfl⟩
abbrev main_v267 : Ref sig .tc := ⟨.hbm, 309, rfl⟩
abbrev main_v268 : Ref sig .tc := ⟨.hbm, 310, rfl⟩
abbrev main_cst_36 : Ref sig .tc := ⟨.hbm, 311, rfl⟩
abbrev main_v269 : Ref sig .tc := ⟨.hbm, 312, rfl⟩
abbrev main_v270 : Ref sig .tc := ⟨.hbm, 313, rfl⟩
abbrev main_v271 : Ref sig .tc := ⟨.hbm, 314, rfl⟩
abbrev main_cst_37 : Ref sig .tc := ⟨.hbm, 315, rfl⟩
abbrev main_v272 : Ref sig .tc := ⟨.hbm, 316, rfl⟩
abbrev main_cst_38 : Ref sig .tc := ⟨.hbm, 317, rfl⟩
abbrev main_v273 : Ref sig .tc := ⟨.hbm, 318, rfl⟩
abbrev main_v274 : Ref sig .tc := ⟨.hbm, 319, rfl⟩
abbrev main_v275 : Ref sig .tc := ⟨.hbm, 320, rfl⟩
abbrev main_v276 : Ref sig .tc := ⟨.hbm, 321, rfl⟩
abbrev main_v277 : Ref sig .tc := ⟨.hbm, 322, rfl⟩
abbrev main_v278 : Ref sig .tc := ⟨.hbm, 323, rfl⟩
abbrev main_v279 : Ref sig .tc := ⟨.hbm, 324, rfl⟩
abbrev main_v280 : Ref sig .tc := ⟨.hbm, 325, rfl⟩
abbrev main_v281 : Ref sig .tc := ⟨.hbm, 326, rfl⟩
abbrev main_v282 : Ref sig .tc := ⟨.hbm, 327, rfl⟩
abbrev main_v283 : Ref sig .tc := ⟨.hbm, 328, rfl⟩
abbrev main_v284 : Ref sig .tc := ⟨.hbm, 329, rfl⟩
abbrev main_v285 : Ref sig .tc := ⟨.hbm, 330, rfl⟩
abbrev main_v286 : Ref sig .tc := ⟨.hbm, 331, rfl⟩
abbrev main_v287 : Ref sig .tc := ⟨.hbm, 332, rfl⟩
abbrev main_v288 : Ref sig .tc := ⟨.hbm, 333, rfl⟩
abbrev main_v289 : Ref sig .tc := ⟨.hbm, 334, rfl⟩
abbrev main_v290 : Ref sig .tc := ⟨.hbm, 335, rfl⟩
abbrev main_v291 : Ref sig .tc := ⟨.hbm, 336, rfl⟩
abbrev main_v292 : Ref sig .tc := ⟨.hbm, 337, rfl⟩
abbrev main_v293 : Ref sig .tc := ⟨.hbm, 338, rfl⟩
abbrev main_cst_39 : Ref sig .tc := ⟨.hbm, 339, rfl⟩
abbrev main_v294 : Ref sig .tc := ⟨.hbm, 340, rfl⟩
abbrev main_v295 : Ref sig .tc := ⟨.hbm, 341, rfl⟩
abbrev main_v296 : Ref sig .tc := ⟨.hbm, 342, rfl⟩
abbrev main_v297 : Ref sig .tc := ⟨.hbm, 343, rfl⟩
abbrev main_cst_40 : Ref sig .tc := ⟨.hbm, 344, rfl⟩
abbrev main_v298 : Ref sig .tc := ⟨.hbm, 345, rfl⟩
abbrev main_v299 : Ref sig .tc := ⟨.hbm, 346, rfl⟩
abbrev main_cst_41 : Ref sig .tc := ⟨.hbm, 347, rfl⟩
abbrev main_v300 : Ref sig .tc := ⟨.hbm, 348, rfl⟩
abbrev main_v301 : Ref sig .tc := ⟨.hbm, 349, rfl⟩
abbrev main_v302 : Ref sig .tc := ⟨.hbm, 350, rfl⟩
abbrev main_cst_42 : Ref sig .tc := ⟨.hbm, 351, rfl⟩
abbrev main_v303 : Ref sig .tc := ⟨.hbm, 352, rfl⟩
abbrev main_cst_43 : Ref sig .tc := ⟨.hbm, 353, rfl⟩
abbrev main_v304 : Ref sig .tc := ⟨.hbm, 354, rfl⟩
abbrev main_v305 : Ref sig .tc := ⟨.hbm, 355, rfl⟩
abbrev main_v306 : Ref sig .tc := ⟨.hbm, 356, rfl⟩
abbrev main_v307 : Ref sig .tc := ⟨.hbm, 357, rfl⟩
abbrev main_v308 : Ref sig .tc := ⟨.hbm, 358, rfl⟩
abbrev main_v309 : Ref sig .tc := ⟨.hbm, 359, rfl⟩
abbrev main_v310 : Ref sig .tc := ⟨.hbm, 360, rfl⟩
abbrev main_v311 : Ref sig .tc := ⟨.hbm, 361, rfl⟩
abbrev main_v312 : Ref sig .tc := ⟨.hbm, 362, rfl⟩
abbrev main_v313 : Ref sig .tc := ⟨.hbm, 363, rfl⟩
abbrev main_v314 : Ref sig .tc := ⟨.hbm, 364, rfl⟩
abbrev main_v315 : Ref sig .tc := ⟨.hbm, 365, rfl⟩
abbrev main_v316 : Ref sig .tc := ⟨.hbm, 366, rfl⟩
abbrev main_v317 : Ref sig .tc := ⟨.hbm, 367, rfl⟩
abbrev main_v318 : Ref sig .tc := ⟨.hbm, 368, rfl⟩
abbrev main_v319 : Ref sig .tc := ⟨.hbm, 369, rfl⟩
abbrev main_v320 : Ref sig .tc := ⟨.hbm, 370, rfl⟩
abbrev main_v321 : Ref sig .tc := ⟨.hbm, 371, rfl⟩
abbrev main_v322 : Ref sig .tc := ⟨.hbm, 372, rfl⟩
abbrev main_v323 : Ref sig .tc := ⟨.hbm, 373, rfl⟩
abbrev main_cst_44 : Ref sig .tc := ⟨.hbm, 374, rfl⟩
abbrev main_v324 : Ref sig .tc := ⟨.hbm, 375, rfl⟩
abbrev main_v325 : Ref sig .tc := ⟨.hbm, 376, rfl⟩
abbrev main_v326 : Ref sig .tc := ⟨.hbm, 377, rfl⟩
abbrev main_v327 : Ref sig .tc := ⟨.hbm, 378, rfl⟩
abbrev main_cst_45 : Ref sig .tc := ⟨.hbm, 379, rfl⟩
abbrev main_v328 : Ref sig .tc := ⟨.hbm, 380, rfl⟩
abbrev main_v329 : Ref sig .tc := ⟨.hbm, 381, rfl⟩
abbrev main_cst_46 : Ref sig .tc := ⟨.hbm, 382, rfl⟩
abbrev main_v330 : Ref sig .tc := ⟨.hbm, 383, rfl⟩
abbrev main_v331 : Ref sig .tc := ⟨.hbm, 384, rfl⟩
abbrev main_v332 : Ref sig .tc := ⟨.hbm, 385, rfl⟩
abbrev main_cst_47 : Ref sig .tc := ⟨.hbm, 386, rfl⟩
abbrev main_v333 : Ref sig .tc := ⟨.hbm, 387, rfl⟩
abbrev main_cst_48 : Ref sig .tc := ⟨.hbm, 388, rfl⟩
abbrev main_v334 : Ref sig .tc := ⟨.hbm, 389, rfl⟩
abbrev main_v335 : Ref sig .tc := ⟨.hbm, 390, rfl⟩
abbrev main_v336 : Ref sig .tc := ⟨.hbm, 391, rfl⟩
abbrev main_v337 : Ref sig .tc := ⟨.hbm, 392, rfl⟩
abbrev main_v338 : Ref sig .tc := ⟨.hbm, 393, rfl⟩
abbrev main_v339 : Ref sig .tc := ⟨.hbm, 394, rfl⟩
abbrev main_cst_49 : Ref sig .tc := ⟨.hbm, 395, rfl⟩
abbrev main_v340 : Ref sig .tc := ⟨.hbm, 396, rfl⟩
abbrev main_c : Ref sig .tc := ⟨.hbm, 397, rfl⟩
abbrev main_v341 : Ref sig .tc := ⟨.hbm, 398, rfl⟩
abbrev main_v342 : Ref sig .tc := ⟨.hbm, 399, rfl⟩
abbrev main_c_50 : Ref sig .tc := ⟨.hbm, 400, rfl⟩
abbrev main_v343 : Ref sig .tc := ⟨.hbm, 401, rfl⟩
abbrev main_v344 : Ref sig .tc := ⟨.hbm, 402, rfl⟩
abbrev main_c_51 : Ref sig .tc := ⟨.hbm, 403, rfl⟩
abbrev main_v345 : Ref sig .tc := ⟨.hbm, 404, rfl⟩
abbrev main_v346 : Ref sig .tc := ⟨.hbm, 405, rfl⟩
abbrev main_c_52 : Ref sig .tc := ⟨.hbm, 406, rfl⟩
abbrev main_v347 : Ref sig .tc := ⟨.hbm, 407, rfl⟩
abbrev main_v348 : Ref sig .tc := ⟨.hbm, 408, rfl⟩
abbrev main_c_53 : Ref sig .tc := ⟨.hbm, 409, rfl⟩
abbrev main_v349 : Ref sig .tc := ⟨.hbm, 410, rfl⟩
abbrev main_v350 : Ref sig .tc := ⟨.hbm, 411, rfl⟩
abbrev main_c_54 : Ref sig .tc := ⟨.hbm, 412, rfl⟩
abbrev main_v351 : Ref sig .tc := ⟨.hbm, 413, rfl⟩
abbrev main_v352 : Ref sig .tc := ⟨.hbm, 414, rfl⟩
abbrev main_c_55 : Ref sig .tc := ⟨.hbm, 415, rfl⟩
abbrev main_v353 : Ref sig .tc := ⟨.hbm, 416, rfl⟩
abbrev main_v354 : Ref sig .tc := ⟨.hbm, 417, rfl⟩
abbrev main_c_56 : Ref sig .tc := ⟨.hbm, 418, rfl⟩
abbrev main_v355 : Ref sig .tc := ⟨.hbm, 419, rfl⟩
abbrev main_v356 : Ref sig .tc := ⟨.hbm, 420, rfl⟩
abbrev main_c_57 : Ref sig .tc := ⟨.hbm, 421, rfl⟩
abbrev main_v357 : Ref sig .tc := ⟨.hbm, 422, rfl⟩
abbrev main_v358 : Ref sig .tc := ⟨.hbm, 423, rfl⟩
abbrev main_c_58 : Ref sig .tc := ⟨.hbm, 424, rfl⟩
abbrev main_v359 : Ref sig .tc := ⟨.hbm, 425, rfl⟩
abbrev main_v360 : Ref sig .tc := ⟨.hbm, 426, rfl⟩
abbrev main_c_59 : Ref sig .tc := ⟨.hbm, 427, rfl⟩
abbrev main_v361 : Ref sig .tc := ⟨.hbm, 428, rfl⟩
abbrev main_v362 : Ref sig .tc := ⟨.hbm, 429, rfl⟩
abbrev main_c_60 : Ref sig .tc := ⟨.hbm, 430, rfl⟩
abbrev main_v363 : Ref sig .tc := ⟨.hbm, 431, rfl⟩
abbrev main_v364 : Ref sig .tc := ⟨.hbm, 432, rfl⟩
abbrev main_c_61 : Ref sig .tc := ⟨.hbm, 433, rfl⟩
abbrev main_v365 : Ref sig .tc := ⟨.hbm, 434, rfl⟩
abbrev main_v366 : Ref sig .tc := ⟨.hbm, 435, rfl⟩
abbrev main_c_62 : Ref sig .tc := ⟨.hbm, 436, rfl⟩
abbrev main_v367 : Ref sig .tc := ⟨.hbm, 437, rfl⟩
abbrev main_v368 : Ref sig .tc := ⟨.hbm, 438, rfl⟩
abbrev main_c_63 : Ref sig .tc := ⟨.hbm, 439, rfl⟩
abbrev main_v369 : Ref sig .tc := ⟨.hbm, 440, rfl⟩
abbrev main_v370 : Ref sig .tc := ⟨.hbm, 441, rfl⟩
abbrev main_c_64 : Ref sig .tc := ⟨.hbm, 442, rfl⟩
abbrev main_v371 : Ref sig .tc := ⟨.hbm, 443, rfl⟩
abbrev main_v372 : Ref sig .tc := ⟨.hbm, 444, rfl⟩
abbrev main_c_65 : Ref sig .tc := ⟨.hbm, 445, rfl⟩
abbrev main_v373 : Ref sig .tc := ⟨.hbm, 446, rfl⟩
abbrev main_v374 : Ref sig .tc := ⟨.hbm, 447, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg8_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg8_0 : Ref sig .tc := ⟨.vmem, 28, rfl⟩
abbrev cc2_stg8_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg7_0 : Ref sig .tc := ⟨.vmem, 39, rfl⟩
abbrev cc3_stg8_0 : Ref sig .tc := ⟨.vmem, 40, rfl⟩
abbrev cc3_stg8_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg1_1 : Ref sig .tc := ⟨.vmem, 45, rfl⟩
abbrev cc4_stg2_0 : Ref sig .tc := ⟨.vmem, 46, rfl⟩
abbrev cc4_stg3_0 : Ref sig .tc := ⟨.vmem, 47, rfl⟩
abbrev cc4_stg4_0 : Ref sig .tc := ⟨.vmem, 48, rfl⟩
abbrev cc4_stg5_0 : Ref sig .tc := ⟨.vmem, 49, rfl⟩
abbrev cc4_stg6_0 : Ref sig .tc := ⟨.vmem, 50, rfl⟩
abbrev cc4_stg7_0 : Ref sig .tc := ⟨.vmem, 51, rfl⟩
abbrev cc4_stg8_0 : Ref sig .tc := ⟨.vmem, 52, rfl⟩
abbrev cc4_stg8_1 : Ref sig .tc := ⟨.vmem, 53, rfl⟩
abbrev cc5_stg0_0 : Ref sig .tc := ⟨.vmem, 54, rfl⟩
abbrev cc5_stg1_0 : Ref sig .tc := ⟨.vmem, 55, rfl⟩
abbrev cc5_stg2_0 : Ref sig .tc := ⟨.vmem, 56, rfl⟩
abbrev cc5_stg3_0 : Ref sig .tc := ⟨.vmem, 57, rfl⟩
abbrev cc5_stg4_0 : Ref sig .tc := ⟨.vmem, 58, rfl⟩
abbrev cc5_stg5_0 : Ref sig .tc := ⟨.vmem, 59, rfl⟩
abbrev cc5_stg6_0 : Ref sig .tc := ⟨.vmem, 60, rfl⟩
abbrev cc5_stg7_0 : Ref sig .tc := ⟨.vmem, 61, rfl⟩
abbrev cc5_stg8_0 : Ref sig .tc := ⟨.vmem, 62, rfl⟩
abbrev cc6_stg0_0 : Ref sig .tc := ⟨.vmem, 63, rfl⟩
abbrev cc6_stg1_0 : Ref sig .tc := ⟨.vmem, 64, rfl⟩
abbrev cc6_stg2_0 : Ref sig .tc := ⟨.vmem, 65, rfl⟩
abbrev cc6_stg3_0 : Ref sig .tc := ⟨.vmem, 66, rfl⟩
abbrev cc6_stg4_0 : Ref sig .tc := ⟨.vmem, 67, rfl⟩
abbrev cc6_stg5_0 : Ref sig .tc := ⟨.vmem, 68, rfl⟩
abbrev cc6_stg6_0 : Ref sig .tc := ⟨.vmem, 69, rfl⟩
abbrev cc6_stg7_0 : Ref sig .tc := ⟨.vmem, 70, rfl⟩
abbrev cc6_stg8_0 : Ref sig .tc := ⟨.vmem, 71, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem8_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem8_0 : DmaSem sig := 28
abbrev cc2_sem8_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem7_0 : DmaSem sig := 39
abbrev cc3_sem8_0 : DmaSem sig := 40
abbrev cc3_sem8_1 : DmaSem sig := 41
abbrev cc4_sem0_0 : DmaSem sig := 42
abbrev cc4_sem0_1 : DmaSem sig := 43
abbrev cc4_sem1_0 : DmaSem sig := 44
abbrev cc4_sem1_1 : DmaSem sig := 45
abbrev cc4_sem2_0 : DmaSem sig := 46
abbrev cc4_sem3_0 : DmaSem sig := 47
abbrev cc4_sem4_0 : DmaSem sig := 48
abbrev cc4_sem5_0 : DmaSem sig := 49
abbrev cc4_sem6_0 : DmaSem sig := 50
abbrev cc4_sem7_0 : DmaSem sig := 51
abbrev cc4_sem8_0 : DmaSem sig := 52
abbrev cc4_sem8_1 : DmaSem sig := 53
abbrev cc5_sem0_0 : DmaSem sig := 54
abbrev cc5_sem1_0 : DmaSem sig := 55
abbrev cc5_sem2_0 : DmaSem sig := 56
abbrev cc5_sem3_0 : DmaSem sig := 57
abbrev cc5_sem4_0 : DmaSem sig := 58
abbrev cc5_sem5_0 : DmaSem sig := 59
abbrev cc5_sem6_0 : DmaSem sig := 60
abbrev cc5_sem7_0 : DmaSem sig := 61
abbrev cc5_sem8_0 : DmaSem sig := 62
abbrev cc6_sem0_0 : DmaSem sig := 63
abbrev cc6_sem1_0 : DmaSem sig := 64
abbrev cc6_sem2_0 : DmaSem sig := 65
abbrev cc6_sem3_0 : DmaSem sig := 66
abbrev cc6_sem4_0 : DmaSem sig := 67
abbrev cc6_sem5_0 : DmaSem sig := 68
abbrev cc6_sem6_0 : DmaSem sig := 69
abbrev cc6_sem7_0 : DmaSem sig := 70
abbrev cc6_sem8_0 : DmaSem sig := 71

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x768 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x768 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2048x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x768 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x768 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S256x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S256x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S2048x256 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2048x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x768 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x768 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x512 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256x512 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S256x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S256x256 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S2048x256 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![2], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2048x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2048x512 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x768 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x768 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S256x512 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S256x512 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S256x256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S256x256 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 2 → Memref sig .tc .vmem S2048x256 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 1 → Memref sig .tc .vmem S2048x256 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true]

abbrev stage5_1 : Fin 1 → Memref sig .tc .vmem S2048x512 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![true]

abbrev stage5_2 : Fin 1 → Memref sig .tc .vmem S256x768 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x768 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S256x512 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S256x512 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S256x256 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S256x256 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S2048x256 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 1 → Memref sig .tc .vmem S1024x256 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true]

abbrev stage6_1 : Fin 1 → Memref sig .tc .vmem S1024x512 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![true]

abbrev stage6_2 : Fin 1 → Memref sig .tc .vmem S256x768 .bf16 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x768 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S256x512 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S256x512 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S256x256 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S256x256 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1024x256 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![true]

class Facts₀ : Prop where
  transposes_S768x256_S256x768_1_0 : S768x256.Transposes [1, 0] S256x768
  bitsLt_bf16_f32 : FTy.bits .bf16 < FTy.bits .f32
  shapeCasts_S768_S1x768 : S768.ShapeCasts S1x768
  slices_S512x512_S512x256_0_0 : S512x512.Slices ![0, 0] S512x256
  transposes_S512x256_S256x512_1_0 : S512x256.Transposes [1, 0] S256x512
  slices_S512x512_S512x256_0_256 : S512x512.Slices ![0, 256] S512x256
  slices_S256x512_S256x256_0_0 : S256x512.Slices ![0, 0] S256x256
  transposes_S256x256_S256x256_1_0 : S256x256.Transposes [1, 0] S256x256
  slices_S256x512_S256x256_0_256 : S256x512.Slices ![0, 256] S256x256
  slices_S131071x256_S65536x256_65535_0 : S131071x256.Slices ![65535, 0] S65536x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S4096x768 : S1x768.Broadcasts S4096x768
  slices_S4096x768_o0_0_S4096x256 : S4096x768.Slices ![0, 0] S4096x256
  slices_S4096x768_o0_256_S4096x512 : S4096x768.Slices ![0, 256] S4096x512
  slices_S4096x512_o0_0_S4096x256 : S4096x512.Slices ![0, 0] S4096x256
  slices_S4096x512_o0_256_S4096x256 : S4096x512.Slices ![0, 256] S4096x256
  slices_S131071x256_S32768x256_32767_0 : S131071x256.Slices ![32767, 0] S32768x256
  shapeCasts_S65536x256_S32768x512 : S65536x256.ShapeCasts S32768x512
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  broadcasts_S1x768_S2048x768 : S1x768.Broadcasts S2048x768
  slices_S2048x768_o0_0_S2048x256 : S2048x768.Slices ![0, 0] S2048x256
  slices_S2048x768_o0_256_S2048x512 : S2048x768.Slices ![0, 256] S2048x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  slices_S2048x512_o0_0_S2048x256 : S2048x512.Slices ![0, 0] S2048x256
  slices_S2048x512_o0_256_S2048x256 : S2048x512.Slices ![0, 256] S2048x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S131071x256_S16384x256_16383_0 : S131071x256.Slices ![16383, 0] S16384x256
  shapeCasts_S32768x256_S16384x512 : S32768x256.ShapeCasts S16384x512
  slices_S131071x256_S8192x256_8191_0 : S131071x256.Slices ![8191, 0] S8192x256
  shapeCasts_S16384x256_S8192x512 : S16384x256.ShapeCasts S8192x512
  slices_S131071x256_S4096x256_4095_0 : S131071x256.Slices ![4095, 0] S4096x256
  shapeCasts_S8192x256_S4096x512 : S8192x256.ShapeCasts S4096x512
  slices_S131071x256_S2048x256_2047_0 : S131071x256.Slices ![2047, 0] S2048x256
  shapeCasts_S4096x256_S2048x512 : S4096x256.ShapeCasts S2048x512
  slices_S131071x256_S1024x256_1023_0 : S131071x256.Slices ![1023, 0] S1024x256
  shapeCasts_S2048x256_S1024x512 : S2048x256.ShapeCasts S1024x512
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  broadcasts_S1x768_S1024x768 : S1x768.Broadcasts S1024x768
  slices_S1024x768_o0_0_S1024x256 : S1024x768.Slices ![0, 0] S1024x256
  slices_S1024x768_o0_256_S1024x512 : S1024x768.Slices ![0, 256] S1024x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  slices_S1024x512_o0_0_S1024x256 : S1024x512.Slices ![0, 0] S1024x256
  slices_S1024x512_o0_256_S1024x256 : S1024x512.Slices ![0, 256] S1024x256
  slices_S131071x256_S512x256_511_0 : S131071x256.Slices ![511, 0] S512x256
  bcast_S768_S1x768_1 : S768.BroadcastsInDim S1x768 (![1] : Fin 1 → Fin S1x768.rank)
  bcast_S1x768_S512x768_0_1 : S1x768.BroadcastsInDim S512x768 (![0, 1] : Fin 2 → Fin S512x768.rank)
  slices_S512x768_S512x256_0_0 : S512x768.Slices ![0, 0] S512x256
  slices_S512x768_S512x512_0_256 : S512x768.Slices ![0, 256] S512x512
  shapeCasts_S1024x256_S512x512 : S1024x256.ShapeCasts S512x512
  transposes_S512x512_S512x512_1_0 : S512x512.Transposes [1, 0] S512x512
  transposes_S256x512_S512x256_1_0 : S256x512.Transposes [1, 0] S512x256
  shapeCasts_S512x512_S512x2x256 : S512x512.ShapeCasts S512x2x256
  reducesTo_S512x2x256_S512x256_d1 : S512x2x256.ReducesTo [1] S512x256
  h_S_ : 0 < S_.numel
  bcast_S_S512x512 : S_.BroadcastsInDim S512x512 (![] : Fin 0 → Fin S512x512.rank)
  bcast_S_S512x256 : S_.BroadcastsInDim S512x256 (![] : Fin 0 → Fin S512x256.rank)
  slices_S131071x256_S256x256_255_0 : S131071x256.Slices ![255, 0] S256x256
  bcast_S1x768_S256x768_0_1 : S1x768.BroadcastsInDim S256x768 (![0, 1] : Fin 2 → Fin S256x768.rank)
  slices_S256x768_S256x256_0_0 : S256x768.Slices ![0, 0] S256x256
  slices_S256x768_S256x512_0_256 : S256x768.Slices ![0, 256] S256x512
  shapeCasts_S512x256_S256x512 : S512x256.ShapeCasts S256x512
  shapeCasts_S256x512_S256x2x256 : S256x512.ShapeCasts S256x2x256
  reducesTo_S256x2x256_S256x256_d1 : S256x2x256.ReducesTo [1] S256x256
  bcast_S_S256x512 : S_.BroadcastsInDim S256x512 (![] : Fin 0 → Fin S256x512.rank)
  bcast_S_S256x256 : S_.BroadcastsInDim S256x256 (![] : Fin 0 → Fin S256x256.rank)
  slices_S131071x256_S128x256_127_0 : S131071x256.Slices ![127, 0] S128x256
  bcast_S1x768_S128x768_0_1 : S1x768.BroadcastsInDim S128x768 (![0, 1] : Fin 2 → Fin S128x768.rank)
  slices_S128x768_S128x256_0_0 : S128x768.Slices ![0, 0] S128x256
  slices_S128x768_S128x512_0_256 : S128x768.Slices ![0, 256] S128x512
  shapeCasts_S256x256_S128x512 : S256x256.ShapeCasts S128x512
  shapeCasts_S128x512_S128x2x256 : S128x512.ShapeCasts S128x2x256
  reducesTo_S128x2x256_S128x256_d1 : S128x2x256.ReducesTo [1] S128x256
  bcast_S_S128x512 : S_.BroadcastsInDim S128x512 (![] : Fin 0 → Fin S128x512.rank)
  bcast_S_S128x256 : S_.BroadcastsInDim S128x256 (![] : Fin 0 → Fin S128x256.rank)
  slices_S131071x256_S64x256_63_0 : S131071x256.Slices ![63, 0] S64x256
  bcast_S1x768_S64x768_0_1 : S1x768.BroadcastsInDim S64x768 (![0, 1] : Fin 2 → Fin S64x768.rank)
  slices_S64x768_S64x256_0_0 : S64x768.Slices ![0, 0] S64x256
  slices_S64x768_S64x512_0_256 : S64x768.Slices ![0, 256] S64x512
  shapeCasts_S128x256_S64x512 : S128x256.ShapeCasts S64x512
  shapeCasts_S64x512_S64x2x256 : S64x512.ShapeCasts S64x2x256
  reducesTo_S64x2x256_S64x256_d1 : S64x2x256.ReducesTo [1] S64x256
  bcast_S_S64x512 : S_.BroadcastsInDim S64x512 (![] : Fin 0 → Fin S64x512.rank)
  bcast_S_S64x256 : S_.BroadcastsInDim S64x256 (![] : Fin 0 → Fin S64x256.rank)
  slices_S131071x256_S32x256_31_0 : S131071x256.Slices ![31, 0] S32x256
  bcast_S1x768_S32x768_0_1 : S1x768.BroadcastsInDim S32x768 (![0, 1] : Fin 2 → Fin S32x768.rank)
  slices_S32x768_S32x256_0_0 : S32x768.Slices ![0, 0] S32x256
  slices_S32x768_S32x512_0_256 : S32x768.Slices ![0, 256] S32x512
  shapeCasts_S64x256_S32x512 : S64x256.ShapeCasts S32x512
  shapeCasts_S32x512_S32x2x256 : S32x512.ShapeCasts S32x2x256
  reducesTo_S32x2x256_S32x256_d1 : S32x2x256.ReducesTo [1] S32x256
  bcast_S_S32x512 : S_.BroadcastsInDim S32x512 (![] : Fin 0 → Fin S32x512.rank)
  bcast_S_S32x256 : S_.BroadcastsInDim S32x256 (![] : Fin 0 → Fin S32x256.rank)
  slices_S131071x256_S16x256_15_0 : S131071x256.Slices ![15, 0] S16x256
  bcast_S1x768_S16x768_0_1 : S1x768.BroadcastsInDim S16x768 (![0, 1] : Fin 2 → Fin S16x768.rank)
  slices_S16x768_S16x256_0_0 : S16x768.Slices ![0, 0] S16x256
  slices_S16x768_S16x512_0_256 : S16x768.Slices ![0, 256] S16x512
  shapeCasts_S32x256_S16x512 : S32x256.ShapeCasts S16x512
  shapeCasts_S16x512_S16x2x256 : S16x512.ShapeCasts S16x2x256
  reducesTo_S16x2x256_S16x256_d1 : S16x2x256.ReducesTo [1] S16x256
  bcast_S_S16x512 : S_.BroadcastsInDim S16x512 (![] : Fin 0 → Fin S16x512.rank)
  bcast_S_S16x256 : S_.BroadcastsInDim S16x256 (![] : Fin 0 → Fin S16x256.rank)
  slices_S131071x256_S8x256_7_0 : S131071x256.Slices ![7, 0] S8x256
  bcast_S1x768_S8x768_0_1 : S1x768.BroadcastsInDim S8x768 (![0, 1] : Fin 2 → Fin S8x768.rank)
  slices_S8x768_S8x256_0_0 : S8x768.Slices ![0, 0] S8x256
  slices_S8x768_S8x512_0_256 : S8x768.Slices ![0, 256] S8x512
  shapeCasts_S16x256_S8x512 : S16x256.ShapeCasts S8x512
  shapeCasts_S8x512_S8x2x256 : S8x512.ShapeCasts S8x2x256
  reducesTo_S8x2x256_S8x256_d1 : S8x2x256.ReducesTo [1] S8x256
  bcast_S_S8x512 : S_.BroadcastsInDim S8x512 (![] : Fin 0 → Fin S8x512.rank)
  bcast_S_S8x256 : S_.BroadcastsInDim S8x256 (![] : Fin 0 → Fin S8x256.rank)
  slices_S131071x256_S4x256_3_0 : S131071x256.Slices ![3, 0] S4x256
  bcast_S1x768_S4x768_0_1 : S1x768.BroadcastsInDim S4x768 (![0, 1] : Fin 2 → Fin S4x768.rank)
  slices_S4x768_S4x256_0_0 : S4x768.Slices ![0, 0] S4x256
  slices_S4x768_S4x512_0_256 : S4x768.Slices ![0, 256] S4x512
  shapeCasts_S8x256_S4x512 : S8x256.ShapeCasts S4x512
  shapeCasts_S4x512_S4x2x256 : S4x512.ShapeCasts S4x2x256
  reducesTo_S4x2x256_S4x256_d1 : S4x2x256.ReducesTo [1] S4x256
  bcast_S_S4x512 : S_.BroadcastsInDim S4x512 (![] : Fin 0 → Fin S4x512.rank)
  bcast_S_S4x256 : S_.BroadcastsInDim S4x256 (![] : Fin 0 → Fin S4x256.rank)
  slices_S131071x256_S2x256_1_0 : S131071x256.Slices ![1, 0] S2x256
  bcast_S1x768_S2x768_0_1 : S1x768.BroadcastsInDim S2x768 (![0, 1] : Fin 2 → Fin S2x768.rank)
  slices_S2x768_S2x256_0_0 : S2x768.Slices ![0, 0] S2x256
  slices_S2x768_S2x512_0_256 : S2x768.Slices ![0, 256] S2x512
  shapeCasts_S4x256_S2x512 : S4x256.ShapeCasts S2x512
  shapeCasts_S2x512_S2x2x256 : S2x512.ShapeCasts S2x2x256
  reducesTo_S2x2x256_S2x256_d1 : S2x2x256.ReducesTo [1] S2x256
  bcast_S_S2x512 : S_.BroadcastsInDim S2x512 (![] : Fin 0 → Fin S2x512.rank)
  bcast_S_S2x256 : S_.BroadcastsInDim S2x256 (![] : Fin 0 → Fin S2x256.rank)
  slices_S131071x256_S1x256_0_0 : S131071x256.Slices ![0, 0] S1x256
  slices_S1x768_S1x256_0_0 : S1x768.Slices ![0, 0] S1x256
  slices_S1x768_S1x512_0_256 : S1x768.Slices ![0, 256] S1x512
  shapeCasts_S2x256_S1x512 : S2x256.ShapeCasts S1x512
  shapeCasts_S1x512_S1x2x256 : S1x512.ShapeCasts S1x2x256
  reducesTo_S1x2x256_S1x256_d1 : S1x2x256.ReducesTo [1] S1x256
  bcast_S_S1x512 : S_.BroadcastsInDim S1x512 (![] : Fin 0 → Fin S1x512.rank)
  bcast_S_S1x256 : S_.BroadcastsInDim S1x256 (![] : Fin 0 → Fin S1x256.rank)
  bcast_S_S131071x256 : S_.BroadcastsInDim S131071x256 (![] : Fin 0 → Fin S131071x256.rank)
  bcast_S_S1 : S_.BroadcastsInDim S1 (![] : Fin 0 → Fin S1.rank)
  dot_S4096x256_S256x768_S4096x768_1_0_0_1_n_n_wf : DotDims.WF S4096x256 S256x768 S4096x768 [1] [0] [0] [1] [] []
  dot_S2048x256_S256x768_S2048x768_1_0_0_1_n_n_wf : DotDims.WF S2048x256 S256x768 S2048x768 [1] [0] [0] [1] [] []
  dot_S2048x256_S256x512_S2048x512_1_0_0_1_n_n_wf : DotDims.WF S2048x256 S256x512 S2048x512 [1] [0] [0] [1] [] []
  dot_S2048x256_S256x256_S2048x256_1_0_0_1_n_n_wf : DotDims.WF S2048x256 S256x256 S2048x256 [1] [0] [0] [1] [] []
  dot_S1024x256_S256x768_S1024x768_1_0_0_1_n_n_wf : DotDims.WF S1024x256 S256x768 S1024x768 [1] [0] [0] [1] [] []
  dot_S1024x256_S256x512_S1024x512_1_0_0_1_n_n_wf : DotDims.WF S1024x256 S256x512 S1024x512 [1] [0] [0] [1] [] []
  dot_S1024x256_S256x256_S1024x256_1_0_0_1_n_n_wf : DotDims.WF S1024x256 S256x256 S1024x256 [1] [0] [0] [1] [] []
  dot_S512x256_S256x768_S512x768_1_0_0_1_n_n_wf : DotDims.WF S512x256 S256x768 S512x768 [1] [0] [0] [1] [] []
  dot_S512x512_S512x512_S512x512_1_0_0_1_n_n_wf : DotDims.WF S512x512 S512x512 S512x512 [1] [0] [0] [1] [] []
  dot_S512x512_S512x256_S512x256_1_0_0_1_n_n_wf : DotDims.WF S512x512 S512x256 S512x256 [1] [0] [0] [1] [] []
  dot_S256x256_S256x768_S256x768_1_0_0_1_n_n_wf : DotDims.WF S256x256 S256x768 S256x768 [1] [0] [0] [1] [] []
  dot_S256x512_S512x512_S256x512_1_0_0_1_n_n_wf : DotDims.WF S256x512 S512x512 S256x512 [1] [0] [0] [1] [] []
  dot_S256x512_S512x256_S256x256_1_0_0_1_n_n_wf : DotDims.WF S256x512 S512x256 S256x256 [1] [0] [0] [1] [] []
  dot_S128x256_S256x768_S128x768_1_0_0_1_n_n_wf : DotDims.WF S128x256 S256x768 S128x768 [1] [0] [0] [1] [] []
  dot_S128x512_S512x512_S128x512_1_0_0_1_n_n_wf : DotDims.WF S128x512 S512x512 S128x512 [1] [0] [0] [1] [] []
  dot_S128x512_S512x256_S128x256_1_0_0_1_n_n_wf : DotDims.WF S128x512 S512x256 S128x256 [1] [0] [0] [1] [] []
  dot_S64x256_S256x768_S64x768_1_0_0_1_n_n_wf : DotDims.WF S64x256 S256x768 S64x768 [1] [0] [0] [1] [] []
  dot_S64x512_S512x512_S64x512_1_0_0_1_n_n_wf : DotDims.WF S64x512 S512x512 S64x512 [1] [0] [0] [1] [] []
  dot_S64x512_S512x256_S64x256_1_0_0_1_n_n_wf : DotDims.WF S64x512 S512x256 S64x256 [1] [0] [0] [1] [] []
  dot_S32x256_S256x768_S32x768_1_0_0_1_n_n_wf : DotDims.WF S32x256 S256x768 S32x768 [1] [0] [0] [1] [] []
  dot_S32x512_S512x512_S32x512_1_0_0_1_n_n_wf : DotDims.WF S32x512 S512x512 S32x512 [1] [0] [0] [1] [] []
  dot_S32x512_S512x256_S32x256_1_0_0_1_n_n_wf : DotDims.WF S32x512 S512x256 S32x256 [1] [0] [0] [1] [] []
  dot_S16x256_S256x768_S16x768_1_0_0_1_n_n_wf : DotDims.WF S16x256 S256x768 S16x768 [1] [0] [0] [1] [] []
  dot_S16x512_S512x512_S16x512_1_0_0_1_n_n_wf : DotDims.WF S16x512 S512x512 S16x512 [1] [0] [0] [1] [] []
  dot_S16x512_S512x256_S16x256_1_0_0_1_n_n_wf : DotDims.WF S16x512 S512x256 S16x256 [1] [0] [0] [1] [] []
  dot_S8x256_S256x768_S8x768_1_0_0_1_n_n_wf : DotDims.WF S8x256 S256x768 S8x768 [1] [0] [0] [1] [] []
  dot_S8x512_S512x512_S8x512_1_0_0_1_n_n_wf : DotDims.WF S8x512 S512x512 S8x512 [1] [0] [0] [1] [] []
  dot_S8x512_S512x256_S8x256_1_0_0_1_n_n_wf : DotDims.WF S8x512 S512x256 S8x256 [1] [0] [0] [1] [] []
  dot_S4x256_S256x768_S4x768_1_0_0_1_n_n_wf : DotDims.WF S4x256 S256x768 S4x768 [1] [0] [0] [1] [] []
  dot_S4x512_S512x512_S4x512_1_0_0_1_n_n_wf : DotDims.WF S4x512 S512x512 S4x512 [1] [0] [0] [1] [] []
  dot_S4x512_S512x256_S4x256_1_0_0_1_n_n_wf : DotDims.WF S4x512 S512x256 S4x256 [1] [0] [0] [1] [] []
  dot_S2x256_S256x768_S2x768_1_0_0_1_n_n_wf : DotDims.WF S2x256 S256x768 S2x768 [1] [0] [0] [1] [] []
  dot_S2x512_S512x512_S2x512_1_0_0_1_n_n_wf : DotDims.WF S2x512 S512x512 S2x512 [1] [0] [0] [1] [] []
  dot_S2x512_S512x256_S2x256_1_0_0_1_n_n_wf : DotDims.WF S2x512 S512x256 S2x256 [1] [0] [0] [1] [] []
  dot_S1x256_S256x768_S1x768_1_0_0_1_n_n_wf : DotDims.WF S1x256 S256x768 S1x768 [1] [0] [0] [1] [] []
  dot_S1x512_S512x512_S1x512_1_0_0_1_n_n_wf : DotDims.WF S1x512 S512x512 S1x512 [1] [0] [0] [1] [] []
  dot_S1x512_S512x256_S1x256_1_0_0_1_n_n_wf : DotDims.WF S1x512 S512x256 S1x256 [1] [0] [0] [1] [] []
  scatter_S131071x256_S1_S1x256_01_n_0_0_wf : ScatterDims.WF S131071x256 S1 S1x256 [0, 1] [] [0] 0
  scatter_S131071x256_S1_S2x256_01_n_0_0_wf : ScatterDims.WF S131071x256 S1 S2x256 [0, 1] [] [0] 0
  scatter_S131071x256_S1_S4x256_01_n_0_0_wf : ScatterDims.WF S131071x256 S1 S4x256 [0, 1] [] [0] 0
  scatter_S131071x256_S1_S8x256_01_n_0_0_wf : ScatterDims.WF S131071x256 S1 S8x256 [0, 1] [] [0] 0
  scatter_S131071x256_S1_S16x256_01_n_0_0_wf : ScatterDims.WF S131071x256 S1 S16x256 [0, 1] [] [0] 0
  scatter_S131071x256_S1_S32x256_01_n_0_0_wf : ScatterDims.WF S131071x256 S1 S32x256 [0, 1] [] [0] 0
  scatter_S131071x256_S1_S64x256_01_n_0_0_wf : ScatterDims.WF S131071x256 S1 S64x256 [0, 1] [] [0] 0
  scatter_S131071x256_S1_S128x256_01_n_0_0_wf : ScatterDims.WF S131071x256 S1 S128x256 [0, 1] [] [0] 0
  scatter_S131071x256_S1_S256x256_01_n_0_0_wf : ScatterDims.WF S131071x256 S1 S256x256 [0, 1] [] [0] 0
  scatter_S131071x256_S1_S512x256_01_n_0_0_wf : ScatterDims.WF S131071x256 S1 S512x256 [0, 1] [] [0] 0
  scatter_S131071x256_S1_S1024x256_01_n_0_0_wf : ScatterDims.WF S131071x256 S1 S1024x256 [0, 1] [] [0] 0
  scatter_S131071x256_S1_S2048x256_01_n_0_0_wf : ScatterDims.WF S131071x256 S1 S2048x256 [0, 1] [] [0] 0
  scatter_S131071x256_S1_S4096x256_01_n_0_0_wf : ScatterDims.WF S131071x256 S1 S4096x256 [0, 1] [] [0] 0
  scatter_S131071x256_S1_S8192x256_01_n_0_0_wf : ScatterDims.WF S131071x256 S1 S8192x256 [0, 1] [] [0] 0
  scatter_S131071x256_S1_S16384x256_01_n_0_0_wf : ScatterDims.WF S131071x256 S1 S16384x256 [0, 1] [] [0] 0
  scatter_S131071x256_S1_S32768x256_01_n_0_0_wf : ScatterDims.WF S131071x256 S1 S32768x256 [0, 1] [] [0] 0
  scatter_S131071x256_S1_S65536x256_01_n_0_0_wf : ScatterDims.WF S131071x256 S1 S65536x256 [0, 1] [] [0] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S65536x256.size a
  hwx0_0 : ∀ i : grid0.Coords, EltTy.bits .f32 = 32 ∨ (Rect.block (s := S65536x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x768.size a ≤ S256x768.size a
  hwx0_1 : ∀ i : grid0.Coords, EltTy.bits .bf16 = 32 ∨ (Rect.block (s := S256x768) S256x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S65536x256.size a
  hwx0_3 : ∀ i : grid0.Coords, EltTy.bits .f32 = 32 ∨ (Rect.block (s := S65536x256) S4096x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S32768x256.size a
  hwx1_0 : ∀ i : grid1.Coords, EltTy.bits .f32 = 32 ∨ (Rect.block (s := S32768x256) S2048x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S32768x512.size a
  hwx1_1 : ∀ i : grid1.Coords, EltTy.bits .f32 = 32 ∨ (Rect.block (s := S32768x512) S2048x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x768.size a ≤ S256x768.size a
  hwx1_2 : ∀ i : grid1.Coords, EltTy.bits .bf16 = 32 ∨ (Rect.block (s := S256x768) S256x768.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x768.size a ≤ S1x768.size a
  hwx1_3 : ∀ i : grid1.Coords, EltTy.bits .f32 = 32 ∨ (Rect.block (s := S1x768) S1x768.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x512.size a ≤ S256x512.size a
  hwx1_4 : ∀ i : grid1.Coords, EltTy.bits .f32 = 32 ∨ (Rect.block (s := S256x512) S256x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x512.size a ≤ S256x512.size a
  hwx1_5 : ∀ i : grid1.Coords, EltTy.bits .f32 = 32 ∨ (Rect.block (s := S256x512) S256x512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x256.size a ≤ S256x256.size a
  hwx1_6 : ∀ i : grid1.Coords, EltTy.bits .f32 = 32 ∨ (Rect.block (s := S256x256) S256x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256x256.size a ≤ S256x256.size a
  hwx1_7 : ∀ i : grid1.Coords, EltTy.bits .f32 = 32 ∨ (Rect.block (s := S256x256) S256x256.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2048x256.size a ≤ S32768x256.size a
  hwx1_8 : ∀ i : grid1.Coords, EltTy.bits .f32 = 32 ∨ (Rect.block (s := S32768x256) S2048x256.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x256.size a ≤ S16384x256.size a
  hwx2_0 : ∀ i : grid2.Coords, EltTy.bits .f32 = 32 ∨ (Rect.block (s := S16384x256) S2048x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x512.size a ≤ S16384x512.size a
  hwx2_1 : ∀ i : grid2.Coords, EltTy.bits .f32 = 32 ∨ (Rect.block (s := S16384x512) S2048x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x768.size a ≤ S256x768.size a
  hwx2_2 : ∀ i : grid2.Coords, EltTy.bits .bf16 = 32 ∨ (Rect.block (s := S256x768) S256x768.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x768.size a ≤ S1x768.size a
  hwx2_3 : ∀ i : grid2.Coords, EltTy.bits .f32 = 32 ∨ (Rect.block (s := S1x768) S1x768.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x512.size a ≤ S256x512.size a
  hwx2_4 : ∀ i : grid2.Coords, EltTy.bits .f32 = 32 ∨ (Rect.block (s := S256x512) S256x512.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x512.size a ≤ S256x512.size a
  hwx2_5 : ∀ i : grid2.Coords, EltTy.bits .f32 = 32 ∨ (Rect.block (s := S256x512) S256x512.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S256x256.size a ≤ S256x256.size a
  hwx2_6 : ∀ i : grid2.Coords, EltTy.bits .f32 = 32 ∨ (Rect.block (s := S256x256) S256x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S256x256.size a ≤ S256x256.size a
  hwx2_7 : ∀ i : grid2.Coords, EltTy.bits .f32 = 32 ∨ (Rect.block (s := S256x256) S256x256.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2048x256.size a ≤ S16384x256.size a
  hwx2_8 : ∀ i : grid2.Coords, EltTy.bits .f32 = 32 ∨ (Rect.block (s := S16384x256) S2048x256.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x256.size a ≤ S8192x256.size a
  hwx3_0 : ∀ i : grid3.Coords, EltTy.bits .f32 = 32 ∨ (Rect.block (s := S8192x256) S2048x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x512.size a ≤ S8192x512.size a
  hwx3_1 : ∀ i : grid3.Coords, EltTy.bits .f32 = 32 ∨ (Rect.block (s := S8192x512) S2048x512.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x768.size a ≤ S256x768.size a
  hwx3_2 : ∀ i : grid3.Coords, EltTy.bits .bf16 = 32 ∨ (Rect.block (s := S256x768) S256x768.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x768.size a ≤ S1x768.size a
  hwx3_3 : ∀ i : grid3.Coords, EltTy.bits .f32 = 32 ∨ (Rect.block (s := S1x768) S1x768.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x512.size a ≤ S256x512.size a
  hwx3_4 : ∀ i : grid3.Coords, EltTy.bits .f32 = 32 ∨ (Rect.block (s := S256x512) S256x512.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x512.size a ≤ S256x512.size a
  hwx3_5 : ∀ i : grid3.Coords, EltTy.bits .f32 = 32 ∨ (Rect.block (s := S256x512) S256x512.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S256x256.size a ≤ S256x256.size a
  hwx3_6 : ∀ i : grid3.Coords, EltTy.bits .f32 = 32 ∨ (Rect.block (s := S256x256) S256x256.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S256x256.size a ≤ S256x256.size a
  hwx3_7 : ∀ i : grid3.Coords, EltTy.bits .f32 = 32 ∨ (Rect.block (s := S256x256) S256x256.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S2048x256.size a ≤ S8192x256.size a
  hwx3_8 : ∀ i : grid3.Coords, EltTy.bits .f32 = 32 ∨ (Rect.block (s := S8192x256) S2048x256.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x256.size a ≤ S4096x256.size a
  hwx4_0 : ∀ i : grid4.Coords, EltTy.bits .f32 = 32 ∨ (Rect.block (s := S4096x256) S2048x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048x512.size a ≤ S4096x512.size a
  hwx4_1 : ∀ i : grid4.Coords, EltTy.bits .f32 = 32 ∨ (Rect.block (s := S4096x512) S2048x512.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x768.size a ≤ S256x768.size a
  hwx4_2 : ∀ i : grid4.Coords, EltTy.bits .bf16 = 32 ∨ (Rect.block (s := S256x768) S256x768.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x768.size a ≤ S1x768.size a
  hwx4_3 : ∀ i : grid4.Coords, EltTy.bits .f32 = 32 ∨ (Rect.block (s := S1x768) S1x768.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S256x512.size a ≤ S256x512.size a
  hwx4_4 : ∀ i : grid4.Coords, EltTy.bits .f32 = 32 ∨ (Rect.block (s := S256x512) S256x512.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S256x512.size a ≤ S256x512.size a
  hwx4_5 : ∀ i : grid4.Coords, EltTy.bits .f32 = 32 ∨ (Rect.block (s := S256x512) S256x512.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S256x256.size a ≤ S256x256.size a
  hwx4_6 : ∀ i : grid4.Coords, EltTy.bits .f32 = 32 ∨ (Rect.block (s := S256x256) S256x256.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S256x256.size a ≤ S256x256.size a
  hwx4_7 : ∀ i : grid4.Coords, EltTy.bits .f32 = 32 ∨ (Rect.block (s := S256x256) S256x256.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S2048x256.size a ≤ S4096x256.size a
  hwx4_8 : ∀ i : grid4.Coords, EltTy.bits .f32 = 32 ∨ (Rect.block (s := S4096x256) S2048x256.size (cc4_transform_8 i) (hinb4_8 i)).WholeWords (EltTy.packing .f32)
  hrank5 : 0 < grid5.rank
  hstage5_0 : ∀ j, (stage5_0 j).IsWhole
  nbuf5_0 : grid5.bufCount reads5_0 false = 1
  hreads5_0 : ∀ i i' : grid5.Coords, (∀ a, reads5_0 a = true → i a = i' a) → cc5_transform_0 i = cc5_transform_0 i'
  hinb5_0 : ∀ (i : grid5.Coords) a, (cc5_transform_0 i a + 1) * S2048x256.size a ≤ S2048x256.size a
  hwx5_0 : ∀ i : grid5.Coords, EltTy.bits .f32 = 32 ∨ (Rect.block (s := S2048x256) S2048x256.size (cc5_transform_0 i) (hinb5_0 i)).WholeWords (EltTy.packing .f32)
  hstage5_1 : ∀ j, (stage5_1 j).IsWhole
  nbuf5_1 : grid5.bufCount reads5_1 false = 1
  hreads5_1 : ∀ i i' : grid5.Coords, (∀ a, reads5_1 a = true → i a = i' a) → cc5_transform_1 i = cc5_transform_1 i'
  hinb5_1 : ∀ (i : grid5.Coords) a, (cc5_transform_1 i a + 1) * S2048x512.size a ≤ S2048x512.size a
  hwx5_1 : ∀ i : grid5.Coords, EltTy.bits .f32 = 32 ∨ (Rect.block (s := S2048x512) S2048x512.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S256x768.size a ≤ S256x768.size a
  hwx5_2 : ∀ i : grid5.Coords, EltTy.bits .bf16 = 32 ∨ (Rect.block (s := S256x768) S256x768.size (cc5_transform_2 i) (hinb5_2 i)).WholeWords (EltTy.packing .bf16)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x768.size a ≤ S1x768.size a
  hwx5_3 : ∀ i : grid5.Coords, EltTy.bits .f32 = 32 ∨ (Rect.block (s := S1x768) S1x768.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S256x512.size a ≤ S256x512.size a
  hwx5_4 : ∀ i : grid5.Coords, EltTy.bits .f32 = 32 ∨ (Rect.block (s := S256x512) S256x512.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S256x512.size a ≤ S256x512.size a
  hwx5_5 : ∀ i : grid5.Coords, EltTy.bits .f32 = 32 ∨ (Rect.block (s := S256x512) S256x512.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S256x256.size a ≤ S256x256.size a
  hwx5_6 : ∀ i : grid5.Coords, EltTy.bits .f32 = 32 ∨ (Rect.block (s := S256x256) S256x256.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S256x256.size a ≤ S256x256.size a
  hwx5_7 : ∀ i : grid5.Coords, EltTy.bits .f32 = 32 ∨ (Rect.block (s := S256x256) S256x256.size (cc5_transform_7 i) (hinb5_7 i)).WholeWords (EltTy.packing .f32)
  hstage5_8 : ∀ j, (stage5_8 j).IsWhole
  nbuf5_8 : grid5.bufCount reads5_8 false = 1
  hreads5_8 : ∀ i i' : grid5.Coords, (∀ a, reads5_8 a = true → i a = i' a) → cc5_transform_8 i = cc5_transform_8 i'
  hinb5_8 : ∀ (i : grid5.Coords) a, (cc5_transform_8 i a + 1) * S2048x256.size a ≤ S2048x256.size a
  hwx5_8 : ∀ i : grid5.Coords, EltTy.bits .f32 = 32 ∨ (Rect.block (s := S2048x256) S2048x256.size (cc5_transform_8 i) (hinb5_8 i)).WholeWords (EltTy.packing .f32)
  hrank6 : 0 < grid6.rank
  hstage6_0 : ∀ j, (stage6_0 j).IsWhole
  nbuf6_0 : grid6.bufCount reads6_0 false = 1
  hreads6_0 : ∀ i i' : grid6.Coords, (∀ a, reads6_0 a = true → i a = i' a) → cc6_transform_0 i = cc6_transform_0 i'
  hinb6_0 : ∀ (i : grid6.Coords) a, (cc6_transform_0 i a + 1) * S1024x256.size a ≤ S1024x256.size a
  hwx6_0 : ∀ i : grid6.Coords, EltTy.bits .f32 = 32 ∨ (Rect.block (s := S1024x256) S1024x256.size (cc6_transform_0 i) (hinb6_0 i)).WholeWords (EltTy.packing .f32)
  hstage6_1 : ∀ j, (stage6_1 j).IsWhole
  nbuf6_1 : grid6.bufCount reads6_1 false = 1
  hreads6_1 : ∀ i i' : grid6.Coords, (∀ a, reads6_1 a = true → i a = i' a) → cc6_transform_1 i = cc6_transform_1 i'
  hinb6_1 : ∀ (i : grid6.Coords) a, (cc6_transform_1 i a + 1) * S1024x512.size a ≤ S1024x512.size a
  hwx6_1 : ∀ i : grid6.Coords, EltTy.bits .f32 = 32 ∨ (Rect.block (s := S1024x512) S1024x512.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S256x768.size a ≤ S256x768.size a
  hwx6_2 : ∀ i : grid6.Coords, EltTy.bits .bf16 = 32 ∨ (Rect.block (s := S256x768) S256x768.size (cc6_transform_2 i) (hinb6_2 i)).WholeWords (EltTy.packing .bf16)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x768.size a ≤ S1x768.size a
  hwx6_3 : ∀ i : grid6.Coords, EltTy.bits .f32 = 32 ∨ (Rect.block (s := S1x768) S1x768.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S256x512.size a ≤ S256x512.size a
  hwx6_4 : ∀ i : grid6.Coords, EltTy.bits .f32 = 32 ∨ (Rect.block (s := S256x512) S256x512.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S256x512.size a ≤ S256x512.size a
  hwx6_5 : ∀ i : grid6.Coords, EltTy.bits .f32 = 32 ∨ (Rect.block (s := S256x512) S256x512.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S256x256.size a ≤ S256x256.size a
  hwx6_6 : ∀ i : grid6.Coords, EltTy.bits .f32 = 32 ∨ (Rect.block (s := S256x256) S256x256.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S256x256.size a ≤ S256x256.size a
  hwx6_7 : ∀ i : grid6.Coords, EltTy.bits .f32 = 32 ∨ (Rect.block (s := S256x256) S256x256.size (cc6_transform_7 i) (hinb6_7 i)).WholeWords (EltTy.packing .f32)
  hstage6_8 : ∀ j, (stage6_8 j).IsWhole
  nbuf6_8 : grid6.bufCount reads6_8 false = 1
  hreads6_8 : ∀ i i' : grid6.Coords, (∀ a, reads6_8 a = true → i a = i' a) → cc6_transform_8 i = cc6_transform_8 i'
  hinb6_8 : ∀ (i : grid6.Coords) a, (cc6_transform_8 i a + 1) * S1024x256.size a ≤ S1024x256.size a
  hwx6_8 : ∀ i : grid6.Coords, EltTy.bits .f32 = 32 ∨ (Rect.block (s := S1024x256) S1024x256.size (cc6_transform_8 i) (hinb6_8 i)).WholeWords (EltTy.packing .f32)

variable [Facts₀]

def dot_S4096x256_S256x768_S4096x768_1_0_0_1_n_n : DotDims S4096x256 S256x768 S4096x768 where
  lhsContracting := [1]
  rhsContracting := [0]
  lhsNonContracting := [0]
  rhsNonContracting := [1]
  lhsBatch := []
  rhsBatch := []
  wf := dot_S4096x256_S256x768_S4096x768_1_0_0_1_n_n_wf
def dot_S2048x256_S256x768_S2048x768_1_0_0_1_n_n : DotDims S2048x256 S256x768 S2048x768 where
  lhsContracting := [1]
  rhsContracting := [0]
  lhsNonContracting := [0]
  rhsNonContracting := [1]
  lhsBatch := []
  rhsBatch := []
  wf := dot_S2048x256_S256x768_S2048x768_1_0_0_1_n_n_wf
def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S1024x256_S256x768_S1024x768_1_0_0_1_n_n : DotDims S1024x256 S256x768 S1024x768 where
  lhsContracting := [1]
  rhsContracting := [0]
  lhsNonContracting := [0]
  rhsNonContracting := [1]
  lhsBatch := []
  rhsBatch := []
  wf := dot_S1024x256_S256x768_S1024x768_1_0_0_1_n_n_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S512x256_S256x768_S512x768_1_0_0_1_n_n : DotDims S512x256 S256x768 S512x768 where
  lhsContracting := [1]
  rhsContracting := [0]
  lhsNonContracting := [0]
  rhsNonContracting := [1]
  lhsBatch := []
  rhsBatch := []
  wf := dot_S512x256_S256x768_S512x768_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S256x256_S256x768_S256x768_1_0_0_1_n_n : DotDims S256x256 S256x768 S256x768 where
  lhsContracting := [1]
  rhsContracting := [0]
  lhsNonContracting := [0]
  rhsNonContracting := [1]
  lhsBatch := []
  rhsBatch := []
  wf := dot_S256x256_S256x768_S256x768_1_0_0_1_n_n_wf
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf
def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf
def dot_S128x256_S256x768_S128x768_1_0_0_1_n_n : DotDims S128x256 S256x768 S128x768 where
  lhsContracting := [1]
  rhsContracting := [0]
  lhsNonContracting := [0]
  rhsNonContracting := [1]
  lhsBatch := []
  rhsBatch := []
  wf := dot_S128x256_S256x768_S128x768_1_0_0_1_n_n_wf
def dot_S128x512_S512x512_S128x512_1_0_0_1_n_n : DotDims S128x512 S512x512 S128x512 where
  lhsContracting := [1]
  rhsContracting := [0]
  lhsNonContracting := [0]
  rhsNonContracting := [1]
  lhsBatch := []
  rhsBatch := []
  wf := dot_S128x512_S512x512_S128x512_1_0_0_1_n_n_wf
def dot_S128x512_S512x256_S128x256_1_0_0_1_n_n : DotDims S128x512 S512x256 S128x256 where
  lhsContracting := [1]
  rhsContracting := [0]
  lhsNonContracting := [0]
  rhsNonContracting := [1]
  lhsBatch := []
  rhsBatch := []
  wf := dot_S128x512_S512x256_S128x256_1_0_0_1_n_n_wf
def dot_S64x256_S256x768_S64x768_1_0_0_1_n_n : DotDims S64x256 S256x768 S64x768 where
  lhsContracting := [1]
  rhsContracting := [0]
  lhsNonContracting := [0]
  rhsNonContracting := [1]
  lhsBatch := []
  rhsBatch := []
  wf := dot_S64x256_S256x768_S64x768_1_0_0_1_n_n_wf
def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf
def dot_S64x512_S512x256_S64x256_1_0_0_1_n_n : DotDims S64x512 S512x256 S64x256 where
  lhsContracting := [1]
  rhsContracting := [0]
  lhsNonContracting := [0]
  rhsNonContracting := [1]
  lhsBatch := []
  rhsBatch := []
  wf := dot_S64x512_S512x256_S64x256_1_0_0_1_n_n_wf
def dot_S32x256_S256x768_S32x768_1_0_0_1_n_n : DotDims S32x256 S256x768 S32x768 where
  lhsContracting := [1]
  rhsContracting := [0]
  lhsNonContracting := [0]
  rhsNonContracting := [1]
  lhsBatch := []
  rhsBatch := []
  wf := dot_S32x256_S256x768_S32x768_1_0_0_1_n_n_wf
def dot_S32x512_S512x512_S32x512_1_0_0_1_n_n : DotDims S32x512 S512x512 S32x512 where
  lhsContracting := [1]
  rhsContracting := [0]
  lhsNonContracting := [0]
  rhsNonContracting := [1]
  lhsBatch := []
  rhsBatch := []
  wf := dot_S32x512_S512x512_S32x512_1_0_0_1_n_n_wf
def dot_S32x512_S512x256_S32x256_1_0_0_1_n_n : DotDims S32x512 S512x256 S32x256 where
  lhsContracting := [1]
  rhsContracting := [0]
  lhsNonContracting := [0]
  rhsNonContracting := [1]
  lhsBatch := []
  rhsBatch := []
  wf := dot_S32x512_S512x256_S32x256_1_0_0_1_n_n_wf
def dot_S16x256_S256x768_S16x768_1_0_0_1_n_n : DotDims S16x256 S256x768 S16x768 where
  lhsContracting := [1]
  rhsContracting := [0]
  lhsNonContracting := [0]
  rhsNonContracting := [1]
  lhsBatch := []
  rhsBatch := []
  wf := dot_S16x256_S256x768_S16x768_1_0_0_1_n_n_wf
def dot_S16x512_S512x512_S16x512_1_0_0_1_n_n : DotDims S16x512 S512x512 S16x512 where
  lhsContracting := [1]
  rhsContracting := [0]
  lhsNonContracting := [0]
  rhsNonContracting := [1]
  lhsBatch := []
  rhsBatch := []
  wf := dot_S16x512_S512x512_S16x512_1_0_0_1_n_n_wf
def dot_S16x512_S512x256_S16x256_1_0_0_1_n_n : DotDims S16x512 S512x256 S16x256 where
  lhsContracting := [1]
  rhsContracting := [0]
  lhsNonContracting := [0]
  rhsNonContracting := [1]
  lhsBatch := []
  rhsBatch := []
  wf := dot_S16x512_S512x256_S16x256_1_0_0_1_n_n_wf
def dot_S8x256_S256x768_S8x768_1_0_0_1_n_n : DotDims S8x256 S256x768 S8x768 where
  lhsContracting := [1]
  rhsContracting := [0]
  lhsNonContracting := [0]
  rhsNonContracting := [1]
  lhsBatch := []
  rhsBatch := []
  wf := dot_S8x256_S256x768_S8x768_1_0_0_1_n_n_wf
def dot_S8x512_S512x512_S8x512_1_0_0_1_n_n : DotDims S8x512 S512x512 S8x512 where
  lhsContracting := [1]
  rhsContracting := [0]
  lhsNonContracting := [0]
  rhsNonContracting := [1]
  lhsBatch := []
  rhsBatch := []
  wf := dot_S8x512_S512x512_S8x512_1_0_0_1_n_n_wf
def dot_S8x512_S512x256_S8x256_1_0_0_1_n_n : DotDims S8x512 S512x256 S8x256 where
  lhsContracting := [1]
  rhsContracting := [0]
  lhsNonContracting := [0]
  rhsNonContracting := [1]
  lhsBatch := []
  rhsBatch := []
  wf := dot_S8x512_S512x256_S8x256_1_0_0_1_n_n_wf
def dot_S4x256_S256x768_S4x768_1_0_0_1_n_n : DotDims S4x256 S256x768 S4x768 where
  lhsContracting := [1]
  rhsContracting := [0]
  lhsNonContracting := [0]
  rhsNonContracting := [1]
  lhsBatch := []
  rhsBatch := []
  wf := dot_S4x256_S256x768_S4x768_1_0_0_1_n_n_wf
def dot_S4x512_S512x512_S4x512_1_0_0_1_n_n : DotDims S4x512 S512x512 S4x512 where
  lhsContracting := [1]
  rhsContracting := [0]
  lhsNonContracting := [0]
  rhsNonContracting := [1]
  lhsBatch := []
  rhsBatch := []
  wf := dot_S4x512_S512x512_S4x512_1_0_0_1_n_n_wf
def dot_S4x512_S512x256_S4x256_1_0_0_1_n_n : DotDims S4x512 S512x256 S4x256 where
  lhsContracting := [1]
  rhsContracting := [0]
  lhsNonContracting := [0]
  rhsNonContracting := [1]
  lhsBatch := []
  rhsBatch := []
  wf := dot_S4x512_S512x256_S4x256_1_0_0_1_n_n_wf
def dot_S2x256_S256x768_S2x768_1_0_0_1_n_n : DotDims S2x256 S256x768 S2x768 where
  lhsContracting := [1]
  rhsContracting := [0]
  lhsNonContracting := [0]
  rhsNonContracting := [1]
  lhsBatch := []
  rhsBatch := []
  wf := dot_S2x256_S256x768_S2x768_1_0_0_1_n_n_wf
def dot_S2x512_S512x512_S2x512_1_0_0_1_n_n : DotDims S2x512 S512x512 S2x512 where
  lhsContracting := [1]
  rhsContracting := [0]
  lhsNonContracting := [0]
  rhsNonContracting := [1]
  lhsBatch := []
  rhsBatch := []
  wf := dot_S2x512_S512x512_S2x512_1_0_0_1_n_n_wf
def dot_S2x512_S512x256_S2x256_1_0_0_1_n_n : DotDims S2x512 S512x256 S2x256 where
  lhsContracting := [1]
  rhsContracting := [0]
  lhsNonContracting := [0]
  rhsNonContracting := [1]
  lhsBatch := []
  rhsBatch := []
  wf := dot_S2x512_S512x256_S2x256_1_0_0_1_n_n_wf
def dot_S1x256_S256x768_S1x768_1_0_0_1_n_n : DotDims S1x256 S256x768 S1x768 where
  lhsContracting := [1]
  rhsContracting := [0]
  lhsNonContracting := [0]
  rhsNonContracting := [1]
  lhsBatch := []
  rhsBatch := []
  wf := dot_S1x256_S256x768_S1x768_1_0_0_1_n_n_wf
def dot_S1x512_S512x512_S1x512_1_0_0_1_n_n : DotDims S1x512 S512x512 S1x512 where
  lhsContracting := [1]
  rhsContracting := [0]
  lhsNonContracting := [0]
  rhsNonContracting := [1]
  lhsBatch := []
  rhsBatch := []
  wf := dot_S1x512_S512x512_S1x512_1_0_0_1_n_n_wf
def dot_S1x512_S512x256_S1x256_1_0_0_1_n_n : DotDims S1x512 S512x256 S1x256 where
  lhsContracting := [1]
  rhsContracting := [0]
  lhsNonContracting := [0]
  rhsNonContracting := [1]
  lhsBatch := []
  rhsBatch := []
  wf := dot_S1x512_S512x256_S1x256_1_0_0_1_n_n_wf
def scatter_S131071x256_S1_S1x256_01_n_0_0 : ScatterDims S131071x256 S1 S1x256 where
  updateWindowDims := [0, 1]
  insertedWindowDims := []
  scatterDimsToOperandDims := [0]
  indexVectorDim := 0
  wf := scatter_S131071x256_S1_S1x256_01_n_0_0_wf
def scatter_S131071x256_S1_S2x256_01_n_0_0 : ScatterDims S131071x256 S1 S2x256 where
  updateWindowDims := [0, 1]
  insertedWindowDims := []
  scatterDimsToOperandDims := [0]
  indexVectorDim := 0
  wf := scatter_S131071x256_S1_S2x256_01_n_0_0_wf
def scatter_S131071x256_S1_S4x256_01_n_0_0 : ScatterDims S131071x256 S1 S4x256 where
  updateWindowDims := [0, 1]
  insertedWindowDims := []
  scatterDimsToOperandDims := [0]
  indexVectorDim := 0
  wf := scatter_S131071x256_S1_S4x256_01_n_0_0_wf
def scatter_S131071x256_S1_S8x256_01_n_0_0 : ScatterDims S131071x256 S1 S8x256 where
  updateWindowDims := [0, 1]
  insertedWindowDims := []
  scatterDimsToOperandDims := [0]
  indexVectorDim := 0
  wf := scatter_S131071x256_S1_S8x256_01_n_0_0_wf
def scatter_S131071x256_S1_S16x256_01_n_0_0 : ScatterDims S131071x256 S1 S16x256 where
  updateWindowDims := [0, 1]
  insertedWindowDims := []
  scatterDimsToOperandDims := [0]
  indexVectorDim := 0
  wf := scatter_S131071x256_S1_S16x256_01_n_0_0_wf
def scatter_S131071x256_S1_S32x256_01_n_0_0 : ScatterDims S131071x256 S1 S32x256 where
  updateWindowDims := [0, 1]
  insertedWindowDims := []
  scatterDimsToOperandDims := [0]
  indexVectorDim := 0
  wf := scatter_S131071x256_S1_S32x256_01_n_0_0_wf
def scatter_S131071x256_S1_S64x256_01_n_0_0 : ScatterDims S131071x256 S1 S64x256 where
  updateWindowDims := [0, 1]
  insertedWindowDims := []
  scatterDimsToOperandDims := [0]
  indexVectorDim := 0
  wf := scatter_S131071x256_S1_S64x256_01_n_0_0_wf
def scatter_S131071x256_S1_S128x256_01_n_0_0 : ScatterDims S131071x256 S1 S128x256 where
  updateWindowDims := [0, 1]
  insertedWindowDims := []
  scatterDimsToOperandDims := [0]
  indexVectorDim := 0
  wf := scatter_S131071x256_S1_S128x256_01_n_0_0_wf
def scatter_S131071x256_S1_S256x256_01_n_0_0 : ScatterDims S131071x256 S1 S256x256 where
  updateWindowDims := [0, 1]
  insertedWindowDims := []
  scatterDimsToOperandDims := [0]
  indexVectorDim := 0
  wf := scatter_S131071x256_S1_S256x256_01_n_0_0_wf
def scatter_S131071x256_S1_S512x256_01_n_0_0 : ScatterDims S131071x256 S1 S512x256 where
  updateWindowDims := [0, 1]
  insertedWindowDims := []
  scatterDimsToOperandDims := [0]
  indexVectorDim := 0
  wf := scatter_S131071x256_S1_S512x256_01_n_0_0_wf
def scatter_S131071x256_S1_S1024x256_01_n_0_0 : ScatterDims S131071x256 S1 S1024x256 where
  updateWindowDims := [0, 1]
  insertedWindowDims := []
  scatterDimsToOperandDims := [0]
  indexVectorDim := 0
  wf := scatter_S131071x256_S1_S1024x256_01_n_0_0_wf
def scatter_S131071x256_S1_S2048x256_01_n_0_0 : ScatterDims S131071x256 S1 S2048x256 where
  updateWindowDims := [0, 1]
  insertedWindowDims := []
  scatterDimsToOperandDims := [0]
  indexVectorDim := 0
  wf := scatter_S131071x256_S1_S2048x256_01_n_0_0_wf
def scatter_S131071x256_S1_S4096x256_01_n_0_0 : ScatterDims S131071x256 S1 S4096x256 where
  updateWindowDims := [0, 1]
  insertedWindowDims := []
  scatterDimsToOperandDims := [0]
  indexVectorDim := 0
  wf := scatter_S131071x256_S1_S4096x256_01_n_0_0_wf
def scatter_S131071x256_S1_S8192x256_01_n_0_0 : ScatterDims S131071x256 S1 S8192x256 where
  updateWindowDims := [0, 1]
  insertedWindowDims := []
  scatterDimsToOperandDims := [0]
  indexVectorDim := 0
  wf := scatter_S131071x256_S1_S8192x256_01_n_0_0_wf
def scatter_S131071x256_S1_S16384x256_01_n_0_0 : ScatterDims S131071x256 S1 S16384x256 where
  updateWindowDims := [0, 1]
  insertedWindowDims := []
  scatterDimsToOperandDims := [0]
  indexVectorDim := 0
  wf := scatter_S131071x256_S1_S16384x256_01_n_0_0_wf
def scatter_S131071x256_S1_S32768x256_01_n_0_0 : ScatterDims S131071x256 S1 S32768x256 where
  updateWindowDims := [0, 1]
  insertedWindowDims := []
  scatterDimsToOperandDims := [0]
  indexVectorDim := 0
  wf := scatter_S131071x256_S1_S32768x256_01_n_0_0_wf
def scatter_S131071x256_S1_S65536x256_01_n_0_0 : ScatterDims S131071x256 S1 S65536x256 where
  updateWindowDims := [0, 1]
  insertedWindowDims := []
  scatterDimsToOperandDims := [0]
  indexVectorDim := 0
  wf := scatter_S131071x256_S1_S65536x256_01_n_0_0_wf

abbrev win0_0 : Pipeline.Window sig grid0 :=
  Pipeline.Window.ofSpec (Memref.whole main_v11) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S4096x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v13) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S256x768.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x768.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S256x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6) S256x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v8) S256x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v10) S256x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v15) S2048x256.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v16) S2048x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S2048x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1) S256x768.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v2) S1x768.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v4) S256x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v6) S256x512.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v8) S256x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v10) S256x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v18) S2048x256.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v19) S2048x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v20) S2048x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v1) S256x768.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v2) S1x768.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v4) S256x512.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v6) S256x512.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v8) S256x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v10) S256x256.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v21) S2048x256.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v22) S2048x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v23) S2048x512.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v1) S256x768.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v2) S1x768.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v4) S256x512.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v6) S256x512.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v8) S256x256.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v10) S256x256.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v24) S2048x256.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v25) S2048x256.size cc5_transform_0 reads5_0 false false 1 stage5_0 sem5_0
    hrank5 hreads5_0 hinb5_0 nbuf5_0 (Memref.isWhole_whole _) hwx5_0 hstage5_0

abbrev win5_1 : Pipeline.Window sig grid5 :=
  Pipeline.Window.ofSpec (Memref.whole main_v26) S2048x512.size cc5_transform_1 reads5_1 false false 1 stage5_1 sem5_1
    hrank5 hreads5_1 hinb5_1 nbuf5_1 (Memref.isWhole_whole _) hwx5_1 hstage5_1

abbrev win5_2 : Pipeline.Window sig grid5 :=
  Pipeline.Window.ofSpec (Memref.whole main_v1) S256x768.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v2) S1x768.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v4) S256x512.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v6) S256x512.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v8) S256x256.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v10) S256x256.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v27) S2048x256.size cc5_transform_8 reads5_8 true false 1 stage5_8 sem5_8
    hrank5 hreads5_8 hinb5_8 nbuf5_8 (Memref.isWhole_whole _) hwx5_8 hstage5_8

abbrev win5 : Fin 9 → Pipeline.Window sig grid5 := fun | 0 => win5_0 | 1 => win5_1 | 2 => win5_2 | 3 => win5_3 | 4 => win5_4 | 5 => win5_5 | 6 => win5_6 | 7 => win5_7 | 8 => win5_8 | ⟨_ + 9, h⟩ => absurd h (Nat.not_lt.2 (Nat.le_add_left _ _))
abbrev spec5 : Fin 9 → Pipeline.WinSpec sig grid5.rank := fun w => (win5 w).toWinSpec

abbrev win6_0 : Pipeline.Window sig grid6 :=
  Pipeline.Window.ofSpec (Memref.whole main_v28) S1024x256.size cc6_transform_0 reads6_0 false false 1 stage6_0 sem6_0
    hrank6 hreads6_0 hinb6_0 nbuf6_0 (Memref.isWhole_whole _) hwx6_0 hstage6_0

abbrev win6_1 : Pipeline.Window sig grid6 :=
  Pipeline.Window.ofSpec (Memref.whole main_v29) S1024x512.size cc6_transform_1 reads6_1 false false 1 stage6_1 sem6_1
    hrank6 hreads6_1 hinb6_1 nbuf6_1 (Memref.isWhole_whole _) hwx6_1 hstage6_1

abbrev win6_2 : Pipeline.Window sig grid6 :=
  Pipeline.Window.ofSpec (Memref.whole main_v1) S256x768.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v2) S1x768.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v4) S256x512.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v6) S256x512.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v8) S256x256.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v10) S256x256.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v30) S1024x256.size cc6_transform_8 reads6_8 true false 1 stage6_8 sem6_8
    hrank6 hreads6_8 hinb6_8 nbuf6_8 (Memref.isWhole_whole _) hwx6_8 hstage6_8

abbrev win6 : Fin 9 → Pipeline.Window sig grid6 := fun | 0 => win6_0 | 1 => win6_1 | 2 => win6_2 | 3 => win6_3 | 4 => win6_4 | 5 => win6_5 | 6 => win6_6 | 7 => win6_7 | 8 => win6_8 | ⟨_ + 9, h⟩ => absurd h (Nat.not_lt.2 (Nat.le_add_left _ _))
abbrev spec6 : Fin 9 → Pipeline.WinSpec sig grid6.rank := fun w => (win6 w).toWinSpec

class Facts : Prop extends Facts₀ where

variable [Facts]
-- ==== ReferenceIdeal.lean ====
abbrev S131071x256 : Shape := ⟨2, ![131071, 256]⟩
abbrev S768x256 : Shape := ⟨2, ![768, 256]⟩
abbrev S768 : Shape := ⟨1, ![768]⟩
abbrev S256x512 : Shape := ⟨2, ![256, 512]⟩
abbrev S512x512 : Shape := ⟨2, ![512, 512]⟩
abbrev S256x768 : Shape := ⟨2, ![256, 768]⟩
abbrev S131071x768 : Shape := ⟨2, ![131071, 768]⟩
abbrev S1x768 : Shape := ⟨2, ![1, 768]⟩
abbrev S131071x512 : Shape := ⟨2, ![131071, 512]⟩
abbrev S_ : Shape := ⟨0, ![]⟩
abbrev S65536x512 : Shape := ⟨2, ![65536, 512]⟩
abbrev S65536x256 : Shape := ⟨2, ![65536, 256]⟩
abbrev S65536x2x256 : Shape := ⟨3, ![65536, 2, 256]⟩
abbrev S1 : Shape := ⟨1, ![1]⟩
abbrev S32768x512 : Shape := ⟨2, ![32768, 512]⟩
abbrev S32768x256 : Shape := ⟨2, ![32768, 256]⟩
abbrev S512x256 : Shape := ⟨2, ![512, 256]⟩
abbrev S32768x2x256 : Shape := ⟨3, ![32768, 2, 256]⟩
abbrev S16384x512 : Shape := ⟨2, ![16384, 512]⟩
abbrev S16384x256 : Shape := ⟨2, ![16384, 256]⟩
abbrev S16384x2x256 : Shape := ⟨3, ![16384, 2, 256]⟩
abbrev S8192x512 : Shape := ⟨2, ![8192, 512]⟩
abbrev S8192x256 : Shape := ⟨2, ![8192, 256]⟩
abbrev S8192x2x256 : Shape := ⟨3, ![8192, 2, 256]⟩
abbrev S4096x512 : Shape := ⟨2, ![4096, 512]⟩
abbrev S4096x256 : Shape := ⟨2, ![4096, 256]⟩
abbrev S4096x2x256 : Shape := ⟨3, ![4096, 2, 256]⟩
abbrev S2048x512 : Shape := ⟨2, ![2048, 512]⟩
abbrev S2048x256 : Shape := ⟨2, ![2048, 256]⟩
abbrev S2048x2x256 : Shape := ⟨3, ![2048, 2, 256]⟩
abbrev S1024x512 : Shape := ⟨2, ![1024, 512]⟩
abbrev S1024x256 : Shape := ⟨2, ![1024, 256]⟩
abbrev S1024x2x256 : Shape := ⟨3, ![1024, 2, 256]⟩
abbrev S512x2x256 : Shape := ⟨3, ![512, 2, 256]⟩
abbrev S256x256 : Shape := ⟨2, ![256, 256]⟩
abbrev S256x2x256 : Shape := ⟨3, ![256, 2, 256]⟩
abbrev S128x512 : Shape := ⟨2, ![128, 512]⟩
abbrev S128x256 : Shape := ⟨2, ![128, 256]⟩
abbrev S128x2x256 : Shape := ⟨3, ![128, 2, 256]⟩
abbrev S64x512 : Shape := ⟨2, ![64, 512]⟩
abbrev S64x256 : Shape := ⟨2, ![64, 256]⟩
abbrev S64x2x256 : Shape := ⟨3, ![64, 2, 256]⟩
abbrev S32x512 : Shape := ⟨2, ![32, 512]⟩
abbrev S32x256 : Shape := ⟨2, ![32, 256]⟩
abbrev S32x2x256 : Shape := ⟨3, ![32, 2, 256]⟩
abbrev S16x512 : Shape := ⟨2, ![16, 512]⟩
abbrev S16x256 : Shape := ⟨2, ![16, 256]⟩
abbrev S16x2x256 : Shape := ⟨3, ![16, 2, 256]⟩
abbrev S8x512 : Shape := ⟨2, ![8, 512]⟩
abbrev S8x256 : Shape := ⟨2, ![8, 256]⟩
abbrev S8x2x256 : Shape := ⟨3, ![8, 2, 256]⟩
abbrev S4x512 : Shape := ⟨2, ![4, 512]⟩
abbrev S4x256 : Shape := ⟨2, ![4, 256]⟩
abbrev S4x2x256 : Shape := ⟨3, ![4, 2, 256]⟩
abbrev S2x512 : Shape := ⟨2, ![2, 512]⟩
abbrev S2x256 : Shape := ⟨2, ![2, 256]⟩
abbrev S2x2x256 : Shape := ⟨3, ![2, 2, 256]⟩
abbrev S1x512 : Shape := ⟨2, ![1, 512]⟩
abbrev S1x256 : Shape := ⟨2, ![1, 256]⟩
abbrev S1x2x256 : Shape := ⟨3, ![1, 2, 256]⟩

abbrev nBuf : Space → Nat
  | .hbm => 579
  | .vmem => 0
  | .smem => 0
  | _ => 0

abbrev hbmTy0_0 (i : Nat) : BufTy := match i % 128 with
  | 0 => ⟨S131071x256, .f32⟩
  | 1 => ⟨S768x256, .f32⟩
  | 2 => ⟨S768, .f32⟩
  | 3 => ⟨S256x512, .f32⟩
  | 4 => ⟨S512x512, .f32⟩
  | 5 => ⟨S256x768, .f32⟩
  | 6 => ⟨S131071x768, .f32⟩
  | 7 => ⟨S1x768, .f32⟩
  | 8 => ⟨S131071x768, .f32⟩
  | 9 => ⟨S131071x768, .f32⟩
  | 10 => ⟨S131071x256, .f32⟩
  | 11 => ⟨S131071x512, .f32⟩
  | 12 => ⟨S_, .f32⟩
  | 13 => ⟨S131071x256, .f32⟩
  | 14 => ⟨S65536x512, .f32⟩
  | 15 => ⟨S65536x256, .f32⟩
  | 16 => ⟨S65536x512, .f32⟩
  | 17 => ⟨S65536x512, .f32⟩
  | 18 => ⟨S_, .f32⟩
  | 19 => ⟨S65536x512, .f32⟩
  | 20 => ⟨S65536x512, .f32⟩
  | 21 => ⟨S_, .f32⟩
  | 22 => ⟨S65536x512, .f32⟩
  | 23 => ⟨S65536x512, .f32⟩
  | 24 => ⟨S65536x2x256, .f32⟩
  | 25 => ⟨S_, .f32⟩
  | 26 => ⟨S65536x256, .f32⟩
  | 27 => ⟨S_, .f32⟩
  | 28 => ⟨S65536x256, .f32⟩
  | 29 => ⟨S65536x256, .f32⟩
  | 30 => ⟨S65536x256, .f32⟩
  | 31 => ⟨S65536x256, .f32⟩
  | 32 => ⟨S_, .i32⟩
  | 33 => ⟨S1, .i32⟩
  | 34 => ⟨S131071x256, .f32⟩
  | 35 => ⟨S32768x512, .f32⟩
  | 36 => ⟨S32768x256, .f32⟩
  | 37 => ⟨S65536x256, .f32⟩
  | 38 => ⟨S32768x512, .f32⟩
  | 39 => ⟨S512x512, .f32⟩
  | 40 => ⟨S32768x512, .f32⟩
  | 41 => ⟨S32768x512, .f32⟩
  | 42 => ⟨S512x256, .f32⟩
  | 43 => ⟨S32768x256, .f32⟩
  | 44 => ⟨S32768x2x256, .f32⟩
  | 45 => ⟨S_, .f32⟩
  | 46 => ⟨S32768x256, .f32⟩
  | 47 => ⟨S32768x512, .f32⟩
  | 48 => ⟨S32768x512, .f32⟩
  | 49 => ⟨S32768x512, .f32⟩
  | 50 => ⟨S_, .f32⟩
  | 51 => ⟨S32768x512, .f32⟩
  | 52 => ⟨S32768x512, .f32⟩
  | 53 => ⟨S_, .f32⟩
  | 54 => ⟨S32768x512, .f32⟩
  | 55 => ⟨S32768x512, .f32⟩
  | 56 => ⟨S32768x2x256, .f32⟩
  | 57 => ⟨S_, .f32⟩
  | 58 => ⟨S32768x256, .f32⟩
  | 59 => ⟨S_, .f32⟩
  | 60 => ⟨S32768x256, .f32⟩
  | 61 => ⟨S32768x256, .f32⟩
  | 62 => ⟨S32768x256, .f32⟩
  | 63 => ⟨S32768x256, .f32⟩
  | 64 => ⟨S32768x256, .f32⟩
  | 65 => ⟨S32768x256, .f32⟩
  | 66 => ⟨S_, .i32⟩
  | 67 => ⟨S1, .i32⟩
  | 68 => ⟨S131071x256, .f32⟩
  | 69 => ⟨S16384x512, .f32⟩
  | 70 => ⟨S16384x256, .f32⟩
  | 71 => ⟨S32768x256, .f32⟩
  | 72 => ⟨S16384x512, .f32⟩
  | 73 => ⟨S512x512, .f32⟩
  | 74 => ⟨S16384x512, .f32⟩
  | 75 => ⟨S16384x512, .f32⟩
  | 76 => ⟨S512x256, .f32⟩
  | 77 => ⟨S16384x256, .f32⟩
  | 78 => ⟨S16384x2x256, .f32⟩
  | 79 => ⟨S_, .f32⟩
  | 80 => ⟨S16384x256, .f32⟩
  | 81 => ⟨S16384x512, .f32⟩
  | 82 => ⟨S16384x512, .f32⟩
  | 83 => ⟨S16384x512, .f32⟩
  | 84 => ⟨S_, .f32⟩
  | 85 => ⟨S16384x512, .f32⟩
  | 86 => ⟨S16384x512, .f32⟩
  | 87 => ⟨S_, .f32⟩
  | 88 => ⟨S16384x512, .f32⟩
  | 89 => ⟨S16384x512, .f32⟩
  | 90 => ⟨S16384x2x256, .f32⟩
  | 91 => ⟨S_, .f32⟩
  | 92 => ⟨S16384x256, .f32⟩
  | 93 => ⟨S_, .f32⟩
  | 94 => ⟨S16384x256, .f32⟩
  | 95 => ⟨S16384x256, .f32⟩
  | 96 => ⟨S16384x256, .f32⟩
  | 97 => ⟨S16384x256, .f32⟩
  | 98 => ⟨S16384x256, .f32⟩
  | 99 => ⟨S16384x256, .f32⟩
  | 100 => ⟨S_, .i32⟩
  | 101 => ⟨S1, .i32⟩
  | 102 => ⟨S131071x256, .f32⟩
  | 103 => ⟨S8192x512, .f32⟩
  | 104 => ⟨S8192x256, .f32⟩
  | 105 => ⟨S16384x256, .f32⟩
  | 106 => ⟨S8192x512, .f32⟩
  | 107 => ⟨S512x512, .f32⟩
  | 108 => ⟨S8192x512, .f32⟩
  | 109 => ⟨S8192x512, .f32⟩
  | 110 => ⟨S512x256, .f32⟩
  | 111 => ⟨S8192x256, .f32⟩
  | 112 => ⟨S8192x2x256, .f32⟩
  | 113 => ⟨S_, .f32⟩
  | 114 => ⟨S8192x256, .f32⟩
  | 115 => ⟨S8192x512, .f32⟩
  | 116 => ⟨S8192x512, .f32⟩
  | 117 => ⟨S8192x512, .f32⟩
  | 118 => ⟨S_, .f32⟩
  | 119 => ⟨S8192x512, .f32⟩
  | 120 => ⟨S8192x512, .f32⟩
  | 121 => ⟨S_, .f32⟩
  | 122 => ⟨S8192x512, .f32⟩
  | 123 => ⟨S8192x512, .f32⟩
  | 124 => ⟨S8192x2x256, .f32⟩
  | 125 => ⟨S_, .f32⟩
  | 126 => ⟨S8192x256, .f32⟩
  | 127 => ⟨S_, .f32⟩
  | _ => ⟨S131071x256, .f32⟩

abbrev hbmTy0_1 (i : Nat) : BufTy := match i % 128 with
  | 0 => ⟨S8192x256, .f32⟩
  | 1 => ⟨S8192x256, .f32⟩
  | 2 => ⟨S8192x256, .f32⟩
  | 3 => ⟨S8192x256, .f32⟩
  | 4 => ⟨S8192x256, .f32⟩
  | 5 => ⟨S8192x256, .f32⟩
  | 6 => ⟨S_, .i32⟩
  | 7 => ⟨S1, .i32⟩
  | 8 => ⟨S131071x256, .f32⟩
  | 9 => ⟨S4096x512, .f32⟩
  | 10 => ⟨S4096x256, .f32⟩
  | 11 => ⟨S8192x256, .f32⟩
  | 12 => ⟨S4096x512, .f32⟩
  | 13 => ⟨S512x512, .f32⟩
  | 14 => ⟨S4096x512, .f32⟩
  | 15 => ⟨S4096x512, .f32⟩
  | 16 => ⟨S512x256, .f32⟩
  | 17 => ⟨S4096x256, .f32⟩
  | 18 => ⟨S4096x2x256, .f32⟩
  | 19 => ⟨S_, .f32⟩
  | 20 => ⟨S4096x256, .f32⟩
  | 21 => ⟨S4096x512, .f32⟩
  | 22 => ⟨S4096x512, .f32⟩
  | 23 => ⟨S4096x512, .f32⟩
  | 24 => ⟨S_, .f32⟩
  | 25 => ⟨S4096x512, .f32⟩
  | 26 => ⟨S4096x512, .f32⟩
  | 27 => ⟨S_, .f32⟩
  | 28 => ⟨S4096x512, .f32⟩
  | 29 => ⟨S4096x512, .f32⟩
  | 30 => ⟨S4096x2x256, .f32⟩
  | 31 => ⟨S_, .f32⟩
  | 32 => ⟨S4096x256, .f32⟩
  | 33 => ⟨S_, .f32⟩
  | 34 => ⟨S4096x256, .f32⟩
  | 35 => ⟨S4096x256, .f32⟩
  | 36 => ⟨S4096x256, .f32⟩
  | 37 => ⟨S4096x256, .f32⟩
  | 38 => ⟨S4096x256, .f32⟩
  | 39 => ⟨S4096x256, .f32⟩
  | 40 => ⟨S_, .i32⟩
  | 41 => ⟨S1, .i32⟩
  | 42 => ⟨S131071x256, .f32⟩
  | 43 => ⟨S2048x512, .f32⟩
  | 44 => ⟨S2048x256, .f32⟩
  | 45 => ⟨S4096x256, .f32⟩
  | 46 => ⟨S2048x512, .f32⟩
  | 47 => ⟨S512x512, .f32⟩
  | 48 => ⟨S2048x512, .f32⟩
  | 49 => ⟨S2048x512, .f32⟩
  | 50 => ⟨S512x256, .f32⟩
  | 51 => ⟨S2048x256, .f32⟩
  | 52 => ⟨S2048x2x256, .f32⟩
  | 53 => ⟨S_, .f32⟩
  | 54 => ⟨S2048x256, .f32⟩
  | 55 => ⟨S2048x512, .f32⟩
  | 56 => ⟨S2048x512, .f32⟩
  | 57 => ⟨S2048x512, .f32⟩
  | 58 => ⟨S_, .f32⟩
  | 59 => ⟨S2048x512, .f32⟩
  | 60 => ⟨S2048x512, .f32⟩
  | 61 => ⟨S_, .f32⟩
  | 62 => ⟨S2048x512, .f32⟩
  | 63 => ⟨S2048x512, .f32⟩
  | 64 => ⟨S2048x2x256, .f32⟩
  | 65 => ⟨S_, .f32⟩
  | 66 => ⟨S2048x256, .f32⟩
  | 67 => ⟨S_, .f32⟩
  | 68 => ⟨S2048x256, .f32⟩
  | 69 => ⟨S2048x256, .f32⟩
  | 70 => ⟨S2048x256, .f32⟩
  | 71 => ⟨S2048x256, .f32⟩
  | 72 => ⟨S2048x256, .f32⟩
  | 73 => ⟨S2048x256, .f32⟩
  | 74 => ⟨S_, .i32⟩
  | 75 => ⟨S1, .i32⟩
  | 76 => ⟨S131071x256, .f32⟩
  | 77 => ⟨S1024x512, .f32⟩
  | 78 => ⟨S1024x256, .f32⟩
  | 79 => ⟨S2048x256, .f32⟩
  | 80 => ⟨S1024x512, .f32⟩
  | 81 => ⟨S512x512, .f32⟩
  | 82 => ⟨S1024x512, .f32⟩
  | 83 => ⟨S1024x512, .f32⟩
  | 84 => ⟨S512x256, .f32⟩
  | 85 => ⟨S1024x256, .f32⟩
  | 86 => ⟨S1024x2x256, .f32⟩
  | 87 => ⟨S_, .f32⟩
  | 88 => ⟨S1024x256, .f32⟩
  | 89 => ⟨S1024x512, .f32⟩
  | 90 => ⟨S1024x512, .f32⟩
  | 91 => ⟨S1024x512, .f32⟩
  | 92 => ⟨S_, .f32⟩
  | 93 => ⟨S1024x512, .f32⟩
  | 94 => ⟨S1024x512, .f32⟩
  | 95 => ⟨S_, .f32⟩
  | 96 => ⟨S1024x512, .f32⟩
  | 97 => ⟨S1024x512, .f32⟩
  | 98 => ⟨S1024x2x256, .f32⟩
  | 99 => ⟨S_, .f32⟩
  | 100 => ⟨S1024x256, .f32⟩
  | 101 => ⟨S_, .f32⟩
  | 102 => ⟨S1024x256, .f32⟩
  | 103 => ⟨S1024x256, .f32⟩
  | 104 => ⟨S1024x256, .f32⟩
  | 105 => ⟨S1024x256, .f32⟩
  | 106 => ⟨S1024x256, .f32⟩
  | 107 => ⟨S1024x256, .f32⟩
  | 108 => ⟨S_, .i32⟩
  | 109 => ⟨S1, .i32⟩
  | 110 => ⟨S131071x256, .f32⟩
  | 111 => ⟨S512x512, .f32⟩
  | 112 => ⟨S512x256, .f32⟩
  | 113 => ⟨S1024x256, .f32⟩
  | 114 => ⟨S512x512, .f32⟩
  | 115 => ⟨S512x512, .f32⟩
  | 116 => ⟨S512x512, .f32⟩
  | 117 => ⟨S512x512, .f32⟩
  | 118 => ⟨S512x256, .f32⟩
  | 119 => ⟨S512x256, .f32⟩
  | 120 => ⟨S512x2x256, .f32⟩
  | 121 => ⟨S_, .f32⟩
  | 122 => ⟨S512x256, .f32⟩
  | 123 => ⟨S512x512, .f32⟩
  | 124 => ⟨S512x512, .f32⟩
  | 125 => ⟨S512x512, .f32⟩
  | 126 => ⟨S_, .f32⟩
  | 127 => ⟨S512x512, .f32⟩
  | _ => ⟨S131071x256, .f32⟩

abbrev hbmTy0_2 (i : Nat) : BufTy := match i % 128 with
  | 0 => ⟨S512x512, .f32⟩
  | 1 => ⟨S_, .f32⟩
  | 2 => ⟨S512x512, .f32⟩
  | 3 => ⟨S512x512, .f32⟩
  | 4 => ⟨S512x2x256, .f32⟩
  | 5 => ⟨S_, .f32⟩
  | 6 => ⟨S512x256, .f32⟩
  | 7 => ⟨S_, .f32⟩
  | 8 => ⟨S512x256, .f32⟩
  | 9 => ⟨S512x256, .f32⟩
  | 10 => ⟨S512x256, .f32⟩
  | 11 => ⟨S512x256, .f32⟩
  | 12 => ⟨S512x256, .f32⟩
  | 13 => ⟨S512x256, .f32⟩
  | 14 => ⟨S_, .i32⟩
  | 15 => ⟨S1, .i32⟩
  | 16 => ⟨S131071x256, .f32⟩
  | 17 => ⟨S256x512, .f32⟩
  | 18 => ⟨S256x256, .f32⟩
  | 19 => ⟨S512x256, .f32⟩
  | 20 => ⟨S256x512, .f32⟩
  | 21 => ⟨S512x512, .f32⟩
  | 22 => ⟨S256x512, .f32⟩
  | 23 => ⟨S256x512, .f32⟩
  | 24 => ⟨S512x256, .f32⟩
  | 25 => ⟨S256x256, .f32⟩
  | 26 => ⟨S256x2x256, .f32⟩
  | 27 => ⟨S_, .f32⟩
  | 28 => ⟨S256x256, .f32⟩
  | 29 => ⟨S256x512, .f32⟩
  | 30 => ⟨S256x512, .f32⟩
  | 31 => ⟨S256x512, .f32⟩
  | 32 => ⟨S_, .f32⟩
  | 33 => ⟨S256x512, .f32⟩
  | 34 => ⟨S256x512, .f32⟩
  | 35 => ⟨S_, .f32⟩
  | 36 => ⟨S256x512, .f32⟩
  | 37 => ⟨S256x512, .f32⟩
  | 38 => ⟨S256x2x256, .f32⟩
  | 39 => ⟨S_, .f32⟩
  | 40 => ⟨S256x256, .f32⟩
  | 41 => ⟨S_, .f32⟩
  | 42 => ⟨S256x256, .f32⟩
  | 43 => ⟨S256x256, .f32⟩
  | 44 => ⟨S256x256, .f32⟩
  | 45 => ⟨S256x256, .f32⟩
  | 46 => ⟨S256x256, .f32⟩
  | 47 => ⟨S256x256, .f32⟩
  | 48 => ⟨S_, .i32⟩
  | 49 => ⟨S1, .i32⟩
  | 50 => ⟨S131071x256, .f32⟩
  | 51 => ⟨S128x512, .f32⟩
  | 52 => ⟨S128x256, .f32⟩
  | 53 => ⟨S256x256, .f32⟩
  | 54 => ⟨S128x512, .f32⟩
  | 55 => ⟨S512x512, .f32⟩
  | 56 => ⟨S128x512, .f32⟩
  | 57 => ⟨S128x512, .f32⟩
  | 58 => ⟨S512x256, .f32⟩
  | 59 => ⟨S128x256, .f32⟩
  | 60 => ⟨S128x2x256, .f32⟩
  | 61 => ⟨S_, .f32⟩
  | 62 => ⟨S128x256, .f32⟩
  | 63 => ⟨S128x512, .f32⟩
  | 64 => ⟨S128x512, .f32⟩
  | 65 => ⟨S128x512, .f32⟩
  | 66 => ⟨S_, .f32⟩
  | 67 => ⟨S128x512, .f32⟩
  | 68 => ⟨S128x512, .f32⟩
  | 69 => ⟨S_, .f32⟩
  | 70 => ⟨S128x512, .f32⟩
  | 71 => ⟨S128x512, .f32⟩
  | 72 => ⟨S128x2x256, .f32⟩
  | 73 => ⟨S_, .f32⟩
  | 74 => ⟨S128x256, .f32⟩
  | 75 => ⟨S_, .f32⟩
  | 76 => ⟨S128x256, .f32⟩
  | 77 => ⟨S128x256, .f32⟩
  | 78 => ⟨S128x256, .f32⟩
  | 79 => ⟨S128x256, .f32⟩
  | 80 => ⟨S128x256, .f32⟩
  | 81 => ⟨S128x256, .f32⟩
  | 82 => ⟨S_, .i32⟩
  | 83 => ⟨S1, .i32⟩
  | 84 => ⟨S131071x256, .f32⟩
  | 85 => ⟨S64x512, .f32⟩
  | 86 => ⟨S64x256, .f32⟩
  | 87 => ⟨S128x256, .f32⟩
  | 88 => ⟨S64x512, .f32⟩
  | 89 => ⟨S512x512, .f32⟩
  | 90 => ⟨S64x512, .f32⟩
  | 91 => ⟨S64x512, .f32⟩
  | 92 => ⟨S512x256, .f32⟩
  | 93 => ⟨S64x256, .f32⟩
  | 94 => ⟨S64x2x256, .f32⟩
  | 95 => ⟨S_, .f32⟩
  | 96 => ⟨S64x256, .f32⟩
  | 97 => ⟨S64x512, .f32⟩
  | 98 => ⟨S64x512, .f32⟩
  | 99 => ⟨S64x512, .f32⟩
  | 100 => ⟨S_, .f32⟩
  | 101 => ⟨S64x512, .f32⟩
  | 102 => ⟨S64x512, .f32⟩
  | 103 => ⟨S_, .f32⟩
  | 104 => ⟨S64x512, .f32⟩
  | 105 => ⟨S64x512, .f32⟩
  | 106 => ⟨S64x2x256, .f32⟩
  | 107 => ⟨S_, .f32⟩
  | 108 => ⟨S64x256, .f32⟩
  | 109 => ⟨S_, .f32⟩
  | 110 => ⟨S64x256, .f32⟩
  | 111 => ⟨S64x256, .f32⟩
  | 112 => ⟨S64x256, .f32⟩
  | 113 => ⟨S64x256, .f32⟩
  | 114 => ⟨S64x256, .f32⟩
  | 115 => ⟨S64x256, .f32⟩
  | 116 => ⟨S_, .i32⟩
  | 117 => ⟨S1, .i32⟩
  | 118 => ⟨S131071x256, .f32⟩
  | 119 => ⟨S32x512, .f32⟩
  | 120 => ⟨S32x256, .f32⟩
  | 121 => ⟨S64x256, .f32⟩
  | 122 => ⟨S32x512, .f32⟩
  | 123 => ⟨S512x512, .f32⟩
  | 124 => ⟨S32x512, .f32⟩
  | 125 => ⟨S32x512, .f32⟩
  | 126 => ⟨S512x256, .f32⟩
  | 127 => ⟨S32x256, .f32⟩
  | _ => ⟨S131071x256, .f32⟩

abbrev hbmTy0_3 (i : Nat) : BufTy := match i % 128 with
  | 0 => ⟨S32x2x256, .f32⟩
  | 1 => ⟨S_, .f32⟩
  | 2 => ⟨S32x256, .f32⟩
  | 3 => ⟨S32x512, .f32⟩
  | 4 => ⟨S32x512, .f32⟩
  | 5 => ⟨S32x512, .f32⟩
  | 6 => ⟨S_, .f32⟩
  | 7 => ⟨S32x512, .f32⟩
  | 8 => ⟨S32x512, .f32⟩
  | 9 => ⟨S_, .f32⟩
  | 10 => ⟨S32x512, .f32⟩
  | 11 => ⟨S32x512, .f32⟩
  | 12 => ⟨S32x2x256, .f32⟩
  | 13 => ⟨S_, .f32⟩
  | 14 => ⟨S32x256, .f32⟩
  | 15 => ⟨S_, .f32⟩
  | 16 => ⟨S32x256, .f32⟩
  | 17 => ⟨S32x256, .f32⟩
  | 18 => ⟨S32x256, .f32⟩
  | 19 => ⟨S32x256, .f32⟩
  | 20 => ⟨S32x256, .f32⟩
  | 21 => ⟨S32x256, .f32⟩
  | 22 => ⟨S_, .i32⟩
  | 23 => ⟨S1, .i32⟩
  | 24 => ⟨S131071x256, .f32⟩
  | 25 => ⟨S16x512, .f32⟩
  | 26 => ⟨S16x256, .f32⟩
  | 27 => ⟨S32x256, .f32⟩
  | 28 => ⟨S16x512, .f32⟩
  | 29 => ⟨S512x512, .f32⟩
  | 30 => ⟨S16x512, .f32⟩
  | 31 => ⟨S16x512, .f32⟩
  | 32 => ⟨S512x256, .f32⟩
  | 33 => ⟨S16x256, .f32⟩
  | 34 => ⟨S16x2x256, .f32⟩
  | 35 => ⟨S_, .f32⟩
  | 36 => ⟨S16x256, .f32⟩
  | 37 => ⟨S16x512, .f32⟩
  | 38 => ⟨S16x512, .f32⟩
  | 39 => ⟨S16x512, .f32⟩
  | 40 => ⟨S_, .f32⟩
  | 41 => ⟨S16x512, .f32⟩
  | 42 => ⟨S16x512, .f32⟩
  | 43 => ⟨S_, .f32⟩
  | 44 => ⟨S16x512, .f32⟩
  | 45 => ⟨S16x512, .f32⟩
  | 46 => ⟨S16x2x256, .f32⟩
  | 47 => ⟨S_, .f32⟩
  | 48 => ⟨S16x256, .f32⟩
  | 49 => ⟨S_, .f32⟩
  | 50 => ⟨S16x256, .f32⟩
  | 51 => ⟨S16x256, .f32⟩
  | 52 => ⟨S16x256, .f32⟩
  | 53 => ⟨S16x256, .f32⟩
  | 54 => ⟨S16x256, .f32⟩
  | 55 => ⟨S16x256, .f32⟩
  | 56 => ⟨S_, .i32⟩
  | 57 => ⟨S1, .i32⟩
  | 58 => ⟨S131071x256, .f32⟩
  | 59 => ⟨S8x512, .f32⟩
  | 60 => ⟨S8x256, .f32⟩
  | 61 => ⟨S16x256, .f32⟩
  | 62 => ⟨S8x512, .f32⟩
  | 63 => ⟨S512x512, .f32⟩
  | 64 => ⟨S8x512, .f32⟩
  | 65 => ⟨S8x512, .f32⟩
  | 66 => ⟨S512x256, .f32⟩
  | 67 => ⟨S8x256, .f32⟩
  | 68 => ⟨S8x2x256, .f32⟩
  | 69 => ⟨S_, .f32⟩
  | 70 => ⟨S8x256, .f32⟩
  | 71 => ⟨S8x512, .f32⟩
  | 72 => ⟨S8x512, .f32⟩
  | 73 => ⟨S8x512, .f32⟩
  | 74 => ⟨S_, .f32⟩
  | 75 => ⟨S8x512, .f32⟩
  | 76 => ⟨S8x512, .f32⟩
  | 77 => ⟨S_, .f32⟩
  | 78 => ⟨S8x512, .f32⟩
  | 79 => ⟨S8x512, .f32⟩
  | 80 => ⟨S8x2x256, .f32⟩
  | 81 => ⟨S_, .f32⟩
  | 82 => ⟨S8x256, .f32⟩
  | 83 => ⟨S_, .f32⟩
  | 84 => ⟨S8x256, .f32⟩
  | 85 => ⟨S8x256, .f32⟩
  | 86 => ⟨S8x256, .f32⟩
  | 87 => ⟨S8x256, .f32⟩
  | 88 => ⟨S8x256, .f32⟩
  | 89 => ⟨S8x256, .f32⟩
  | 90 => ⟨S_, .i32⟩
  | 91 => ⟨S1, .i32⟩
  | 92 => ⟨S131071x256, .f32⟩
  | 93 => ⟨S4x512, .f32⟩
  | 94 => ⟨S4x256, .f32⟩
  | 95 => ⟨S8x256, .f32⟩
  | 96 => ⟨S4x512, .f32⟩
  | 97 => ⟨S512x512, .f32⟩
  | 98 => ⟨S4x512, .f32⟩
  | 99 => ⟨S4x512, .f32⟩
  | 100 => ⟨S512x256, .f32⟩
  | 101 => ⟨S4x256, .f32⟩
  | 102 => ⟨S4x2x256, .f32⟩
  | 103 => ⟨S_, .f32⟩
  | 104 => ⟨S4x256, .f32⟩
  | 105 => ⟨S4x512, .f32⟩
  | 106 => ⟨S4x512, .f32⟩
  | 107 => ⟨S4x512, .f32⟩
  | 108 => ⟨S_, .f32⟩
  | 109 => ⟨S4x512, .f32⟩
  | 110 => ⟨S4x512, .f32⟩
  | 111 => ⟨S_, .f32⟩
  | 112 => ⟨S4x512, .f32⟩
  | 113 => ⟨S4x512, .f32⟩
  | 114 => ⟨S4x2x256, .f32⟩
  | 115 => ⟨S_, .f32⟩
  | 116 => ⟨S4x256, .f32⟩
  | 117 => ⟨S_, .f32⟩
  | 118 => ⟨S4x256, .f32⟩
  | 119 => ⟨S4x256, .f32⟩
  | 120 => ⟨S4x256, .f32⟩
  | 121 => ⟨S4x256, .f32⟩
  | 122 => ⟨S4x256, .f32⟩
  | 123 => ⟨S4x256, .f32⟩
  | 124 => ⟨S_, .i32⟩
  | 125 => ⟨S1, .i32⟩
  | 126 => ⟨S131071x256, .f32⟩
  | 127 => ⟨S2x512, .f32⟩
  | _ => ⟨S131071x256, .f32⟩

abbrev hbmTy0_4 (i : Nat) : BufTy := match i % 128 with
  | 0 => ⟨S2x256, .f32⟩
  | 1 => ⟨S4x256, .f32⟩
  | 2 => ⟨S2x512, .f32⟩
  | 3 => ⟨S512x512, .f32⟩
  | 4 => ⟨S2x512, .f32⟩
  | 5 => ⟨S2x512, .f32⟩
  | 6 => ⟨S512x256, .f32⟩
  | 7 => ⟨S2x256, .f32⟩
  | 8 => ⟨S2x2x256, .f32⟩
  | 9 => ⟨S_, .f32⟩
  | 10 => ⟨S2x256, .f32⟩
  | 11 => ⟨S2x512, .f32⟩
  | 12 => ⟨S2x512, .f32⟩
  | 13 => ⟨S2x512, .f32⟩
  | 14 => ⟨S_, .f32⟩
  | 15 => ⟨S2x512, .f32⟩
  | 16 => ⟨S2x512, .f32⟩
  | 17 => ⟨S_, .f32⟩
  | 18 => ⟨S2x512, .f32⟩
  | 19 => ⟨S2x512, .f32⟩
  | 20 => ⟨S2x2x256, .f32⟩
  | 21 => ⟨S_, .f32⟩
  | 22 => ⟨S2x256, .f32⟩
  | 23 => ⟨S_, .f32⟩
  | 24 => ⟨S2x256, .f32⟩
  | 25 => ⟨S2x256, .f32⟩
  | 26 => ⟨S2x256, .f32⟩
  | 27 => ⟨S2x256, .f32⟩
  | 28 => ⟨S2x256, .f32⟩
  | 29 => ⟨S2x256, .f32⟩
  | 30 => ⟨S_, .i32⟩
  | 31 => ⟨S1, .i32⟩
  | 32 => ⟨S131071x256, .f32⟩
  | 33 => ⟨S1x512, .f32⟩
  | 34 => ⟨S1x256, .f32⟩
  | 35 => ⟨S2x256, .f32⟩
  | 36 => ⟨S1x512, .f32⟩
  | 37 => ⟨S512x512, .f32⟩
  | 38 => ⟨S1x512, .f32⟩
  | 39 => ⟨S1x512, .f32⟩
  | 40 => ⟨S512x256, .f32⟩
  | 41 => ⟨S1x256, .f32⟩
  | 42 => ⟨S1x2x256, .f32⟩
  | 43 => ⟨S_, .f32⟩
  | 44 => ⟨S1x256, .f32⟩
  | 45 => ⟨S1x512, .f32⟩
  | 46 => ⟨S1x512, .f32⟩
  | 47 => ⟨S1x512, .f32⟩
  | 48 => ⟨S_, .f32⟩
  | 49 => ⟨S1x512, .f32⟩
  | 50 => ⟨S1x512, .f32⟩
  | 51 => ⟨S_, .f32⟩
  | 52 => ⟨S1x512, .f32⟩
  | 53 => ⟨S1x512, .f32⟩
  | 54 => ⟨S1x2x256, .f32⟩
  | 55 => ⟨S_, .f32⟩
  | 56 => ⟨S1x256, .f32⟩
  | 57 => ⟨S_, .f32⟩
  | 58 => ⟨S1x256, .f32⟩
  | 59 => ⟨S1x256, .f32⟩
  | 60 => ⟨S1x256, .f32⟩
  | 61 => ⟨S1x256, .f32⟩
  | 62 => ⟨S1x256, .f32⟩
  | 63 => ⟨S1x256, .f32⟩
  | 64 => ⟨S_, .i32⟩
  | 65 => ⟨S1, .i32⟩
  | 66 => ⟨S131071x256, .f32⟩
  | _ => ⟨S131071x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S131071x256, .f32⟩

abbrev bufTy : (tb : Table) → Fin (tcTables nBuf tb) → BufTy
  | .hbm, ⟨i, _⟩ => hbmTy i
  | _, _ => ⟨S131071x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_c_9 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_10 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_11 : Ref sig .tc := ⟨.hbm, 84, rfl⟩
abbrev main_v66 : Ref sig .tc := ⟨.hbm, 85, rfl⟩
abbrev main_v67 : Ref sig .tc := ⟨.hbm, 86, rfl⟩
abbrev main_cst_12 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_13 : Ref sig .tc := ⟨.hbm, 91, rfl⟩
abbrev main_v71 : Ref sig .tc := ⟨.hbm, 92, rfl⟩
abbrev main_cst_14 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_c_15 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_cst_16 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_cst_17 : Ref sig .tc := ⟨.hbm, 118, rfl⟩
abbrev main_v94 : Ref sig .tc := ⟨.hbm, 119, rfl⟩
abbrev main_v95 : Ref sig .tc := ⟨.hbm, 120, rfl⟩
abbrev main_cst_18 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_cst_19 : Ref sig .tc := ⟨.hbm, 125, rfl⟩
abbrev main_v99 : Ref sig .tc := ⟨.hbm, 126, rfl⟩
abbrev main_cst_20 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_c_21 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_cst_22 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_cst_23 : Ref sig .tc := ⟨.hbm, 152, rfl⟩
abbrev main_v122 : Ref sig .tc := ⟨.hbm, 153, rfl⟩
abbrev main_v123 : Ref sig .tc := ⟨.hbm, 154, rfl⟩
abbrev main_cst_24 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_cst_25 : Ref sig .tc := ⟨.hbm, 159, rfl⟩
abbrev main_v127 : Ref sig .tc := ⟨.hbm, 160, rfl⟩
abbrev main_cst_26 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_c_27 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_cst_28 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_cst_29 : Ref sig .tc := ⟨.hbm, 186, rfl⟩
abbrev main_v150 : Ref sig .tc := ⟨.hbm, 187, rfl⟩
abbrev main_v151 : Ref sig .tc := ⟨.hbm, 188, rfl⟩
abbrev main_cst_30 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_cst_31 : Ref sig .tc := ⟨.hbm, 193, rfl⟩
abbrev main_v155 : Ref sig .tc := ⟨.hbm, 194, rfl⟩
abbrev main_cst_32 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_c_33 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_cst_34 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_v177 : Ref sig .tc := ⟨.hbm, 219, rfl⟩
abbrev main_cst_35 : Ref sig .tc := ⟨.hbm, 220, rfl⟩
abbrev main_v178 : Ref sig .tc := ⟨.hbm, 221, rfl⟩
abbrev main_v179 : Ref sig .tc := ⟨.hbm, 222, rfl⟩
abbrev main_cst_36 : Ref sig .tc := ⟨.hbm, 223, rfl⟩
abbrev main_v180 : Ref sig .tc := ⟨.hbm, 224, rfl⟩
abbrev main_v181 : Ref sig .tc := ⟨.hbm, 225, rfl⟩
abbrev main_v182 : Ref sig .tc := ⟨.hbm, 226, rfl⟩
abbrev main_cst_37 : Ref sig .tc := ⟨.hbm, 227, rfl⟩
abbrev main_v183 : Ref sig .tc := ⟨.hbm, 228, rfl⟩
abbrev main_cst_38 : Ref sig .tc := ⟨.hbm, 229, rfl⟩
abbrev main_v184 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_c_39 : Ref sig .tc := ⟨.hbm, 236, rfl⟩
abbrev main_v190 : Ref sig .tc := ⟨.hbm, 237, rfl⟩
abbrev main_v191 : Ref sig .tc := ⟨.hbm, 238, rfl⟩
abbrev main_v192 : Ref sig .tc := ⟨.hbm, 239, rfl⟩
abbrev main_v193 : Ref sig .tc := ⟨.hbm, 240, rfl⟩
abbrev main_v194 : Ref sig .tc := ⟨.hbm, 241, rfl⟩
abbrev main_v195 : Ref sig .tc := ⟨.hbm, 242, rfl⟩
abbrev main_v196 : Ref sig .tc := ⟨.hbm, 243, rfl⟩
abbrev main_v197 : Ref sig .tc := ⟨.hbm, 244, rfl⟩
abbrev main_v198 : Ref sig .tc := ⟨.hbm, 245, rfl⟩
abbrev main_v199 : Ref sig .tc := ⟨.hbm, 246, rfl⟩
abbrev main_v200 : Ref sig .tc := ⟨.hbm, 247, rfl⟩
abbrev main_v201 : Ref sig .tc := ⟨.hbm, 248, rfl⟩
abbrev main_cst_40 : Ref sig .tc := ⟨.hbm, 249, rfl⟩
abbrev main_v202 : Ref sig .tc := ⟨.hbm, 250, rfl⟩
abbrev main_v203 : Ref sig .tc := ⟨.hbm, 251, rfl⟩
abbrev main_v204 : Ref sig .tc := ⟨.hbm, 252, rfl⟩
abbrev main_v205 : Ref sig .tc := ⟨.hbm, 253, rfl⟩
abbrev main_cst_41 : Ref sig .tc := ⟨.hbm, 254, rfl⟩
abbrev main_v206 : Ref sig .tc := ⟨.hbm, 255, rfl⟩
abbrev main_v207 : Ref sig .tc := ⟨.hbm, 256, rfl⟩
abbrev main_cst_42 : Ref sig .tc := ⟨.hbm, 257, rfl⟩
abbrev main_v208 : Ref sig .tc := ⟨.hbm, 258, rfl⟩
abbrev main_v209 : Ref sig .tc := ⟨.hbm, 259, rfl⟩
abbrev main_v210 : Ref sig .tc := ⟨.hbm, 260, rfl⟩
abbrev main_cst_43 : Ref sig .tc := ⟨.hbm, 261, rfl⟩
abbrev main_v211 : Ref sig .tc := ⟨.hbm, 262, rfl⟩
abbrev main_cst_44 : Ref sig .tc := ⟨.hbm, 263, rfl⟩
abbrev main_v212 : Ref sig .tc := ⟨.hbm, 264, rfl⟩
abbrev main_v213 : Ref sig .tc := ⟨.hbm, 265, rfl⟩
abbrev main_v214 : Ref sig .tc := ⟨.hbm, 266, rfl⟩
abbrev main_v215 : Ref sig .tc := ⟨.hbm, 267, rfl⟩
abbrev main_v216 : Ref sig .tc := ⟨.hbm, 268, rfl⟩
abbrev main_v217 : Ref sig .tc := ⟨.hbm, 269, rfl⟩
abbrev main_c_45 : Ref sig .tc := ⟨.hbm, 270, rfl⟩
abbrev main_v218 : Ref sig .tc := ⟨.hbm, 271, rfl⟩
abbrev main_v219 : Ref sig .tc := ⟨.hbm, 272, rfl⟩
abbrev main_v220 : Ref sig .tc := ⟨.hbm, 273, rfl⟩
abbrev main_v221 : Ref sig .tc := ⟨.hbm, 274, rfl⟩
abbrev main_v222 : Ref sig .tc := ⟨.hbm, 275, rfl⟩
abbrev main_v223 : Ref sig .tc := ⟨.hbm, 276, rfl⟩
abbrev main_v224 : Ref sig .tc := ⟨.hbm, 277, rfl⟩
abbrev main_v225 : Ref sig .tc := ⟨.hbm, 278, rfl⟩
abbrev main_v226 : Ref sig .tc := ⟨.hbm, 279, rfl⟩
abbrev main_v227 : Ref sig .tc := ⟨.hbm, 280, rfl⟩
abbrev main_v228 : Ref sig .tc := ⟨.hbm, 281, rfl⟩
abbrev main_v229 : Ref sig .tc := ⟨.hbm, 282, rfl⟩
abbrev main_cst_46 : Ref sig .tc := ⟨.hbm, 283, rfl⟩
abbrev main_v230 : Ref sig .tc := ⟨.hbm, 284, rfl⟩
abbrev main_v231 : Ref sig .tc := ⟨.hbm, 285, rfl⟩
abbrev main_v232 : Ref sig .tc := ⟨.hbm, 286, rfl⟩
abbrev main_v233 : Ref sig .tc := ⟨.hbm, 287, rfl⟩
abbrev main_cst_47 : Ref sig .tc := ⟨.hbm, 288, rfl⟩
abbrev main_v234 : Ref sig .tc := ⟨.hbm, 289, rfl⟩
abbrev main_v235 : Ref sig .tc := ⟨.hbm, 290, rfl⟩
abbrev main_cst_48 : Ref sig .tc := ⟨.hbm, 291, rfl⟩
abbrev main_v236 : Ref sig .tc := ⟨.hbm, 292, rfl⟩
abbrev main_v237 : Ref sig .tc := ⟨.hbm, 293, rfl⟩
abbrev main_v238 : Ref sig .tc := ⟨.hbm, 294, rfl⟩
abbrev main_cst_49 : Ref sig .tc := ⟨.hbm, 295, rfl⟩
abbrev main_v239 : Ref sig .tc := ⟨.hbm, 296, rfl⟩
abbrev main_cst_50 : Ref sig .tc := ⟨.hbm, 297, rfl⟩
abbrev main_v240 : Ref sig .tc := ⟨.hbm, 298, rfl⟩
abbrev main_v241 : Ref sig .tc := ⟨.hbm, 299, rfl⟩
abbrev main_v242 : Ref sig .tc := ⟨.hbm, 300, rfl⟩
abbrev main_v243 : Ref sig .tc := ⟨.hbm, 301, rfl⟩
abbrev main_v244 : Ref sig .tc := ⟨.hbm, 302, rfl⟩
abbrev main_v245 : Ref sig .tc := ⟨.hbm, 303, rfl⟩
abbrev main_c_51 : Ref sig .tc := ⟨.hbm, 304, rfl⟩
abbrev main_v246 : Ref sig .tc := ⟨.hbm, 305, rfl⟩
abbrev main_v247 : Ref sig .tc := ⟨.hbm, 306, rfl⟩
abbrev main_v248 : Ref sig .tc := ⟨.hbm, 307, rfl⟩
abbrev main_v249 : Ref sig .tc := ⟨.hbm, 308, rfl⟩
abbrev main_v250 : Ref sig .tc := ⟨.hbm, 309, rfl⟩
abbrev main_v251 : Ref sig .tc := ⟨.hbm, 310, rfl⟩
abbrev main_v252 : Ref sig .tc := ⟨.hbm, 311, rfl⟩
abbrev main_v253 : Ref sig .tc := ⟨.hbm, 312, rfl⟩
abbrev main_v254 : Ref sig .tc := ⟨.hbm, 313, rfl⟩
abbrev main_v255 : Ref sig .tc := ⟨.hbm, 314, rfl⟩
abbrev main_v256 : Ref sig .tc := ⟨.hbm, 315, rfl⟩
abbrev main_v257 : Ref sig .tc := ⟨.hbm, 316, rfl⟩
abbrev main_cst_52 : Ref sig .tc := ⟨.hbm, 317, rfl⟩
abbrev main_v258 : Ref sig .tc := ⟨.hbm, 318, rfl⟩
abbrev main_v259 : Ref sig .tc := ⟨.hbm, 319, rfl⟩
abbrev main_v260 : Ref sig .tc := ⟨.hbm, 320, rfl⟩
abbrev main_v261 : Ref sig .tc := ⟨.hbm, 321, rfl⟩
abbrev main_cst_53 : Ref sig .tc := ⟨.hbm, 322, rfl⟩
abbrev main_v262 : Ref sig .tc := ⟨.hbm, 323, rfl⟩
abbrev main_v263 : Ref sig .tc := ⟨.hbm, 324, rfl⟩
abbrev main_cst_54 : Ref sig .tc := ⟨.hbm, 325, rfl⟩
abbrev main_v264 : Ref sig .tc := ⟨.hbm, 326, rfl⟩
abbrev main_v265 : Ref sig .tc := ⟨.hbm, 327, rfl⟩
abbrev main_v266 : Ref sig .tc := ⟨.hbm, 328, rfl⟩
abbrev main_cst_55 : Ref sig .tc := ⟨.hbm, 329, rfl⟩
abbrev main_v267 : Ref sig .tc := ⟨.hbm, 330, rfl⟩
abbrev main_cst_56 : Ref sig .tc := ⟨.hbm, 331, rfl⟩
abbrev main_v268 : Ref sig .tc := ⟨.hbm, 332, rfl⟩
abbrev main_v269 : Ref sig .tc := ⟨.hbm, 333, rfl⟩
abbrev main_v270 : Ref sig .tc := ⟨.hbm, 334, rfl⟩
abbrev main_v271 : Ref sig .tc := ⟨.hbm, 335, rfl⟩
abbrev main_v272 : Ref sig .tc := ⟨.hbm, 336, rfl⟩
abbrev main_v273 : Ref sig .tc := ⟨.hbm, 337, rfl⟩
abbrev main_c_57 : Ref sig .tc := ⟨.hbm, 338, rfl⟩
abbrev main_v274 : Ref sig .tc := ⟨.hbm, 339, rfl⟩
abbrev main_v275 : Ref sig .tc := ⟨.hbm, 340, rfl⟩
abbrev main_v276 : Ref sig .tc := ⟨.hbm, 341, rfl⟩
abbrev main_v277 : Ref sig .tc := ⟨.hbm, 342, rfl⟩
abbrev main_v278 : Ref sig .tc := ⟨.hbm, 343, rfl⟩
abbrev main_v279 : Ref sig .tc := ⟨.hbm, 344, rfl⟩
abbrev main_v280 : Ref sig .tc := ⟨.hbm, 345, rfl⟩
abbrev main_v281 : Ref sig .tc := ⟨.hbm, 346, rfl⟩
abbrev main_v282 : Ref sig .tc := ⟨.hbm, 347, rfl⟩
abbrev main_v283 : Ref sig .tc := ⟨.hbm, 348, rfl⟩
abbrev main_v284 : Ref sig .tc := ⟨.hbm, 349, rfl⟩
abbrev main_v285 : Ref sig .tc := ⟨.hbm, 350, rfl⟩
abbrev main_cst_58 : Ref sig .tc := ⟨.hbm, 351, rfl⟩
abbrev main_v286 : Ref sig .tc := ⟨.hbm, 352, rfl⟩
abbrev main_v287 : Ref sig .tc := ⟨.hbm, 353, rfl⟩
abbrev main_v288 : Ref sig .tc := ⟨.hbm, 354, rfl⟩
abbrev main_v289 : Ref sig .tc := ⟨.hbm, 355, rfl⟩
abbrev main_cst_59 : Ref sig .tc := ⟨.hbm, 356, rfl⟩
abbrev main_v290 : Ref sig .tc := ⟨.hbm, 357, rfl⟩
abbrev main_v291 : Ref sig .tc := ⟨.hbm, 358, rfl⟩
abbrev main_cst_60 : Ref sig .tc := ⟨.hbm, 359, rfl⟩
abbrev main_v292 : Ref sig .tc := ⟨.hbm, 360, rfl⟩
abbrev main_v293 : Ref sig .tc := ⟨.hbm, 361, rfl⟩
abbrev main_v294 : Ref sig .tc := ⟨.hbm, 362, rfl⟩
abbrev main_cst_61 : Ref sig .tc := ⟨.hbm, 363, rfl⟩
abbrev main_v295 : Ref sig .tc := ⟨.hbm, 364, rfl⟩
abbrev main_cst_62 : Ref sig .tc := ⟨.hbm, 365, rfl⟩
abbrev main_v296 : Ref sig .tc := ⟨.hbm, 366, rfl⟩
abbrev main_v297 : Ref sig .tc := ⟨.hbm, 367, rfl⟩
abbrev main_v298 : Ref sig .tc := ⟨.hbm, 368, rfl⟩
abbrev main_v299 : Ref sig .tc := ⟨.hbm, 369, rfl⟩
abbrev main_v300 : Ref sig .tc := ⟨.hbm, 370, rfl⟩
abbrev main_v301 : Ref sig .tc := ⟨.hbm, 371, rfl⟩
abbrev main_c_63 : Ref sig .tc := ⟨.hbm, 372, rfl⟩
abbrev main_v302 : Ref sig .tc := ⟨.hbm, 373, rfl⟩
abbrev main_v303 : Ref sig .tc := ⟨.hbm, 374, rfl⟩
abbrev main_v304 : Ref sig .tc := ⟨.hbm, 375, rfl⟩
abbrev main_v305 : Ref sig .tc := ⟨.hbm, 376, rfl⟩
abbrev main_v306 : Ref sig .tc := ⟨.hbm, 377, rfl⟩
abbrev main_v307 : Ref sig .tc := ⟨.hbm, 378, rfl⟩
abbrev main_v308 : Ref sig .tc := ⟨.hbm, 379, rfl⟩
abbrev main_v309 : Ref sig .tc := ⟨.hbm, 380, rfl⟩
abbrev main_v310 : Ref sig .tc := ⟨.hbm, 381, rfl⟩
abbrev main_v311 : Ref sig .tc := ⟨.hbm, 382, rfl⟩
abbrev main_v312 : Ref sig .tc := ⟨.hbm, 383, rfl⟩
abbrev main_v313 : Ref sig .tc := ⟨.hbm, 384, rfl⟩
abbrev main_cst_64 : Ref sig .tc := ⟨.hbm, 385, rfl⟩
abbrev main_v314 : Ref sig .tc := ⟨.hbm, 386, rfl⟩
abbrev main_v315 : Ref sig .tc := ⟨.hbm, 387, rfl⟩
abbrev main_v316 : Ref sig .tc := ⟨.hbm, 388, rfl⟩
abbrev main_v317 : Ref sig .tc := ⟨.hbm, 389, rfl⟩
abbrev main_cst_65 : Ref sig .tc := ⟨.hbm, 390, rfl⟩
abbrev main_v318 : Ref sig .tc := ⟨.hbm, 391, rfl⟩
abbrev main_v319 : Ref sig .tc := ⟨.hbm, 392, rfl⟩
abbrev main_cst_66 : Ref sig .tc := ⟨.hbm, 393, rfl⟩
abbrev main_v320 : Ref sig .tc := ⟨.hbm, 394, rfl⟩
abbrev main_v321 : Ref sig .tc := ⟨.hbm, 395, rfl⟩
abbrev main_v322 : Ref sig .tc := ⟨.hbm, 396, rfl⟩
abbrev main_cst_67 : Ref sig .tc := ⟨.hbm, 397, rfl⟩
abbrev main_v323 : Ref sig .tc := ⟨.hbm, 398, rfl⟩
abbrev main_cst_68 : Ref sig .tc := ⟨.hbm, 399, rfl⟩
abbrev main_v324 : Ref sig .tc := ⟨.hbm, 400, rfl⟩
abbrev main_v325 : Ref sig .tc := ⟨.hbm, 401, rfl⟩
abbrev main_v326 : Ref sig .tc := ⟨.hbm, 402, rfl⟩
abbrev main_v327 : Ref sig .tc := ⟨.hbm, 403, rfl⟩
abbrev main_v328 : Ref sig .tc := ⟨.hbm, 404, rfl⟩
abbrev main_v329 : Ref sig .tc := ⟨.hbm, 405, rfl⟩
abbrev main_c_69 : Ref sig .tc := ⟨.hbm, 406, rfl⟩
abbrev main_v330 : Ref sig .tc := ⟨.hbm, 407, rfl⟩
abbrev main_v331 : Ref sig .tc := ⟨.hbm, 408, rfl⟩
abbrev main_v332 : Ref sig .tc := ⟨.hbm, 409, rfl⟩
abbrev main_v333 : Ref sig .tc := ⟨.hbm, 410, rfl⟩
abbrev main_v334 : Ref sig .tc := ⟨.hbm, 411, rfl⟩
abbrev main_v335 : Ref sig .tc := ⟨.hbm, 412, rfl⟩
abbrev main_v336 : Ref sig .tc := ⟨.hbm, 413, rfl⟩
abbrev main_v337 : Ref sig .tc := ⟨.hbm, 414, rfl⟩
abbrev main_v338 : Ref sig .tc := ⟨.hbm, 415, rfl⟩
abbrev main_v339 : Ref sig .tc := ⟨.hbm, 416, rfl⟩
abbrev main_v340 : Ref sig .tc := ⟨.hbm, 417, rfl⟩
abbrev main_v341 : Ref sig .tc := ⟨.hbm, 418, rfl⟩
abbrev main_cst_70 : Ref sig .tc := ⟨.hbm, 419, rfl⟩
abbrev main_v342 : Ref sig .tc := ⟨.hbm, 420, rfl⟩
abbrev main_v343 : Ref sig .tc := ⟨.hbm, 421, rfl⟩
abbrev main_v344 : Ref sig .tc := ⟨.hbm, 422, rfl⟩
abbrev main_v345 : Ref sig .tc := ⟨.hbm, 423, rfl⟩
abbrev main_cst_71 : Ref sig .tc := ⟨.hbm, 424, rfl⟩
abbrev main_v346 : Ref sig .tc := ⟨.hbm, 425, rfl⟩
abbrev main_v347 : Ref sig .tc := ⟨.hbm, 426, rfl⟩
abbrev main_cst_72 : Ref sig .tc := ⟨.hbm, 427, rfl⟩
abbrev main_v348 : Ref sig .tc := ⟨.hbm, 428, rfl⟩
abbrev main_v349 : Ref sig .tc := ⟨.hbm, 429, rfl⟩
abbrev main_v350 : Ref sig .tc := ⟨.hbm, 430, rfl⟩
abbrev main_cst_73 : Ref sig .tc := ⟨.hbm, 431, rfl⟩
abbrev main_v351 : Ref sig .tc := ⟨.hbm, 432, rfl⟩
abbrev main_cst_74 : Ref sig .tc := ⟨.hbm, 433, rfl⟩
abbrev main_v352 : Ref sig .tc := ⟨.hbm, 434, rfl⟩
abbrev main_v353 : Ref sig .tc := ⟨.hbm, 435, rfl⟩
abbrev main_v354 : Ref sig .tc := ⟨.hbm, 436, rfl⟩
abbrev main_v355 : Ref sig .tc := ⟨.hbm, 437, rfl⟩
abbrev main_v356 : Ref sig .tc := ⟨.hbm, 438, rfl⟩
abbrev main_v357 : Ref sig .tc := ⟨.hbm, 439, rfl⟩
abbrev main_c_75 : Ref sig .tc := ⟨.hbm, 440, rfl⟩
abbrev main_v358 : Ref sig .tc := ⟨.hbm, 441, rfl⟩
abbrev main_v359 : Ref sig .tc := ⟨.hbm, 442, rfl⟩
abbrev main_v360 : Ref sig .tc := ⟨.hbm, 443, rfl⟩
abbrev main_v361 : Ref sig .tc := ⟨.hbm, 444, rfl⟩
abbrev main_v362 : Ref sig .tc := ⟨.hbm, 445, rfl⟩
abbrev main_v363 : Ref sig .tc := ⟨.hbm, 446, rfl⟩
abbrev main_v364 : Ref sig .tc := ⟨.hbm, 447, rfl⟩
abbrev main_v365 : Ref sig .tc := ⟨.hbm, 448, rfl⟩
abbrev main_v366 : Ref sig .tc := ⟨.hbm, 449, rfl⟩
abbrev main_v367 : Ref sig .tc := ⟨.hbm, 450, rfl⟩
abbrev main_v368 : Ref sig .tc := ⟨.hbm, 451, rfl⟩
abbrev main_v369 : Ref sig .tc := ⟨.hbm, 452, rfl⟩
abbrev main_cst_76 : Ref sig .tc := ⟨.hbm, 453, rfl⟩
abbrev main_v370 : Ref sig .tc := ⟨.hbm, 454, rfl⟩
abbrev main_v371 : Ref sig .tc := ⟨.hbm, 455, rfl⟩
abbrev main_v372 : Ref sig .tc := ⟨.hbm, 456, rfl⟩
abbrev main_v373 : Ref sig .tc := ⟨.hbm, 457, rfl⟩
abbrev main_cst_77 : Ref sig .tc := ⟨.hbm, 458, rfl⟩
abbrev main_v374 : Ref sig .tc := ⟨.hbm, 459, rfl⟩
abbrev main_v375 : Ref sig .tc := ⟨.hbm, 460, rfl⟩
abbrev main_cst_78 : Ref sig .tc := ⟨.hbm, 461, rfl⟩
abbrev main_v376 : Ref sig .tc := ⟨.hbm, 462, rfl⟩
abbrev main_v377 : Ref sig .tc := ⟨.hbm, 463, rfl⟩
abbrev main_v378 : Ref sig .tc := ⟨.hbm, 464, rfl⟩
abbrev main_cst_79 : Ref sig .tc := ⟨.hbm, 465, rfl⟩
abbrev main_v379 : Ref sig .tc := ⟨.hbm, 466, rfl⟩
abbrev main_cst_80 : Ref sig .tc := ⟨.hbm, 467, rfl⟩
abbrev main_v380 : Ref sig .tc := ⟨.hbm, 468, rfl⟩
abbrev main_v381 : Ref sig .tc := ⟨.hbm, 469, rfl⟩
abbrev main_v382 : Ref sig .tc := ⟨.hbm, 470, rfl⟩
abbrev main_v383 : Ref sig .tc := ⟨.hbm, 471, rfl⟩
abbrev main_v384 : Ref sig .tc := ⟨.hbm, 472, rfl⟩
abbrev main_v385 : Ref sig .tc := ⟨.hbm, 473, rfl⟩
abbrev main_c_81 : Ref sig .tc := ⟨.hbm, 474, rfl⟩
abbrev main_v386 : Ref sig .tc := ⟨.hbm, 475, rfl⟩
abbrev main_v387 : Ref sig .tc := ⟨.hbm, 476, rfl⟩
abbrev main_v388 : Ref sig .tc := ⟨.hbm, 477, rfl⟩
abbrev main_v389 : Ref sig .tc := ⟨.hbm, 478, rfl⟩
abbrev main_v390 : Ref sig .tc := ⟨.hbm, 479, rfl⟩
abbrev main_v391 : Ref sig .tc := ⟨.hbm, 480, rfl⟩
abbrev main_v392 : Ref sig .tc := ⟨.hbm, 481, rfl⟩
abbrev main_v393 : Ref sig .tc := ⟨.hbm, 482, rfl⟩
abbrev main_v394 : Ref sig .tc := ⟨.hbm, 483, rfl⟩
abbrev main_v395 : Ref sig .tc := ⟨.hbm, 484, rfl⟩
abbrev main_v396 : Ref sig .tc := ⟨.hbm, 485, rfl⟩
abbrev main_v397 : Ref sig .tc := ⟨.hbm, 486, rfl⟩
abbrev main_cst_82 : Ref sig .tc := ⟨.hbm, 487, rfl⟩
abbrev main_v398 : Ref sig .tc := ⟨.hbm, 488, rfl⟩
abbrev main_v399 : Ref sig .tc := ⟨.hbm, 489, rfl⟩
abbrev main_v400 : Ref sig .tc := ⟨.hbm, 490, rfl⟩
abbrev main_v401 : Ref sig .tc := ⟨.hbm, 491, rfl⟩
abbrev main_cst_83 : Ref sig .tc := ⟨.hbm, 492, rfl⟩
abbrev main_v402 : Ref sig .tc := ⟨.hbm, 493, rfl⟩
abbrev main_v403 : Ref sig .tc := ⟨.hbm, 494, rfl⟩
abbrev main_cst_84 : Ref sig .tc := ⟨.hbm, 495, rfl⟩
abbrev main_v404 : Ref sig .tc := ⟨.hbm, 496, rfl⟩
abbrev main_v405 : Ref sig .tc := ⟨.hbm, 497, rfl⟩
abbrev main_v406 : Ref sig .tc := ⟨.hbm, 498, rfl⟩
abbrev main_cst_85 : Ref sig .tc := ⟨.hbm, 499, rfl⟩
abbrev main_v407 : Ref sig .tc := ⟨.hbm, 500, rfl⟩
abbrev main_cst_86 : Ref sig .tc := ⟨.hbm, 501, rfl⟩
abbrev main_v408 : Ref sig .tc := ⟨.hbm, 502, rfl⟩
abbrev main_v409 : Ref sig .tc := ⟨.hbm, 503, rfl⟩
abbrev main_v410 : Ref sig .tc := ⟨.hbm, 504, rfl⟩
abbrev main_v411 : Ref sig .tc := ⟨.hbm, 505, rfl⟩
abbrev main_v412 : Ref sig .tc := ⟨.hbm, 506, rfl⟩
abbrev main_v413 : Ref sig .tc := ⟨.hbm, 507, rfl⟩
abbrev main_c_87 : Ref sig .tc := ⟨.hbm, 508, rfl⟩
abbrev main_v414 : Ref sig .tc := ⟨.hbm, 509, rfl⟩
abbrev main_v415 : Ref sig .tc := ⟨.hbm, 510, rfl⟩
abbrev main_v416 : Ref sig .tc := ⟨.hbm, 511, rfl⟩
abbrev main_v417 : Ref sig .tc := ⟨.hbm, 512, rfl⟩
abbrev main_v418 : Ref sig .tc := ⟨.hbm, 513, rfl⟩
abbrev main_v419 : Ref sig .tc := ⟨.hbm, 514, rfl⟩
abbrev main_v420 : Ref sig .tc := ⟨.hbm, 515, rfl⟩
abbrev main_v421 : Ref sig .tc := ⟨.hbm, 516, rfl⟩
abbrev main_v422 : Ref sig .tc := ⟨.hbm, 517, rfl⟩
abbrev main_v423 : Ref sig .tc := ⟨.hbm, 518, rfl⟩
abbrev main_v424 : Ref sig .tc := ⟨.hbm, 519, rfl⟩
abbrev main_v425 : Ref sig .tc := ⟨.hbm, 520, rfl⟩
abbrev main_cst_88 : Ref sig .tc := ⟨.hbm, 521, rfl⟩
abbrev main_v426 : Ref sig .tc := ⟨.hbm, 522, rfl⟩
abbrev main_v427 : Ref sig .tc := ⟨.hbm, 523, rfl⟩
abbrev main_v428 : Ref sig .tc := ⟨.hbm, 524, rfl⟩
abbrev main_v429 : Ref sig .tc := ⟨.hbm, 525, rfl⟩
abbrev main_cst_89 : Ref sig .tc := ⟨.hbm, 526, rfl⟩
abbrev main_v430 : Ref sig .tc := ⟨.hbm, 527, rfl⟩
abbrev main_v431 : Ref sig .tc := ⟨.hbm, 528, rfl⟩
abbrev main_cst_90 : Ref sig .tc := ⟨.hbm, 529, rfl⟩
abbrev main_v432 : Ref sig .tc := ⟨.hbm, 530, rfl⟩
abbrev main_v433 : Ref sig .tc := ⟨.hbm, 531, rfl⟩
abbrev main_v434 : Ref sig .tc := ⟨.hbm, 532, rfl⟩
abbrev main_cst_91 : Ref sig .tc := ⟨.hbm, 533, rfl⟩
abbrev main_v435 : Ref sig .tc := ⟨.hbm, 534, rfl⟩
abbrev main_cst_92 : Ref sig .tc := ⟨.hbm, 535, rfl⟩
abbrev main_v436 : Ref sig .tc := ⟨.hbm, 536, rfl⟩
abbrev main_v437 : Ref sig .tc := ⟨.hbm, 537, rfl⟩
abbrev main_v438 : Ref sig .tc := ⟨.hbm, 538, rfl⟩
abbrev main_v439 : Ref sig .tc := ⟨.hbm, 539, rfl⟩
abbrev main_v440 : Ref sig .tc := ⟨.hbm, 540, rfl⟩
abbrev main_v441 : Ref sig .tc := ⟨.hbm, 541, rfl⟩
abbrev main_c_93 : Ref sig .tc := ⟨.hbm, 542, rfl⟩
abbrev main_v442 : Ref sig .tc := ⟨.hbm, 543, rfl⟩
abbrev main_v443 : Ref sig .tc := ⟨.hbm, 544, rfl⟩
abbrev main_v444 : Ref sig .tc := ⟨.hbm, 545, rfl⟩
abbrev main_v445 : Ref sig .tc := ⟨.hbm, 546, rfl⟩
abbrev main_v446 : Ref sig .tc := ⟨.hbm, 547, rfl⟩
abbrev main_v447 : Ref sig .tc := ⟨.hbm, 548, rfl⟩
abbrev main_v448 : Ref sig .tc := ⟨.hbm, 549, rfl⟩
abbrev main_v449 : Ref sig .tc := ⟨.hbm, 550, rfl⟩
abbrev main_v450 : Ref sig .tc := ⟨.hbm, 551, rfl⟩
abbrev main_v451 : Ref sig .tc := ⟨.hbm, 552, rfl⟩
abbrev main_v452 : Ref sig .tc := ⟨.hbm, 553, rfl⟩
abbrev main_v453 : Ref sig .tc := ⟨.hbm, 554, rfl⟩
abbrev main_cst_94 : Ref sig .tc := ⟨.hbm, 555, rfl⟩
abbrev main_v454 : Ref sig .tc := ⟨.hbm, 556, rfl⟩
abbrev main_v455 : Ref sig .tc := ⟨.hbm, 557, rfl⟩
abbrev main_v456 : Ref sig .tc := ⟨.hbm, 558, rfl⟩
abbrev main_v457 : Ref sig .tc := ⟨.hbm, 559, rfl⟩
abbrev main_cst_95 : Ref sig .tc := ⟨.hbm, 560, rfl⟩
abbrev main_v458 : Ref sig .tc := ⟨.hbm, 561, rfl⟩
abbrev main_v459 : Ref sig .tc := ⟨.hbm, 562, rfl⟩
abbrev main_cst_96 : Ref sig .tc := ⟨.hbm, 563, rfl⟩
abbrev main_v460 : Ref sig .tc := ⟨.hbm, 564, rfl⟩
abbrev main_v461 : Ref sig .tc := ⟨.hbm, 565, rfl⟩
abbrev main_v462 : Ref sig .tc := ⟨.hbm, 566, rfl⟩
abbrev main_cst_97 : Ref sig .tc := ⟨.hbm, 567, rfl⟩
abbrev main_v463 : Ref sig .tc := ⟨.hbm, 568, rfl⟩
abbrev main_cst_98 : Ref sig .tc := ⟨.hbm, 569, rfl⟩
abbrev main_v464 : Ref sig .tc := ⟨.hbm, 570, rfl⟩
abbrev main_v465 : Ref sig .tc := ⟨.hbm, 571, rfl⟩
abbrev main_v466 : Ref sig .tc := ⟨.hbm, 572, rfl⟩
abbrev main_v467 : Ref sig .tc := ⟨.hbm, 573, rfl⟩
abbrev main_v468 : Ref sig .tc := ⟨.hbm, 574, rfl⟩
abbrev main_v469 : Ref sig .tc := ⟨.hbm, 575, rfl⟩
abbrev main_c_99 : Ref sig .tc := ⟨.hbm, 576, rfl⟩
abbrev main_v470 : Ref sig .tc := ⟨.hbm, 577, rfl⟩
abbrev main_v471 : Ref sig .tc := ⟨.hbm, 578, rfl⟩

abbrev nD : Nat := 1
abbrev τ : Topo := Topo.v7x

variable {F : FTy → Type} [FloatOps F]

class Facts₀ : Prop where
  transposes_S768x256_S256x768_1_0 : S768x256.Transposes [1, 0] S256x768
  bcast_S768_S1x768_1 : S768.BroadcastsInDim S1x768 (![1] : Fin 1 → Fin S1x768.rank)
  bcast_S1x768_S131071x768_0_1 : S1x768.BroadcastsInDim S131071x768 (![0, 1] : Fin 2 → Fin S131071x768.rank)
  slices_S131071x768_S131071x256_0_0 : S131071x768.Slices ![0, 0] S131071x256
  slices_S131071x768_S131071x512_0_256 : S131071x768.Slices ![0, 256] S131071x512
  bcast_S_S131071x256 : S_.BroadcastsInDim S131071x256 (![] : Fin 0 → Fin S131071x256.rank)
  slices_S131071x512_S65536x512_65535_0 : S131071x512.Slices ![65535, 0] S65536x512
  slices_S131071x256_S65536x256_65535_0 : S131071x256.Slices ![65535, 0] S65536x256
  bcast_S_S65536x512 : S_.BroadcastsInDim S65536x512 (![] : Fin 0 → Fin S65536x512.rank)
  shapeCasts_S65536x512_S65536x2x256 : S65536x512.ShapeCasts S65536x2x256
  reducesTo_S65536x2x256_S65536x256_d1 : S65536x2x256.ReducesTo [1] S65536x256
  h_S_ : 0 < S_.numel
  bcast_S_S65536x256 : S_.BroadcastsInDim S65536x256 (![] : Fin 0 → Fin S65536x256.rank)
  bcast_S_S1 : S_.BroadcastsInDim S1 (![] : Fin 0 → Fin S1.rank)
  slices_S131071x512_S32768x512_32767_0 : S131071x512.Slices ![32767, 0] S32768x512
  slices_S131071x256_S32768x256_32767_0 : S131071x256.Slices ![32767, 0] S32768x256
  shapeCasts_S65536x256_S32768x512 : S65536x256.ShapeCasts S32768x512
  transposes_S512x512_S512x512_1_0 : S512x512.Transposes [1, 0] S512x512
  transposes_S256x512_S512x256_1_0 : S256x512.Transposes [1, 0] S512x256
  shapeCasts_S32768x512_S32768x2x256 : S32768x512.ShapeCasts S32768x2x256
  reducesTo_S32768x2x256_S32768x256_d1 : S32768x2x256.ReducesTo [1] S32768x256
  bcast_S_S32768x512 : S_.BroadcastsInDim S32768x512 (![] : Fin 0 → Fin S32768x512.rank)
  bcast_S_S32768x256 : S_.BroadcastsInDim S32768x256 (![] : Fin 0 → Fin S32768x256.rank)
  slices_S131071x512_S16384x512_16383_0 : S131071x512.Slices ![16383, 0] S16384x512
  slices_S131071x256_S16384x256_16383_0 : S131071x256.Slices ![16383, 0] S16384x256
  shapeCasts_S32768x256_S16384x512 : S32768x256.ShapeCasts S16384x512
  shapeCasts_S16384x512_S16384x2x256 : S16384x512.ShapeCasts S16384x2x256
  reducesTo_S16384x2x256_S16384x256_d1 : S16384x2x256.ReducesTo [1] S16384x256
  bcast_S_S16384x512 : S_.BroadcastsInDim S16384x512 (![] : Fin 0 → Fin S16384x512.rank)
  bcast_S_S16384x256 : S_.BroadcastsInDim S16384x256 (![] : Fin 0 → Fin S16384x256.rank)
  slices_S131071x512_S8192x512_8191_0 : S131071x512.Slices ![8191, 0] S8192x512
  slices_S131071x256_S8192x256_8191_0 : S131071x256.Slices ![8191, 0] S8192x256
  shapeCasts_S16384x256_S8192x512 : S16384x256.ShapeCasts S8192x512
  shapeCasts_S8192x512_S8192x2x256 : S8192x512.ShapeCasts S8192x2x256
  reducesTo_S8192x2x256_S8192x256_d1 : S8192x2x256.ReducesTo [1] S8192x256
  bcast_S_S8192x512 : S_.BroadcastsInDim S8192x512 (![] : Fin 0 → Fin S8192x512.rank)
  bcast_S_S8192x256 : S_.BroadcastsInDim S8192x256 (![] : Fin 0 → Fin S8192x256.rank)
  slices_S131071x512_S4096x512_4095_0 : S131071x512.Slices ![4095, 0] S4096x512
  slices_S131071x256_S4096x256_4095_0 : S131071x256.Slices ![4095, 0] S4096x256
  shapeCasts_S8192x256_S4096x512 : S8192x256.ShapeCasts S4096x512
  shapeCasts_S4096x512_S4096x2x256 : S4096x512.ShapeCasts S4096x2x256
  reducesTo_S4096x2x256_S4096x256_d1 : S4096x2x256.ReducesTo [1] S4096x256
  bcast_S_S4096x512 : S_.BroadcastsInDim S4096x512 (![] : Fin 0 → Fin S4096x512.rank)
  bcast_S_S4096x256 : S_.BroadcastsInDim S4096x256 (![] : Fin 0 → Fin S4096x256.rank)
  slices_S131071x512_S2048x512_2047_0 : S131071x512.Slices ![2047, 0] S2048x512
  slices_S131071x256_S2048x256_2047_0 : S131071x256.Slices ![2047, 0] S2048x256
  shapeCasts_S4096x256_S2048x512 : S4096x256.ShapeCasts S2048x512
  shapeCasts_S2048x512_S2048x2x256 : S2048x512.ShapeCasts S2048x2x256
  reducesTo_S2048x2x256_S2048x256_d1 : S2048x2x256.ReducesTo [1] S2048x256
  bcast_S_S2048x512 : S_.BroadcastsInDim S2048x512 (![] : Fin 0 → Fin S2048x512.rank)
  bcast_S_S2048x256 : S_.BroadcastsInDim S2048x256 (![] : Fin 0 → Fin S2048x256.rank)
  slices_S131071x512_S1024x512_1023_0 : S131071x512.Slices ![1023, 0] S1024x512
  slices_S131071x256_S1024x256_1023_0 : S131071x256.Slices ![1023, 0] S1024x256
  shapeCasts_S2048x256_S1024x512 : S2048x256.ShapeCasts S1024x512
  shapeCasts_S1024x512_S1024x2x256 : S1024x512.ShapeCasts S1024x2x256
  reducesTo_S1024x2x256_S1024x256_d1 : S1024x2x256.ReducesTo [1] S1024x256
  bcast_S_S1024x512 : S_.BroadcastsInDim S1024x512 (![] : Fin 0 → Fin S1024x512.rank)
  bcast_S_S1024x256 : S_.BroadcastsInDim S1024x256 (![] : Fin 0 → Fin S1024x256.rank)
  slices_S131071x512_S512x512_511_0 : S131071x512.Slices ![511, 0] S512x512
  slices_S131071x256_S512x256_511_0 : S131071x256.Slices ![511, 0] S512x256
  shapeCasts_S1024x256_S512x512 : S1024x256.ShapeCasts S512x512
  shapeCasts_S512x512_S512x2x256 : S512x512.ShapeCasts S512x2x256
  reducesTo_S512x2x256_S512x256_d1 : S512x2x256.ReducesTo [1] S512x256
  bcast_S_S512x512 : S_.BroadcastsInDim S512x512 (![] : Fin 0 → Fin S512x512.rank)
  bcast_S_S512x256 : S_.BroadcastsInDim S512x256 (![] : Fin 0 → Fin S512x256.rank)
  slices_S131071x512_S256x512_255_0 : S131071x512.Slices ![255, 0] S256x512
  slices_S131071x256_S256x256_255_0 : S131071x256.Slices ![255, 0] S256x256
  shapeCasts_S512x256_S256x512 : S512x256.ShapeCasts S256x512
  shapeCasts_S256x512_S256x2x256 : S256x512.ShapeCasts S256x2x256
  reducesTo_S256x2x256_S256x256_d1 : S256x2x256.ReducesTo [1] S256x256
  bcast_S_S256x512 : S_.BroadcastsInDim S256x512 (![] : Fin 0 → Fin S256x512.rank)
  bcast_S_S256x256 : S_.BroadcastsInDim S256x256 (![] : Fin 0 → Fin S256x256.rank)
  slices_S131071x512_S128x512_127_0 : S131071x512.Slices ![127, 0] S128x512
  slices_S131071x256_S128x256_127_0 : S131071x256.Slices ![127, 0] S128x256
  shapeCasts_S256x256_S128x512 : S256x256.ShapeCasts S128x512
  shapeCasts_S128x512_S128x2x256 : S128x512.ShapeCasts S128x2x256
  reducesTo_S128x2x256_S128x256_d1 : S128x2x256.ReducesTo [1] S128x256
  bcast_S_S128x512 : S_.BroadcastsInDim S128x512 (![] : Fin 0 → Fin S128x512.rank)
  bcast_S_S128x256 : S_.BroadcastsInDim S128x256 (![] : Fin 0 → Fin S128x256.rank)
  slices_S131071x512_S64x512_63_0 : S131071x512.Slices ![63, 0] S64x512
  slices_S131071x256_S64x256_63_0 : S131071x256.Slices ![63, 0] S64x256
  shapeCasts_S128x256_S64x512 : S128x256.ShapeCasts S64x512
  shapeCasts_S64x512_S64x2x256 : S64x512.ShapeCasts S64x2x256
  reducesTo_S64x2x256_S64x256_d1 : S64x2x256.ReducesTo [1] S64x256
  bcast_S_S64x512 : S_.BroadcastsInDim S64x512 (![] : Fin 0 → Fin S64x512.rank)
  bcast_S_S64x256 : S_.BroadcastsInDim S64x256 (![] : Fin 0 → Fin S64x256.rank)
  slices_S131071x512_S32x512_31_0 : S131071x512.Slices ![31, 0] S32x512
  slices_S131071x256_S32x256_31_0 : S131071x256.Slices ![31, 0] S32x256
  shapeCasts_S64x256_S32x512 : S64x256.ShapeCasts S32x512
  shapeCasts_S32x512_S32x2x256 : S32x512.ShapeCasts S32x2x256
  reducesTo_S32x2x256_S32x256_d1 : S32x2x256.ReducesTo [1] S32x256
  bcast_S_S32x512 : S_.BroadcastsInDim S32x512 (![] : Fin 0 → Fin S32x512.rank)
  bcast_S_S32x256 : S_.BroadcastsInDim S32x256 (![] : Fin 0 → Fin S32x256.rank)
  slices_S131071x512_S16x512_15_0 : S131071x512.Slices ![15, 0] S16x512
  slices_S131071x256_S16x256_15_0 : S131071x256.Slices ![15, 0] S16x256
  shapeCasts_S32x256_S16x512 : S32x256.ShapeCasts S16x512
  shapeCasts_S16x512_S16x2x256 : S16x512.ShapeCasts S16x2x256
  reducesTo_S16x2x256_S16x256_d1 : S16x2x256.ReducesTo [1] S16x256
  bcast_S_S16x512 : S_.BroadcastsInDim S16x512 (![] : Fin 0 → Fin S16x512.rank)
  bcast_S_S16x256 : S_.BroadcastsInDim S16x256 (![] : Fin 0 → Fin S16x256.rank)
  slices_S131071x512_S8x512_7_0 : S131071x512.Slices ![7, 0] S8x512
  slices_S131071x256_S8x256_7_0 : S131071x256.Slices ![7, 0] S8x256
  shapeCasts_S16x256_S8x512 : S16x256.ShapeCasts S8x512
  shapeCasts_S8x512_S8x2x256 : S8x512.ShapeCasts S8x2x256
  reducesTo_S8x2x256_S8x256_d1 : S8x2x256.ReducesTo [1] S8x256
  bcast_S_S8x512 : S_.BroadcastsInDim S8x512 (![] : Fin 0 → Fin S8x512.rank)
  bcast_S_S8x256 : S_.BroadcastsInDim S8x256 (![] : Fin 0 → Fin S8x256.rank)
  slices_S131071x512_S4x512_3_0 : S131071x512.Slices ![3, 0] S4x512
  slices_S131071x256_S4x256_3_0 : S131071x256.Slices ![3, 0] S4x256
  shapeCasts_S8x256_S4x512 : S8x256.ShapeCasts S4x512
  shapeCasts_S4x512_S4x2x256 : S4x512.ShapeCasts S4x2x256
  reducesTo_S4x2x256_S4x256_d1 : S4x2x256.ReducesTo [1] S4x256
  bcast_S_S4x512 : S_.BroadcastsInDim S4x512 (![] : Fin 0 → Fin S4x512.rank)
  bcast_S_S4x256 : S_.BroadcastsInDim S4x256 (![] : Fin 0 → Fin S4x256.rank)
  slices_S131071x512_S2x512_1_0 : S131071x512.Slices ![1, 0] S2x512
  slices_S131071x256_S2x256_1_0 : S131071x256.Slices ![1, 0] S2x256
  shapeCasts_S4x256_S2x512 : S4x256.ShapeCasts S2x512
  shapeCasts_S2x512_S2x2x256 : S2x512.ShapeCasts S2x2x256
  reducesTo_S2x2x256_S2x256_d1 : S2x2x256.ReducesTo [1] S2x256
  bcast_S_S2x512 : S_.BroadcastsInDim S2x512 (![] : Fin 0 → Fin S2x512.rank)
  bcast_S_S2x256 : S_.BroadcastsInDim S2x256 (![] : Fin 0 → Fin S2x256.rank)
  slices_S131071x512_S1x512_0_0 : S131071x512.Slices ![0, 0] S1x512
  slices_S131071x256_S1x256_0_0 : S131071x256.Slices ![0, 0] S1x256
  shapeCasts_S2x256_S1x512 : S2x256.ShapeCasts S1x512
  shapeCasts_S1x512_S1x2x256 : S1x512.ShapeCasts S1x2x256
  reducesTo_S1x2x256_S1x256_d1 : S1x2x256.ReducesTo [1] S1x256
  bcast_S_S1x512 : S_.BroadcastsInDim S1x512 (![] : Fin 0 → Fin S1x512.rank)
  bcast_S_S1x256 : S_.BroadcastsInDim S1x256 (![] : Fin 0 → Fin S1x256.rank)
  dot_S131071x256_S256x768_S131071x768_1_0_0_1_n_n_wf : DotDims.WF S131071x256 S256x768 S131071x768 [1] [0] [0] [1] [] []
  scatter_S131071x256_S1_S65536x256_01_n_0_0_wf : ScatterDims.WF S131071x256 S1 S65536x256 [0, 1] [] [0] 0
  dot_S32768x512_S512x512_S32768x512_1_0_0_1_n_n_wf : DotDims.WF S32768x512 S512x512 S32768x512 [1] [0] [0] [1] [] []
  dot_S32768x512_S512x256_S32768x256_1_0_0_1_n_n_wf : DotDims.WF S32768x512 S512x256 S32768x256 [1] [0] [0] [1] [] []
  scatter_S131071x256_S1_S32768x256_01_n_0_0_wf : ScatterDims.WF S131071x256 S1 S32768x256 [0, 1] [] [0] 0
  dot_S16384x512_S512x512_S16384x512_1_0_0_1_n_n_wf : DotDims.WF S16384x512 S512x512 S16384x512 [1] [0] [0] [1] [] []
  dot_S16384x512_S512x256_S16384x256_1_0_0_1_n_n_wf : DotDims.WF S16384x512 S512x256 S16384x256 [1] [0] [0] [1] [] []
  scatter_S131071x256_S1_S16384x256_01_n_0_0_wf : ScatterDims.WF S131071x256 S1 S16384x256 [0, 1] [] [0] 0
  dot_S8192x512_S512x512_S8192x512_1_0_0_1_n_n_wf : DotDims.WF S8192x512 S512x512 S8192x512 [1] [0] [0] [1] [] []
  dot_S8192x512_S512x256_S8192x256_1_0_0_1_n_n_wf : DotDims.WF S8192x512 S512x256 S8192x256 [1] [0] [0] [1] [] []
  scatter_S131071x256_S1_S8192x256_01_n_0_0_wf : ScatterDims.WF S131071x256 S1 S8192x256 [0, 1] [] [0] 0
  dot_S4096x512_S512x512_S4096x512_1_0_0_1_n_n_wf : DotDims.WF S4096x512 S512x512 S4096x512 [1] [0] [0] [1] [] []
  dot_S4096x512_S512x256_S4096x256_1_0_0_1_n_n_wf : DotDims.WF S4096x512 S512x256 S4096x256 [1] [0] [0] [1] [] []
  scatter_S131071x256_S1_S4096x256_01_n_0_0_wf : ScatterDims.WF S131071x256 S1 S4096x256 [0, 1] [] [0] 0
  dot_S2048x512_S512x512_S2048x512_1_0_0_1_n_n_wf : DotDims.WF S2048x512 S512x512 S2048x512 [1] [0] [0] [1] [] []
  dot_S2048x512_S512x256_S2048x256_1_0_0_1_n_n_wf : DotDims.WF S2048x512 S512x256 S2048x256 [1] [0] [0] [1] [] []
  scatter_S131071x256_S1_S2048x256_01_n_0_0_wf : ScatterDims.WF S131071x256 S1 S2048x256 [0, 1] [] [0] 0
  dot_S1024x512_S512x512_S1024x512_1_0_0_1_n_n_wf : DotDims.WF S1024x512 S512x512 S1024x512 [1] [0] [0] [1] [] []
  dot_S1024x512_S512x256_S1024x256_1_0_0_1_n_n_wf : DotDims.WF S1024x512 S512x256 S1024x256 [1] [0] [0] [1] [] []
  scatter_S131071x256_S1_S1024x256_01_n_0_0_wf : ScatterDims.WF S131071x256 S1 S1024x256 [0, 1] [] [0] 0
  dot_S512x512_S512x512_S512x512_1_0_0_1_n_n_wf : DotDims.WF S512x512 S512x512 S512x512 [1] [0] [0] [1] [] []
  dot_S512x512_S512x256_S512x256_1_0_0_1_n_n_wf : DotDims.WF S512x512 S512x256 S512x256 [1] [0] [0] [1] [] []
  scatter_S131071x256_S1_S512x256_01_n_0_0_wf : ScatterDims.WF S131071x256 S1 S512x256 [0, 1] [] [0] 0
  dot_S256x512_S512x512_S256x512_1_0_0_1_n_n_wf : DotDims.WF S256x512 S512x512 S256x512 [1] [0] [0] [1] [] []
  dot_S256x512_S512x256_S256x256_1_0_0_1_n_n_wf : DotDims.WF S256x512 S512x256 S256x256 [1] [0] [0] [1] [] []
  scatter_S131071x256_S1_S256x256_01_n_0_0_wf : ScatterDims.WF S131071x256 S1 S256x256 [0, 1] [] [0] 0
  dot_S128x512_S512x512_S128x512_1_0_0_1_n_n_wf : DotDims.WF S128x512 S512x512 S128x512 [1] [0] [0] [1] [] []
  dot_S128x512_S512x256_S128x256_1_0_0_1_n_n_wf : DotDims.WF S128x512 S512x256 S128x256 [1] [0] [0] [1] [] []
  scatter_S131071x256_S1_S128x256_01_n_0_0_wf : ScatterDims.WF S131071x256 S1 S128x256 [0, 1] [] [0] 0
  dot_S64x512_S512x512_S64x512_1_0_0_1_n_n_wf : DotDims.WF S64x512 S512x512 S64x512 [1] [0] [0] [1] [] []
  dot_S64x512_S512x256_S64x256_1_0_0_1_n_n_wf : DotDims.WF S64x512 S512x256 S64x256 [1] [0] [0] [1] [] []
  scatter_S131071x256_S1_S64x256_01_n_0_0_wf : ScatterDims.WF S131071x256 S1 S64x256 [0, 1] [] [0] 0
  dot_S32x512_S512x512_S32x512_1_0_0_1_n_n_wf : DotDims.WF S32x512 S512x512 S32x512 [1] [0] [0] [1] [] []
  dot_S32x512_S512x256_S32x256_1_0_0_1_n_n_wf : DotDims.WF S32x512 S512x256 S32x256 [1] [0] [0] [1] [] []
  scatter_S131071x256_S1_S32x256_01_n_0_0_wf : ScatterDims.WF S131071x256 S1 S32x256 [0, 1] [] [0] 0
  dot_S16x512_S512x512_S16x512_1_0_0_1_n_n_wf : DotDims.WF S16x512 S512x512 S16x512 [1] [0] [0] [1] [] []
  dot_S16x512_S512x256_S16x256_1_0_0_1_n_n_wf : DotDims.WF S16x512 S512x256 S16x256 [1] [0] [0] [1] [] []
  scatter_S131071x256_S1_S16x256_01_n_0_0_wf : ScatterDims.WF S131071x256 S1 S16x256 [0, 1] [] [0] 0
  dot_S8x512_S512x512_S8x512_1_0_0_1_n_n_wf : DotDims.WF S8x512 S512x512 S8x512 [1] [0] [0] [1] [] []
  dot_S8x512_S512x256_S8x256_1_0_0_1_n_n_wf : DotDims.WF S8x512 S512x256 S8x256 [1] [0] [0] [1] [] []
  scatter_S131071x256_S1_S8x256_01_n_0_0_wf : ScatterDims.WF S131071x256 S1 S8x256 [0, 1] [] [0] 0
  dot_S4x512_S512x512_S4x512_1_0_0_1_n_n_wf : DotDims.WF S4x512 S512x512 S4x512 [1] [0] [0] [1] [] []
  dot_S4x512_S512x256_S4x256_1_0_0_1_n_n_wf : DotDims.WF S4x512 S512x256 S4x256 [1] [0] [0] [1] [] []
  scatter_S131071x256_S1_S4x256_01_n_0_0_wf : ScatterDims.WF S131071x256 S1 S4x256 [0, 1] [] [0] 0
  dot_S2x512_S512x512_S2x512_1_0_0_1_n_n_wf : DotDims.WF S2x512 S512x512 S2x512 [1] [0] [0] [1] [] []
  dot_S2x512_S512x256_S2x256_1_0_0_1_n_n_wf : DotDims.WF S2x512 S512x256 S2x256 [1] [0] [0] [1] [] []
  scatter_S131071x256_S1_S2x256_01_n_0_0_wf : ScatterDims.WF S131071x256 S1 S2x256 [0, 1] [] [0] 0
  dot_S1x512_S512x512_S1x512_1_0_0_1_n_n_wf : DotDims.WF S1x512 S512x512 S1x512 [1] [0] [0] [1] [] []
  dot_S1x512_S512x256_S1x256_1_0_0_1_n_n_wf : DotDims.WF S1x512 S512x256 S1x256 [1] [0] [0] [1] [] []
  scatter_S131071x256_S1_S1x256_01_n_0_0_wf : ScatterDims.WF S131071x256 S1 S1x256 [0, 1] [] [0] 0

variable [Facts₀]

def dot_S131071x256_S256x768_S131071x768_1_0_0_1_n_n : DotDims S131071x256 S256x768 S131071x768 where
  lhsContracting := [1]
  rhsContracting := [0]
  lhsNonContracting := [0]
  rhsNonContracting := [1]
  lhsBatch := []
  rhsBatch := []
  wf := dot_S131071x256_S256x768_S131071x768_1_0_0_1_n_n_wf
def scatter_S131071x256_S1_S65536x256_01_n_0_0 : ScatterDims S131071x256 S1 S65536x256 where
  updateWindowDims := [0, 1]
  insertedWindowDims := []
  scatterDimsToOperandDims := [0]
  indexVectorDim := 0
  wf := scatter_S131071x256_S1_S65536x256_01_n_0_0_wf
def dot_S32768x512_S512x512_S32768x512_1_0_0_1_n_n : DotDims S32768x512 S512x512 S32768x512 where
  lhsContracting := [1]
  rhsContracting := [0]
  lhsNonContracting := [0]
  rhsNonContracting := [1]
  lhsBatch := []
  rhsBatch := []
  wf := dot_S32768x512_S512x512_S32768x512_1_0_0_1_n_n_wf
def dot_S32768x512_S512x256_S32768x256_1_0_0_1_n_n : DotDims S32768x512 S512x256 S32768x256 where
  lhsContracting := [1]
  rhsContracting := [0]
  lhsNonContracting := [0]
  rhsNonContracting := [1]
  lhsBatch := []
  rhsBatch := []
  wf := dot_S32768x512_S512x256_S32768x256_1_0_0_1_n_n_wf
def scatter_S131071x256_S1_S32768x256_01_n_0_0 : ScatterDims S131071x256 S1 S32768x256 where
  updateWindowDims := [0, 1]
  insertedWindowDims := []
  scatterDimsToOperandDims := [0]
  indexVectorDim := 0
  wf := scatter_S131071x256_S1_S32768x256_01_n_0_0_wf
def dot_S16384x512_S512x512_S16384x512_1_0_0_1_n_n : DotDims S16384x512 S512x512 S16384x512 where
  lhsContracting := [1]
  rhsContracting := [0]
  lhsNonContracting := [0]
  rhsNonContracting := [1]
  lhsBatch := []
  rhsBatch := []
  wf := dot_S16384x512_S512x512_S16384x512_1_0_0_1_n_n_wf
def dot_S16384x512_S512x256_S16384x256_1_0_0_1_n_n : DotDims S16384x512 S512x256 S16384x256 where
  lhsContracting := [1]
  rhsContracting := [0]
  lhsNonContracting := [0]
  rhsNonContracting := [1]
  lhsBatch := []
  rhsBatch := []
  wf := dot_S16384x512_S512x256_S16384x256_1_0_0_1_n_n_wf
def scatter_S131071x256_S1_S16384x256_01_n_0_0 : ScatterDims S131071x256 S1 S16384x256 where
  updateWindowDims := [0, 1]
  insertedWindowDims := []
  scatterDimsToOperandDims := [0]
  indexVectorDim := 0
  wf := scatter_S131071x256_S1_S16384x256_01_n_0_0_wf
def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def scatter_S131071x256_S1_S8192x256_01_n_0_0 : ScatterDims S131071x256 S1 S8192x256 where
  updateWindowDims := [0, 1]
  insertedWindowDims := []
  scatterDimsToOperandDims := [0]
  indexVectorDim := 0
  wf := scatter_S131071x256_S1_S8192x256_01_n_0_0_wf
def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def scatter_S131071x256_S1_S4096x256_01_n_0_0 : ScatterDims S131071x256 S1 S4096x256 where
  updateWindowDims := [0, 1]
  insertedWindowDims := []
  scatterDimsToOperandDims := [0]
  indexVectorDim := 0
  wf := scatter_S131071x256_S1_S4096x256_01_n_0_0_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def scatter_S131071x256_S1_S2048x256_01_n_0_0 : ScatterDims S131071x256 S1 S2048x256 where
  updateWindowDims := [0, 1]
  insertedWindowDims := []
  scatterDimsToOperandDims := [0]
  indexVectorDim := 0
  wf := scatter_S131071x256_S1_S2048x256_01_n_0_0_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def scatter_S131071x256_S1_S1024x256_01_n_0_0 : ScatterDims S131071x256 S1 S1024x256 where
  updateWindowDims := [0, 1]
  insertedWindowDims := []
  scatterDimsToOperandDims := [0]
  indexVectorDim := 0
  wf := scatter_S131071x256_S1_S1024x256_01_n_0_0_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def scatter_S131071x256_S1_S512x256_01_n_0_0 : ScatterDims S131071x256 S1 S512x256 where
  updateWindowDims := [0, 1]
  insertedWindowDims := []
  scatterDimsToOperandDims := [0]
  indexVectorDim := 0
  wf := scatter_S131071x256_S1_S512x256_01_n_0_0_wf
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf
def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf
def scatter_S131071x256_S1_S256x256_01_n_0_0 : ScatterDims S131071x256 S1 S256x256 where
  updateWindowDims := [0, 1]
  insertedWindowDims := []
  scatterDimsToOperandDims := [0]
  indexVectorDim := 0
  wf := scatter_S131071x256_S1_S256x256_01_n_0_0_wf
def dot_S128x512_S512x512_S128x512_1_0_0_1_n_n : DotDims S128x512 S512x512 S128x512 where
  lhsContracting := [1]
  rhsContracting := [0]
  lhsNonContracting := [0]
  rhsNonContracting := [1]
  lhsBatch := []
  rhsBatch := []
  wf := dot_S128x512_S512x512_S128x512_1_0_0_1_n_n_wf
def dot_S128x512_S512x256_S128x256_1_0_0_1_n_n : DotDims S128x512 S512x256 S128x256 where
  lhsContracting := [1]
  rhsContracting := [0]
  lhsNonContracting := [0]
  rhsNonContracting := [1]
  lhsBatch := []
  rhsBatch := []
  wf := dot_S128x512_S512x256_S128x256_1_0_0_1_n_n_wf
def scatter_S131071x256_S1_S128x256_01_n_0_0 : ScatterDims S131071x256 S1 S128x256 where
  updateWindowDims := [0, 1]
  insertedWindowDims := []
  scatterDimsToOperandDims := [0]
  indexVectorDim := 0
  wf := scatter_S131071x256_S1_S128x256_01_n_0_0_wf
def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf
def dot_S64x512_S512x256_S64x256_1_0_0_1_n_n : DotDims S64x512 S512x256 S64x256 where
  lhsContracting := [1]
  rhsContracting := [0]
  lhsNonContracting := [0]
  rhsNonContracting := [1]
  lhsBatch := []
  rhsBatch := []
  wf := dot_S64x512_S512x256_S64x256_1_0_0_1_n_n_wf
def scatter_S131071x256_S1_S64x256_01_n_0_0 : ScatterDims S131071x256 S1 S64x256 where
  updateWindowDims := [0, 1]
  insertedWindowDims := []
  scatterDimsToOperandDims := [0]
  indexVectorDim := 0
  wf := scatter_S131071x256_S1_S64x256_01_n_0_0_wf
def dot_S32x512_S512x512_S32x512_1_0_0_1_n_n : DotDims S32x512 S512x512 S32x512 where
  lhsContracting := [1]
  rhsContracting := [0]
  lhsNonContracting := [0]
  rhsNonContracting := [1]
  lhsBatch := []
  rhsBatch := []
  wf := dot_S32x512_S512x512_S32x512_1_0_0_1_n_n_wf
def dot_S32x512_S512x256_S32x256_1_0_0_1_n_n : DotDims S32x512 S512x256 S32x256 where
  lhsContracting := [1]
  rhsContracting := [0]
  lhsNonContracting := [0]
  rhsNonContracting := [1]
  lhsBatch := []
  rhsBatch := []
  wf := dot_S32x512_S512x256_S32x256_1_0_0_1_n_n_wf
def scatter_S131071x256_S1_S32x256_01_n_0_0 : ScatterDims S131071x256 S1 S32x256 where
  updateWindowDims := [0, 1]
  insertedWindowDims := []
  scatterDimsToOperandDims := [0]
  indexVectorDim := 0
  wf := scatter_S131071x256_S1_S32x256_01_n_0_0_wf
def dot_S16x512_S512x512_S16x512_1_0_0_1_n_n : DotDims S16x512 S512x512 S16x512 where
  lhsContracting := [1]
  rhsContracting := [0]
  lhsNonContracting := [0]
  rhsNonContracting := [1]
  lhsBatch := []
  rhsBatch := []
  wf := dot_S16x512_S512x512_S16x512_1_0_0_1_n_n_wf
def dot_S16x512_S512x256_S16x256_1_0_0_1_n_n : DotDims S16x512 S512x256 S16x256 where
  lhsContracting := [1]
  rhsContracting := [0]
  lhsNonContracting := [0]
  rhsNonContracting := [1]
  lhsBatch := []
  rhsBatch := []
  wf := dot_S16x512_S512x256_S16x256_1_0_0_1_n_n_wf
def scatter_S131071x256_S1_S16x256_01_n_0_0 : ScatterDims S131071x256 S1 S16x256 where
  updateWindowDims := [0, 1]
  insertedWindowDims := []
  scatterDimsToOperandDims := [0]
  indexVectorDim := 0
  wf := scatter_S131071x256_S1_S16x256_01_n_0_0_wf
def dot_S8x512_S512x512_S8x512_1_0_0_1_n_n : DotDims S8x512 S512x512 S8x512 where
  lhsContracting := [1]
  rhsContracting := [0]
  lhsNonContracting := [0]
  rhsNonContracting := [1]
  lhsBatch := []
  rhsBatch := []
  wf := dot_S8x512_S512x512_S8x512_1_0_0_1_n_n_wf
def dot_S8x512_S512x256_S8x256_1_0_0_1_n_n : DotDims S8x512 S512x256 S8x256 where
  lhsContracting := [1]
  rhsContracting := [0]
  lhsNonContracting := [0]
  rhsNonContracting := [1]
  lhsBatch := []
  rhsBatch := []
  wf := dot_S8x512_S512x256_S8x256_1_0_0_1_n_n_wf
def scatter_S131071x256_S1_S8x256_01_n_0_0 : ScatterDims S131071x256 S1 S8x256 where
  updateWindowDims := [0, 1]
  insertedWindowDims := []
  scatterDimsToOperandDims := [0]
  indexVectorDim := 0
  wf := scatter_S131071x256_S1_S8x256_01_n_0_0_wf
def dot_S4x512_S512x512_S4x512_1_0_0_1_n_n : DotDims S4x512 S512x512 S4x512 where
  lhsContracting := [1]
  rhsContracting := [0]
  lhsNonContracting := [0]
  rhsNonContracting := [1]
  lhsBatch := []
  rhsBatch := []
  wf := dot_S4x512_S512x512_S4x512_1_0_0_1_n_n_wf
def dot_S4x512_S512x256_S4x256_1_0_0_1_n_n : DotDims S4x512 S512x256 S4x256 where
  lhsContracting := [1]
  rhsContracting := [0]
  lhsNonContracting := [0]
  rhsNonContracting := [1]
  lhsBatch := []
  rhsBatch := []
  wf := dot_S4x512_S512x256_S4x256_1_0_0_1_n_n_wf
def scatter_S131071x256_S1_S4x256_01_n_0_0 : ScatterDims S131071x256 S1 S4x256 where
  updateWindowDims := [0, 1]
  insertedWindowDims := []
  scatterDimsToOperandDims := [0]
  indexVectorDim := 0
  wf := scatter_S131071x256_S1_S4x256_01_n_0_0_wf
def dot_S2x512_S512x512_S2x512_1_0_0_1_n_n : DotDims S2x512 S512x512 S2x512 where
  lhsContracting := [1]
  rhsContracting := [0]
  lhsNonContracting := [0]
  rhsNonContracting := [1]
  lhsBatch := []
  rhsBatch := []
  wf := dot_S2x512_S512x512_S2x512_1_0_0_1_n_n_wf
def dot_S2x512_S512x256_S2x256_1_0_0_1_n_n : DotDims S2x512 S512x256 S2x256 where
  lhsContracting := [1]
  rhsContracting := [0]
  lhsNonContracting := [0]
  rhsNonContracting := [1]
  lhsBatch := []
  rhsBatch := []
  wf := dot_S2x512_S512x256_S2x256_1_0_0_1_n_n_wf
def scatter_S131071x256_S1_S2x256_01_n_0_0 : ScatterDims S131071x256 S1 S2x256 where
  updateWindowDims := [0, 1]
  insertedWindowDims := []
  scatterDimsToOperandDims := [0]
  indexVectorDim := 0
  wf := scatter_S131071x256_S1_S2x256_01_n_0_0_wf
def dot_S1x512_S512x512_S1x512_1_0_0_1_n_n : DotDims S1x512 S512x512 S1x512 where
  lhsContracting := [1]
  rhsContracting := [0]
  lhsNonContracting := [0]
  rhsNonContracting := [1]
  lhsBatch := []
  rhsBatch := []
  wf := dot_S1x512_S512x512_S1x512_1_0_0_1_n_n_wf
def dot_S1x512_S512x256_S1x256_1_0_0_1_n_n : DotDims S1x512 S512x256 S1x256 where
  lhsContracting := [1]
  rhsContracting := [0]
  lhsNonContracting := [0]
  rhsNonContracting := [1]
  lhsBatch := []
  rhsBatch := []
  wf := dot_S1x512_S512x256_S1x256_1_0_0_1_n_n_wf
def scatter_S131071x256_S1_S1x256_01_n_0_0 : ScatterDims S131071x256 S1 S1x256 where
  updateWindowDims := [0, 1]
  insertedWindowDims := []
  scatterDimsToOperandDims := [0]
  indexVectorDim := 0
  wf := scatter_S131071x256_S1_S1x256_01_n_0_0_wf

class Facts : Prop extends Facts₀ where

variable [Facts]
-- ==== Proof.TreeCell.lean ====
/-
  One node of the tree recurrence, as arithmetic on the extended reals.

  A node's new hidden row (256 entries) is a function of three rows: the candidate slice `wh` (256 entries) and the
  forget slice `wf` (512 entries) of the affine image of the node's input, and, for an inner node, the two children's
  hidden rows laid side by side `hc` (512 entries: child 0 in columns 0..255, child 1 in columns 256..511).  With
  `σ a = 1 / (1 + e^(-a))`, `p k = ∑ q, hc q * Uf k q` the forget pre-activation and `g k = p k * hc k` the gated child,

      inner j = (g j + g (256 + j)) + (1 - (σ (p j + wf j) + σ (p (256 + j) + wf (256 + j)))) * tanh (wh j + ∑ q, g q * Uhc j q)
      leaf  j =                         (1 - (σ (wf j) + σ (wf (256 + j)))) * tanh (wh j)

  The affine image of an input row `x` is `wx k = (∑ c, x c * Ww k c) + b k` (768 entries: the candidate slice is its
  first 256, the forget slice the other 512).
-/
import Idealize.ShloMosaic.PureOps.Ideal
import Mathlib.Algebra.BigOperators.Fin

noncomputable section

namespace Cert.TreeCell

open Idealize.ShloMosaic

/-- the logistic function spelt out: 1 / (1 + e^(-a)), by the extended reals' quotient and exponential -/
def sg (a : EReal) : EReal := Ideal.div 1 (1 + Ideal.exp (-a))

/-- the one-operation logistic function is that expression -/
theorem logistic_eq_sg (a : EReal) : Ideal.logistic a = sg a := rfl

/-- column j of the first child's half -/
def lo (j : Fin 256) : Fin 512 := ⟨j.val, by have := j.isLt; omega⟩
/-- column j of the second child's half -/
def hi (j : Fin 256) : Fin 512 := ⟨256 + j.val, by have := j.isLt; omega⟩
/-- column j of the candidate slice inside the affine image -/
def cand (j : Fin 256) : Fin 768 := ⟨j.val, by have := j.isLt; omega⟩
/-- column k of the forget slice inside the affine image -/
def forg (k : Fin 512) : Fin 768 := ⟨256 + k.val, by have := k.isLt; omega⟩

/-- the affine image of an input row -/
def wx (Ww : Fin 768 → Fin 256 → EReal) (b : Fin 768 → EReal) (x : Fin 256 → EReal) (k : Fin 768) : EReal :=
  (∑ c : Fin 256, x c * Ww k c) + b k

/-- forget pre-activation of the children row -/
def fpre (Uf : Fin 512 → Fin 512 → EReal) (hc : Fin 512 → EReal) (k : Fin 512) : EReal := ∑ q : Fin 512, hc q * Uf k q

/-- the gated children row -/
def gate (Uf : Fin 512 → Fin 512 → EReal) (hc : Fin 512 → EReal) (k : Fin 512) : EReal := fpre Uf hc k * hc k

/-- what the gated children add to the candidate -/
def hcadd (Uhc : Fin 256 → Fin 512 → EReal) (Uf : Fin 512 → Fin 512 → EReal) (hc : Fin 512 → EReal) (j : Fin 256) : EReal :=
  ∑ q : Fin 512, gate Uf hc q * Uhc j q

/-- an inner node's new hidden row -/
def inner (Uhc : Fin 256 → Fin 512 → EReal) (Uf : Fin 512 → Fin 512 → EReal) (wh : Fin 256 → EReal) (wf hc : Fin 512 → EReal)
    (j : Fin 256) : EReal :=
  (gate Uf hc (lo j) + gate Uf hc (hi j))
    + (1 - (sg (fpre Uf hc (lo j) + wf (lo j)) + sg (fpre Uf hc (hi j) + wf (hi j)))) * Ideal.tanh (wh j + hcadd Uhc Uf hc j)

/-- a leaf's new hidden row -/
def leaf (wh : Fin 256 → EReal) (wf : Fin 512 → EReal) (j : Fin 256) : EReal :=
  (1 - (sg (wf (lo j)) + sg (wf (hi j)))) * Ideal.tanh (wh j)

/-- A sum over 512 columns is the sum over the first child's 256 plus the sum over the second child's 256. -/
theorem sum_halves (f : Fin 512 → EReal) : ∑ q : Fin 512, f q = (∑ q : Fin 256, f (lo q)) + ∑ q : Fin 256, f (hi q) := by
  have h := Fin.sum_univ_add (M := EReal) (a := 256) (b := 256) (fun i => f i)
  exact h.trans rfl

end Cert.TreeCell

end
-- ==== Proof.TreeSpec.lean ====
/-
  The tree recurrence over the whole heap-ordered tree, as a function of the five argument arrays.

  Node i of the heap (0 ≤ i < 131071) sits at depth d with 2^d - 1 ≤ i < 2^(d+1) - 1; its children are nodes 2i + 1 and
  2i + 2, that is, rows 2r and 2r + 1 of the next level when i is row r of its own level.  `lvl k` is the level at
  depth 16 - k as a function of the row inside the level: the leaves (k = 0) from their input rows alone, an inner level
  from its input rows and the two children rows of the level below, side by side.
-/
import Idealize.ShloMosaic.Lib.ValueIdx
import proofs.«410862_j80719615361096_3_alg».proof.Proof.TreeCell

noncomputable section

namespace Cert.TreeSpec

open Idealize.ShloMosaic Idealize.ShloMosaic.ValueIdx Cert.TreeCell

variable (X : FVec Ideal ⟨2, ![131071, 256]⟩ .f32) (Ww : FVec Ideal ⟨2, ![768, 256]⟩ .f32) (Wb : FVec Ideal ⟨1, ![768]⟩ .f32)
  (Uhc : FVec Ideal ⟨2, ![256, 512]⟩ .f32) (Uf : FVec Ideal ⟨2, ![512, 512]⟩ .f32)

/-- input row i (zero past the last node) -/
def xrow (i : ℕ) : Fin 256 → EReal := fun c => if h : i < 131071 then X (ix2 ⟨i, h⟩ c) else 0

/-- the candidate slice of node i's affine image -/
def wh (i : ℕ) : Fin 256 → EReal := fun j => wx (fun k c => Ww (ix2 k c)) (fun k => Wb (ix1 k)) (xrow X i) (cand j)

/-- the forget slice of node i's affine image -/
def wf (i : ℕ) : Fin 512 → EReal := fun k => wx (fun k c => Ww (ix2 k c)) (fun k => Wb (ix1 k)) (xrow X i) (forg k)

/-- rows 2r and 2r + 1 of a level side by side -/
def pair (child : ℕ → Fin 256 → EReal) (r : ℕ) : Fin 512 → EReal :=
  fun q => child (2 * r + q.val / 256) ⟨q.val % 256, Nat.mod_lt _ (by norm_num)⟩

/-- the level at depth 16 - k, by the row inside the level -/
def lvl : ℕ → ℕ → Fin 256 → EReal
  | 0 => fun r j => leaf (wh X Ww Wb (65535 + r)) (wf X Ww Wb (65535 + r)) j
  | k + 1 => fun r j =>
      inner (fun j q => Uhc (ix2 j q)) (fun k q => Uf (ix2 k q)) (wh X Ww Wb (2 ^ (15 - k) - 1 + r)) (wf X Ww Wb (2 ^ (15 - k) - 1 + r))
        (pair (lvl k) r) j

theorem lvl_zero (r : ℕ) (j : Fin 256) : lvl X Ww Wb Uhc Uf 0 r j = leaf (wh X Ww Wb (65535 + r)) (wf X Ww Wb (65535 + r)) j := rfl

theorem lvl_succ (k : ℕ) (r : ℕ) (j : Fin 256) :
    lvl X Ww Wb Uhc Uf (k + 1) r j
      = inner (fun j q => Uhc (ix2 j q)) (fun k q => Uf (ix2 k q)) (wh X Ww Wb (2 ^ (15 - k) - 1 + r)) (wf X Ww Wb (2 ^ (15 - k) - 1 + r))
          (pair (lvl X Ww Wb Uhc Uf k) r) j := rfl

/-- the depth of node i counted from the leaves: 16 - ⌊log₂ (i + 1)⌋ -/
def kOf (i : ℕ) : ℕ := 16 - Nat.log2 (i + 1)

/-- THE RESULT: node i's hidden row is its level's row i - (2^d - 1) -/
def out (i : ℕ) (j : Fin 256) : EReal := lvl X Ww Wb Uhc Uf (kOf i) (i + 1 - 2 ^ (16 - kOf i)) j

end Cert.TreeSpec

end
-- ==== Proof.TreeOps.lean ====
/-
  The layout operations the tree recurrence is written with, read at an entry, at any number of rows.

  * a [2n, 256] array re-read as [n, 512] (two consecutive rows side by side) and a [n, 512] array re-read as
    [n, 2, 256] (each row cut in two halves), by the row-major position of an entry;
  * the host's sum over the axis of length two of a [n, 2, 256] array;
  * a vector laid out as a row and repeated down the rows; a scalar repeated everywhere.
-/
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost
import Idealize.ShloMosaic.PureOps.Ideal.Laws

noncomputable section

namespace Cert.TreeOps

open Idealize.ShloMosaic Idealize.ShloMosaic.ValueIdx

abbrev Sh2 (a b : ℕ) : Shape := ⟨2, ![a, b]⟩
abbrev Sh3 (a b c : ℕ) : Shape := ⟨3, ![a, b, c]⟩
abbrev Sh1 (a : ℕ) : Shape := ⟨1, ![a]⟩
abbrev Sh0 : Shape := ⟨0, ![]⟩

variable {α : Type}

/-- Two consecutive rows of 256 side by side: entry (r, q) of the [n, 512] reading is entry (2r + q / 256, q % 256). -/
theorem merge_apply {n m : ℕ} (x : (Sh2 m 256).Idx → α) (h : (Sh2 m 256).ShapeCasts (Sh2 n 512)) (r : Fin n) (q : Fin 512)
    (k : Fin m) (hk : k.val = 2 * r.val + q.val / 256) :
    shapeCast (Sh2 n 512) x h (ix2 r q) = x (ix2 k ⟨q.val % 256, Nat.mod_lt _ (by norm_num)⟩) := by
  refine shapeCast_apply x h _ _ ?_
  rw [Shape.rowMajor_val_two, Shape.rowMajor_val_two]
  show k.val * 256 + q.val % 256 = r.val * 512 + q.val
  omega

/-- A row of 512 cut in two halves of 256: entry (r, a, j) of the [n, 2, 256] reading is entry (r, 256 a + j). -/
theorem split_apply {n : ℕ} (x : (Sh2 n 512).Idx → α) (h : (Sh2 n 512).ShapeCasts (Sh3 n 2 256)) (r : Fin n) (a : Fin 2) (j : Fin 256)
    (q : Fin 512) (hq : q.val = 256 * a.val + j.val) :
    shapeCast (Sh3 n 2 256) x h (ix3 r a j) = x (ix2 r q) := by
  refine shapeCast_apply x h _ _ ?_
  rw [Shape.rowMajor_val_two, Shape.rowMajor_val_three]
  show r.val * 512 + q.val = (r.val * 2 + a.val) * 256 + j.val
  omega

/-- The host's sum over the axis of length two: the initial value plus the two halves' entries. -/
theorem reduce_pair_apply {n : ℕ} (x : FVec Ideal (Sh3 n 2 256) .f32) (init : FVec Ideal Sh0 .f32)
    (h : (Sh3 n 2 256).ReducesTo [1] (Sh2 n 256)) (hu : 0 < Sh0.numel) (r : Fin n) (j : Fin 256) :
    Host.reduceAdd x init h hu (ix2 r j) = init ix0 + (x (ix3 r 0 j) + x (ix3 r 1 j)) := by
  have hr : (Sh3 n 2 256).Reduces [1] (Sh2 n 256) := ⟨h.1, Nat.zero_lt_two, h.2⟩
  have hl : ∀ k : Fin 2, hr.lift (ix2 r j) k = ix3 r k j := by
    intro k
    funext c
    apply Fin.ext
    fin_cases c <;> rfl
  rw [hostReduceAdd_apply, Ideal.hostReduceAdd_single h hr, eq_ix0 (Shape.Idx.first hu)]
  show init ix0 + ∑ k : Fin 2, x (hr.lift (ix2 r j) k) = _
  rw [Fin.sum_univ_two, hl 0, hl 1]

/-- A vector laid out as one row and repeated down the rows reads, at (r, k), the vector at k. -/
theorem bias_apply {R C : ℕ} (hb0 : (Sh1 C).BroadcastsInDim (Sh2 1 C) ![1]) (hb : (Sh2 1 C).BroadcastsInDim (Sh2 R C) ![0, 1])
    (v : (Sh1 C).Idx → α) (r : Fin R) (k : Fin C) :
    broadcastInDim (Sh2 R C) ![0, 1] hb (broadcastInDim (Sh2 1 C) ![1] hb0 v) (ix2 r k) = v (ix1 k) := by
  rw [broadcastInDim_oneRow_apply hb]
  refine broadcastInDim_apply ![1] hb0 v (ix2 (0 : Fin 1) k) (ix1 k) ?_
  intro a
  fin_cases a
  show k.val = if C = 1 then 0 else k.val
  split_ifs with hC
  · have := k.isLt; omega
  · rfl

/-- A vector re-read as one row [1, C] reads, at (0, k), the vector at k. -/
theorem row_of_vec_apply {C : ℕ} (h : (Sh1 C).ShapeCasts (Sh2 1 C)) (v : (Sh1 C).Idx → α) (k : Fin C) :
    shapeCast (Sh2 1 C) v h (ix2 (0 : Fin 1) k) = v (ix1 k) :=
  shapeCast_a_1a_apply v h 0 k

end Cert.TreeOps

end
-- ==== Proof.LibPlainMatmul.lean ====
/-
  A plain matrix product [M, K] x [K, N] into the zero accumulator, read at an entry, over the extended reals.

  With dimension numbers "contract the left operand's axis 1 with the right operand's axis 0, no batch axes"
  (`DotDims.plain M K N`) the product's entry (r, c) is the sum over k of a (r, k) * b (k, c): the left operand is read at
  the output's row and the contraction coordinate, the right one at the contraction coordinate and the output's column.
  Stated at any extents, with indices written by their coordinates.
-/
import Idealize.ShloMosaic.Lib.ValueIdx
import Idealize.ShloMosaic.PureOps.Ideal.Laws

noncomputable section

namespace Cert.PlainMatmul

open Idealize.ShloMosaic Idealize.ShloMosaic.ValueIdx

variable {M K N : ℕ}

/-- The left operand's row coordinate is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (r, c) of the product into the zero accumulator is the sum over k of a (r, k) * b (k, c). -/
theorem apply (prec : Option ContractPrecision) {φ₁ φ₂ : FTy} (a : FVec Ideal ⟨2, ![M, K]⟩ φ₁) (b : FVec Ideal ⟨2, ![K, N]⟩ φ₂)
    (r : Fin M) (c : Fin N) :
    FloatOps.matmul (DotDims.plain M K N) prec a b (constant ⟨2, ![M, N]⟩ .f32 0x00000000#32) (ix2 r c)
      = ∑ k : Fin K, a (ix2 r k) * b (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun x => Fin.ext (by
      match x with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun x => Fin.ext (by
      match x with
      | ⟨0, _⟩ => exact (rhs_row _ _).trans hk
      | ⟨1, _⟩ => exact rhs_col _ _)
  rw [el, er]

end Cert.PlainMatmul

end
-- ==== Proof.TreeDot.lean ====
/-
  The host's plain matrix product [M, K] x [K, N] read at an entry over the extended reals: the sum over k of
  a (r, k) * b (k, c), like the kernel's product into the zero accumulator.
-/
import Idealize.ShloMosaic.Lib.ValueIdx
import Idealize.ShloMosaic.PureOps.Ideal.Laws
import proofs.«410862_j80719615361096_3_alg».proof.Proof.LibPlainMatmul

noncomputable section

namespace Cert.TreeDot

open Idealize.ShloMosaic Idealize.ShloMosaic.ValueIdx

/-- The host's plain product at an entry: the sum over k of a (r, k) * b (k, c). -/
theorem dot_apply {M K N : ℕ} {φ₁ φ₂ : FTy} (a : FVec Ideal ⟨2, ![M, K]⟩ φ₁) (b : FVec Ideal ⟨2, ![K, N]⟩ φ₂) (r : Fin M) (c : Fin N) :
    (Host.dotGeneral (DotDims.plain M K N) none a b : FVec Ideal ⟨2, ![M, N]⟩ .f32) (ix2 r c) = ∑ k : Fin K, a (ix2 r k) * b (ix2 k c) := by
  simp only [Host.dotGeneral]
  rw [Ideal.dotGeneral_apply, ← Ideal.matmul_constant_zero_apply (DotDims.plain M K N) none a b (ix2 r c)]
  exact Cert.PlainMatmul.apply none a b r c

end Cert.TreeDot

end
-- ==== Proof.HostChain.lean ====
/-
  One level of the tree recurrence as the host computes it, at any number of rows n, and what it holds at an entry.

  `wxHost` is the affine image x W^T + b of a block of input rows; `innerHost` an inner level from the candidate and forget
  slices of that image and the children level re-read with two rows side by side; `leafHost` the leaf level.  Read at
  entry (r, j) each is the node arithmetic of `TreeCell` on row r.
-/
import proofs.«410862_j80719615361096_3_alg».proof.Proof.TreeCell
import proofs.«410862_j80719615361096_3_alg».proof.Proof.TreeOps
import proofs.«410862_j80719615361096_3_alg».proof.Proof.TreeDot

noncomputable section

namespace Cert.HostChain

open Idealize.ShloMosaic Idealize.ShloMosaic.ValueIdx Cert.TreeOps

abbrev Mat (a b : ℕ) := FVec Ideal (Sh2 a b) .f32

/-- the weights as the node arithmetic takes them -/
abbrev wOf (Ww : Mat 768 256) : Fin 768 → Fin 256 → EReal := fun k c => Ww (ix2 k c)
abbrev bOf (Wb : FVec Ideal (Sh1 768) .f32) : Fin 768 → EReal := fun k => Wb (ix1 k)
abbrev ufOf (Uf : Mat 512 512) : Fin 512 → Fin 512 → EReal := fun k q => Uf (ix2 k q)
abbrev uhcOf (Uhc : Mat 256 512) : Fin 256 → Fin 512 → EReal := fun j q => Uhc (ix2 j q)
/-- row r of an array -/
abbrev rowOf {n w : ℕ} (A : Mat n w) (r : Fin n) : Fin w → EReal := fun k => A (ix2 r k)

section
variable {n : ℕ}

/-- x W^T + b for a block of n input rows -/
def wxHost (x : Mat n 256) (Ww : Mat 768 256) (Wb : FVec Ideal (Sh1 768) .f32)
    (t0 : (Sh2 768 256).Transposes [1, 0] (Sh2 256 768)) (b0 : (Sh1 768).BroadcastsInDim (Sh2 1 768) ![1])
    (b1 : (Sh2 1 768).BroadcastsInDim (Sh2 n 768) ![0, 1]) : Mat n 768 :=
  addf (Host.dotGeneral (DotDims.plain n 256 768) none x (transpose (Sh2 256 768) [1, 0] Ww t0))
    (broadcastInDim (Sh2 n 768) ![0, 1] b1 (broadcastInDim (Sh2 1 768) ![1] b0 Wb))

theorem wxHost_apply (x : Mat n 256) (Ww : Mat 768 256) (Wb : FVec Ideal (Sh1 768) .f32) (t0 b0 b1) (r : Fin n) (k : Fin 768) :
    wxHost x Ww Wb t0 b0 b1 (ix2 r k) = TreeCell.wx (wOf Ww) (bOf Wb) (rowOf x r) k := by
  unfold wxHost TreeCell.wx
  rw [addf_apply, TreeDot.dot_apply, bias_apply]
  congr 1
  refine Finset.sum_congr rfl fun c _ => ?_
  rw [transpose_ix2_apply]

/-- an inner level: wh the candidate slice [n, 256], wf the forget slice [n, 512], hc the children side by side [n, 512] -/
def innerHost (wh : Mat n 256) (wf hc : Mat n 512) (Uf : Mat 512 512) (Uhc : Mat 256 512)
    (t1 : (Sh2 512 512).Transposes [1, 0] (Sh2 512 512)) (t2 : (Sh2 256 512).Transposes [1, 0] (Sh2 512 256))
    (c1 : (Sh2 n 512).ShapeCasts (Sh3 n 2 256)) (rd : (Sh3 n 2 256).ReducesTo [1] (Sh2 n 256)) (h0 : 0 < Sh0.numel)
    (s1 : Sh0.BroadcastsInDim (Sh2 n 512) ![]) (s2 : Sh0.BroadcastsInDim (Sh2 n 256) ![]) : Mat n 256 :=
  addf
    (Host.reduceAdd (shapeCast (Sh3 n 2 256)
        (mulf (Host.dotGeneral (DotDims.plain n 512 512) none hc (transpose (Sh2 512 512) [1, 0] Uf t1)) hc) c1)
      (constant Sh0 .f32 0x00000000#32) rd h0)
    (mulf
      (subf (broadcastInDim (Sh2 n 256) ![] s2 (constant Sh0 .f32 0x3F800000#32))
        (Host.reduceAdd (shapeCast (Sh3 n 2 256)
            (Host.divf (broadcastInDim (Sh2 n 512) ![] s1 (constant Sh0 .f32 0x3F800000#32))
              (addf (broadcastInDim (Sh2 n 512) ![] s1 (constant Sh0 .f32 0x3F800000#32))
                (Host.exp (Host.negf (addf (Host.dotGeneral (DotDims.plain n 512 512) none hc (transpose (Sh2 512 512) [1, 0] Uf t1)) wf))))) c1)
          (constant Sh0 .f32 0x00000000#32) rd h0))
      (Host.tanh (addf wh
        (Host.dotGeneral (DotDims.plain n 512 256) none
          (mulf (Host.dotGeneral (DotDims.plain n 512 512) none hc (transpose (Sh2 512 512) [1, 0] Uf t1)) hc)
          (transpose (Sh2 512 256) [1, 0] Uhc t2)))))

theorem innerHost_apply (wh : Mat n 256) (wf hc : Mat n 512) (Uf : Mat 512 512) (Uhc : Mat 256 512) (t1 t2 c1 rd h0 s1 s2)
    (r : Fin n) (j : Fin 256) :
    innerHost wh wf hc Uf Uhc t1 t2 c1 rd h0 s1 s2 (ix2 r j)
      = TreeCell.inner (uhcOf Uhc) (ufOf Uf) (rowOf wh r) (rowOf wf r) (rowOf hc r) j := by
  have one : Ideal.ofBits .f32 0x3F800000#32 = (1 : EReal) := Ideal.ofBits_one_f32
  have zero : Ideal.ofBits .f32 0x00000000#32 = (0 : EReal) := Ideal.ofBits_zero_f32
  have hlo : (TreeCell.lo j).val = 256 * (0 : Fin 2).val + j.val := by simp [TreeCell.lo]
  have hhi : (TreeCell.hi j).val = 256 * (1 : Fin 2).val + j.val := by simp [TreeCell.hi]
  -- the forget pre-activation, entry by entry
  have hP : ∀ k : Fin 512,
      (Host.dotGeneral (DotDims.plain n 512 512) none hc (transpose (Sh2 512 512) [1, 0] Uf t1) : Mat n 512) (ix2 r k)
        = TreeCell.fpre (ufOf Uf) (rowOf hc r) k := by
    intro k
    rw [TreeDot.dot_apply]
    unfold TreeCell.fpre
    refine Finset.sum_congr rfl fun q _ => ?_
    rw [transpose_ix2_apply]
  -- the gated children, entry by entry
  have hG : ∀ k : Fin 512,
      (mulf (Host.dotGeneral (DotDims.plain n 512 512) none hc (transpose (Sh2 512 512) [1, 0] Uf t1)) hc : Mat n 512) (ix2 r k)
        = TreeCell.gate (ufOf Uf) (rowOf hc r) k := by
    intro k
    rw [mulf_apply, hP]
    rfl
  -- what the gated children add to the candidate
  have hD :
      (Host.dotGeneral (DotDims.plain n 512 256) none
          (mulf (Host.dotGeneral (DotDims.plain n 512 512) none hc (transpose (Sh2 512 512) [1, 0] Uf t1)) hc)
          (transpose (Sh2 512 256) [1, 0] Uhc t2) : Mat n 256) (ix2 r j)
        = TreeCell.hcadd (uhcOf Uhc) (ufOf Uf) (rowOf hc r) j := by
    rw [TreeDot.dot_apply]
    unfold TreeCell.hcadd
    refine Finset.sum_congr rfl fun q _ => ?_
    rw [hG, transpose_ix2_apply]
  -- the host's one-operand operations, entry by entry
  have hexp : ∀ (y : Mat n 512) (i : (Sh2 n 512).Idx), Host.exp y i = Ideal.exp (y i) := fun _ _ => rfl
  have hneg : ∀ (y : Mat n 512) (i : (Sh2 n 512).Idx), Host.negf y i = -(y i) := fun _ _ => rfl
  have htanh : ∀ (y : Mat n 256) (i : (Sh2 n 256).Idx), Host.tanh y i = Ideal.tanh (y i) := fun _ _ => rfl
  -- one forget gate, entry by entry
  have hS : ∀ k : Fin 512,
      (Host.divf (broadcastInDim (Sh2 n 512) ![] s1 (constant Sh0 .f32 0x3F800000#32))
          (addf (broadcastInDim (Sh2 n 512) ![] s1 (constant Sh0 .f32 0x3F800000#32))
            (Host.exp (Host.negf (addf (Host.dotGeneral (DotDims.plain n 512 512) none hc (transpose (Sh2 512 512) [1, 0] Uf t1)) wf)))) :
          Mat n 512) (ix2 r k)
        = TreeCell.sg (TreeCell.fpre (ufOf Uf) (rowOf hc r) k + wf (ix2 r k)) := by
    intro k
    unfold TreeCell.sg
    rw [hostDivf_apply, addf_apply, hexp, hneg, addf_apply, hP, broadcastInDim_scalar_apply, constant_apply, one]
  unfold innerHost TreeCell.inner
  rw [addf_apply, mulf_apply, subf_apply, reduce_pair_apply, reduce_pair_apply,
    split_apply _ c1 r 0 j (TreeCell.lo j) hlo, split_apply _ c1 r 1 j (TreeCell.hi j) hhi,
    split_apply _ c1 r 0 j (TreeCell.lo j) hlo, split_apply _ c1 r 1 j (TreeCell.hi j) hhi,
    hG, hG, hS, hS, htanh, addf_apply, hD, broadcastInDim_scalar_apply, constant_apply, constant_apply, one, zero,
    zero_add, zero_add]

/-- the leaf level -/
def leafHost (wh : Mat n 256) (wf : Mat n 512)
    (c1 : (Sh2 n 512).ShapeCasts (Sh3 n 2 256)) (rd : (Sh3 n 2 256).ReducesTo [1] (Sh2 n 256)) (h0 : 0 < Sh0.numel)
    (s1 : Sh0.BroadcastsInDim (Sh2 n 512) ![]) (s2 : Sh0.BroadcastsInDim (Sh2 n 256) ![]) : Mat n 256 :=
  mulf
    (subf (broadcastInDim (Sh2 n 256) ![] s2 (constant Sh0 .f32 0x3F800000#32))
      (Host.reduceAdd (shapeCast (Sh3 n 2 256)
          (Host.divf (broadcastInDim (Sh2 n 512) ![] s1 (constant Sh0 .f32 0x3F800000#32))
            (addf (broadcastInDim (Sh2 n 512) ![] s1 (constant Sh0 .f32 0x3F800000#32)) (Host.exp (Host.negf wf)))) c1)
        (constant Sh0 .f32 0x00000000#32) rd h0))
    (Host.tanh wh)

theorem leafHost_apply (wh : Mat n 256) (wf : Mat n 512) (c1 rd h0 s1 s2) (r : Fin n) (j : Fin 256) :
    leafHost wh wf c1 rd h0 s1 s2 (ix2 r j) = TreeCell.leaf (rowOf wh r) (rowOf wf r) j := by
  have one : Ideal.ofBits .f32 0x3F800000#32 = (1 : EReal) := Ideal.ofBits_one_f32
  have zero : Ideal.ofBits .f32 0x00000000#32 = (0 : EReal) := Ideal.ofBits_zero_f32
  have hlo : (TreeCell.lo j).val = 256 * (0 : Fin 2).val + j.val := by simp [TreeCell.lo]
  have hhi : (TreeCell.hi j).val = 256 * (1 : Fin 2).val + j.val := by simp [TreeCell.hi]
  unfold leafHost TreeCell.leaf TreeCell.sg
  rw [mulf_apply, subf_apply, reduce_pair_apply,
    split_apply _ c1 r 0 j (TreeCell.lo j) hlo, split_apply _ c1 r 1 j (TreeCell.hi j) hhi]
  show (Ideal.ofBits .f32 0x3F800000#32
          - (Ideal.ofBits .f32 0x00000000#32
            + (Ideal.div (Ideal.ofBits .f32 0x3F800000#32) (Ideal.ofBits .f32 0x3F800000#32 + Ideal.exp (-(wf (ix2 r (TreeCell.lo j)))))
              + Ideal.div (Ideal.ofBits .f32 0x3F800000#32) (Ideal.ofBits .f32 0x3F800000#32 + Ideal.exp (-(wf (ix2 r (TreeCell.hi j))))))))
        * Ideal.tanh (wh (ix2 r j))
      = _
  rw [one, zero, zero_add]

end

end Cert.HostChain

end
-- ==== Proof.HostLevel.lean ====
/-
  A level of the tree recurrence as the two programs compute it on the host, against the level function of `TreeSpec`.

  The kernel's program computes a small level from the level's own slice of the input rows (their affine image, then its
  candidate and forget column slices) and the level below re-read with two rows side by side.  The reference computes the
  affine image of ALL input rows once, cuts its candidate and forget columns, and per level cuts the level's rows out of
  those; the level below it reads back out of the result array it is filling.  Entry by entry both are the node
  arithmetic on input row s + r and the children rows 2r and 2r + 1 of the level below.
-/
import proofs.«410862_j80719615361096_3_alg».proof.Proof.HostChain
import proofs.«410862_j80719615361096_3_alg».proof.Proof.TreeSpec

noncomputable section

namespace Cert.HostLevel

open Idealize.ShloMosaic Idealize.ShloMosaic.ValueIdx Cert.TreeOps Cert.HostChain

variable (X : Mat 131071 256) (Ww : Mat 768 256) (Wb : FVec Ideal (Sh1 768) .f32) (Uhc : Mat 256 512) (Uf : Mat 512 512)

/-! ## Rows of the cut arrays -/

/-- Row r of the input rows cut from row s is input row s + r. -/
theorem x_row {n : ℕ} (s : ℕ) (hX : (Sh2 131071 256).Slices ![s, 0] (Sh2 n 256)) (r : Fin n) :
    rowOf (extractStridedSlice (Sh2 n 256) ![s, 0] X hX) r = TreeSpec.xrow X (s + r.val) := by
  funext c
  have hsn : s + n ≤ 131071 := hX.2 0
  have hlt : s + r.val < 131071 := by have := r.isLt; omega
  show extractStridedSlice (Sh2 n 256) ![s, 0] X hX (ix2 r c) = TreeSpec.xrow X (s + r.val) c
  unfold TreeSpec.xrow
  rw [dif_pos hlt, slice2_axis0_apply s X hX r c ⟨s + r.val, hlt⟩ rfl]

/-- Input row i itself. -/
theorem x_row_all (i : Fin 131071) : rowOf X i = TreeSpec.xrow X i.val := by
  funext c
  unfold TreeSpec.xrow
  rw [dif_pos i.isLt]

/-- Row r of the candidate columns of the affine image of the input rows from s is the candidate slice of node s + r. -/
theorem whK_row {n : ℕ} (s : ℕ) (hX : (Sh2 131071 256).Slices ![s, 0] (Sh2 n 256))
    (t0 : (Sh2 768 256).Transposes [1, 0] (Sh2 256 768)) (b0 : (Sh1 768).BroadcastsInDim (Sh2 1 768) ![1])
    (b1 : (Sh2 1 768).BroadcastsInDim (Sh2 n 768) ![0, 1]) (sA : (Sh2 n 768).Slices ![0, 0] (Sh2 n 256)) (r : Fin n) :
    rowOf (extractStridedSlice (Sh2 n 256) ![0, 0] (wxHost (extractStridedSlice (Sh2 n 256) ![s, 0] X hX) Ww Wb t0 b0 b1) sA) r
      = TreeSpec.wh X Ww Wb (s + r.val) := by
  funext c
  show extractStridedSlice (Sh2 n 256) ![0, 0] (wxHost (extractStridedSlice (Sh2 n 256) ![s, 0] X hX) Ww Wb t0 b0 b1) sA (ix2 r c)
    = TreeCell.wx (wOf Ww) (bOf Wb) (TreeSpec.xrow X (s + r.val)) (TreeCell.cand c)
  rw [slice2_axis1_apply 0 _ sA r c (TreeCell.cand c) (Nat.zero_add _).symm, wxHost_apply, x_row]

/-- Row r of the forget columns of the affine image of the input rows from s is the forget slice of node s + r. -/
theorem wfK_row {n : ℕ} (s : ℕ) (hX : (Sh2 131071 256).Slices ![s, 0] (Sh2 n 256))
    (t0 : (Sh2 768 256).Transposes [1, 0] (Sh2 256 768)) (b0 : (Sh1 768).BroadcastsInDim (Sh2 1 768) ![1])
    (b1 : (Sh2 1 768).BroadcastsInDim (Sh2 n 768) ![0, 1]) (sB : (Sh2 n 768).Slices ![0, 256] (Sh2 n 512)) (r : Fin n) :
    rowOf (extractStridedSlice (Sh2 n 512) ![0, 256] (wxHost (extractStridedSlice (Sh2 n 256) ![s, 0] X hX) Ww Wb t0 b0 b1) sB) r
      = TreeSpec.wf X Ww Wb (s + r.val) := by
  funext q
  show extractStridedSlice (Sh2 n 512) ![0, 256] (wxHost (extractStridedSlice (Sh2 n 256) ![s, 0] X hX) Ww Wb t0 b0 b1) sB (ix2 r q)
    = TreeCell.wx (wOf Ww) (bOf Wb) (TreeSpec.xrow X (s + r.val)) (TreeCell.forg q)
  rw [slice2_axis1_apply 256 _ sB r q (TreeCell.forg q) rfl, wxHost_apply, x_row]

/-- Row r of the rows from s of an array that holds every node's candidate slice is the candidate slice of node s + r. -/
theorem whR_row {n : ℕ} (whG : Mat 131071 256)
    (hwh : ∀ (i : Fin 131071) (j : Fin 256), whG (ix2 i j) = TreeSpec.wh X Ww Wb i.val j)
    (s : ℕ) (hA : (Sh2 131071 256).Slices ![s, 0] (Sh2 n 256)) (r : Fin n) :
    rowOf (extractStridedSlice (Sh2 n 256) ![s, 0] whG hA) r = TreeSpec.wh X Ww Wb (s + r.val) := by
  funext c
  have hsn : s + n ≤ 131071 := hA.2 0
  have hlt : s + r.val < 131071 := by have := r.isLt; omega
  show extractStridedSlice (Sh2 n 256) ![s, 0] whG hA (ix2 r c) = TreeSpec.wh X Ww Wb (s + r.val) c
  rw [slice2_axis0_apply s whG hA r c ⟨s + r.val, hlt⟩ rfl, hwh]

/-- Row r of the rows from s of an array that holds every node's forget slice is the forget slice of node s + r. -/
theorem wfR_row {n : ℕ} (wfG : Mat 131071 512)
    (hwf : ∀ (i : Fin 131071) (q : Fin 512), wfG (ix2 i q) = TreeSpec.wf X Ww Wb i.val q)
    (s : ℕ) (hB : (Sh2 131071 512).Slices ![s, 0] (Sh2 n 512)) (r : Fin n) :
    rowOf (extractStridedSlice (Sh2 n 512) ![s, 0] wfG hB) r = TreeSpec.wf X Ww Wb (s + r.val) := by
  funext q
  have hsn : s + n ≤ 131071 := hB.2 0
  have hlt : s + r.val < 131071 := by have := r.isLt; omega
  show extractStridedSlice (Sh2 n 512) ![s, 0] wfG hB (ix2 r q) = TreeSpec.wf X Ww Wb (s + r.val) q
  rw [slice2_axis0_apply s wfG hB r q ⟨s + r.val, hlt⟩ rfl, hwf]

/-- Row r of a level of 2n rows re-read with two rows side by side is rows 2r and 2r + 1 of that level side by side. -/
theorem child_row {n m : ℕ} (hm : m = 2 * n) (child : Mat m 256) (f : ℕ → Fin 256 → EReal)
    (hchild : ∀ (r : Fin m) (j : Fin 256), child (ix2 r j) = f r.val j)
    (hc : (Sh2 m 256).ShapeCasts (Sh2 n 512)) (r : Fin n) :
    rowOf (shapeCast (Sh2 n 512) child hc) r = TreeSpec.pair f r.val := by
  funext q
  have hlt : 2 * r.val + q.val / 256 < m := by have := r.isLt; have := q.isLt; omega
  show shapeCast (Sh2 n 512) child hc (ix2 r q) = f (2 * r.val + q.val / 256) ⟨q.val % 256, Nat.mod_lt _ (by norm_num)⟩
  rw [merge_apply child hc r q ⟨2 * r.val + q.val / 256, hlt⟩ rfl, hchild]

/-! ## The levels -/

section
variable {n m : ℕ}

/-- a level as the kernel's program computes it on the host: from the rows s .. s + n - 1 of the input and the level below -/
def levelK (s : ℕ) (child : Mat m 256)
    (hX : (Sh2 131071 256).Slices ![s, 0] (Sh2 n 256))
    (t0 : (Sh2 768 256).Transposes [1, 0] (Sh2 256 768)) (b0 : (Sh1 768).BroadcastsInDim (Sh2 1 768) ![1])
    (b1 : (Sh2 1 768).BroadcastsInDim (Sh2 n 768) ![0, 1])
    (sA : (Sh2 n 768).Slices ![0, 0] (Sh2 n 256)) (sB : (Sh2 n 768).Slices ![0, 256] (Sh2 n 512))
    (hc : (Sh2 m 256).ShapeCasts (Sh2 n 512))
    (t1 : (Sh2 512 512).Transposes [1, 0] (Sh2 512 512)) (t2 : (Sh2 256 512).Transposes [1, 0] (Sh2 512 256))
    (c1 : (Sh2 n 512).ShapeCasts (Sh3 n 2 256)) (rd : (Sh3 n 2 256).ReducesTo [1] (Sh2 n 256)) (h0 : 0 < Sh0.numel)
    (s1 : Sh0.BroadcastsInDim (Sh2 n 512) ![]) (s2 : Sh0.BroadcastsInDim (Sh2 n 256) ![]) : Mat n 256 :=
  innerHost
    (extractStridedSlice (Sh2 n 256) ![0, 0] (wxHost (extractStridedSlice (Sh2 n 256) ![s, 0] X hX) Ww Wb t0 b0 b1) sA)
    (extractStridedSlice (Sh2 n 512) ![0, 256] (wxHost (extractStridedSlice (Sh2 n 256) ![s, 0] X hX) Ww Wb t0 b0 b1) sB)
    (shapeCast (Sh2 n 512) child hc) Uf Uhc t1 t2 c1 rd h0 s1 s2

theorem levelK_spec (k s : ℕ) (hs : s = 2 ^ (15 - k) - 1) (hm : m = 2 * n) (child : Mat m 256)
    (hchild : ∀ (r : Fin m) (j : Fin 256), child (ix2 r j) = TreeSpec.lvl X Ww Wb Uhc Uf k r.val j)
    (hX t0 b0 b1 sA sB hc t1 t2 c1 rd h0 s1 s2) (r : Fin n) (j : Fin 256) :
    levelK X Ww Wb Uhc Uf s child hX t0 b0 b1 sA sB hc t1 t2 c1 rd h0 s1 s2 (ix2 r j)
      = TreeSpec.lvl X Ww Wb Uhc Uf (k + 1) r.val j := by
  subst hs
  rw [levelK, innerHost_apply, TreeSpec.lvl_succ, whK_row, wfK_row,
    child_row hm child (TreeSpec.lvl X Ww Wb Uhc Uf k) hchild hc r]

end

/-- the affine image of all input rows, as the reference computes it once -/
def wxAll (t0 : (Sh2 768 256).Transposes [1, 0] (Sh2 256 768)) (b0 : (Sh1 768).BroadcastsInDim (Sh2 1 768) ![1])
    (b1 : (Sh2 1 768).BroadcastsInDim (Sh2 131071 768) ![0, 1]) : Mat 131071 768 := wxHost X Ww Wb t0 b0 b1

/-- its candidate columns -/
def whAll (t0 : (Sh2 768 256).Transposes [1, 0] (Sh2 256 768)) (b0 : (Sh1 768).BroadcastsInDim (Sh2 1 768) ![1])
    (b1 : (Sh2 1 768).BroadcastsInDim (Sh2 131071 768) ![0, 1]) (sA : (Sh2 131071 768).Slices ![0, 0] (Sh2 131071 256)) : Mat 131071 256 :=
  extractStridedSlice (Sh2 131071 256) ![0, 0] (wxAll X Ww Wb t0 b0 b1) sA

/-- its forget columns -/
def wfAll (t0 : (Sh2 768 256).Transposes [1, 0] (Sh2 256 768)) (b0 : (Sh1 768).BroadcastsInDim (Sh2 1 768) ![1])
    (b1 : (Sh2 1 768).BroadcastsInDim (Sh2 131071 768) ![0, 1]) (sB : (Sh2 131071 768).Slices ![0, 256] (Sh2 131071 512)) : Mat 131071 512 :=
  extractStridedSlice (Sh2 131071 512) ![0, 256] (wxAll X Ww Wb t0 b0 b1) sB

theorem whAll_apply (t0 b0 b1 sA) (i : Fin 131071) (j : Fin 256) :
    whAll X Ww Wb t0 b0 b1 sA (ix2 i j) = TreeSpec.wh X Ww Wb i.val j := by
  show extractStridedSlice (Sh2 131071 256) ![0, 0] (wxHost X Ww Wb t0 b0 b1) sA (ix2 i j)
    = TreeCell.wx (wOf Ww) (bOf Wb) (TreeSpec.xrow X i.val) (TreeCell.cand j)
  rw [slice2_axis1_apply 0 _ sA i j (TreeCell.cand j) (Nat.zero_add _).symm, wxHost_apply, x_row_all]

theorem wfAll_apply (t0 b0 b1 sB) (i : Fin 131071) (k : Fin 512) :
    wfAll X Ww Wb t0 b0 b1 sB (ix2 i k) = TreeSpec.wf X Ww Wb i.val k := by
  show extractStridedSlice (Sh2 131071 512) ![0, 256] (wxHost X Ww Wb t0 b0 b1) sB (ix2 i k)
    = TreeCell.wx (wOf Ww) (bOf Wb) (TreeSpec.xrow X i.val) (TreeCell.forg k)
  rw [slice2_axis1_apply 256 _ sB i k (TreeCell.forg k) rfl, wxHost_apply, x_row_all]

section
variable {n m : ℕ}

/-- an inner level as the reference computes it: the level's rows of the candidate and forget columns, and the level below -/
def levelR (s : ℕ) (whG : Mat 131071 256) (wfG : Mat 131071 512) (child : Mat m 256)
    (hA : (Sh2 131071 256).Slices ![s, 0] (Sh2 n 256)) (hB : (Sh2 131071 512).Slices ![s, 0] (Sh2 n 512))
    (hc : (Sh2 m 256).ShapeCasts (Sh2 n 512))
    (t1 : (Sh2 512 512).Transposes [1, 0] (Sh2 512 512)) (t2 : (Sh2 256 512).Transposes [1, 0] (Sh2 512 256))
    (c1 : (Sh2 n 512).ShapeCasts (Sh3 n 2 256)) (rd : (Sh3 n 2 256).ReducesTo [1] (Sh2 n 256)) (h0 : 0 < Sh0.numel)
    (s1 : Sh0.BroadcastsInDim (Sh2 n 512) ![]) (s2 : Sh0.BroadcastsInDim (Sh2 n 256) ![]) : Mat n 256 :=
  innerHost (extractStridedSlice (Sh2 n 256) ![s, 0] whG hA) (extractStridedSlice (Sh2 n 512) ![s, 0] wfG hB)
    (shapeCast (Sh2 n 512) child hc) Uf Uhc t1 t2 c1 rd h0 s1 s2

theorem levelR_spec (k s : ℕ) (hs : s = 2 ^ (15 - k) - 1) (hm : m = 2 * n) (whG : Mat 131071 256) (wfG : Mat 131071 512)
    (hwh : ∀ (i : Fin 131071) (j : Fin 256), whG (ix2 i j) = TreeSpec.wh X Ww Wb i.val j)
    (hwf : ∀ (i : Fin 131071) (q : Fin 512), wfG (ix2 i q) = TreeSpec.wf X Ww Wb i.val q)
    (child : Mat m 256) (hchild : ∀ (r : Fin m) (j : Fin 256), child (ix2 r j) = TreeSpec.lvl X Ww Wb Uhc Uf k r.val j)
    (hA hB hc t1 t2 c1 rd h0 s1 s2) (r : Fin n) (j : Fin 256) :
    levelR Uhc Uf s whG wfG child hA hB hc t1 t2 c1 rd h0 s1 s2 (ix2 r j) = TreeSpec.lvl X Ww Wb Uhc Uf (k + 1) r.val j := by
  subst hs
  rw [levelR, innerHost_apply, TreeSpec.lvl_succ, whR_row X Ww Wb whG hwh, wfR_row X Ww Wb wfG hwf,
    child_row hm child (TreeSpec.lvl X Ww Wb Uhc Uf k) hchild hc r]

/-- the leaf level as the reference computes it -/
def leafR (s : ℕ) (whG : Mat 131071 256) (wfG : Mat 131071 512)
    (hA : (Sh2 131071 256).Slices ![s, 0] (Sh2 n 256)) (hB : (Sh2 131071 512).Slices ![s, 0] (Sh2 n 512))
    (c1 : (Sh2 n 512).ShapeCasts (Sh3 n 2 256)) (rd : (Sh3 n 2 256).ReducesTo [1] (Sh2 n 256)) (h0 : 0 < Sh0.numel)
    (s1 : Sh0.BroadcastsInDim (Sh2 n 512) ![]) (s2 : Sh0.BroadcastsInDim (Sh2 n 256) ![]) : Mat n 256 :=
  leafHost (extractStridedSlice (Sh2 n 256) ![s, 0] whG hA) (extractStridedSlice (Sh2 n 512) ![s, 0] wfG hB) c1 rd h0 s1 s2

theorem leafR_spec (whG : Mat 131071 256) (wfG : Mat 131071 512)
    (hwh : ∀ (i : Fin 131071) (j : Fin 256), whG (ix2 i j) = TreeSpec.wh X Ww Wb i.val j)
    (hwf : ∀ (i : Fin 131071) (q : Fin 512), wfG (ix2 i q) = TreeSpec.wf X Ww Wb i.val q)
    (hA hB c1 rd h0 s1 s2) (r : Fin n) (j : Fin 256) :
    leafR (n := n) 65535 whG wfG hA hB c1 rd h0 s1 s2 (ix2 r j) = TreeSpec.lvl X Ww Wb Uhc Uf 0 r.val j := by
  rw [leafR, leafHost_apply, TreeSpec.lvl_zero, whR_row X Ww Wb whG hwh, wfR_row X Ww Wb wfG hwf]

end

end Cert.HostLevel

end
-- ==== Proof.TreeScatter.lean ====
/-
  Writing a block of n whole rows into an array of N rows of 256, at a fixed start row s: the host's scatter with one
  start index and a window that is the whole update.

  `placeRows s A B` is the array that holds A's row i - s on the rows s ≤ i < s + n and B elsewhere.  The host's scatter
  of the update A at the start index s into B, the combining function returning the update, is `placeRows s A B`: the
  update's entries land on pairwise distinct entries of the result, so the order in which they are written does not matter.
  Reading a block of rows back out of `placeRows`: the block that was written comes back whole, and a block that avoids the
  written rows reads B.
-/
import Idealize.ShloMosaic.Lib.ValueIdx
import Idealize.ShloMosaic.Lib.ValueLayout
import Idealize.ShloMosaic.Lib.Pipeline.Value
import Idealize.ShloMosaic.Lib.IdealHost

noncomputable section

namespace Cert.TreeScatter

open Idealize.ShloMosaic Idealize.ShloMosaic.ValueIdx

abbrev Sh2 (a b : ℕ) : Shape := ⟨2, ![a, b]⟩
abbrev Sh1 (a : ℕ) : Shape := ⟨1, ![a]⟩

variable {α : Type}

/-- A on the rows s ≤ i < s + n (its row i - s), B elsewhere -/
def placeRows {N n : ℕ} (s : ℕ) (A : (Sh2 n 256).Idx → α) (B : (Sh2 N 256).Idx → α) : (Sh2 N 256).Idx → α :=
  fun i => if h : s ≤ (i 0).val ∧ (i 0).val < s + n then A (ix2 ⟨(i 0).val - s, by omega⟩ (i 1)) else B i

theorem placeRows_in {N n : ℕ} (s : ℕ) (A : (Sh2 n 256).Idx → α) (B : (Sh2 N 256).Idx → α) (i : Fin N) (j : Fin 256)
    (r : Fin n) (hr : i.val = s + r.val) : placeRows s A B (ix2 i j) = A (ix2 r j) := by
  have h : s ≤ ((ix2 i j : (Sh2 N 256).Idx) 0).val ∧ ((ix2 i j : (Sh2 N 256).Idx) 0).val < s + n := by
    show s ≤ i.val ∧ i.val < s + n
    have := r.isLt
    omega
  unfold placeRows
  rw [dif_pos h]
  congr 1
  have e : (⟨((ix2 i j : (Sh2 N 256).Idx) 0).val - s, by omega⟩ : Fin n) = r := by
    apply Fin.ext
    show i.val - s = r.val
    omega
  rw [e]
  rfl

theorem placeRows_out {N n : ℕ} (s : ℕ) (A : (Sh2 n 256).Idx → α) (B : (Sh2 N 256).Idx → α) (i : Fin N) (j : Fin 256)
    (h : i.val < s ∨ s + n ≤ i.val) : placeRows s A B (ix2 i j) = B (ix2 i j) := by
  have h' : ¬ (s ≤ ((ix2 i j : (Sh2 N 256).Idx) 0).val ∧ ((ix2 i j : (Sh2 N 256).Idx) 0).val < s + n) := by
    show ¬ (s ≤ i.val ∧ i.val < s + n)
    omega
  unfold placeRows
  rw [dif_neg h']

/-! ### Writing along a list of positions, the last write kept

  The fold that writes, for each position p of a list in turn, the value v p at the place g p (when there is one).
  An entry no position of the list is sent to keeps its starting value; an entry exactly one position of the list is sent to
  holds that position's value. -/

section Fold

variable {ι : Type} {sh : Shape}

theorem foldl_set_miss (g : ι → Option sh.Idx) (v : ι → α) (l : List ι) (x : sh.Idx → α) (i' : sh.Idx)
    (h : ∀ b ∈ l, g b ≠ some i') :
    l.foldl (fun r p => match g p with
      | some i => fun i'' => if i'' = i then v p else r i''
      | none => r) x i' = x i' := by
  induction l generalizing x with
  | nil => rfl
  | cons c l ih =>
    rw [List.foldl_cons, ih _ (fun b hb => h b (List.mem_cons_of_mem _ hb))]
    have hc := h c List.mem_cons_self
    cases hgc : g c with
    | none => rfl
    | some i =>
      show (if i' = i then v c else x i') = x i'
      rw [if_neg]
      intro e
      exact hc (by rw [hgc, e])

theorem foldl_set_hit (g : ι → Option sh.Idx) (v : ι → α) (l : List ι) (x : sh.Idx → α) (i' : sh.Idx) (a : ι)
    (ha : a ∈ l) (hga : g a = some i') (huniq : ∀ b ∈ l, g b = some i' → b = a) :
    l.foldl (fun r p => match g p with
      | some i => fun i'' => if i'' = i then v p else r i''
      | none => r) x i' = v a := by
  induction l generalizing x with
  | nil => cases ha
  | cons c l ih =>
    rw [List.foldl_cons]
    by_cases hal : a ∈ l
    · exact ih _ hal (fun b hb => huniq b (List.mem_cons_of_mem _ hb))
    · have hac : a = c := (List.mem_cons.1 ha).resolve_right hal
      subst hac
      rw [foldl_set_miss g v l _ i' (fun b hb hgb => hal (huniq b (List.mem_cons_of_mem _ hb) hgb ▸ hb))]
      simp only [hga, if_true]

end Fold

/-! ### Where an update entry lands -/

theorem toInt_ofNat_small (s : ℕ) (h : s < 2 ^ 31) : (BitVec.ofNat 32 s).toInt = (s : Int) := by
  unfold BitVec.toInt
  rw [BitVec.toNat_ofNat]
  have e : s % 2 ^ 32 = s := Nat.mod_eq_of_lt (by omega)
  rw [e]
  split <;> omega

section Land

variable {N n : ℕ} (d : ScatterDims (Sh2 N 256) (Sh1 1) (Sh2 n 256))
    (hw : d.updateWindowDims = [0, 1]) (hi : d.insertedWindowDims = []) (hm : d.scatterDimsToOperandDims = [0]) (hv : d.indexVectorDim = 0)

include hw hi in
theorem window_zero (j : (Sh2 n 256).Idx) : d.window j 0 = (j 0).val := by
  obtain ⟨uw, iw, sd, iv, wf⟩ := d
  simp only at hw hi
  subst hw hi
  rfl

include hw hi in
theorem window_one (j : (Sh2 n 256).Idx) : d.window j 1 = (j 1).val := by
  obtain ⟨uw, iw, sd, iv, wf⟩ := d
  simp only at hw hi
  subst hw hi
  rfl

include hm in
theorem start_one (j : (Sh2 n 256).Idx) (idx : IVec (Sh1 1) 32) : d.start j idx 1 = 0 := by
  obtain ⟨uw, iw, sd, iv, wf⟩ := d
  simp only at hm
  subst hm
  rfl

include hm hv in
theorem start_zero (j : (Sh2 n 256).Idx) (idx : IVec (Sh1 1) 32) : d.start j idx 0 = (idx (ix1 (0 : Fin 1))).toInt := by
  obtain ⟨uw, iw, sd, iv, wf⟩ := d
  simp only at hm hv
  subst hm hv
  unfold ScatterDims.start
  rw [dif_pos List.mem_cons_self]
  congr 2
  funext b
  match b with
  | ⟨0, _⟩ => rfl

include hw hi hm hv in
theorem resultIdx_rows (s : ℕ) (hs : s + n ≤ N) (hN : N < 2 ^ 31) (idx : IVec (Sh1 1) 32)
    (hidx : idx (ix1 (0 : Fin 1)) = BitVec.ofNat 32 s) (j : (Sh2 n 256).Idx) :
    d.resultIdx? j idx = some (ix2 ⟨s + (j 0).val, by have := idx2_lt0 j; omega⟩ (j 1)) := by
  have hs0 : d.start j idx 0 = (s : Int) := by
    rw [start_zero d hm hv, hidx, toInt_ofNat_small s (by omega)]
  have hs1 := start_one d hm j idx
  have hw0 := window_zero d hw hi j
  have hw1 := window_one d hw hi j
  have hj0 := idx2_lt0 j
  have hj1 := idx2_lt1 j
  have hall : ∀ a, 0 ≤ d.start j idx a + d.window j a ∧ d.start j idx a + d.window j a < (Sh2 N 256).size a := by
    intro a
    match a with
    | ⟨0, _⟩ =>
      show 0 ≤ d.start j idx 0 + (d.window j 0 : ℕ) ∧ d.start j idx 0 + (d.window j 0 : ℕ) < (N : Int)
      rw [hs0, hw0]
      omega
    | ⟨1, _⟩ =>
      show 0 ≤ d.start j idx 1 + (d.window j 1 : ℕ) ∧ d.start j idx 1 + (d.window j 1 : ℕ) < ((256 : ℕ) : Int)
      rw [hs1, hw1]
      omega
  unfold ScatterDims.resultIdx?
  rw [dif_pos hall]
  congr 1
  funext a
  match a with
  | ⟨0, _⟩ =>
    apply Fin.ext
    show (d.start j idx 0 + (d.window j 0 : ℕ)).toNat = s + (j 0).val
    rw [hs0, hw0]
    omega
  | ⟨1, _⟩ =>
    apply Fin.ext
    show (d.start j idx 1 + (d.window j 1 : ℕ)).toNat = (j 1).val
    rw [hs1, hw1]
    omega

end Land

/-- THE SCATTER OF ONE BLOCK OF WHOLE ROWS.  The dimension numbers say: the update's two axes are the window
    (`updateWindowDims = [0, 1]`, nothing inserted), the one start-index component is a row (`scatterDimsToOperandDims = [0]`),
    the index vector is the scatter indices' only axis.  The start index is the word of s, and the block fits. -/
theorem scatter_rows {N n : ℕ} (d : ScatterDims (Sh2 N 256) (Sh1 1) (Sh2 n 256))
    (hw : d.updateWindowDims = [0, 1]) (hi : d.insertedWindowDims = []) (hm : d.scatterDimsToOperandDims = [0]) (hv : d.indexVectorDim = 0)
    (s : ℕ) (hs : s + n ≤ N) (hN : N < 2 ^ 31) (x : (Sh2 N 256).Idx → α) (idx : IVec (Sh1 1) 32)
    (hidx : idx (ix1 (0 : Fin 1)) = BitVec.ofNat 32 s) (upd : (Sh2 n 256).Idx → α) :
    Host.scatter d (fun _ b => b) x idx upd = placeRows s upd x := by
  funext i
  have hres := fun j => resultIdx_rows d hw hi hm hv s hs hN idx hidx j
  unfold Host.scatter
  by_cases h : s ≤ (i 0).val ∧ (i 0).val < s + n
  · have hplace : placeRows s upd x i = upd (ix2 ⟨(i 0).val - s, by omega⟩ (i 1)) := by
      unfold placeRows
      rw [dif_pos h]
    rw [hplace]
    have hit := foldl_set_hit (fun p => d.resultIdx? ((Sh2 n 256).rowMajor.symm p) idx)
      (fun p => upd ((Sh2 n 256).rowMajor.symm p)) (List.finRange (Sh2 n 256).numel) x i
      ((Sh2 n 256).rowMajor (ix2 ⟨(i 0).val - s, by omega⟩ (i 1))) (List.mem_finRange _) ?_ ?_
    · rw [Equiv.symm_apply_apply] at hit
      exact hit
    · rw [Equiv.symm_apply_apply, hres]
      congr 1
      funext a
      match a with
      | ⟨0, _⟩ => exact Fin.ext (show s + ((i 0).val - s) = (i 0).val by omega)
      | ⟨1, _⟩ => rfl
    · intro b _ hb
      rw [hres] at hb
      have e := Option.some.inj hb
      have e0 : s + (((Sh2 n 256).rowMajor.symm b) 0).val = (i 0).val := congrArg Fin.val (congrFun e 0)
      have e1 : ((Sh2 n 256).rowMajor.symm b) 1 = i 1 := congrFun e 1
      apply (Equiv.symm_apply_eq _).1
      rw [eq_ix2 ((Sh2 n 256).rowMajor.symm b), e1]
      congr 1
      apply Fin.ext
      show (((Sh2 n 256).rowMajor.symm b) 0).val = (i 0).val - s
      omega
  · have hplace : placeRows s upd x i = x i := by
      unfold placeRows
      rw [dif_neg h]
    rw [hplace]
    refine foldl_set_miss (fun p => d.resultIdx? ((Sh2 n 256).rowMajor.symm p) idx)
      (fun p => upd ((Sh2 n 256).rowMajor.symm p)) (List.finRange (Sh2 n 256).numel) x i ?_
    intro b _ hb
    rw [hres] at hb
    have e := Option.some.inj hb
    have e0 : s + (((Sh2 n 256).rowMajor.symm b) 0).val = (i 0).val := congrArg Fin.val (congrFun e 0)
    have := idx2_lt0 ((Sh2 n 256).rowMajor.symm b)
    omega

/-- Cutting the rows s .. s + n - 1 out again gives the block that was written. -/
theorem slice_placeRows_self {N n : ℕ} (s : ℕ) (A : (Sh2 n 256).Idx → α) (B : (Sh2 N 256).Idx → α)
    (h : (Sh2 N 256).Slices ![s, 0] (Sh2 n 256)) :
    extractStridedSlice (Sh2 n 256) ![s, 0] (placeRows s A B) h = A := by
  funext j
  have hj : j = ix2 (j 0) (j 1) := eq_ix2 (n0 := n) (n1 := 256) j
  rw [hj]
  exact (slice2_axis0_eq s (placeRows s A B) h (j 0) (j 1)).trans (placeRows_in s A B _ (j 1) (j 0) rfl)

end Cert.TreeScatter

end
-- ==== Proof.TreeOut.lean ====
/-
  The seventeen levels of the heap-ordered tree written into the result array, level by level.

  Level k (depth 16 - k) has 2^(16-k) rows and occupies the rows 2^(16-k) - 1 ≤ i < 2^(17-k) - 1 of the result: the
  seventeen ranges are pairwise disjoint and tile 0 ≤ i < 131071.  So writing the levels from the root down to the leaves and
  writing them from the leaves up to the root leave the same array: at row i only the one level whose range holds i counts.
-/
import proofs.«410862_j80719615361096_3_alg».proof.Proof.TreeScatter

noncomputable section

namespace Cert.TreeOut

open Idealize.ShloMosaic Idealize.ShloMosaic.ValueIdx Cert.TreeScatter

variable {α : Type}

/-- Off the written rows the array underneath is read. -/
theorem placeRows_at_out {N n : ℕ} (s : ℕ) (A : (Sh2 n 256).Idx → α) (B : (Sh2 N 256).Idx → α) (i : (Sh2 N 256).Idx)
    (h : (i 0).val < s ∨ s + n ≤ (i 0).val) : placeRows s A B i = B i := by
  unfold placeRows
  rw [dif_neg (by omega)]

/-- On the written rows the block is read. -/
theorem placeRows_at_in {N n : ℕ} (s : ℕ) (A : (Sh2 n 256).Idx → α) (B : (Sh2 N 256).Idx → α) (i : (Sh2 N 256).Idx)
    (h : s ≤ (i 0).val ∧ (i 0).val < s + n) : placeRows s A B i = A (ix2 ⟨(i 0).val - s, by omega⟩ (i 1)) := by
  unfold placeRows
  rw [dif_pos h]

variable (A0 : (Sh2 65536 256).Idx → α) (A1 : (Sh2 32768 256).Idx → α) (A2 : (Sh2 16384 256).Idx → α) (A3 : (Sh2 8192 256).Idx → α) (A4 : (Sh2 4096 256).Idx → α) (A5 : (Sh2 2048 256).Idx → α) (A6 : (Sh2 1024 256).Idx → α) (A7 : (Sh2 512 256).Idx → α) (A8 : (Sh2 256 256).Idx → α) (A9 : (Sh2 128 256).Idx → α) (A10 : (Sh2 64 256).Idx → α) (A11 : (Sh2 32 256).Idx → α) (A12 : (Sh2 16 256).Idx → α) (A13 : (Sh2 8 256).Idx → α) (A14 : (Sh2 4 256).Idx → α) (A15 : (Sh2 2 256).Idx → α) (A16 : (Sh2 1 256).Idx → α) (Z : (Sh2 131071 256).Idx → α)

/-- the root written first, the leaves last -/
def nestK : (Sh2 131071 256).Idx → α :=
  placeRows 65535 A0 (placeRows 32767 A1 (placeRows 16383 A2 (placeRows 8191 A3 (placeRows 4095 A4 (placeRows 2047 A5 (placeRows 1023 A6 (placeRows 511 A7 (placeRows 255 A8 (placeRows 127 A9 (placeRows 63 A10 (placeRows 31 A11 (placeRows 15 A12 (placeRows 7 A13 (placeRows 3 A14 (placeRows 1 A15 (placeRows 0 A16 (Z)))))))))))))))))

/-- the leaves written first, the root last -/
def nestR : (Sh2 131071 256).Idx → α :=
  placeRows 0 A16 (placeRows 1 A15 (placeRows 3 A14 (placeRows 7 A13 (placeRows 15 A12 (placeRows 31 A11 (placeRows 63 A10 (placeRows 127 A9 (placeRows 255 A8 (placeRows 511 A7 (placeRows 1023 A6 (placeRows 2047 A5 (placeRows 4095 A4 (placeRows 8191 A3 (placeRows 16383 A2 (placeRows 32767 A1 (placeRows 65535 A0 (Z)))))))))))))))))

/-- Both orders leave the same array. -/
theorem nestK_eq_nestR : nestK A0 A1 A2 A3 A4 A5 A6 A7 A8 A9 A10 A11 A12 A13 A14 A15 A16 Z = nestR A0 A1 A2 A3 A4 A5 A6 A7 A8 A9 A10 A11 A12 A13 A14 A15 A16 Z := by
  funext i
  have hi : (i 0).val < 131071 := idx2_lt0 i
  have hc : (0 ≤ (i 0).val ∧ (i 0).val < 1) ∨ (1 ≤ (i 0).val ∧ (i 0).val < 3) ∨ (3 ≤ (i 0).val ∧ (i 0).val < 7) ∨ (7 ≤ (i 0).val ∧ (i 0).val < 15) ∨ (15 ≤ (i 0).val ∧ (i 0).val < 31) ∨ (31 ≤ (i 0).val ∧ (i 0).val < 63) ∨ (63 ≤ (i 0).val ∧ (i 0).val < 127) ∨ (127 ≤ (i 0).val ∧ (i 0).val < 255) ∨ (255 ≤ (i 0).val ∧ (i 0).val < 511) ∨ (511 ≤ (i 0).val ∧ (i 0).val < 1023) ∨ (1023 ≤ (i 0).val ∧ (i 0).val < 2047) ∨ (2047 ≤ (i 0).val ∧ (i 0).val < 4095) ∨ (4095 ≤ (i 0).val ∧ (i 0).val < 8191) ∨ (8191 ≤ (i 0).val ∧ (i 0).val < 16383) ∨ (16383 ≤ (i 0).val ∧ (i 0).val < 32767) ∨ (32767 ≤ (i 0).val ∧ (i 0).val < 65535) ∨ (65535 ≤ (i 0).val ∧ (i 0).val < 131071) := by omega
  unfold nestK nestR
  rcases hc with h | h | h | h | h | h | h | h | h | h | h | h | h | h | h | h | h <;>
    simp (disch := omega) only [placeRows_at_out, placeRows_at_in]

end Cert.TreeOut

end
-- ==== Proof.KernChain.lean ====
/-
  One block of a level of the tree recurrence as the kernel body computes it from its loaded blocks, at any number of
  rows n, and what it holds at an entry.

  The body reads: x0 a block of input rows [n, 256]; x1 the children's hidden rows two side by side [n, 512] (inner levels);
  x2 the transposed input weights [256, 768]; x3 the bias as one row [1, 768]; x4, x5 the transposed halves of the forget
  weights [256, 512]; x6, x7 the transposed halves of the candidate weights [256, 256].  Its matrix products go into a zero
  accumulator, so each is a plain sum; a product against two half-width operands added up is the full-width sum split
  at column 256.  Read at entry (r, j) the result is the node arithmetic of `TreeCell` on row r, once the weight blocks
  are known to be the transposed (halves of the) weight arrays.
-/
import proofs.«410862_j80719615361096_3_alg».proof.Proof.TreeCell
import proofs.«410862_j80719615361096_3_alg».proof.Proof.TreeOps
import proofs.«410862_j80719615361096_3_alg».proof.Proof.LibPlainMatmul

noncomputable section

namespace Cert.KernChain

open Idealize.ShloMosaic Idealize.ShloMosaic.ValueIdx Cert.TreeOps

abbrev Mat (a b : ℕ) := FVec Ideal (Sh2 a b) .f32
abbrev wOf (Ww : Mat 768 256) : Fin 768 → Fin 256 → EReal := fun k c => Ww (ix2 k c)
abbrev bOf (Wb : FVec Ideal (Sh1 768) .f32) : Fin 768 → EReal := fun k => Wb (ix1 k)
abbrev ufOf (Uf : Mat 512 512) : Fin 512 → Fin 512 → EReal := fun k q => Uf (ix2 k q)
abbrev uhcOf (Uhc : Mat 256 512) : Fin 256 → Fin 512 → EReal := fun j q => Uhc (ix2 j q)
abbrev rowOf {n w : ℕ} (A : Mat n w) (r : Fin n) : Fin w → EReal := fun k => A (ix2 r k)

section
variable {n : ℕ}

/-- x W^T + b on the block: the product of the block with the transposed weights, plus the bias row repeated -/
def kwx (v0 : Mat n 256) (v3 : FVec Ideal (Sh2 256 768) .bf16) (v6 : Mat 1 768)
    (e0 : (Sh2 n 256).ShapeCasts (Sh2 n 256)) (hlt : FTy.bits .bf16 < FTy.bits .f32) (e1 : (Sh2 256 768).ShapeCasts (Sh2 256 768))
    (e2 : (Sh2 1 768).ShapeCasts (Sh2 1 768)) (bb : (Sh2 1 768).Broadcasts (Sh2 n 768)) : Mat n 768 :=
  addf (matmul (DotDims.plain n 256 768) none (truncf .bf16 (shapeCast (Sh2 n 256) v0 e0) hlt) (shapeCast (Sh2 256 768) v3 e1)
      (constant (Sh2 n 768) .f32 0x00000000#32))
    (broadcastTo (Sh2 n 768) (shapeCast (Sh2 1 768) v6 e2) bb)

/-- the candidate slice of the affine image -/
def kwh (w : Mat n 768) (sA : (Sh2 n 768).Slices ![0, 0] (Sh2 n 256)) : Mat n 256 := extractStridedSlice (Sh2 n 256) ![0, 0] w sA
/-- the forget slice of the affine image -/
def kwf (w : Mat n 768) (sB : (Sh2 n 768).Slices ![0, 256] (Sh2 n 512)) : Mat n 512 := extractStridedSlice (Sh2 n 512) ![0, 256] w sB

/-- the first child's rows and the second child's rows of the children block -/
def kh0 (v12 : Mat n 512) (e3 : (Sh2 n 512).ShapeCasts (Sh2 n 512)) (sC : (Sh2 n 512).Slices ![0, 0] (Sh2 n 256)) : Mat n 256 :=
  extractStridedSlice (Sh2 n 256) ![0, 0] (shapeCast (Sh2 n 512) v12 e3) sC
def kh1 (v12 : Mat n 512) (e3 : (Sh2 n 512).ShapeCasts (Sh2 n 512)) (sD : (Sh2 n 512).Slices ![0, 256] (Sh2 n 256)) : Mat n 256 :=
  extractStridedSlice (Sh2 n 256) ![0, 256] (shapeCast (Sh2 n 512) v12 e3) sD

/-- the forget pre-activation: child 0 against the first transposed half plus child 1 against the second -/
def kfpre (h0 h1 : Mat n 256) (v16 v19 : Mat 256 512) (e4 : (Sh2 256 512).ShapeCasts (Sh2 256 512)) : Mat n 512 :=
  addf (matmul (DotDims.plain n 256 512) none h0 (shapeCast (Sh2 256 512) v16 e4) (constant (Sh2 n 512) .f32 0x00000000#32))
    (matmul (DotDims.plain n 256 512) none h1 (shapeCast (Sh2 256 512) v19 e4) (constant (Sh2 n 512) .f32 0x00000000#32))

/-- what the gated children add to the candidate -/
def khcadd (g0 g1 : Mat n 256) (v27 v30 : Mat 256 256) (e5 : (Sh2 256 256).ShapeCasts (Sh2 256 256)) : Mat n 256 :=
  addf (matmul (DotDims.plain n 256 256) none g0 (shapeCast (Sh2 256 256) v27 e5) (constant (Sh2 n 256) .f32 0x00000000#32))
    (matmul (DotDims.plain n 256 256) none g1 (shapeCast (Sh2 256 256) v30 e5) (constant (Sh2 n 256) .f32 0x00000000#32))

/-- the inner block's result from the pieces -/
def kinnerOut (wh : Mat n 256) (wf : Mat n 512) (p1 hcadd gsum s0 : Mat n 256) (sD : (Sh2 n 512).Slices ![0, 256] (Sh2 n 256)) : Mat n 256 :=
  addf gsum (mulf (subf (broadcast (Sh2 n 256) (Scalar.ofBits .f32 0x3F800000#32))
      (addf s0 (logistic (addf p1 (extractStridedSlice (Sh2 n 256) ![0, 256] wf sD))))) (tanh (addf wh hcadd)))

/-- The whole inner block. -/
def kinner (x0 : Mat n 256) (x1 : Mat n 512) (x2 : FVec Ideal (Sh2 256 768) .bf16) (x3 : Mat 1 768) (x4 x5 : Mat 256 512) (x6 x7 : Mat 256 256)
    (e0 : (Sh2 n 256).ShapeCasts (Sh2 n 256)) (hlt : FTy.bits .bf16 < FTy.bits .f32) (e1 : (Sh2 256 768).ShapeCasts (Sh2 256 768))
    (e2 : (Sh2 1 768).ShapeCasts (Sh2 1 768)) (bb : (Sh2 1 768).Broadcasts (Sh2 n 768)) (sA : (Sh2 n 768).Slices ![0, 0] (Sh2 n 256))
    (sB : (Sh2 n 768).Slices ![0, 256] (Sh2 n 512)) (e3 : (Sh2 n 512).ShapeCasts (Sh2 n 512)) (sC : (Sh2 n 512).Slices ![0, 0] (Sh2 n 256))
    (sD : (Sh2 n 512).Slices ![0, 256] (Sh2 n 256)) (e4 : (Sh2 256 512).ShapeCasts (Sh2 256 512)) (e5 : (Sh2 256 256).ShapeCasts (Sh2 256 256)) : Mat n 256 :=
  let w := kwx x0 x2 x3 e0 hlt e1 e2 bb
  let h0 := kh0 x1 e3 sC
  let h1 := kh1 x1 e3 sD
  let p := kfpre h0 h1 x4 x5 e4
  let p0 : Mat n 256 := extractStridedSlice (Sh2 n 256) ![0, 0] p sC
  let p1 : Mat n 256 := extractStridedSlice (Sh2 n 256) ![0, 256] p sD
  let g0 := mulf p0 h0
  let g1 := mulf p1 h1
  kinnerOut (kwh w sA) (kwf w sB) p1 (khcadd g0 g1 x6 x7 e5) (addf g0 g1)
    (logistic (addf p0 (extractStridedSlice (Sh2 n 256) ![0, 0] (kwf w sB) sC))) sD

/-! ### The pieces read at an entry -/

/-- columns cut from offset 0: entry (r, q) is the source's entry (r, q) -/
private theorem lo_at (X : Mat n 512) (sC : (Sh2 n 512).Slices ![0, 0] (Sh2 n 256)) (r : Fin n) (q : Fin 256) :
    extractStridedSlice (Sh2 n 256) ![0, 0] X sC (ix2 r q) = X (ix2 r (TreeCell.lo q)) :=
  slice2_axis1_apply 0 X sC r q (TreeCell.lo q) (Nat.zero_add _).symm

/-- columns cut from offset 256: entry (r, q) is the source's entry (r, 256 + q) -/
private theorem hi_at (X : Mat n 512) (sD : (Sh2 n 512).Slices ![0, 256] (Sh2 n 256)) (r : Fin n) (q : Fin 256) :
    extractStridedSlice (Sh2 n 256) ![0, 256] X sD (ix2 r q) = X (ix2 r (TreeCell.hi q)) :=
  slice2_axis1_apply 256 X sD r q (TreeCell.hi q) rfl

/-- a matrix product of the body into the zero accumulator, at an entry: the sum over the contraction coordinate -/
private theorem mm_at {M K N : ℕ} {φ₁ φ₂ : FTy} (a : FVec Ideal (Sh2 M K) φ₁) (b : FVec Ideal (Sh2 K N) φ₂) (r : Fin M) (c : Fin N) :
    matmul (DotDims.plain M K N) none a b (constant (Sh2 M N) .f32 0x00000000#32) (ix2 r c) = ∑ k : Fin K, a (ix2 r k) * b (ix2 k c) :=
  Cert.PlainMatmul.apply none a b r c

/-- the affine image block at an entry is the affine image of the row, the weight block being the transposed weights
    and the bias block the bias -/
private theorem kwx_at (v0 : Mat n 256) (v3 : FVec Ideal (Sh2 256 768) .bf16) (v6 : Mat 1 768) (e0 hlt e1 e2 bb)
    (Ww : Mat 768 256) (Wb : FVec Ideal (Sh1 768) .f32)
    (h2 : ∀ (c : Fin 256) (k : Fin 768), v3 (ix2 c k) = Ww (ix2 k c)) (h3 : ∀ k : Fin 768, v6 (ix2 (0 : Fin 1) k) = Wb (ix1 k))
    (r : Fin n) (k : Fin 768) :
    kwx v0 v3 v6 e0 hlt e1 e2 bb (ix2 r k) = TreeCell.wx (wOf Ww) (bOf Wb) (rowOf v0 r) k := by
  unfold kwx TreeCell.wx
  rw [addf_apply, mm_at, broadcastTo_1b_ab_apply, shapeCast_self, shapeCast_self, shapeCast_self, h3]
  refine congrArg (· + Wb (ix1 k)) (Finset.sum_congr rfl fun c _ => ?_)
  rw [h2]
  rfl

/-- the candidate slice at an entry -/
private theorem kwh_at (w : Mat n 768) (sA : (Sh2 n 768).Slices ![0, 0] (Sh2 n 256)) (r : Fin n) (j : Fin 256) :
    kwh w sA (ix2 r j) = w (ix2 r (TreeCell.cand j)) :=
  slice2_axis1_apply 0 w sA r j (TreeCell.cand j) (Nat.zero_add _).symm

/-- the forget slice at an entry -/
private theorem kwf_at (w : Mat n 768) (sB : (Sh2 n 768).Slices ![0, 256] (Sh2 n 512)) (r : Fin n) (k : Fin 512) :
    kwf w sB (ix2 r k) = w (ix2 r (TreeCell.forg k)) :=
  slice2_axis1_apply 256 w sB r k (TreeCell.forg k) rfl

/-- the first child's rows at an entry -/
private theorem kh0_at (v12 : Mat n 512) (e3 : (Sh2 n 512).ShapeCasts (Sh2 n 512)) (sC : (Sh2 n 512).Slices ![0, 0] (Sh2 n 256))
    (r : Fin n) (q : Fin 256) : kh0 v12 e3 sC (ix2 r q) = v12 (ix2 r (TreeCell.lo q)) := by
  unfold kh0
  rw [shapeCast_self]
  exact lo_at v12 sC r q

/-- the second child's rows at an entry -/
private theorem kh1_at (v12 : Mat n 512) (e3 : (Sh2 n 512).ShapeCasts (Sh2 n 512)) (sD : (Sh2 n 512).Slices ![0, 256] (Sh2 n 256))
    (r : Fin n) (q : Fin 256) : kh1 v12 e3 sD (ix2 r q) = v12 (ix2 r (TreeCell.hi q)) := by
  unfold kh1
  rw [shapeCast_self]
  exact hi_at v12 sD r q

/-- two products against the transposed halves of a 512-column array, added up, are the full-width sum: on a row whose
    two operands hold the halves of `g`, entry (r, k) is the sum over all 512 columns q of g q * U k q -/
private theorem halves_at {m : ℕ} (a0 a1 : Mat n 256) (v w : Mat 256 m) (e : (Sh2 256 m).ShapeCasts (Sh2 256 m)) (U : Mat m 512)
    (g : Fin 512 → EReal)
    (hv : ∀ (q : Fin 256) (k : Fin m), v (ix2 q k) = U (ix2 k (TreeCell.lo q)))
    (hw : ∀ (q : Fin 256) (k : Fin m), w (ix2 q k) = U (ix2 k (TreeCell.hi q)))
    (r : Fin n) (h0 : ∀ q : Fin 256, a0 (ix2 r q) = g (TreeCell.lo q)) (h1 : ∀ q : Fin 256, a1 (ix2 r q) = g (TreeCell.hi q))
    (k : Fin m) :
    addf (matmul (DotDims.plain n 256 m) none a0 (shapeCast (Sh2 256 m) v e) (constant (Sh2 n m) .f32 0x00000000#32))
      (matmul (DotDims.plain n 256 m) none a1 (shapeCast (Sh2 256 m) w e) (constant (Sh2 n m) .f32 0x00000000#32)) (ix2 r k)
      = ∑ q : Fin 512, g q * U (ix2 k q) := by
  rw [addf_apply, mm_at, mm_at, shapeCast_self, shapeCast_self]
  refine Eq.trans ?_ (TreeCell.sum_halves (fun q => g q * U (ix2 k q))).symm
  refine congrArg₂ (· + ·) (Finset.sum_congr rfl fun q _ => ?_) (Finset.sum_congr rfl fun q _ => ?_)
  · rw [h0, hv]
  · rw [h1, hw]

/-- the inner block's result at an entry, from its pieces at that row -/
private theorem kinnerOut_at (wh : Mat n 256) (wf : Mat n 512) (h0 h1 p0 p1 hcadd : Mat n 256)
    (sC : (Sh2 n 512).Slices ![0, 0] (Sh2 n 256)) (sD : (Sh2 n 512).Slices ![0, 256] (Sh2 n 256)) (r : Fin n) (j : Fin 256)
    (WH : Fin 256 → EReal) (WF HC P : Fin 512 → EReal) (HA : EReal)
    (hwh : wh (ix2 r j) = WH j) (hwf : ∀ k : Fin 512, wf (ix2 r k) = WF k)
    (hh0 : h0 (ix2 r j) = HC (TreeCell.lo j)) (hh1 : h1 (ix2 r j) = HC (TreeCell.hi j))
    (hp0 : p0 (ix2 r j) = P (TreeCell.lo j)) (hp1 : p1 (ix2 r j) = P (TreeCell.hi j)) (hca : hcadd (ix2 r j) = HA) :
    kinnerOut wh wf p1 hcadd (addf (mulf p0 h0) (mulf p1 h1))
        (logistic (addf p0 (extractStridedSlice (Sh2 n 256) ![0, 0] wf sC))) sD (ix2 r j)
      = (P (TreeCell.lo j) * HC (TreeCell.lo j) + P (TreeCell.hi j) * HC (TreeCell.hi j))
        + (1 - (TreeCell.sg (P (TreeCell.lo j) + WF (TreeCell.lo j)) + TreeCell.sg (P (TreeCell.hi j) + WF (TreeCell.hi j))))
          * Ideal.tanh (WH j + HA) := by
  show (p0 (ix2 r j) * h0 (ix2 r j) + p1 (ix2 r j) * h1 (ix2 r j))
      + (Ideal.ofBits .f32 0x3F800000#32
          - (Ideal.logistic (p0 (ix2 r j) + extractStridedSlice (Sh2 n 256) ![0, 0] wf sC (ix2 r j))
            + Ideal.logistic (p1 (ix2 r j) + extractStridedSlice (Sh2 n 256) ![0, 256] wf sD (ix2 r j))))
        * Ideal.tanh (wh (ix2 r j) + hcadd (ix2 r j)) = _
  rw [lo_at, hi_at, hwf, hwf, hh0, hh1, hp0, hp1, hca, hwh, Ideal.ofBits_one_f32]
  rfl

/-- the inner block's result at an entry, from the affine slices, the children's rows and the forget pre-activation at
    that row: the gated children's products against the transposed halves of the candidate weights are the full-width sum -/
private theorem kinner_core (wh : Mat n 256) (wf : Mat n 512) (h0 h1 : Mat n 256) (p : Mat n 512) (v27 v30 : Mat 256 256)
    (e5 : (Sh2 256 256).ShapeCasts (Sh2 256 256))
    (sC : (Sh2 n 512).Slices ![0, 0] (Sh2 n 256)) (sD : (Sh2 n 512).Slices ![0, 256] (Sh2 n 256)) (r : Fin n) (j : Fin 256)
    (Uhc : Mat 256 512) (WH : Fin 256 → EReal) (WF HC P : Fin 512 → EReal)
    (hwh : wh (ix2 r j) = WH j) (hwf : ∀ k : Fin 512, wf (ix2 r k) = WF k)
    (hh0 : ∀ q : Fin 256, h0 (ix2 r q) = HC (TreeCell.lo q)) (hh1 : ∀ q : Fin 256, h1 (ix2 r q) = HC (TreeCell.hi q))
    (hp : ∀ k : Fin 512, p (ix2 r k) = P k)
    (h6 : ∀ (q j : Fin 256), v27 (ix2 q j) = Uhc (ix2 j (TreeCell.lo q)))
    (h7 : ∀ (q j : Fin 256), v30 (ix2 q j) = Uhc (ix2 j (TreeCell.hi q))) :
    kinnerOut wh wf (extractStridedSlice (Sh2 n 256) ![0, 256] p sD)
        (khcadd (mulf (extractStridedSlice (Sh2 n 256) ![0, 0] p sC) h0) (mulf (extractStridedSlice (Sh2 n 256) ![0, 256] p sD) h1) v27 v30 e5)
        (addf (mulf (extractStridedSlice (Sh2 n 256) ![0, 0] p sC) h0) (mulf (extractStridedSlice (Sh2 n 256) ![0, 256] p sD) h1))
        (logistic (addf (extractStridedSlice (Sh2 n 256) ![0, 0] p sC) (extractStridedSlice (Sh2 n 256) ![0, 0] wf sC))) sD (ix2 r j)
      = (P (TreeCell.lo j) * HC (TreeCell.lo j) + P (TreeCell.hi j) * HC (TreeCell.hi j))
        + (1 - (TreeCell.sg (P (TreeCell.lo j) + WF (TreeCell.lo j)) + TreeCell.sg (P (TreeCell.hi j) + WF (TreeCell.hi j))))
          * Ideal.tanh (WH j + ∑ q : Fin 512, (P q * HC q) * Uhc (ix2 j q)) := by
  have hp0 : ∀ q : Fin 256, extractStridedSlice (Sh2 n 256) ![0, 0] p sC (ix2 r q) = P (TreeCell.lo q) :=
    fun q => (lo_at p sC r q).trans (hp _)
  have hp1 : ∀ q : Fin 256, extractStridedSlice (Sh2 n 256) ![0, 256] p sD (ix2 r q) = P (TreeCell.hi q) :=
    fun q => (hi_at p sD r q).trans (hp _)
  have hca : khcadd (mulf (extractStridedSlice (Sh2 n 256) ![0, 0] p sC) h0) (mulf (extractStridedSlice (Sh2 n 256) ![0, 256] p sD) h1)
      v27 v30 e5 (ix2 r j) = ∑ q : Fin 512, (P q * HC q) * Uhc (ix2 j q) :=
    halves_at (mulf (extractStridedSlice (Sh2 n 256) ![0, 0] p sC) h0) (mulf (extractStridedSlice (Sh2 n 256) ![0, 256] p sD) h1)
      v27 v30 e5 Uhc (fun q => P q * HC q) h6 h7 r
      (fun q => congrArg₂ (· * ·) (hp0 q) (hh0 q)) (fun q => congrArg₂ (· * ·) (hp1 q) (hh1 q)) j
  exact kinnerOut_at wh wf h0 h1 _ _ _ sC sD r j WH WF HC P _ hwh hwf (hh0 j) (hh1 j) (hp0 j) (hp1 j) hca

theorem kinner_apply (x0 : Mat n 256) (x1 : Mat n 512) (x2 : FVec Ideal (Sh2 256 768) .bf16) (x3 : Mat 1 768) (x4 x5 : Mat 256 512) (x6 x7 : Mat 256 256)
    (e0 hlt e1 e2 bb sA sB e3 sC sD e4 e5)
    (Ww : Mat 768 256) (Wb : FVec Ideal (Sh1 768) .f32) (Uf : Mat 512 512) (Uhc : Mat 256 512)
    (h2 : ∀ (c : Fin 256) (k : Fin 768), x2 (ix2 c k) = Ww (ix2 k c)) (h3 : ∀ k : Fin 768, x3 (ix2 (0 : Fin 1) k) = Wb (ix1 k))
    (h4 : ∀ (q : Fin 256) (k : Fin 512), x4 (ix2 q k) = Uf (ix2 k (TreeCell.lo q)))
    (h5 : ∀ (q : Fin 256) (k : Fin 512), x5 (ix2 q k) = Uf (ix2 k (TreeCell.hi q)))
    (h6 : ∀ (q j : Fin 256), x6 (ix2 q j) = Uhc (ix2 j (TreeCell.lo q)))
    (h7 : ∀ (q j : Fin 256), x7 (ix2 q j) = Uhc (ix2 j (TreeCell.hi q)))
    (r : Fin n) (j : Fin 256) :
    kinner x0 x1 x2 x3 x4 x5 x6 x7 e0 hlt e1 e2 bb sA sB e3 sC sD e4 e5 (ix2 r j)
      = TreeCell.inner (uhcOf Uhc) (ufOf Uf)
          (fun j' => TreeCell.wx (wOf Ww) (bOf Wb) (rowOf x0 r) (TreeCell.cand j'))
          (fun k => TreeCell.wx (wOf Ww) (bOf Wb) (rowOf x0 r) (TreeCell.forg k)) (rowOf x1 r) j := by
  have hw := kwx_at x0 x2 x3 e0 hlt e1 e2 bb Ww Wb h2 h3 r
  have hh0 := kh0_at x1 e3 sC r
  have hh1 := kh1_at x1 e3 sD r
  have hcore := kinner_core (kwh (kwx x0 x2 x3 e0 hlt e1 e2 bb) sA) (kwf (kwx x0 x2 x3 e0 hlt e1 e2 bb) sB) (kh0 x1 e3 sC) (kh1 x1 e3 sD)
    (kfpre (kh0 x1 e3 sC) (kh1 x1 e3 sD) x4 x5 e4) x6 x7 e5 sC sD r j Uhc
    (fun j' => TreeCell.wx (wOf Ww) (bOf Wb) (rowOf x0 r) (TreeCell.cand j'))
    (fun k => TreeCell.wx (wOf Ww) (bOf Wb) (rowOf x0 r) (TreeCell.forg k)) (rowOf x1 r) (TreeCell.fpre (ufOf Uf) (rowOf x1 r))
    ((kwh_at _ sA r j).trans (hw _)) (fun k => (kwf_at _ sB r k).trans (hw _)) hh0 hh1
    (halves_at (kh0 x1 e3 sC) (kh1 x1 e3 sD) x4 x5 e4 Uf (rowOf x1 r) h4 h5 r hh0 hh1) h6 h7
  unfold TreeCell.inner TreeCell.hcadd TreeCell.gate
  exact hcore

/-- The whole leaf block. -/
def kleaf (x0 : Mat n 256) (x2 : FVec Ideal (Sh2 256 768) .bf16) (x3 : Mat 1 768)
    (e0 : (Sh2 n 256).ShapeCasts (Sh2 n 256)) (hlt : FTy.bits .bf16 < FTy.bits .f32) (e1 : (Sh2 256 768).ShapeCasts (Sh2 256 768))
    (e2 : (Sh2 1 768).ShapeCasts (Sh2 1 768)) (bb : (Sh2 1 768).Broadcasts (Sh2 n 768)) (sA : (Sh2 n 768).Slices ![0, 0] (Sh2 n 256))
    (sB : (Sh2 n 768).Slices ![0, 256] (Sh2 n 512)) (sC : (Sh2 n 512).Slices ![0, 0] (Sh2 n 256)) (sD : (Sh2 n 512).Slices ![0, 256] (Sh2 n 256)) : Mat n 256 :=
  let w := kwx x0 x2 x3 e0 hlt e1 e2 bb
  mulf (subf (broadcast (Sh2 n 256) (Scalar.ofBits .f32 0x3F800000#32))
      (addf (logistic (extractStridedSlice (Sh2 n 256) ![0, 0] (kwf w sB) sC)) (logistic (extractStridedSlice (Sh2 n 256) ![0, 256] (kwf w sB) sD))))
    (tanh (kwh w sA))

theorem kleaf_apply (x0 : Mat n 256) (x2 : FVec Ideal (Sh2 256 768) .bf16) (x3 : Mat 1 768) (e0 hlt e1 e2 bb sA sB sC sD)
    (Ww : Mat 768 256) (Wb : FVec Ideal (Sh1 768) .f32)
    (h2 : ∀ (c : Fin 256) (k : Fin 768), x2 (ix2 c k) = Ww (ix2 k c)) (h3 : ∀ k : Fin 768, x3 (ix2 (0 : Fin 1) k) = Wb (ix1 k))
    (r : Fin n) (j : Fin 256) :
    kleaf x0 x2 x3 e0 hlt e1 e2 bb sA sB sC sD (ix2 r j)
      = TreeCell.leaf (fun j' => TreeCell.wx (wOf Ww) (bOf Wb) (rowOf x0 r) (TreeCell.cand j'))
          (fun k => TreeCell.wx (wOf Ww) (bOf Wb) (rowOf x0 r) (TreeCell.forg k)) j := by
  have hw := kwx_at x0 x2 x3 e0 hlt e1 e2 bb Ww Wb h2 h3 r
  show (Ideal.ofBits .f32 0x3F800000#32
        - (Ideal.logistic (extractStridedSlice (Sh2 n 256) ![0, 0] (kwf (kwx x0 x2 x3 e0 hlt e1 e2 bb) sB) sC (ix2 r j))
          + Ideal.logistic (extractStridedSlice (Sh2 n 256) ![0, 256] (kwf (kwx x0 x2 x3 e0 hlt e1 e2 bb) sB) sD (ix2 r j))))
      * Ideal.tanh (kwh (kwx x0 x2 x3 e0 hlt e1 e2 bb) sA (ix2 r j)) = _
  rw [lo_at, hi_at, kwf_at, kwf_at, kwh_at, hw, hw, hw, Ideal.ofBits_one_f32]
  rfl

end

end Cert.KernChain

end
-- ==== Proof.KPay.lean ====
/-
  Each kernel function's stored value, as the generated skeleton names it from the blocks the function loads, is the
  block computation of `KernChain` at the function's number of rows: the leaf function's is the leaf block at 4096 rows,
  the inner functions' are the inner block at 2048 rows (five functions) and at 1024 rows (the last).  Both sides are
  the same tree of operations, the printed dimension records being the plain matrix-product dimensions and the printed
  shapes the two-axis shapes of `TreeOps`.
-/
import proofs.«410862_j80719615361096_3_alg».proof.Proof.Gen.KernelIdeal.Skeleton
import proofs.«410862_j80719615361096_3_alg».proof.Proof.KernChain

noncomputable section

namespace Cert.KernelIdeal.Pay

open Cert.KernelIdeal Cert.KernelIdeal.Gen Idealize.ShloMosaic Idealize.ShloMosaic.ValueIdx Cert.TreeOps

/-- the leaf function's store payload is the leaf block at 4096 rows -/
theorem pay0_eq (x0 : Vec Ideal S4096x256 .f32) (x2 : Vec Ideal S256x768 .bf16) (x3 : Vec Ideal S1x768 .f32) :
    k0_pay1 x0 x2 x3
      = KernChain.kleaf (n := 4096) x0 x2 x3 shapeCasts_S4096x256_S4096x256 bitsLt_bf16_f32 shapeCasts_S256x768_S256x768
          shapeCasts_S1x768_S1x768 broadcasts_S1x768_S4096x768 slices_S4096x768_o0_0_S4096x256 slices_S4096x768_o0_256_S4096x512
          slices_S4096x512_o0_0_S4096x256 slices_S4096x512_o0_256_S4096x256 := rfl

/-- the store payload of inner-level function 1 is the inner block at 2048 rows -/
theorem pay1_eq (x0 : Vec Ideal S2048x256 .f32) (x1 : Vec Ideal S2048x512 .f32) (x2 : Vec Ideal S256x768 .bf16) (x3 : Vec Ideal S1x768 .f32)
    (x4 x5 : Vec Ideal S256x512 .f32) (x6 x7 : Vec Ideal S256x256 .f32) :
    k1_pay1 (k1_pay3 x0 x2 x3) (k1_pay4 x0 x2 x3) (k1_pay10 x1 x4 x5) (k1_pay13 x1 x4 x5 x6 x7) (k1_pay14 x1 x4 x5) (k1_pay15 x0 x2 x3 x1 x4 x5)
      = KernChain.kinner (n := 2048) x0 x1 x2 x3 x4 x5 x6 x7 shapeCasts_S2048x256_S2048x256 bitsLt_bf16_f32 shapeCasts_S256x768_S256x768
          shapeCasts_S1x768_S1x768 broadcasts_S1x768_S2048x768 slices_S2048x768_o0_0_S2048x256 slices_S2048x768_o0_256_S2048x512
          shapeCasts_S2048x512_S2048x512 slices_S2048x512_o0_0_S2048x256 slices_S2048x512_o0_256_S2048x256
          shapeCasts_S256x512_S256x512 shapeCasts_S256x256_S256x256 := rfl

/-- the store payload of inner-level function 2 is the inner block at 2048 rows -/
theorem pay2_eq (x0 : Vec Ideal S2048x256 .f32) (x1 : Vec Ideal S2048x512 .f32) (x2 : Vec Ideal S256x768 .bf16) (x3 : Vec Ideal S1x768 .f32)
    (x4 x5 : Vec Ideal S256x512 .f32) (x6 x7 : Vec Ideal S256x256 .f32) :
    k2_pay1 (k2_pay3 x0 x2 x3) (k2_pay4 x0 x2 x3) (k2_pay10 x1 x4 x5) (k2_pay13 x1 x4 x5 x6 x7) (k2_pay14 x1 x4 x5) (k2_pay15 x0 x2 x3 x1 x4 x5)
      = KernChain.kinner (n := 2048) x0 x1 x2 x3 x4 x5 x6 x7 shapeCasts_S2048x256_S2048x256 bitsLt_bf16_f32 shapeCasts_S256x768_S256x768
          shapeCasts_S1x768_S1x768 broadcasts_S1x768_S2048x768 slices_S2048x768_o0_0_S2048x256 slices_S2048x768_o0_256_S2048x512
          shapeCasts_S2048x512_S2048x512 slices_S2048x512_o0_0_S2048x256 slices_S2048x512_o0_256_S2048x256
          shapeCasts_S256x512_S256x512 shapeCasts_S256x256_S256x256 := rfl

/-- the store payload of inner-level function 3 is the inner block at 2048 rows -/
theorem pay3_eq (x0 : Vec Ideal S2048x256 .f32) (x1 : Vec Ideal S2048x512 .f32) (x2 : Vec Ideal S256x768 .bf16) (x3 : Vec Ideal S1x768 .f32)
    (x4 x5 : Vec Ideal S256x512 .f32) (x6 x7 : Vec Ideal S256x256 .f32) :
    k3_pay1 (k3_pay3 x0 x2 x3) (k3_pay4 x0 x2 x3) (k3_pay10 x1 x4 x5) (k3_pay13 x1 x4 x5 x6 x7) (k3_pay14 x1 x4 x5) (k3_pay15 x0 x2 x3 x1 x4 x5)
      = KernChain.kinner (n := 2048) x0 x1 x2 x3 x4 x5 x6 x7 shapeCasts_S2048x256_S2048x256 bitsLt_bf16_f32 shapeCasts_S256x768_S256x768
          shapeCasts_S1x768_S1x768 broadcasts_S1x768_S2048x768 slices_S2048x768_o0_0_S2048x256 slices_S2048x768_o0_256_S2048x512
          shapeCasts_S2048x512_S2048x512 slices_S2048x512_o0_0_S2048x256 slices_S2048x512_o0_256_S2048x256
          shapeCasts_S256x512_S256x512 shapeCasts_S256x256_S256x256 := rfl

/-- the store payload of inner-level function 4 is the inner block at 2048 rows -/
theorem pay4_eq (x0 : Vec Ideal S2048x256 .f32) (x1 : Vec Ideal S2048x512 .f32) (x2 : Vec Ideal S256x768 .bf16) (x3 : Vec Ideal S1x768 .f32)
    (x4 x5 : Vec Ideal S256x512 .f32) (x6 x7 : Vec Ideal S256x256 .f32) :
    k4_pay1 (k4_pay3 x0 x2 x3) (k4_pay4 x0 x2 x3) (k4_pay10 x1 x4 x5) (k4_pay13 x1 x4 x5 x6 x7) (k4_pay14 x1 x4 x5) (k4_pay15 x0 x2 x3 x1 x4 x5)
      = KernChain.kinner (n := 2048) x0 x1 x2 x3 x4 x5 x6 x7 shapeCasts_S2048x256_S2048x256 bitsLt_bf16_f32 shapeCasts_S256x768_S256x768
          shapeCasts_S1x768_S1x768 broadcasts_S1x768_S2048x768 slices_S2048x768_o0_0_S2048x256 slices_S2048x768_o0_256_S2048x512
          shapeCasts_S2048x512_S2048x512 slices_S2048x512_o0_0_S2048x256 slices_S2048x512_o0_256_S2048x256
          shapeCasts_S256x512_S256x512 shapeCasts_S256x256_S256x256 := rfl

/-- the store payload of inner-level function 5 is the inner block at 2048 rows -/
theorem pay5_eq (x0 : Vec Ideal S2048x256 .f32) (x1 : Vec Ideal S2048x512 .f32) (x2 : Vec Ideal S256x768 .bf16) (x3 : Vec Ideal S1x768 .f32)
    (x4 x5 : Vec Ideal S256x512 .f32) (x6 x7 : Vec Ideal S256x256 .f32) :
    k5_pay1 (k5_pay3 x0 x2 x3) (k5_pay4 x0 x2 x3) (k5_pay10 x1 x4 x5) (k5_pay13 x1 x4 x5 x6 x7) (k5_pay14 x1 x4 x5) (k5_pay15 x0 x2 x3 x1 x4 x5)
      = KernChain.kinner (n := 2048) x0 x1 x2 x3 x4 x5 x6 x7 shapeCasts_S2048x256_S2048x256 bitsLt_bf16_f32 shapeCasts_S256x768_S256x768
          shapeCasts_S1x768_S1x768 broadcasts_S1x768_S2048x768 slices_S2048x768_o0_0_S2048x256 slices_S2048x768_o0_256_S2048x512
          shapeCasts_S2048x512_S2048x512 slices_S2048x512_o0_0_S2048x256 slices_S2048x512_o0_256_S2048x256
          shapeCasts_S256x512_S256x512 shapeCasts_S256x256_S256x256 := rfl

/-- the store payload of inner-level function 6 is the inner block at 1024 rows -/
theorem pay6_eq (x0 : Vec Ideal S1024x256 .f32) (x1 : Vec Ideal S1024x512 .f32) (x2 : Vec Ideal S256x768 .bf16) (x3 : Vec Ideal S1x768 .f32)
    (x4 x5 : Vec Ideal S256x512 .f32) (x6 x7 : Vec Ideal S256x256 .f32) :
    k6_pay1 (k6_pay3 x0 x2 x3) (k6_pay4 x0 x2 x3) (k6_pay10 x1 x4 x5) (k6_pay13 x1 x4 x5 x6 x7) (k6_pay14 x1 x4 x5) (k6_pay15 x0 x2 x3 x1 x4 x5)
      = KernChain.kinner (n := 1024) x0 x1 x2 x3 x4 x5 x6 x7 shapeCasts_S1024x256_S1024x256 bitsLt_bf16_f32 shapeCasts_S256x768_S256x768
          shapeCasts_S1x768_S1x768 broadcasts_S1x768_S1024x768 slices_S1024x768_o0_0_S1024x256 slices_S1024x768_o0_256_S1024x512
          shapeCasts_S1024x512_S1024x512 slices_S1024x512_o0_0_S1024x256 slices_S1024x512_o0_256_S1024x256
          shapeCasts_S256x512_S256x512 shapeCasts_S256x256_S256x256 := rfl

end Cert.KernelIdeal.Pay

end
-- ==== Proof.KernLevel.lean ====
/-
  A block of a level as the kernel body computes it, against the level function of `TreeSpec`: when row r of the block of
  input rows is input row s + R of the tree and row r of the children block is the children rows 2R and 2R + 1 of the level
  below side by side, entry (r, j) of the block's result is entry (R, j) of the level.
-/
import proofs.«410862_j80719615361096_3_alg».proof.Proof.KernChain
import proofs.«410862_j80719615361096_3_alg».proof.Proof.TreeSpec

noncomputable section

namespace Cert.KernLevel

open Idealize.ShloMosaic Idealize.ShloMosaic.ValueIdx Cert.TreeOps Cert.KernChain

variable (X : Mat 131071 256) (Ww : Mat 768 256) (Wb : FVec Ideal (Sh1 768) .f32) (Uhc : Mat 256 512) (Uf : Mat 512 512)
variable {n : ℕ}

theorem kinner_lvl (k s : ℕ) (hs : s = 2 ^ (15 - k) - 1)
    (x0 : Mat n 256) (x1 : Mat n 512) (x2 : FVec Ideal (Sh2 256 768) .bf16) (x3 : Mat 1 768) (x4 x5 : Mat 256 512) (x6 x7 : Mat 256 256)
    (e0 hlt e1 e2 bb sA sB e3 sC sD e4 e5)
    (h2 : ∀ (c : Fin 256) (k : Fin 768), x2 (ix2 c k) = Ww (ix2 k c)) (h3 : ∀ k : Fin 768, x3 (ix2 (0 : Fin 1) k) = Wb (ix1 k))
    (h4 : ∀ (q : Fin 256) (k : Fin 512), x4 (ix2 q k) = Uf (ix2 k (TreeCell.lo q)))
    (h5 : ∀ (q : Fin 256) (k : Fin 512), x5 (ix2 q k) = Uf (ix2 k (TreeCell.hi q)))
    (h6 : ∀ (q j : Fin 256), x6 (ix2 q j) = Uhc (ix2 j (TreeCell.lo q)))
    (h7 : ∀ (q j : Fin 256), x7 (ix2 q j) = Uhc (ix2 j (TreeCell.hi q)))
    (R : ℕ) (r : Fin n)
    (hx0 : ∀ c : Fin 256, x0 (ix2 r c) = TreeSpec.xrow X (s + R) c)
    (hx1 : ∀ q : Fin 512, x1 (ix2 r q) = TreeSpec.pair (TreeSpec.lvl X Ww Wb Uhc Uf k) R q)
    (j : Fin 256) :
    kinner x0 x1 x2 x3 x4 x5 x6 x7 e0 hlt e1 e2 bb sA sB e3 sC sD e4 e5 (ix2 r j) = TreeSpec.lvl X Ww Wb Uhc Uf (k + 1) R j := by
  rw [kinner_apply x0 x1 x2 x3 x4 x5 x6 x7 e0 hlt e1 e2 bb sA sB e3 sC sD e4 e5 Ww Wb Uf Uhc h2 h3 h4 h5 h6 h7 r j,
    TreeSpec.lvl_succ]
  subst hs
  have hrow : rowOf x0 r = TreeSpec.xrow X (2 ^ (15 - k) - 1 + R) := funext hx0
  have hch : rowOf x1 r = TreeSpec.pair (TreeSpec.lvl X Ww Wb Uhc Uf k) R := funext hx1
  rw [hrow, hch]
  rfl

theorem kleaf_lvl (x0 : Mat n 256) (x2 : FVec Ideal (Sh2 256 768) .bf16) (x3 : Mat 1 768) (e0 hlt e1 e2 bb sA sB sC sD)
    (h2 : ∀ (c : Fin 256) (k : Fin 768), x2 (ix2 c k) = Ww (ix2 k c)) (h3 : ∀ k : Fin 768, x3 (ix2 (0 : Fin 1) k) = Wb (ix1 k))
    (R : ℕ) (r : Fin n)
    (hx0 : ∀ c : Fin 256, x0 (ix2 r c) = TreeSpec.xrow X (65535 + R) c)
    (j : Fin 256) :
    kleaf x0 x2 x3 e0 hlt e1 e2 bb sA sB sC sD (ix2 r j) = TreeSpec.lvl X Ww Wb Uhc Uf 0 R j := by
  rw [kleaf_apply x0 x2 x3 e0 hlt e1 e2 bb sA sB sC sD Ww Wb h2 h3 r j, TreeSpec.lvl_zero]
  have hrow : rowOf x0 r = TreeSpec.xrow X (65535 + R) := funext hx0
  rw [hrow]
  rfl

end Cert.KernLevel

end
-- ==== Proof.KReg0.lean ====
/-
  The leaves as the first region of the kernel program leaves them.

  The region runs the leaf block computation over 16 grid points; point t reads rows 4096 t … 4096 t + 4095 of the leaves'
  input rows, reads the transposed input weights and the bias row whole, and writes rows 4096 t … 4096 t + 4095 of the
  output array.  When the region finds, in those arrays, the tree's input rows 65535 + r, the transposed weights and the
  bias, every point writes back its block of ONE function of the output's index, the level function of `TreeSpec` at
  level 0; the 16 blocks cover the 65536 rows, so the output array ends holding that function.
-/
import proofs.«410862_j80719615361096_3_alg».proof.Proof.FrameIdealP
import proofs.«410862_j80719615361096_3_alg».proof.Proof.KPay
import proofs.«410862_j80719615361096_3_alg».proof.Proof.KernLevel
import Idealize.ShloMosaic.Lib.Pipeline.Value

noncomputable section

namespace Cert.KernelIdeal.Reg0

open Cert.KernelIdeal Cert.KernelIdeal.Gen Cert.KernelIdeal.GenP Idealize.ShloMosaic Idealize.ShloMosaic.TcCoe Idealize.SL.Sem
open Idealize.ShloMosaic.ValueIdx Cert.TreeOps Cert.KernChain
open Idealize.ShloMosaic.Pipeline (Dat)

variable (V : (c : Dev nD) → (b : Ref sig .tc) → Buf (Elt Ideal) ((c : Thread nD τ).loc b))
variable (X : Mat 131071 256) (Ww : Mat 768 256) (Wb : FVec Ideal (Sh1 768) .f32) (Uhc : Mat 256 512) (Uf : Mat 512 512)

theorem hz : (![0, 0] : Fin 2 → Nat) = fun _ => 0 := funext fun a => by fin_cases a <;> rfl

/-- the level as one function of the output array's index -/
abbrev G : S65536x256.Idx → EReal := fun i => TreeSpec.lvl X Ww Wb Uhc Uf 0 (i 0).val (i 1)

/-- The printed index maps, decided over the 16 grid points: the row window and the output window sit at block (t, 0),
    the two weight windows at block (0, 0). -/
theorem idx_facts : ∀ t : Fin cfg0.N, t.val < 16
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Every block row of the output is some point's. -/
theorem idx_onto : ∀ q0 : Fin 16, ∃ t : Fin cfg0.N, win0_3.index t = ![q0.val, 0] :=
  (by decide +kernel : ∀ q0 : Fin 16, ∃ t : Fin grid0.N, win0_3.index t = ![q0.val, 0])

/-! ## Each input window's block, read where its index map says -/

/-- the leaves' input rows: row r of the block at point t is row 4096 t + r of the array -/
theorem blk0_at (c : Dev nD) (t : Fin cfg0.N) (r : Fin 4096) (q : Fin 256) (R : Fin 65536) (hR : R.val = t.val * 4096 + r.val) :
    (iblk0 V c 0 t : Vec Ideal S4096x256 .f32) (ix2 r q) = (V c main_v11 : S65536x256.Idx → EReal) (ix2 R q) := by
  obtain ⟨-, e00, e01, -⟩ := idx_facts t
  unfold iblk0
  rw [View.read_apply]
  show V c main_v11 _ = V c main_v11 _
  congr 1
  funext x
  apply Fin.ext
  match x with
  | ⟨0, _⟩ => show win0_0.index t (0 : Fin 2) * 4096 + 1 * r.val = R.val; rw [e00, hR]; omega
  | ⟨1, _⟩ => show win0_0.index t (1 : Fin 2) * 256 + 1 * q.val = q.val; rw [e01]; omega

/-- the transposed input weights: its one block is the whole array -/
theorem blk1_at (c : Dev nD) (t : Fin cfg0.N) (a : Fin 256) (b : Fin 768) :
    (iblk0 V c 1 t : Vec Ideal S256x768 .bf16) (ix2 a b) = (V c main_v1 : S256x768.Idx → EReal) (ix2 a b) := by
  obtain ⟨-, -, -, e10, e11, e20, e21, -, -⟩ := idx_facts t
  unfold iblk0
  rw [View.read_apply]
  show V c main_v1 _ = V c main_v1 _
  congr 1
  funext x
  apply Fin.ext
  match x with
  | ⟨0, _⟩ => show win0_1.index t (0 : Fin 2) * 256 + 1 * a.val = a.val; rw [e10]; omega
  | ⟨1, _⟩ => show win0_1.index t (1 : Fin 2) * 768 + 1 * b.val = b.val; rw [e11]; omega

/-- the bias row: its one block is the whole array -/
theorem blk2_at (c : Dev nD) (t : Fin cfg0.N) (a : Fin 1) (b : Fin 768) :
    (iblk0 V c 2 t : Vec Ideal S1x768 .f32) (ix2 a b) = (V c main_v2 : S1x768.Idx → EReal) (ix2 a b) := by
  obtain ⟨-, -, -, e10, e11, e20, e21, -, -⟩ := idx_facts t
  unfold iblk0
  rw [View.read_apply]
  show V c main_v2 _ = V c main_v2 _
  congr 1
  funext x
  apply Fin.ext
  match x with
  | ⟨0, _⟩ => show win0_2.index t (0 : Fin 2) * 1 + 1 * a.val = a.val; rw [e20]; omega
  | ⟨1, _⟩ => show win0_2.index t (1 : Fin 2) * 768 + 1 * b.val = b.val; rw [e21]; omega

/-! ## What a point writes back, the cover, the array -/

/-- WHAT POINT t WRITES BACK is block t of the level function. -/
theorem flushed_eq (c : Dev nD)
    (hx : ∀ (r : Fin 65536) (q : Fin 256), (V c main_v11 : S65536x256.Idx → EReal) (ix2 r q) = TreeSpec.xrow X (65535 + r.val) q)
    (h2 : ∀ (a : Fin 256) (k : Fin 768), (V c main_v1 : S256x768.Idx → EReal) (ix2 a k) = Ww (ix2 k a))
    (h3 : ∀ k : Fin 768, (V c main_v2 : S1x768.Idx → EReal) (ix2 (0 : Fin 1) k) = Wb (ix1 k))
    (t : Fin cfg0.N) :
    (dat0 V c).flushed 3 t = ((cfg0.win 3).blk t).view.read (Elt Ideal) (G X Ww Wb Uhc Uf) := by
  show (cfg0.win 3).cut (grid0.coords t) ((dat0 V c).after 3 t) = _
  rw [after0_3]
  unfold out0_3
  rw [View.canon_unit_zero hz]
  simp only [View.ld_unit_zero (S := S4096x256) hz, View.ld_unit_zero (S := S256x768) hz, View.ld_unit_zero (S := S1x768) hz]
  rw [Pay.pay0_eq]
  obtain ⟨ht, -, -, -, -, -, -, e30, e31⟩ := idx_facts t
  funext y
  obtain ⟨r, j, rfl⟩ : ∃ (r : Fin 4096) (j : Fin 256), y = ix2 r j := ⟨y 0, y 1, eq_ix2 y⟩
  have hr : r.val < 4096 := r.isLt
  have hR : t.val * 4096 + r.val < 65536 := by omega
  have hemb : ((cfg0.win 3).blk t).view.emb (ix2 r j) = (ix2 ⟨t.val * 4096 + r.val, hR⟩ j : S65536x256.Idx) := by
    funext x
    apply Fin.ext
    match x with
    | ⟨0, _⟩ => show win0_3.index t (0 : Fin 2) * 4096 + 1 * r.val = t.val * 4096 + r.val; rw [e30]; omega
    | ⟨1, _⟩ => show win0_3.index t (1 : Fin 2) * 256 + 1 * j.val = j.val; rw [e31]; omega
  show _ = G X Ww Wb Uhc Uf (((cfg0.win 3).blk t).view.emb (ix2 r j))
  rw [hemb]
  show _ = TreeSpec.lvl X Ww Wb Uhc Uf 0 (t.val * 4096 + r.val) j
  exact KernLevel.kleaf_lvl X Ww Wb Uhc Uf _ _ _ _ _ _ _ _ _ _ _ _
    (fun a k => (blk1_at V c t a k).trans (h2 a k)) (fun k => (blk2_at V c t 0 k).trans (h3 k))
    (t.val * 4096 + r.val) r
    (fun q => (blk0_at V c t r q ⟨t.val * 4096 + r.val, hR⟩ rfl).trans (hx ⟨t.val * 4096 + r.val, hR⟩ q)) j

/-- An index of the output array is in point t's block iff each coordinate is in the block's range on its axis. -/
theorem mem_blk (t : Fin cfg0.N) (i : S65536x256.Idx) :
    i ∈ ((cfg0.win 3).blk t).view.set ↔ ∀ a : Fin 2, win0_3.index t a * S4096x256.size a ≤ (i a).val ∧ (i a).val < win0_3.index t a * S4096x256.size a + S4096x256.size a := by
  show i ∈ ((View.whole main_v12).slice (win0_3.rect t)).set ↔ _
  rw [View.set_slice_whole, Rect.mem_set_unit]
  exact Iff.rfl

/-- Every index of the output array is in some point's block: row r in the block of point r / 4096. -/
theorem cover (i : S65536x256.Idx) : ∃ t : Fin cfg0.N, (cfg0.win 3).flush t = true ∧ i ∈ ((cfg0.win 3).blk t).view.set := by
  have hi0 : (i 0).val < 65536 := (i 0).isLt
  have hi1 : (i 1).val < 256 := (i 1).isLt
  obtain ⟨t, ht⟩ := idx_onto ⟨(i 0).val / 4096, by omega⟩
  have q0 : win0_3.index t (0 : Fin 2) = (i 0).val / 4096 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 4096 ≤ (i 0).val ∧ (i 0).val < win0_3.index t (0 : Fin 2) * 4096 + 4096; omega
  | ⟨1, _⟩ => show win0_3.index t (1 : Fin 2) * 256 ≤ (i 1).val ∧ (i 1).val < win0_3.index t (1 : Fin 2) * 256 + 256; omega

/-- THE ARRAY after the region: the leaves, row by row. -/
theorem final (c : Dev nD)
    (hx : ∀ (r : Fin 65536) (q : Fin 256), (V c main_v11 : S65536x256.Idx → EReal) (ix2 r q) = TreeSpec.xrow X (65535 + r.val) q)
    (h2 : ∀ (a : Fin 256) (k : Fin 768), (V c main_v1 : S256x768.Idx → EReal) (ix2 a k) = Ww (ix2 k a))
    (h3 : ∀ k : Fin 768, (V c main_v2 : S1x768.Idx → EReal) (ix2 (0 : Fin 1) k) = Wb (ix1 k)) :
    ∀ (r : Fin 65536) (j : Fin 256), (dat0 V c).arrAt 3 cfg0.N (ix2 r j) = TreeSpec.lvl X Ww Wb Uhc Uf 0 r.val j := by
  intro r j
  rw [(dat0 V c).arrAt_eq_of_cover 3 (G X Ww Wb Uhc Uf) (fun t _ => flushed_eq V X Ww Wb Uhc Uf c hx h2 h3 t) cover]

end Cert.KernelIdeal.Reg0

end
-- ==== Proof.KReg1.lean ====
/-
  Level 1 of the tree (`TreeSpec.lvl … 1`) as region 1 of the kernel program leaves it.

  The region runs the inner block computation over a grid of 16: point t reads the 2048 rows from row 2048 t on of the
  level's input rows and of the children rows laid two side by side, reads the six weight arrays whole, and writes the
  2048 rows from row 2048 t on of the output array.  When the region finds, in those arrays, the tree's input rows
  32767 + r, rows 2r and 2r + 1 of level 0 side by side and the transposed (halves of the) weights, every point writes
  back its block of ONE function of the output's index, the level function of `TreeSpec` at level 1; the blocks of the
  16 points cover the 32768 rows, so the output array ends holding that function.
-/
import proofs.«410862_j80719615361096_3_alg».proof.Proof.FrameIdealP
import proofs.«410862_j80719615361096_3_alg».proof.Proof.KPay
import proofs.«410862_j80719615361096_3_alg».proof.Proof.KernLevel
import Idealize.ShloMosaic.Lib.Pipeline.Value

noncomputable section

namespace Cert.KernelIdeal.Reg1

open Cert.KernelIdeal Cert.KernelIdeal.Gen Cert.KernelIdeal.GenP Idealize.ShloMosaic Idealize.ShloMosaic.TcCoe Idealize.SL.Sem
open Idealize.ShloMosaic.ValueIdx Cert.TreeOps Cert.KernChain
open Idealize.ShloMosaic.Pipeline (Dat)

variable (V : (c : Dev nD) → (b : Ref sig .tc) → Buf (Elt Ideal) ((c : Thread nD τ).loc b))
variable (X : Mat 131071 256) (Ww : Mat 768 256) (Wb : FVec Ideal (Sh1 768) .f32) (Uhc : Mat 256 512) (Uf : Mat 512 512)

theorem hz : (![0, 0] : Fin 2 → Nat) = fun _ => 0 := funext fun a => by fin_cases a <;> rfl

/-- the level as one function of the output array's index -/
abbrev G : S32768x256.Idx → EReal := fun i => TreeSpec.lvl X Ww Wb Uhc Uf 1 (i 0).val (i 1)

/-- The printed index maps, decided over the 16 grid points: the two row windows and the output window sit at block
    (t, 0), the six weight windows at block (0, 0). -/
theorem idx_facts : ∀ t : Fin cfg1.N, t.val < 16
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- Every block row of the output is some point's. -/
theorem idx_onto : ∀ q0 : Fin 16, ∃ t : Fin cfg1.N, win1_8.index t = ![q0.val, 0] :=
  (by decide +kernel : ∀ q0 : Fin 16, ∃ t : Fin grid1.N, win1_8.index t = ![q0.val, 0])

/-! ## Each input window's block, read where its index map says -/

/-- the level's input rows: row r of the block at point t is row 2048 t + r of the array -/
theorem blk0_at (c : Dev nD) (t : Fin cfg1.N) (r : Fin 2048) (q : Fin 256) (R : Fin 32768) (hR : R.val = t.val * 2048 + r.val) :
    (iblk1 V c 0 t : Vec Ideal S2048x256 .f32) (ix2 r q) = (V c main_v13 : S32768x256.Idx → EReal) (ix2 R q) := by
  obtain ⟨-, e00, e01, e10, e11, -⟩ := idx_facts t
  unfold iblk1
  rw [View.read_apply]
  show V c main_v13 _ = V c main_v13 _
  congr 1
  funext x
  apply Fin.ext
  match x with
  | ⟨0, _⟩ => show win1_0.index t (0 : Fin 2) * 2048 + 1 * r.val = R.val; rw [e00, hR]; omega
  | ⟨1, _⟩ => show win1_0.index t (1 : Fin 2) * 256 + 1 * q.val = q.val; rw [e01]; omega

/-- the children rows two side by side: row r of the block at point t is row 2048 t + r of the array -/
theorem blk1_at (c : Dev nD) (t : Fin cfg1.N) (r : Fin 2048) (q : Fin 512) (R : Fin 32768) (hR : R.val = t.val * 2048 + r.val) :
    (iblk1 V c 1 t : Vec Ideal S2048x512 .f32) (ix2 r q) = (V c main_v14 : S32768x512.Idx → EReal) (ix2 R q) := by
  obtain ⟨-, e00, e01, e10, e11, -⟩ := idx_facts t
  unfold iblk1
  rw [View.read_apply]
  show V c main_v14 _ = V c main_v14 _
  congr 1
  funext x
  apply Fin.ext
  match x with
  | ⟨0, _⟩ => show win1_1.index t (0 : Fin 2) * 2048 + 1 * r.val = R.val; rw [e10, hR]; omega
  | ⟨1, _⟩ => show win1_1.index t (1 : Fin 2) * 512 + 1 * q.val = q.val; rw [e11]; omega

/-- the transposed input weights: its one block is the whole array -/
theorem blk2_at (c : Dev nD) (t : Fin cfg1.N) (a : Fin 256) (b : Fin 768) :
    (iblk1 V c 2 t : Vec Ideal S256x768 .bf16) (ix2 a b) = (V c main_v1 : S256x768.Idx → EReal) (ix2 a b) := by
  obtain ⟨-, -, -, -, -, e20, e21, e30, e31, e40, e41, e50, e51, e60, e61, e70, e71, -, -⟩ := idx_facts t
  unfold iblk1
  rw [View.read_apply]
  show V c main_v1 _ = V c main_v1 _
  congr 1
  funext x
  apply Fin.ext
  match x with
  | ⟨0, _⟩ => show win1_2.index t (0 : Fin 2) * 256 + 1 * a.val = a.val; rw [e20]; omega
  | ⟨1, _⟩ => show win1_2.index t (1 : Fin 2) * 768 + 1 * b.val = b.val; rw [e21]; omega

/-- the bias row: its one block is the whole array -/
theorem blk3_at (c : Dev nD) (t : Fin cfg1.N) (a : Fin 1) (b : Fin 768) :
    (iblk1 V c 3 t : Vec Ideal S1x768 .f32) (ix2 a b) = (V c main_v2 : S1x768.Idx → EReal) (ix2 a b) := by
  obtain ⟨-, -, -, -, -, e20, e21, e30, e31, e40, e41, e50, e51, e60, e61, e70, e71, -, -⟩ := idx_facts t
  unfold iblk1
  rw [View.read_apply]
  show V c main_v2 _ = V c main_v2 _
  congr 1
  funext x
  apply Fin.ext
  match x with
  | ⟨0, _⟩ => show win1_3.index t (0 : Fin 2) * 1 + 1 * a.val = a.val; rw [e30]; omega
  | ⟨1, _⟩ => show win1_3.index t (1 : Fin 2) * 768 + 1 * b.val = b.val; rw [e31]; omega

/-- the first transposed half of the forget weights: its one block is the whole array -/
theorem blk4_at (c : Dev nD) (t : Fin cfg1.N) (a : Fin 256) (b : Fin 512) :
    (iblk1 V c 4 t : Vec Ideal S256x512 .f32) (ix2 a b) = (V c main_v4 : S256x512.Idx → EReal) (ix2 a b) := by
  obtain ⟨-, -, -, -, -, e20, e21, e30, e31, e40, e41, e50, e51, e60, e61, e70, e71, -, -⟩ := idx_facts t
  unfold iblk1
  rw [View.read_apply]
  show V c main_v4 _ = V c main_v4 _
  congr 1
  funext x
  apply Fin.ext
  match x with
  | ⟨0, _⟩ => show win1_4.index t (0 : Fin 2) * 256 + 1 * a.val = a.val; rw [e40]; omega
  | ⟨1, _⟩ => show win1_4.index t (1 : Fin 2) * 512 + 1 * b.val = b.val; rw [e41]; omega

/-- the second transposed half of the forget weights: its one block is the whole array -/
theorem blk5_at (c : Dev nD) (t : Fin cfg1.N) (a : Fin 256) (b : Fin 512) :
    (iblk1 V c 5 t : Vec Ideal S256x512 .f32) (ix2 a b) = (V c main_v6 : S256x512.Idx → EReal) (ix2 a b) := by
  obtain ⟨-, -, -, -, -, e20, e21, e30, e31, e40, e41, e50, e51, e60, e61, e70, e71, -, -⟩ := idx_facts t
  unfold iblk1
  rw [View.read_apply]
  show V c main_v6 _ = V c main_v6 _
  congr 1
  funext x
  apply Fin.ext
  match x with
  | ⟨0, _⟩ => show win1_5.index t (0 : Fin 2) * 256 + 1 * a.val = a.val; rw [e50]; omega
  | ⟨1, _⟩ => show win1_5.index t (1 : Fin 2) * 512 + 1 * b.val = b.val; rw [e51]; omega

/-- the first transposed half of the candidate weights: its one block is the whole array -/
theorem blk6_at (c : Dev nD) (t : Fin cfg1.N) (a : Fin 256) (b : Fin 256) :
    (iblk1 V c 6 t : Vec Ideal S256x256 .f32) (ix2 a b) = (V c main_v8 : S256x256.Idx → EReal) (ix2 a b) := by
  obtain ⟨-, -, -, -, -, e20, e21, e30, e31, e40, e41, e50, e51, e60, e61, e70, e71, -, -⟩ := idx_facts t
  unfold iblk1
  rw [View.read_apply]
  show V c main_v8 _ = V c main_v8 _
  congr 1
  funext x
  apply Fin.ext
  match x with
  | ⟨0, _⟩ => show win1_6.index t (0 : Fin 2) * 256 + 1 * a.val = a.val; rw [e60]; omega
  | ⟨1, _⟩ => show win1_6.index t (1 : Fin 2) * 256 + 1 * b.val = b.val; rw [e61]; omega

/-- the second transposed half of the candidate weights: its one block is the whole array -/
theorem blk7_at (c : Dev nD) (t : Fin cfg1.N) (a : Fin 256) (b : Fin 256) :
    (iblk1 V c 7 t : Vec Ideal S256x256 .f32) (ix2 a b) = (V c main_v10 : S256x256.Idx → EReal) (ix2 a b) := by
  obtain ⟨-, -, -, -, -, e20, e21, e30, e31, e40, e41, e50, e51, e60, e61, e70, e71, -, -⟩ := idx_facts t
  unfold iblk1
  rw [View.read_apply]
  show V c main_v10 _ = V c main_v10 _
  congr 1
  funext x
  apply Fin.ext
  match x with
  | ⟨0, _⟩ => show win1_7.index t (0 : Fin 2) * 256 + 1 * a.val = a.val; rw [e70]; omega
  | ⟨1, _⟩ => show win1_7.index t (1 : Fin 2) * 256 + 1 * b.val = b.val; rw [e71]; omega

/-! ## What a point writes back, the cover, the array -/

/-- WHAT POINT t WRITES BACK is block t of the level function. -/
theorem flushed_eq (c : Dev nD)
    (hx : ∀ (r : Fin 32768) (q : Fin 256), (V c main_v13 : S32768x256.Idx → EReal) (ix2 r q) = TreeSpec.xrow X (32767 + r.val) q)
    (hch : ∀ (r : Fin 32768) (q : Fin 512), (V c main_v14 : S32768x512.Idx → EReal) (ix2 r q) = TreeSpec.pair (TreeSpec.lvl X Ww Wb Uhc Uf 0) r.val q)
    (h2 : ∀ (a : Fin 256) (k : Fin 768), (V c main_v1 : S256x768.Idx → EReal) (ix2 a k) = Ww (ix2 k a))
    (h3 : ∀ k : Fin 768, (V c main_v2 : S1x768.Idx → EReal) (ix2 (0 : Fin 1) k) = Wb (ix1 k))
    (h4 : ∀ (q : Fin 256) (k : Fin 512), (V c main_v4 : S256x512.Idx → EReal) (ix2 q k) = Uf (ix2 k (TreeCell.lo q)))
    (h5 : ∀ (q : Fin 256) (k : Fin 512), (V c main_v6 : S256x512.Idx → EReal) (ix2 q k) = Uf (ix2 k (TreeCell.hi q)))
    (h6 : ∀ (q j : Fin 256), (V c main_v8 : S256x256.Idx → EReal) (ix2 q j) = Uhc (ix2 j (TreeCell.lo q)))
    (h7 : ∀ (q j : Fin 256), (V c main_v10 : S256x256.Idx → EReal) (ix2 q j) = Uhc (ix2 j (TreeCell.hi q)))
    (t : Fin cfg1.N) :
    (dat1 V c).flushed 8 t = ((cfg1.win 8).blk t).view.read (Elt Ideal) (G X Ww Wb Uhc Uf) := by
  show (cfg1.win 8).cut (grid1.coords t) ((dat1 V c).after 8 t) = _
  rw [after1_8]
  unfold out1_8
  rw [View.canon_unit_zero hz]
  simp only [View.ld_unit_zero (S := S2048x256) hz, View.ld_unit_zero (S := S2048x512) hz, View.ld_unit_zero (S := S256x768) hz,
    View.ld_unit_zero (S := S1x768) hz, View.ld_unit_zero (S := S256x512) hz, View.ld_unit_zero (S := S256x256) hz]
  rw [Pay.pay1_eq]
  obtain ⟨ht, -, -, -, -, -, -, -, -, -, -, -, -, -, -, -, -, e80, e81⟩ := idx_facts t
  funext y
  obtain ⟨r, j, rfl⟩ : ∃ (r : Fin 2048) (j : Fin 256), y = ix2 r j := ⟨y 0, y 1, eq_ix2 y⟩
  have hr : r.val < 2048 := r.isLt
  have hR : t.val * 2048 + r.val < 32768 := by omega
  have hemb : ((cfg1.win 8).blk t).view.emb (ix2 r j) = (ix2 ⟨t.val * 2048 + r.val, hR⟩ j : S32768x256.Idx) := by
    funext x
    apply Fin.ext
    match x with
    | ⟨0, _⟩ => show win1_8.index t (0 : Fin 2) * 2048 + 1 * r.val = t.val * 2048 + r.val; rw [e80]; omega
    | ⟨1, _⟩ => show win1_8.index t (1 : Fin 2) * 256 + 1 * j.val = j.val; rw [e81]; omega
  show _ = G X Ww Wb Uhc Uf (((cfg1.win 8).blk t).view.emb (ix2 r j))
  rw [hemb]
  show _ = TreeSpec.lvl X Ww Wb Uhc Uf 1 (t.val * 2048 + r.val) j
  exact KernLevel.kinner_lvl X Ww Wb Uhc Uf 0 32767 (by norm_num) _ _ _ _ _ _ _ _ _ _ _ _ _ _ _ _ _ _ _ _
    (fun a k => (blk2_at V c t a k).trans (h2 a k)) (fun k => (blk3_at V c t 0 k).trans (h3 k))
    (fun q k => (blk4_at V c t q k).trans (h4 q k)) (fun q k => (blk5_at V c t q k).trans (h5 q k))
    (fun q j' => (blk6_at V c t q j').trans (h6 q j')) (fun q j' => (blk7_at V c t q j').trans (h7 q j'))
    (t.val * 2048 + r.val) r
    (fun q => (blk0_at V c t r q ⟨t.val * 2048 + r.val, hR⟩ rfl).trans (hx ⟨t.val * 2048 + r.val, hR⟩ q))
    (fun q => (blk1_at V c t r q ⟨t.val * 2048 + r.val, hR⟩ rfl).trans (hch ⟨t.val * 2048 + r.val, hR⟩ q)) j

/-- An index of the output array is in point t's block iff each coordinate is in the block's range on its axis. -/
theorem mem_blk (t : Fin cfg1.N) (i : S32768x256.Idx) :
    i ∈ ((cfg1.win 8).blk t).view.set ↔ ∀ a : Fin 2, win1_8.index t a * S2048x256.size a ≤ (i a).val ∧ (i a).val < win1_8.index t a * S2048x256.size a + S2048x256.size a := by
  show i ∈ ((View.whole main_v15).slice (win1_8.rect t)).set ↔ _
  rw [View.set_slice_whole, Rect.mem_set_unit]
  exact Iff.rfl

/-- Every index of the output array is in some point's block: row r in the block of point r / 2048. -/
theorem cover (i : S32768x256.Idx) : ∃ t : Fin cfg1.N, (cfg1.win 8).flush t = true ∧ i ∈ ((cfg1.win 8).blk t).view.set := by
  have hi0 : (i 0).val < 32768 := (i 0).isLt
  have hi1 : (i 1).val < 256 := (i 1).isLt
  obtain ⟨t, ht⟩ := idx_onto ⟨(i 0).val / 2048, by omega⟩
  have q0 : win1_8.index t (0 : Fin 2) = (i 0).val / 2048 := congrFun ht 0
  have q1 : win1_8.index t (1 : Fin 2) = 0 := congrFun ht 1
  refine ⟨t, flush1_8 t, ?_⟩
  rw [mem_blk]
  intro a
  match a with
  | ⟨0, _⟩ => show win1_8.index t (0 : Fin 2) * 2048 ≤ (i 0).val ∧ (i 0).val < win1_8.index t (0 : Fin 2) * 2048 + 2048; omega
  | ⟨1, _⟩ => show win1_8.index t (1 : Fin 2) * 256 ≤ (i 1).val ∧ (i 1).val < win1_8.index t (1 : Fin 2) * 256 + 256; omega

/-- THE ARRAY after the region: level 1, row by row. -/
theorem final (c : Dev nD)
    (hx : ∀ (r : Fin 32768) (q : Fin 256), (V c main_v13 : S32768x256.Idx → EReal) (ix2 r q) = TreeSpec.xrow X (32767 + r.val) q)
    (hch : ∀ (r : Fin 32768) (q : Fin 512), (V c main_v14 : S32768x512.Idx → EReal) (ix2 r q) = TreeSpec.pair (TreeSpec.lvl X Ww Wb Uhc Uf 0) r.val q)
    (h2 : ∀ (a : Fin 256) (k : Fin 768), (V c main_v1 : S256x768.Idx → EReal) (ix2 a k) = Ww (ix2 k a))
    (h3 : ∀ k : Fin 768, (V c main_v2 : S1x768.Idx → EReal) (ix2 (0 : Fin 1) k) = Wb (ix1 k))
    (h4 : ∀ (q : Fin 256) (k : Fin 512), (V c main_v4 : S256x512.Idx → EReal) (ix2 q k) = Uf (ix2 k (TreeCell.lo q)))
    (h5 : ∀ (q : Fin 256) (k : Fin 512), (V c main_v6 : S256x512.Idx → EReal) (ix2 q k) = Uf (ix2 k (TreeCell.hi q)))
    (h6 : ∀ (q j : Fin 256), (V c main_v8 : S256x256.Idx → EReal) (ix2 q j) = Uhc (ix2 j (TreeCell.lo q)))
    (h7 : ∀ (q j : Fin 256), (V c main_v10 : S256x256.Idx → EReal) (ix2 q j) = Uhc (ix2 j (TreeCell.hi q))) :
    ∀ (r : Fin 32768) (j : Fin 256), (dat1 V c).arrAt 8 cfg1.N (ix2 r j) = TreeSpec.lvl X Ww Wb Uhc Uf 1 r.val j := by
  intro r j
  rw [(dat1 V c).arrAt_eq_of_cover 8 (G X Ww Wb Uhc Uf) (fun t _ => flushed_eq V X Ww Wb Uhc Uf c hx hch h2 h3 h4 h5 h6 h7 t) cover]

end Cert.KernelIdeal.Reg1

end
-- ==== Proof.KReg2.lean ====
/-
  Level 2 of the tree (`TreeSpec.lvl … 2`) as region 2 of the kernel program leaves it.

  The region runs the inner block computation over a grid of 8: point t reads the 2048 rows from row 2048 t on of the
  level's input rows and of the children rows laid two side by side, reads the six weight arrays whole, and writes the
  2048 rows from row 2048 t on of the output array.  When the region finds, in those arrays, the tree's input rows
  16383 + r, rows 2r and 2r + 1 of level 1 side by side and the transposed (halves of the) weights, every point writes
  back its block of ONE function of the output's index, the level function of `TreeSpec` at level 2; the blocks of the
  8 points cover the 16384 rows, so the output array ends holding that function.
-/
import proofs.«410862_j80719615361096_3_alg».proof.Proof.FrameIdealP
import proofs.«410862_j80719615361096_3_alg».proof.Proof.KPay
import proofs.«410862_j80719615361096_3_alg».proof.Proof.KernLevel
import Idealize.ShloMosaic.Lib.Pipeline.Value

noncomputable section

namespace Cert.KernelIdeal.Reg2

open Cert.KernelIdeal Cert.KernelIdeal.Gen Cert.KernelIdeal.GenP Idealize.ShloMosaic Idealize.ShloMosaic.TcCoe Idealize.SL.Sem
open Idealize.ShloMosaic.ValueIdx Cert.TreeOps Cert.KernChain
open Idealize.ShloMosaic.Pipeline (Dat)

variable (V : (c : Dev nD) → (b : Ref sig .tc) → Buf (Elt Ideal) ((c : Thread nD τ).loc b))
variable (X : Mat 131071 256) (Ww : Mat 768 256) (Wb : FVec Ideal (Sh1 768) .f32) (Uhc : Mat 256 512) (Uf : Mat 512 512)

theorem hz : (![0, 0] : Fin 2 → Nat) = fun _ => 0 := funext fun a => by fin_cases a <;> rfl

/-- the level as one function of the output array's index -/
abbrev G : S16384x256.Idx → EReal := fun i => TreeSpec.lvl X Ww Wb Uhc Uf 2 (i 0).val (i 1)

/-- The printed index maps, decided over the 8 grid points: the two row windows and the output window sit at block
    (t, 0), the six weight windows at block (0, 0). -/
theorem idx_facts : ∀ t : Fin cfg2.N, t.val < 8
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0 :=
  (by decide +kernel : ∀ t : Fin grid2.N, _)

/-- Every block row of the output is some point's. -/
theorem idx_onto : ∀ q0 : Fin 8, ∃ t : Fin cfg2.N, win2_8.index t = ![q0.val, 0] :=
  (by decide +kernel : ∀ q0 : Fin 8, ∃ t : Fin grid2.N, win2_8.index t = ![q0.val, 0])

/-! ## Each input window's block, read where its index map says -/

/-- the level's input rows: row r of the block at point t is row 2048 t + r of the array -/
theorem blk0_at (c : Dev nD) (t : Fin cfg2.N) (r : Fin 2048) (q : Fin 256) (R : Fin 16384) (hR : R.val = t.val * 2048 + r.val) :
    (iblk2 V c 0 t : Vec Ideal S2048x256 .f32) (ix2 r q) = (V c main_v16 : S16384x256.Idx → EReal) (ix2 R q) := by
  obtain ⟨-, e00, e01, e10, e11, -⟩ := idx_facts t
  unfold iblk2
  rw [View.read_apply]
  show V c main_v16 _ = V c main_v16 _
  congr 1
  funext x
  apply Fin.ext
  match x with
  | ⟨0, _⟩ => show win2_0.index t (0 : Fin 2) * 2048 + 1 * r.val = R.val; rw [e00, hR]; omega
  | ⟨1, _⟩ => show win2_0.index t (1 : Fin 2) * 256 + 1 * q.val = q.val; rw [e01]; omega

/-- the children rows two side by side: row r of the block at point t is row 2048 t + r of the array -/
theorem blk1_at (c : Dev nD) (t : Fin cfg2.N) (r : Fin 2048) (q : Fin 512) (R : Fin 16384) (hR : R.val = t.val * 2048 + r.val) :
    (iblk2 V c 1 t : Vec Ideal S2048x512 .f32) (ix2 r q) = (V c main_v17 : S16384x512.Idx → EReal) (ix2 R q) := by
  obtain ⟨-, e00, e01, e10, e11, -⟩ := idx_facts t
  unfold iblk2
  rw [View.read_apply]
  show V c main_v17 _ = V c main_v17 _
  congr 1
  funext x
  apply Fin.ext
  match x with
  | ⟨0, _⟩ => show win2_1.index t (0 : Fin 2) * 2048 + 1 * r.val = R.val; rw [e10, hR]; omega
  | ⟨1, _⟩ => show win2_1.index t (1 : Fin 2) * 512 + 1 * q.val = q.val; rw [e11]; omega

/-- the transposed input weights: its one block is the whole array -/
theorem blk2_at (c : Dev nD) (t : Fin cfg2.N) (a : Fin 256) (b : Fin 768) :
    (iblk2 V c 2 t : Vec Ideal S256x768 .bf16) (ix2 a b) = (V c main_v1 : S256x768.Idx → EReal) (ix2 a b) := by
  obtain ⟨-, -, -, -, -, e20, e21, e30, e31, e40, e41, e50, e51, e60, e61, e70, e71, -, -⟩ := idx_facts t
  unfold iblk2
  rw [View.read_apply]
  show V c main_v1 _ = V c main_v1 _
  congr 1
  funext x
  apply Fin.ext
  match x with
  | ⟨0, _⟩ => show win2_2.index t (0 : Fin 2) * 256 + 1 * a.val = a.val; rw [e20]; omega
  | ⟨1, _⟩ => show win2_2.index t (1 : Fin 2) * 768 + 1 * b.val = b.val; rw [e21]; omega

/-- the bias row: its one block is the whole array -/
theorem blk3_at (c : Dev nD) (t : Fin cfg2.N) (a : Fin 1) (b : Fin 768) :
    (iblk2 V c 3 t : Vec Ideal S1x768 .f32) (ix2 a b) = (V c main_v2 : S1x768.Idx → EReal) (ix2 a b) := by
  obtain ⟨-, -, -, -, -, e20, e21, e30, e31, e40, e41, e50, e51, e60, e61, e70, e71, -, -⟩ := idx_facts t
  unfold iblk2
  rw [View.read_apply]
  show V c main_v2 _ = V c main_v2 _
  congr 1
  funext x
  apply Fin.ext
  match x with
  | ⟨0, _⟩ => show win2_3.index t (0 : Fin 2) * 1 + 1 * a.val = a.val; rw [e30]; omega
  | ⟨1, _⟩ => show win2_3.index t (1 : Fin 2) * 768 + 1 * b.val = b.val; rw [e31]; omega

/-- the first transposed half of the forget weights: its one block is the whole array -/
theorem blk4_at (c : Dev nD) (t : Fin cfg2.N) (a : Fin 256) (b : Fin 512) :
    (iblk2 V c 4 t : Vec Ideal S256x512 .f32) (ix2 a b) = (V c main_v4 : S256x512.Idx → EReal) (ix2 a b) := by
  obtain ⟨-, -, -, -, -, e20, e21, e30, e31, e40, e41, e50, e51, e60, e61, e70, e71, -, -⟩ := idx_facts t
  unfold iblk2
  rw [View.read_apply]
  show V c main_v4 _ = V c main_v4 _
  congr 1
  funext x
  apply Fin.ext
  match x with
  | ⟨0, _⟩ => show win2_4.index t (0 : Fin 2) * 256 + 1 * a.val = a.val; rw [e40]; omega
  | ⟨1, _⟩ => show win2_4.index t (1 : Fin 2) * 512 + 1 * b.val = b.val; rw [e41]; omega

/-- the second transposed half of the forget weights: its one block is the whole array -/
theorem blk5_at (c : Dev nD) (t : Fin cfg2.N) (a : Fin 256) (b : Fin 512) :
    (iblk2 V c 5 t : Vec Ideal S256x512 .f32) (ix2 a b) = (V c main_v6 : S256x512.Idx → EReal) (ix2 a b) := by
  obtain ⟨-, -, -, -, -, e20, e21, e30, e31, e40, e41, e50, e51, e60, e61, e70, e71, -, -⟩ := idx_facts t
  unfold iblk2
  rw [View.read_apply]
  show V c main_v6 _ = V c main_v6 _
  congr 1
  funext x
  apply Fin.ext
  match x with
  | ⟨0, _⟩ => show win2_5.index t (0 : Fin 2) * 256 + 1 * a.val = a.val; rw [e50]; omega
  | ⟨1, _⟩ => show win2_5.index t (1 : Fin 2) * 512 + 1 * b.val = b.val; rw [e51]; omega

/-- the first transposed half of the candidate weights: its one block is the whole array -/
theorem blk6_at (c : Dev nD) (t : Fin cfg2.N) (a : Fin 256) (b : Fin 256) :
    (iblk2 V c 6 t : Vec Ideal S256x256 .f32) (ix2 a b) = (V c main_v8 : S256x256.Idx → EReal) (ix2 a b) := by
  obtain ⟨-, -, -, -, -, e20, e21, e30, e31, e40, e41, e50, e51, e60, e61, e70, e71, -, -⟩ := idx_facts t
  unfold iblk2
  rw [View.read_apply]
  show V c main_v8 _ = V c main_v8 _
  congr 1
  funext x
  apply Fin.ext
  match x with
  | ⟨0, _⟩ => show win2_6.index t (0 : Fin 2) * 256 + 1 * a.val = a.val; rw [e60]; omega
  | ⟨1, _⟩ => show win2_6.index t (1 : Fin 2) * 256 + 1 * b.val = b.val; rw [e61]; omega

/-- the second transposed half of the candidate weights: its one block is the whole array -/
theorem blk7_at (c : Dev nD) (t : Fin cfg2.N) (a : Fin 256) (b : Fin 256) :
    (iblk2 V c 7 t : Vec Ideal S256x256 .f32) (ix2 a b) = (V c main_v10 : S256x256.Idx → EReal) (ix2 a b) := by
  obtain ⟨-, -, -, -, -, e20, e21, e30, e31, e40, e41, e50, e51, e60, e61, e70, e71, -, -⟩ := idx_facts t
  unfold iblk2
  rw [View.read_apply]
  show V c main_v10 _ = V c main_v10 _
  congr 1
  funext x
  apply Fin.ext
  match x with
  | ⟨0, _⟩ => show win2_7.index t (0 : Fin 2) * 256 + 1 * a.val = a.val; rw [e70]; omega
  | ⟨1, _⟩ => show win2_7.index t (1 : Fin 2) * 256 + 1 * b.val = b.val; rw [e71]; omega

/-! ## What a point writes back, the cover, the array -/

/-- WHAT POINT t WRITES BACK is block t of the level function. -/
theorem flushed_eq (c : Dev nD)
    (hx : ∀ (r : Fin 16384) (q : Fin 256), (V c main_v16 : S16384x256.Idx → EReal) (ix2 r q) = TreeSpec.xrow X (16383 + r.val) q)
    (hch : ∀ (r : Fin 16384) (q : Fin 512), (V c main_v17 : S16384x512.Idx → EReal) (ix2 r q) = TreeSpec.pair (TreeSpec.lvl X Ww Wb Uhc Uf 1) r.val q)
    (h2 : ∀ (a : Fin 256) (k : Fin 768), (V c main_v1 : S256x768.Idx → EReal) (ix2 a k) = Ww (ix2 k a))
    (h3 : ∀ k : Fin 768, (V c main_v2 : S1x768.Idx → EReal) (ix2 (0 : Fin 1) k) = Wb (ix1 k))
    (h4 : ∀ (q : Fin 256) (k : Fin 512), (V c main_v4 : S256x512.Idx → EReal) (ix2 q k) = Uf (ix2 k (TreeCell.lo q)))
    (h5 : ∀ (q : Fin 256) (k : Fin 512), (V c main_v6 : S256x512.Idx → EReal) (ix2 q k) = Uf (ix2 k (TreeCell.hi q)))
    (h6 : ∀ (q j : Fin 256), (V c main_v8 : S256x256.Idx → EReal) (ix2 q j) = Uhc (ix2 j (TreeCell.lo q)))
    (h7 : ∀ (q j : Fin 256), (V c main_v10 : S256x256.Idx → EReal) (ix2 q j) = Uhc (ix2 j (TreeCell.hi q)))
    (t : Fin cfg2.N) :
    (dat2 V c).flushed 8 t = ((cfg2.win 8).blk t).view.read (Elt Ideal) (G X Ww Wb Uhc Uf) := by
  show (cfg2.win 8).cut (grid2.coords t) ((dat2 V c).after 8 t) = _
  rw [after2_8]
  unfold out2_8
  rw [View.canon_unit_zero hz]
  simp only [View.ld_unit_zero (S := S2048x256) hz, View.ld_unit_zero (S := S2048x512) hz, View.ld_unit_zero (S := S256x768) hz,
    View.ld_unit_zero (S := S1x768) hz, View.ld_unit_zero (S := S256x512) hz, View.ld_unit_zero (S := S256x256) hz]
  rw [Pay.pay2_eq]
  obtain ⟨ht, -, -, -, -, -, -, -, -, -, -, -, -, -, -, -, -, e80, e81⟩ := idx_facts t
  funext y
  obtain ⟨r, j, rfl⟩ : ∃ (r : Fin 2048) (j : Fin 256), y = ix2 r j := ⟨y 0, y 1, eq_ix2 y⟩
  have hr : r.val < 2048 := r.isLt
  have hR : t.val * 2048 + r.val < 16384 := by omega
  have hemb : ((cfg2.win 8).blk t).view.emb (ix2 r j) = (ix2 ⟨t.val * 2048 + r.val, hR⟩ j : S16384x256.Idx) := by
    funext x
    apply Fin.ext
    match x with
    | ⟨0, _⟩ => show win2_8.index t (0 : Fin 2) * 2048 + 1 * r.val = t.val * 2048 + r.val; rw [e80]; omega
    | ⟨1, _⟩ => show win2_8.index t (1 : Fin 2) * 256 + 1 * j.val = j.val; rw [e81]; omega
  show _ = G X Ww Wb Uhc Uf (((cfg2.win 8).blk t).view.emb (ix2 r j))
  rw [hemb]
  show _ = TreeSpec.lvl X Ww Wb Uhc Uf 2 (t.val * 2048 + r.val) j
  exact KernLevel.kinner_lvl X Ww Wb Uhc Uf 1 16383 (by norm_num) _ _ _ _ _ _ _ _ _ _ _ _ _ _ _ _ _ _ _ _
    (fun a k => (blk2_at V c t a k).trans (h2 a k)) (fun k => (blk3_at V c t 0 k).trans (h3 k))
    (fun q k => (blk4_at V c t q k).trans (h4 q k)) (fun q k => (blk5_at V c t q k).trans (h5 q k))
    (fun q j' => (blk6_at V c t q j').trans (h6 q j')) (fun q j' => (blk7_at V c t q j').trans (h7 q j'))
    (t.val * 2048 + r.val) r
    (fun q => (blk0_at V c t r q ⟨t.val * 2048 + r.val, hR⟩ rfl).trans (hx ⟨t.val * 2048 + r.val, hR⟩ q))
    (fun q => (blk1_at V c t r q ⟨t.val * 2048 + r.val, hR⟩ rfl).trans (hch ⟨t.val * 2048 + r.val, hR⟩ q)) j

/-- An index of the output array is in point t's block iff each coordinate is in the block's range on its axis. -/
theorem mem_blk (t : Fin cfg2.N) (i : S16384x256.Idx) :
    i ∈ ((cfg2.win 8).blk t).view.set ↔ ∀ a : Fin 2, win2_8.index t a * S2048x256.size a ≤ (i a).val ∧ (i a).val < win2_8.index t a * S2048x256.size a + S2048x256.size a := by
  show i ∈ ((View.whole main_v18).slice (win2_8.rect t)).set ↔ _
  rw [View.set_slice_whole, Rect.mem_set_unit]
  exact Iff.rfl

/-- Every index of the output array is in some point's block: row r in the block of point r / 2048. -/
theorem cover (i : S16384x256.Idx) : ∃ t : Fin cfg2.N, (cfg2.win 8).flush t = true ∧ i ∈ ((cfg2.win 8).blk t).view.set := by
  have hi0 : (i 0).val < 16384 := (i 0).isLt
  have hi1 : (i 1).val < 256 := (i 1).isLt
  obtain ⟨t, ht⟩ := idx_onto ⟨(i 0).val / 2048, by omega⟩
  have q0 : win2_8.index t (0 : Fin 2) = (i 0).val / 2048 := congrFun ht 0
  have q1 : win2_8.index t (1 : Fin 2) = 0 := congrFun ht 1
  refine ⟨t, flush2_8 t, ?_⟩
  rw [mem_blk]
  intro a
  match a with
  | ⟨0, _⟩ => show win2_8.index t (0 : Fin 2) * 2048 ≤ (i 0).val ∧ (i 0).val < win2_8.index t (0 : Fin 2) * 2048 + 2048; omega
  | ⟨1, _⟩ => show win2_8.index t (1 : Fin 2) * 256 ≤ (i 1).val ∧ (i 1).val < win2_8.index t (1 : Fin 2) * 256 + 256; omega

/-- THE ARRAY after the region: level 2, row by row. -/
theorem final (c : Dev nD)
    (hx : ∀ (r : Fin 16384) (q : Fin 256), (V c main_v16 : S16384x256.Idx → EReal) (ix2 r q) = TreeSpec.xrow X (16383 + r.val) q)
    (hch : ∀ (r : Fin 16384) (q : Fin 512), (V c main_v17 : S16384x512.Idx → EReal) (ix2 r q) = TreeSpec.pair (TreeSpec.lvl X Ww Wb Uhc Uf 1) r.val q)
    (h2 : ∀ (a : Fin 256) (k : Fin 768), (V c main_v1 : S256x768.Idx → EReal) (ix2 a k) = Ww (ix2 k a))
    (h3 : ∀ k : Fin 768, (V c main_v2 : S1x768.Idx → EReal) (ix2 (0 : Fin 1) k) = Wb (ix1 k))
    (h4 : ∀ (q : Fin 256) (k : Fin 512), (V c main_v4 : S256x512.Idx → EReal) (ix2 q k) = Uf (ix2 k (TreeCell.lo q)))
    (h5 : ∀ (q : Fin 256) (k : Fin 512), (V c main_v6 : S256x512.Idx → EReal) (ix2 q k) = Uf (ix2 k (TreeCell.hi q)))
    (h6 : ∀ (q j : Fin 256), (V c main_v8 : S256x256.Idx → EReal) (ix2 q j) = Uhc (ix2 j (TreeCell.lo q)))
    (h7 : ∀ (q j : Fin 256), (V c main_v10 : S256x256.Idx → EReal) (ix2 q j) = Uhc (ix2 j (TreeCell.hi q))) :
    ∀ (r : Fin 16384) (j : Fin 256), (dat2 V c).arrAt 8 cfg2.N (ix2 r j) = TreeSpec.lvl X Ww Wb Uhc Uf 2 r.val j := by
  intro r j
  rw [(dat2 V c).arrAt_eq_of_cover 8 (G X Ww Wb Uhc Uf) (fun t _ => flushed_eq V X Ww Wb Uhc Uf c hx hch h2 h3 h4 h5 h6 h7 t) cover]

end Cert.KernelIdeal.Reg2

end
-- ==== Proof.KReg3.lean ====
/-
  Level 3 of the tree (`TreeSpec.lvl … 3`) as region 3 of the kernel program leaves it.

  The region runs the inner block computation over a grid of 4: point t reads the 2048 rows from row 2048 t on of the
  level's input rows and of the children rows laid two side by side, reads the six weight arrays whole, and writes the
  2048 rows from row 2048 t on of the output array.  When the region finds, in those arrays, the tree's input rows
  8191 + r, rows 2r and 2r + 1 of level 2 side by side and the transposed (halves of the) weights, every point writes
  back its block of ONE function of the output's index, the level function of `TreeSpec` at level 3; the blocks of the
  4 points cover the 8192 rows, so the output array ends holding that function.
-/
import proofs.«410862_j80719615361096_3_alg».proof.Proof.FrameIdealP
import proofs.«410862_j80719615361096_3_alg».proof.Proof.KPay
import proofs.«410862_j80719615361096_3_alg».proof.Proof.KernLevel
import Idealize.ShloMosaic.Lib.Pipeline.Value

noncomputable section

namespace Cert.KernelIdeal.Reg3

open Cert.KernelIdeal Cert.KernelIdeal.Gen Cert.KernelIdeal.GenP Idealize.ShloMosaic Idealize.ShloMosaic.TcCoe Idealize.SL.Sem
open Idealize.ShloMosaic.ValueIdx Cert.TreeOps Cert.KernChain
open Idealize.ShloMosaic.Pipeline (Dat)

variable (V : (c : Dev nD) → (b : Ref sig .tc) → Buf (Elt Ideal) ((c : Thread nD τ).loc b))
variable (X : Mat 131071 256) (Ww : Mat 768 256) (Wb : FVec Ideal (Sh1 768) .f32) (Uhc : Mat 256 512) (Uf : Mat 512 512)

theorem hz : (![0, 0] : Fin 2 → Nat) = fun _ => 0 := funext fun a => by fin_cases a <;> rfl

/-- the level as one function of the output array's index -/
abbrev G : S8192x256.Idx → EReal := fun i => TreeSpec.lvl X Ww Wb Uhc Uf 3 (i 0).val (i 1)

/-- The printed index maps, decided over the 4 grid points: the two row windows and the output window sit at block
    (t, 0), the six weight windows at block (0, 0). -/
theorem idx_facts : ∀ t : Fin cfg3.N, t.val < 4
    ∧ win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = t.val ∧ win3_8.index t (1 : Fin 2) = 0 :=
  (by decide +kernel : ∀ t : Fin grid3.N, _)

/-- Every block row of the output is some point's. -/
theorem idx_onto : ∀ q0 : Fin 4, ∃ t : Fin cfg3.N, win3_8.index t = ![q0.val, 0] :=
  (by decide +kernel : ∀ q0 : Fin 4, ∃ t : Fin grid3.N, win3_8.index t = ![q0.val, 0])

/-! ## Each input window's block, read where its index map says -/

/-- the level's input rows: row r of the block at point t is row 2048 t + r of the array -/
theorem blk0_at (c : Dev nD) (t : Fin cfg3.N) (r : Fin 2048) (q : Fin 256) (R : Fin 8192) (hR : R.val = t.val * 2048 + r.val) :
    (iblk3 V c 0 t : Vec Ideal S2048x256 .f32) (ix2 r q) = (V c main_v19 : S8192x256.Idx → EReal) (ix2 R q) := by
  obtain ⟨-, e00, e01, e10, e11, -⟩ := idx_facts t
  unfold iblk3
  rw [View.read_apply]
  show V c main_v19 _ = V c main_v19 _
  congr 1
  funext x
  apply Fin.ext
  match x with
  | ⟨0, _⟩ => show win3_0.index t (0 : Fin 2) * 2048 + 1 * r.val = R.val; rw [e00, hR]; omega
  | ⟨1, _⟩ => show win3_0.index t (1 : Fin 2) * 256 + 1 * q.val = q.val; rw [e01]; omega

/-- the children rows two side by side: row r of the block at point t is row 2048 t + r of the array -/
theorem blk1_at (c : Dev nD) (t : Fin cfg3.N) (r : Fin 2048) (q : Fin 512) (R : Fin 8192) (hR : R.val = t.val * 2048 + r.val) :
    (iblk3 V c 1 t : Vec Ideal S2048x512 .f32) (ix2 r q) = (V c main_v20 : S8192x512.Idx → EReal) (ix2 R q) := by
  obtain ⟨-, e00, e01, e10, e11, -⟩ := idx_facts t
  unfold iblk3
  rw [View.read_apply]
  show V c main_v20 _ = V c main_v20 _
  congr 1
  funext x
  apply Fin.ext
  match x with
  | ⟨0, _⟩ => show win3_1.index t (0 : Fin 2) * 2048 + 1 * r.val = R.val; rw [e10, hR]; omega
  | ⟨1, _⟩ => show win3_1.index t (1 : Fin 2) * 512 + 1 * q.val = q.val; rw [e11]; omega

/-- the transposed input weights: its one block is the whole array -/
theorem blk2_at (c : Dev nD) (t : Fin cfg3.N) (a : Fin 256) (b : Fin 768) :
    (iblk3 V c 2 t : Vec Ideal S256x768 .bf16) (ix2 a b) = (V c main_v1 : S256x768.Idx → EReal) (ix2 a b) := by
  obtain ⟨-, -, -, -, -, e20, e21, e30, e31, e40, e41, e50, e51, e60, e61, e70, e71, -, -⟩ := idx_facts t
  unfold iblk3
  rw [View.read_apply]
  show V c main_v1 _ = V c main_v1 _
  congr 1
  funext x
  apply Fin.ext
  match x with
  | ⟨0, _⟩ => show win3_2.index t (0 : Fin 2) * 256 + 1 * a.val = a.val; rw [e20]; omega
  | ⟨1, _⟩ => show win3_2.index t (1 : Fin 2) * 768 + 1 * b.val = b.val; rw [e21]; omega

/-- the bias row: its one block is the whole array -/
theorem blk3_at (c : Dev nD) (t : Fin cfg3.N) (a : Fin 1) (b : Fin 768) :
    (iblk3 V c 3 t : Vec Ideal S1x768 .f32) (ix2 a b) = (V c main_v2 : S1x768.Idx → EReal) (ix2 a b) := by
  obtain ⟨-, -, -, -, -, e20, e21, e30, e31, e40, e41, e50, e51, e60, e61, e70, e71, -, -⟩ := idx_facts t
  unfold iblk3
  rw [View.read_apply]
  show V c main_v2 _ = V c main_v2 _
  congr 1
  funext x
  apply Fin.ext
  match x with
  | ⟨0, _⟩ => show win3_3.index t (0 : Fin 2) * 1 + 1 * a.val = a.val; rw [e30]; omega
  | ⟨1, _⟩ => show win3_3.index t (1 : Fin 2) * 768 + 1 * b.val = b.val; rw [e31]; omega

/-- the first transposed half of the forget weights: its one block is the whole array -/
theorem blk4_at (c : Dev nD) (t : Fin cfg3.N) (a : Fin 256) (b : Fin 512) :
    (iblk3 V c 4 t : Vec Ideal S256x512 .f32) (ix2 a b) = (V c main_v4 : S256x512.Idx → EReal) (ix2 a b) := by
  obtain ⟨-, -, -, -, -, e20, e21, e30, e31, e40, e41, e50, e51, e60, e61, e70, e71, -, -⟩ := idx_facts t
  unfold iblk3
  rw [View.read_apply]
  show V c main_v4 _ = V c main_v4 _
  congr 1
  funext x
  apply Fin.ext
  match x with
  | ⟨0, _⟩ => show win3_4.index t (0 : Fin 2) * 256 + 1 * a.val = a.val; rw [e40]; omega
  | ⟨1, _⟩ => show win3_4.index t (1 : Fin 2) * 512 + 1 * b.val = b.val; rw [e41]; omega

/-- the second transposed half of the forget weights: its one block is the whole array -/
theorem blk5_at (c : Dev nD) (t : Fin cfg3.N) (a : Fin 256) (b : Fin 512) :
    (iblk3 V c 5 t : Vec Ideal S256x512 .f32) (ix2 a b) = (V c main_v6 : S256x512.Idx → EReal) (ix2 a b) := by
  obtain ⟨-, -, -, -, -, e20, e21, e30, e31, e40, e41, e50, e51, e60, e61, e70, e71, -, -⟩ := idx_facts t
  unfold iblk3
  rw [View.read_apply]
  show V c main_v6 _ = V c main_v6 _
  congr 1
  funext x
  apply Fin.ext
  match x with
  | ⟨0, _⟩ => show win3_5.index t (0 : Fin 2) * 256 + 1 * a.val = a.val; rw [e50]; omega
  | ⟨1, _⟩ => show win3_5.index t (1 : Fin 2) * 512 + 1 * b.val = b.val; rw [e51]; omega

/-- the first transposed half of the candidate weights: its one block is the whole array -/
theorem blk6_at (c : Dev nD) (t : Fin cfg3.N) (a : Fin 256) (b : Fin 256) :
    (iblk3 V c 6 t : Vec Ideal S256x256 .f32) (ix2 a b) = (V c main_v8 : S256x256.Idx → EReal) (ix2 a b) := by
  obtain ⟨-, -, -, -, -, e20, e21, e30, e31, e40, e41, e50, e51, e60, e61, e70, e71, -, -⟩ := idx_facts t
  unfold iblk3
  rw [View.read_apply]
  show V c main_v8 _ = V c main_v8 _
  congr 1
  funext x
  apply Fin.ext
  match x with
  | ⟨0, _⟩ => show win3_6.index t (0 : Fin 2) * 256 + 1 * a.val = a.val; rw [e60]; omega
  | ⟨1, _⟩ => show win3_6.index t (1 : Fin 2) * 256 + 1 * b.val = b.val; rw [e61]; omega

/-- the second transposed half of the candidate weights: its one block is the whole array -/
theorem blk7_at (c : Dev nD) (t : Fin cfg3.N) (a : Fin 256) (b : Fin 256) :
    (iblk3 V c 7 t : Vec Ideal S256x256 .f32) (ix2 a b) = (V c main_v10 : S256x256.Idx → EReal) (ix2 a b) := by
  obtain ⟨-, -, -, -, -, e20, e21, e30, e31, e40, e41, e50, e51, e60, e61, e70, e71, -, -⟩ := idx_facts t
  unfold iblk3
  rw [View.read_apply]
  show V c main_v10 _ = V c main_v10 _
  congr 1
  funext x
  apply Fin.ext
  match x with
  | ⟨0, _⟩ => show win3_7.index t (0 : Fin 2) * 256 + 1 * a.val = a.val; rw [e70]; omega
  | ⟨1, _⟩ => show win3_7.index t (1 : Fin 2) * 256 + 1 * b.val = b.val; rw [e71]; omega

/-! ## What a point writes back, the cover, the array -/

/-- WHAT POINT t WRITES BACK is block t of the level function. -/
theorem flushed_eq (c : Dev nD)
    (hx : ∀ (r : Fin 8192) (q : Fin 256), (V c main_v19 : S8192x256.Idx → EReal) (ix2 r q) = TreeSpec.xrow X (8191 + r.val) q)
    (hch : ∀ (r : Fin 8192) (q : Fin 512), (V c main_v20 : S8192x512.Idx → EReal) (ix2 r q) = TreeSpec.pair (TreeSpec.lvl X Ww Wb Uhc Uf 2) r.val q)
    (h2 : ∀ (a : Fin 256) (k : Fin 768), (V c main_v1 : S256x768.Idx → EReal) (ix2 a k) = Ww (ix2 k a))
    (h3 : ∀ k : Fin 768, (V c main_v2 : S1x768.Idx → EReal) (ix2 (0 : Fin 1) k) = Wb (ix1 k))
    (h4 : ∀ (q : Fin 256) (k : Fin 512), (V c main_v4 : S256x512.Idx → EReal) (ix2 q k) = Uf (ix2 k (TreeCell.lo q)))
    (h5 : ∀ (q : Fin 256) (k : Fin 512), (V c main_v6 : S256x512.Idx → EReal) (ix2 q k) = Uf (ix2 k (TreeCell.hi q)))
    (h6 : ∀ (q j : Fin 256), (V c main_v8 : S256x256.Idx → EReal) (ix2 q j) = Uhc (ix2 j (TreeCell.lo q)))
    (h7 : ∀ (q j : Fin 256), (V c main_v10 : S256x256.Idx → EReal) (ix2 q j) = Uhc (ix2 j (TreeCell.hi q)))
    (t : Fin cfg3.N) :
    (dat3 V c).flushed 8 t = ((cfg3.win 8).blk t).view.read (Elt Ideal) (G X Ww Wb Uhc Uf) := by
  show (cfg3.win 8).cut (grid3.coords t) ((dat3 V c).after 8 t) = _
  rw [after3_8]
  unfold out3_8
  rw [View.canon_unit_zero hz]
  simp only [View.ld_unit_zero (S := S2048x256) hz, View.ld_unit_zero (S := S2048x512) hz, View.ld_unit_zero (S := S256x768) hz,
    View.ld_unit_zero (S := S1x768) hz, View.ld_unit_zero (S := S256x512) hz, View.ld_unit_zero (S := S256x256) hz]
  rw [Pay.pay3_eq]
  obtain ⟨ht, -, -, -, -, -, -, -, -, -, -, -, -, -, -, -, -, e80, e81⟩ := idx_facts t
  funext y
  obtain ⟨r, j, rfl⟩ : ∃ (r : Fin 2048) (j : Fin 256), y = ix2 r j := ⟨y 0, y 1, eq_ix2 y⟩
  have hr : r.val < 2048 := r.isLt
  have hR : t.val * 2048 + r.val < 8192 := by omega
  have hemb : ((cfg3.win 8).blk t).view.emb (ix2 r j) = (ix2 ⟨t.val * 2048 + r.val, hR⟩ j : S8192x256.Idx) := by
    funext x
    apply Fin.ext
    match x with
    | ⟨0, _⟩ => show win3_8.index t (0 : Fin 2) * 2048 + 1 * r.val = t.val * 2048 + r.val; rw [e80]; omega
    | ⟨1, _⟩ => show win3_8.index t (1 : Fin 2) * 256 + 1 * j.val = j.val; rw [e81]; omega
  show _ = G X Ww Wb Uhc Uf (((cfg3.win 8).blk t).view.emb (ix2 r j))
  rw [hemb]
  show _ = TreeSpec.lvl X Ww Wb Uhc Uf 3 (t.val * 2048 + r.val) j
  exact KernLevel.kinner_lvl X Ww Wb Uhc Uf 2 8191 (by norm_num) _ _ _ _ _ _ _ _ _ _ _ _ _ _ _ _ _ _ _ _
    (fun a k => (blk2_at V c t a k).trans (h2 a k)) (fun k => (blk3_at V c t 0 k).trans (h3 k))
    (fun q k => (blk4_at V c t q k).trans (h4 q k)) (fun q k => (blk5_at V c t q k).trans (h5 q k))
    (fun q j' => (blk6_at V c t q j').trans (h6 q j')) (fun q j' => (blk7_at V c t q j').trans (h7 q j'))
    (t.val * 2048 + r.val) r
    (fun q => (blk0_at V c t r q ⟨t.val * 2048 + r.val, hR⟩ rfl).trans (hx ⟨t.val * 2048 + r.val, hR⟩ q))
    (fun q => (blk1_at V c t r q ⟨t.val * 2048 + r.val, hR⟩ rfl).trans (hch ⟨t.val * 2048 + r.val, hR⟩ q)) j

/-- An index of the output array is in point t's block iff each coordinate is in the block's range on its axis. -/
theorem mem_blk (t : Fin cfg3.N) (i : S8192x256.Idx) :
    i ∈ ((cfg3.win 8).blk t).view.set ↔ ∀ a : Fin 2, win3_8.index t a * S2048x256.size a ≤ (i a).val ∧ (i a).val < win3_8.index t a * S2048x256.size a + S2048x256.size a := by
  show i ∈ ((View.whole main_v21).slice (win3_8.rect t)).set ↔ _
  rw [View.set_slice_whole, Rect.mem_set_unit]
  exact Iff.rfl

/-- Every index of the output array is in some point's block: row r in the block of point r / 2048. -/
theorem cover (i : S8192x256.Idx) : ∃ t : Fin cfg3.N, (cfg3.win 8).flush t = true ∧ i ∈ ((cfg3.win 8).blk t).view.set := by
  have hi0 : (i 0).val < 8192 := (i 0).isLt
  have hi1 : (i 1).val < 256 := (i 1).isLt
  obtain ⟨t, ht⟩ := idx_onto ⟨(i 0).val / 2048, by omega⟩
  have q0 : win3_8.index t (0 : Fin 2) = (i 0).val / 2048 := congrFun ht 0
  have q1 : win3_8.index t (1 : Fin 2) = 0 := congrFun ht 1
  refine ⟨t, flush3_8 t, ?_⟩
  rw [mem_blk]
  intro a
  match a with
  | ⟨0, _⟩ => show win3_8.index t (0 : Fin 2) * 2048 ≤ (i 0).val ∧ (i 0).val < win3_8.index t (0 : Fin 2) * 2048 + 2048; omega
  | ⟨1, _⟩ => show win3_8.index t (1 : Fin 2) * 256 ≤ (i 1).val ∧ (i 1).val < win3_8.index t (1 : Fin 2) * 256 + 256; omega

/-- THE ARRAY after the region: level 3, row by row. -/
theorem final (c : Dev nD)
    (hx : ∀ (r : Fin 8192) (q : Fin 256), (V c main_v19 : S8192x256.Idx → EReal) (ix2 r q) = TreeSpec.xrow X (8191 + r.val) q)
    (hch : ∀ (r : Fin 8192) (q : Fin 512), (V c main_v20 : S8192x512.Idx → EReal) (ix2 r q) = TreeSpec.pair (TreeSpec.lvl X Ww Wb Uhc Uf 2) r.val q)
    (h2 : ∀ (a : Fin 256) (k : Fin 768), (V c main_v1 : S256x768.Idx → EReal) (ix2 a k) = Ww (ix2 k a))
    (h3 : ∀ k : Fin 768, (V c main_v2 : S1x768.Idx → EReal) (ix2 (0 : Fin 1) k) = Wb (ix1 k))
    (h4 : ∀ (q : Fin 256) (k : Fin 512), (V c main_v4 : S256x512.Idx → EReal) (ix2 q k) = Uf (ix2 k (TreeCell.lo q)))
    (h5 : ∀ (q : Fin 256) (k : Fin 512), (V c main_v6 : S256x512.Idx → EReal) (ix2 q k) = Uf (ix2 k (TreeCell.hi q)))
    (h6 : ∀ (q j : Fin 256), (V c main_v8 : S256x256.Idx → EReal) (ix2 q j) = Uhc (ix2 j (TreeCell.lo q)))
    (h7 : ∀ (q j : Fin 256), (V c main_v10 : S256x256.Idx → EReal) (ix2 q j) = Uhc (ix2 j (TreeCell.hi q))) :
    ∀ (r : Fin 8192) (j : Fin 256), (dat3 V c).arrAt 8 cfg3.N (ix2 r j) = TreeSpec.lvl X Ww Wb Uhc Uf 3 r.val j := by
  intro r j
  rw [(dat3 V c).arrAt_eq_of_cover 8 (G X Ww Wb Uhc Uf) (fun t _ => flushed_eq V X Ww Wb Uhc Uf c hx hch h2 h3 h4 h5 h6 h7 t) cover]

end Cert.KernelIdeal.Reg3

end
-- ==== Proof.KReg4.lean ====
/-
  Level 4 of the tree (`TreeSpec.lvl … 4`) as region 4 of the kernel program leaves it.

  The region runs the inner block computation over a grid of 2: point t reads the 2048 rows from row 2048 t on of the
  level's input rows and of the children rows laid two side by side, reads the six weight arrays whole, and writes the
  2048 rows from row 2048 t on of the output array.  When the region finds, in those arrays, the tree's input rows
  4095 + r, rows 2r and 2r + 1 of level 3 side by side and the transposed (halves of the) weights, every point writes
  back its block of ONE function of the output's index, the level function of `TreeSpec` at level 4; the blocks of the
  2 points cover the 4096 rows, so the output array ends holding that function.
-/
import proofs.«410862_j80719615361096_3_alg».proof.Proof.FrameIdealP
import proofs.«410862_j80719615361096_3_alg».proof.Proof.KPay
import proofs.«410862_j80719615361096_3_alg».proof.Proof.KernLevel
import Idealize.ShloMosaic.Lib.Pipeline.Value

noncomputable section

namespace Cert.KernelIdeal.Reg4

open Cert.KernelIdeal Cert.KernelIdeal.Gen Cert.KernelIdeal.GenP Idealize.ShloMosaic Idealize.ShloMosaic.TcCoe Idealize.SL.Sem
open Idealize.ShloMosaic.ValueIdx Cert.TreeOps Cert.KernChain
open Idealize.ShloMosaic.Pipeline (Dat)

variable (V : (c : Dev nD) → (b : Ref sig .tc) → Buf (Elt Ideal) ((c : Thread nD τ).loc b))
variable (X : Mat 131071 256) (Ww : Mat 768 256) (Wb : FVec Ideal (Sh1 768) .f32) (Uhc : Mat 256 512) (Uf : Mat 512 512)

theorem hz : (![0, 0] : Fin 2 → Nat) = fun _ => 0 := funext fun a => by fin_cases a <;> rfl

/-- the level as one function of the output array's index -/
abbrev G : S4096x256.Idx → EReal := fun i => TreeSpec.lvl X Ww Wb Uhc Uf 4 (i 0).val (i 1)

/-- The printed index maps, decided over the 2 grid points: the two row windows and the output window sit at block
    (t, 0), the six weight windows at block (0, 0). -/
theorem idx_facts : ∀ t : Fin cfg4.N, t.val < 2
    ∧ win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0
    ∧ win4_8.index t (0 : Fin 2) = t.val ∧ win4_8.index t (1 : Fin 2) = 0 :=
  (by decide +kernel : ∀ t : Fin grid4.N, _)

/-- Every block row of the output is some point's. -/
theorem idx_onto : ∀ q0 : Fin 2, ∃ t : Fin cfg4.N, win4_8.index t = ![q0.val, 0] :=
  (by decide +kernel : ∀ q0 : Fin 2, ∃ t : Fin grid4.N, win4_8.index t = ![q0.val, 0])

/-! ## Each input window's block, read where its index map says -/

/-- the level's input rows: row r of the block at point t is row 2048 t + r of the array -/
theorem blk0_at (c : Dev nD) (t : Fin cfg4.N) (r : Fin 2048) (q : Fin 256) (R : Fin 4096) (hR : R.val = t.val * 2048 + r.val) :
    (iblk4 V c 0 t : Vec Ideal S2048x256 .f32) (ix2 r q) = (V c main_v22 : S4096x256.Idx → EReal) (ix2 R q) := by
  obtain ⟨-, e00, e01, e10, e11, -⟩ := idx_facts t
  unfold iblk4
  rw [View.read_apply]
  show V c main_v22 _ = V c main_v22 _
  congr 1
  funext x
  apply Fin.ext
  match x with
  | ⟨0, _⟩ => show win4_0.index t (0 : Fin 2) * 2048 + 1 * r.val = R.val; rw [e00, hR]; omega
  | ⟨1, _⟩ => show win4_0.index t (1 : Fin 2) * 256 + 1 * q.val = q.val; rw [e01]; omega

/-- the children rows two side by side: row r of the block at point t is row 2048 t + r of the array -/
theorem blk1_at (c : Dev nD) (t : Fin cfg4.N) (r : Fin 2048) (q : Fin 512) (R : Fin 4096) (hR : R.val = t.val * 2048 + r.val) :
    (iblk4 V c 1 t : Vec Ideal S2048x512 .f32) (ix2 r q) = (V c main_v23 : S4096x512.Idx → EReal) (ix2 R q) := by
  obtain ⟨-, e00, e01, e10, e11, -⟩ := idx_facts t
  unfold iblk4
  rw [View.read_apply]
  show V c main_v23 _ = V c main_v23 _
  congr 1
  funext x
  apply Fin.ext
  match x with
  | ⟨0, _⟩ => show win4_1.index t (0 : Fin 2) * 2048 + 1 * r.val = R.val; rw [e10, hR]; omega
  | ⟨1, _⟩ => show win4_1.index t (1 : Fin 2) * 512 + 1 * q.val = q.val; rw [e11]; omega

/-- the transposed input weights: its one block is the whole array -/
theorem blk2_at (c : Dev nD) (t : Fin cfg4.N) (a : Fin 256) (b : Fin 768) :
    (iblk4 V c 2 t : Vec Ideal S256x768 .bf16) (ix2 a b) = (V c main_v1 : S256x768.Idx → EReal) (ix2 a b) := by
  obtain ⟨-, -, -, -, -, e20, e21, e30, e31, e40, e41, e50, e51, e60, e61, e70, e71, -, -⟩ := idx_facts t
  unfold iblk4
  rw [View.read_apply]
  show V c main_v1 _ = V c main_v1 _
  congr 1
  funext x
  apply Fin.ext
  match x with
  | ⟨0, _⟩ => show win4_2.index t (0 : Fin 2) * 256 + 1 * a.val = a.val; rw [e20]; omega
  | ⟨1, _⟩ => show win4_2.index t (1 : Fin 2) * 768 + 1 * b.val = b.val; rw [e21]; omega

/-- the bias row: its one block is the whole array -/
theorem blk3_at (c : Dev nD) (t : Fin cfg4.N) (a : Fin 1) (b : Fin 768) :
    (iblk4 V c 3 t : Vec Ideal S1x768 .f32) (ix2 a b) = (V c main_v2 : S1x768.Idx → EReal) (ix2 a b) := by
  obtain ⟨-, -, -, -, -, e20, e21, e30, e31, e40, e41, e50, e51, e60, e61, e70, e71, -, -⟩ := idx_facts t
  unfold iblk4
  rw [View.read_apply]
  show V c main_v2 _ = V c main_v2 _
  congr 1
  funext x
  apply Fin.ext
  match x with
  | ⟨0, _⟩ => show win4_3.index t (0 : Fin 2) * 1 + 1 * a.val = a.val; rw [e30]; omega
  | ⟨1, _⟩ => show win4_3.index t (1 : Fin 2) * 768 + 1 * b.val = b.val; rw [e31]; omega

/-- the first transposed half of the forget weights: its one block is the whole array -/
theorem blk4_at (c : Dev nD) (t : Fin cfg4.N) (a : Fin 256) (b : Fin 512) :
    (iblk4 V c 4 t : Vec Ideal S256x512 .f32) (ix2 a b) = (V c main_v4 : S256x512.Idx → EReal) (ix2 a b) := by
  obtain ⟨-, -, -, -, -, e20, e21, e30, e31, e40, e41, e50, e51, e60, e61, e70, e71, -, -⟩ := idx_facts t
  unfold iblk4
  rw [View.read_apply]
  show V c main_v4 _ = V c main_v4 _
  congr 1
  funext x
  apply Fin.ext
  match x with
  | ⟨0, _⟩ => show win4_4.index t (0 : Fin 2) * 256 + 1 * a.val = a.val; rw [e40]; omega
  | ⟨1, _⟩ => show win4_4.index t (1 : Fin 2) * 512 + 1 * b.val = b.val; rw [e41]; omega

/-- the second transposed half of the forget weights: its one block is the whole array -/
theorem blk5_at (c : Dev nD) (t : Fin cfg4.N) (a : Fin 256) (b : Fin 512) :
    (iblk4 V c 5 t : Vec Ideal S256x512 .f32) (ix2 a b) = (V c main_v6 : S256x512.Idx → EReal) (ix2 a b) := by
  obtain ⟨-, -, -, -, -, e20, e21, e30, e31, e40, e41, e50, e51, e60, e61, e70, e71, -, -⟩ := idx_facts t
  unfold iblk4
  rw [View.read_apply]
  show V c main_v6 _ = V c main_v6 _
  congr 1
  funext x
  apply Fin.ext
  match x with
  | ⟨0, _⟩ => show win4_5.index t (0 : Fin 2) * 256 + 1 * a.val = a.val; rw [e50]; omega
  | ⟨1, _⟩ => show win4_5.index t (1 : Fin 2) * 512 + 1 * b.val = b.val; rw [e51]; omega

/-- the first transposed half of the candidate weights: its one block is the whole array -/
theorem blk6_at (c : Dev nD) (t : Fin cfg4.N) (a : Fin 256) (b : Fin 256) :
    (iblk4 V c 6 t : Vec Ideal S256x256 .f32) (ix2 a b) = (V c main_v8 : S256x256.Idx → EReal) (ix2 a b) := by
  obtain ⟨-, -, -, -, -, e20, e21, e30, e31, e40, e41, e50, e51, e60, e61, e70, e71, -, -⟩ := idx_facts t
  unfold iblk4
  rw [View.read_apply]
  show V c main_v8 _ = V c main_v8 _
  congr 1
  funext x
  apply Fin.ext
  match x with
  | ⟨0, _⟩ => show win4_6.index t (0 : Fin 2) * 256 + 1 * a.val = a.val; rw [e60]; omega
  | ⟨1, _⟩ => show win4_6.index t (1 : Fin 2) * 256 + 1 * b.val = b.val; rw [e61]; omega

/-- the second transposed half of the candidate weights: its one block is the whole array -/
theorem blk7_at (c : Dev nD) (t : Fin cfg4.N) (a : Fin 256) (b : Fin 256) :
    (iblk4 V c 7 t : Vec Ideal S256x256 .f32) (ix2 a b) = (V c main_v10 : S256x256.Idx → EReal) (ix2 a b) := by
  obtain ⟨-, -, -, -, -, e20, e21, e30, e31, e40, e41, e50, e51, e60, e61, e70, e71, -, -⟩ := idx_facts t
  unfold iblk4
  rw [View.read_apply]
  show V c main_v10 _ = V c main_v10 _
  congr 1
  funext x
  apply Fin.ext
  match x with
  | ⟨0, _⟩ => show win4_7.index t (0 : Fin 2) * 256 + 1 * a.val = a.val; rw [e70]; omega
  | ⟨1, _⟩ => show win4_7.index t (1 : Fin 2) * 256 + 1 * b.val = b.val; rw [e71]; omega

/-! ## What a point writes back, the cover, the array -/

/-- WHAT POINT t WRITES BACK is block t of the level function. -/
theorem flushed_eq (c : Dev nD)
    (hx : ∀ (r : Fin 4096) (q : Fin 256), (V c main_v22 : S4096x256.Idx → EReal) (ix2 r q) = TreeSpec.xrow X (4095 + r.val) q)
    (hch : ∀ (r : Fin 4096) (q : Fin 512), (V c main_v23 : S4096x512.Idx → EReal) (ix2 r q) = TreeSpec.pair (TreeSpec.lvl X Ww Wb Uhc Uf 3) r.val q)
    (h2 : ∀ (a : Fin 256) (k : Fin 768), (V c main_v1 : S256x768.Idx → EReal) (ix2 a k) = Ww (ix2 k a))
    (h3 : ∀ k : Fin 768, (V c main_v2 : S1x768.Idx → EReal) (ix2 (0 : Fin 1) k) = Wb (ix1 k))
    (h4 : ∀ (q : Fin 256) (k : Fin 512), (V c main_v4 : S256x512.Idx → EReal) (ix2 q k) = Uf (ix2 k (TreeCell.lo q)))
    (h5 : ∀ (q : Fin 256) (k : Fin 512), (V c main_v6 : S256x512.Idx → EReal) (ix2 q k) = Uf (ix2 k (TreeCell.hi q)))
    (h6 : ∀ (q j : Fin 256), (V c main_v8 : S256x256.Idx → EReal) (ix2 q j) = Uhc (ix2 j (TreeCell.lo q)))
    (h7 : ∀ (q j : Fin 256), (V c main_v10 : S256x256.Idx → EReal) (ix2 q j) = Uhc (ix2 j (TreeCell.hi q)))
    (t : Fin cfg4.N) :
    (dat4 V c).flushed 8 t = ((cfg4.win 8).blk t).view.read (Elt Ideal) (G X Ww Wb Uhc Uf) := by
  show (cfg4.win 8).cut (grid4.coords t) ((dat4 V c).after 8 t) = _
  rw [after4_8]
  unfold out4_8
  rw [View.canon_unit_zero hz]
  simp only [View.ld_unit_zero (S := S2048x256) hz, View.ld_unit_zero (S := S2048x512) hz, View.ld_unit_zero (S := S256x768) hz,
    View.ld_unit_zero (S := S1x768) hz, View.ld_unit_zero (S := S256x512) hz, View.ld_unit_zero (S := S256x256) hz]
  rw [Pay.pay4_eq]
  obtain ⟨ht, -, -, -, -, -, -, -, -, -, -, -, -, -, -, -, -, e80, e81⟩ := idx_facts t
  funext y
  obtain ⟨r, j, rfl⟩ : ∃ (r : Fin 2048) (j : Fin 256), y = ix2 r j := ⟨y 0, y 1, eq_ix2 y⟩
  have hr : r.val < 2048 := r.isLt
  have hR : t.val * 2048 + r.val < 4096 := by omega
  have hemb : ((cfg4.win 8).blk t).view.emb (ix2 r j) = (ix2 ⟨t.val * 2048 + r.val, hR⟩ j : S4096x256.Idx) := by
    funext x
    apply Fin.ext
    match x with
    | ⟨0, _⟩ => show win4_8.index t (0 : Fin 2) * 2048 + 1 * r.val = t.val * 2048 + r.val; rw [e80]; omega
    | ⟨1, _⟩ => show win4_8.index t (1 : Fin 2) * 256 + 1 * j.val = j.val; rw [e81]; omega
  show _ = G X Ww Wb Uhc Uf (((cfg4.win 8).blk t).view.emb (ix2 r j))
  rw [hemb]
  show _ = TreeSpec.lvl X Ww Wb Uhc Uf 4 (t.val * 2048 + r.val) j
  exact KernLevel.kinner_lvl X Ww Wb Uhc Uf 3 4095 (by norm_num) _ _ _ _ _ _ _ _ _ _ _ _ _ _ _ _ _ _ _ _
    (fun a k => (blk2_at V c t a k).trans (h2 a k)) (fun k => (blk3_at V c t 0 k).trans (h3 k))
    (fun q k => (blk4_at V c t q k).trans (h4 q k)) (fun q k => (blk5_at V c t q k).trans (h5 q k))
    (fun q j' => (blk6_at V c t q j').trans (h6 q j')) (fun q j' => (blk7_at V c t q j').trans (h7 q j'))
    (t.val * 2048 + r.val) r
    (fun q => (blk0_at V c t r q ⟨t.val * 2048 + r.val, hR⟩ rfl).trans (hx ⟨t.val * 2048 + r.val, hR⟩ q))
    (fun q => (blk1_at V c t r q ⟨t.val * 2048 + r.val, hR⟩ rfl).trans (hch ⟨t.val * 2048 + r.val, hR⟩ q)) j

/-- An index of the output array is in point t's block iff each coordinate is in the block's range on its axis. -/
theorem mem_blk (t : Fin cfg4.N) (i : S4096x256.Idx) :
    i ∈ ((cfg4.win 8).blk t).view.set ↔ ∀ a : Fin 2, win4_8.index t a * S2048x256.size a ≤ (i a).val ∧ (i a).val < win4_8.index t a * S2048x256.size a + S2048x256.size a := by
  show i ∈ ((View.whole main_v24).slice (win4_8.rect t)).set ↔ _
  rw [View.set_slice_whole, Rect.mem_set_unit]
  exact Iff.rfl

/-- Every index of the output array is in some point's block: row r in the block of point r / 2048. -/
theorem cover (i : S4096x256.Idx) : ∃ t : Fin cfg4.N, (cfg4.win 8).flush t = true ∧ i ∈ ((cfg4.win 8).blk t).view.set := by
  have hi0 : (i 0).val < 4096 := (i 0).isLt
  have hi1 : (i 1).val < 256 := (i 1).isLt
  obtain ⟨t, ht⟩ := idx_onto ⟨(i 0).val / 2048, by omega⟩
  have q0 : win4_8.index t (0 : Fin 2) = (i 0).val / 2048 := congrFun ht 0
  have q1 : win4_8.index t (1 : Fin 2) = 0 := congrFun ht 1
  refine ⟨t, flush4_8 t, ?_⟩
  rw [mem_blk]
  intro a
  match a with
  | ⟨0, _⟩ => show win4_8.index t (0 : Fin 2) * 2048 ≤ (i 0).val ∧ (i 0).val < win4_8.index t (0 : Fin 2) * 2048 + 2048; omega
  | ⟨1, _⟩ => show win4_8.index t (1 : Fin 2) * 256 ≤ (i 1).val ∧ (i 1).val < win4_8.index t (1 : Fin 2) * 256 + 256; omega

/-- THE ARRAY after the region: level 4, row by row. -/
theorem final (c : Dev nD)
    (hx : ∀ (r : Fin 4096) (q : Fin 256), (V c main_v22 : S4096x256.Idx → EReal) (ix2 r q) = TreeSpec.xrow X (4095 + r.val) q)
    (hch : ∀ (r : Fin 4096) (q : Fin 512), (V c main_v23 : S4096x512.Idx → EReal) (ix2 r q) = TreeSpec.pair (TreeSpec.lvl X Ww Wb Uhc Uf 3) r.val q)
    (h2 : ∀ (a : Fin 256) (k : Fin 768), (V c main_v1 : S256x768.Idx → EReal) (ix2 a k) = Ww (ix2 k a))
    (h3 : ∀ k : Fin 768, (V c main_v2 : S1x768.Idx → EReal) (ix2 (0 : Fin 1) k) = Wb (ix1 k))
    (h4 : ∀ (q : Fin 256) (k : Fin 512), (V c main_v4 : S256x512.Idx → EReal) (ix2 q k) = Uf (ix2 k (TreeCell.lo q)))
    (h5 : ∀ (q : Fin 256) (k : Fin 512), (V c main_v6 : S256x512.Idx → EReal) (ix2 q k) = Uf (ix2 k (TreeCell.hi q)))
    (h6 : ∀ (q j : Fin 256), (V c main_v8 : S256x256.Idx → EReal) (ix2 q j) = Uhc (ix2 j (TreeCell.lo q)))
    (h7 : ∀ (q j : Fin 256), (V c main_v10 : S256x256.Idx → EReal) (ix2 q j) = Uhc (ix2 j (TreeCell.hi q))) :
    ∀ (r : Fin 4096) (j : Fin 256), (dat4 V c).arrAt 8 cfg4.N (ix2 r j) = TreeSpec.lvl X Ww Wb Uhc Uf 4 r.val j := by
  intro r j
  rw [(dat4 V c).arrAt_eq_of_cover 8 (G X Ww Wb Uhc Uf) (fun t _ => flushed_eq V X Ww Wb Uhc Uf c hx hch h2 h3 h4 h5 h6 h7 t) cover]

end Cert.KernelIdeal.Reg4

end
-- ==== Proof.KReg5.lean ====
/-
  Level 5 of the tree (`TreeSpec.lvl … 5`) as region 5 of the kernel program leaves it.

  The region runs the inner block computation over a grid of 1: point t reads the 2048 rows from row 2048 t on of the
  level's input rows and of the children rows laid two side by side, reads the six weight arrays whole, and writes the
  2048 rows from row 2048 t on of the output array.  When the region finds, in those arrays, the tree's input rows
  2047 + r, rows 2r and 2r + 1 of level 4 side by side and the transposed (halves of the) weights, every point writes
  back its block of ONE function of the output's index, the level function of `TreeSpec` at level 5; the blocks of the
  1 points cover the 2048 rows, so the output array ends holding that function.
-/
import proofs.«410862_j80719615361096_3_alg».proof.Proof.FrameIdealP
import proofs.«410862_j80719615361096_3_alg».proof.Proof.KPay
import proofs.«410862_j80719615361096_3_alg».proof.Proof.KernLevel
import Idealize.ShloMosaic.Lib.Pipeline.Value

noncomputable section

namespace Cert.KernelIdeal.Reg5

open Cert.KernelIdeal Cert.KernelIdeal.Gen Cert.KernelIdeal.GenP Idealize.ShloMosaic Idealize.ShloMosaic.TcCoe Idealize.SL.Sem
open Idealize.ShloMosaic.ValueIdx Cert.TreeOps Cert.KernChain
open Idealize.ShloMosaic.Pipeline (Dat)

variable (V : (c : Dev nD) → (b : Ref sig .tc) → Buf (Elt Ideal) ((c : Thread nD τ).loc b))
variable (X : Mat 131071 256) (Ww : Mat 768 256) (Wb : FVec Ideal (Sh1 768) .f32) (Uhc : Mat 256 512) (Uf : Mat 512 512)

theorem hz : (![0, 0] : Fin 2 → Nat) = fun _ => 0 := funext fun a => by fin_cases a <;> rfl

/-- the level as one function of the output array's index -/
abbrev G : S2048x256.Idx → EReal := fun i => TreeSpec.lvl X Ww Wb Uhc Uf 5 (i 0).val (i 1)

/-- The printed index maps, decided over the 1 grid points: the two row windows and the output window sit at block
    (t, 0), the six weight windows at block (0, 0). -/
theorem idx_facts : ∀ t : Fin cfg5.N, t.val < 1
    ∧ win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = 0 ∧ win5_7.index t (1 : Fin 2) = 0
    ∧ win5_8.index t (0 : Fin 2) = t.val ∧ win5_8.index t (1 : Fin 2) = 0 :=
  (by decide +kernel : ∀ t : Fin grid5.N, _)

/-- Every block row of the output is some point's. -/
theorem idx_onto : ∀ q0 : Fin 1, ∃ t : Fin cfg5.N, win5_8.index t = ![q0.val, 0] :=
  (by decide +kernel : ∀ q0 : Fin 1, ∃ t : Fin grid5.N, win5_8.index t = ![q0.val, 0])

/-! ## Each input window's block, read where its index map says -/

/-- the level's input rows: row r of the block at point t is row 2048 t + r of the array -/
theorem blk0_at (c : Dev nD) (t : Fin cfg5.N) (r : Fin 2048) (q : Fin 256) (R : Fin 2048) (hR : R.val = t.val * 2048 + r.val) :
    (iblk5 V c 0 t : Vec Ideal S2048x256 .f32) (ix2 r q) = (V c main_v25 : S2048x256.Idx → EReal) (ix2 R q) := by
  obtain ⟨-, e00, e01, e10, e11, -⟩ := idx_facts t
  unfold iblk5
  rw [View.read_apply]
  show V c main_v25 _ = V c main_v25 _
  congr 1
  funext x
  apply Fin.ext
  match x with
  | ⟨0, _⟩ => show win5_0.index t (0 : Fin 2) * 2048 + 1 * r.val = R.val; rw [e00, hR]; omega
  | ⟨1, _⟩ => show win5_0.index t (1 : Fin 2) * 256 + 1 * q.val = q.val; rw [e01]; omega

/-- the children rows two side by side: row r of the block at point t is row 2048 t + r of the array -/
theorem blk1_at (c : Dev nD) (t : Fin cfg5.N) (r : Fin 2048) (q : Fin 512) (R : Fin 2048) (hR : R.val = t.val * 2048 + r.val) :
    (iblk5 V c 1 t : Vec Ideal S2048x512 .f32) (ix2 r q) = (V c main_v26 : S2048x512.Idx → EReal) (ix2 R q) := by
  obtain ⟨-, e00, e01, e10, e11, -⟩ := idx_facts t
  unfold iblk5
  rw [View.read_apply]
  show V c main_v26 _ = V c main_v26 _
  congr 1
  funext x
  apply Fin.ext
  match x with
  | ⟨0, _⟩ => show win5_1.index t (0 : Fin 2) * 2048 + 1 * r.val = R.val; rw [e10, hR]; omega
  | ⟨1, _⟩ => show win5_1.index t (1 : Fin 2) * 512 + 1 * q.val = q.val; rw [e11]; omega

/-- the transposed input weights: its one block is the whole array -/
theorem blk2_at (c : Dev nD) (t : Fin cfg5.N) (a : Fin 256) (b : Fin 768) :
    (iblk5 V c 2 t : Vec Ideal S256x768 .bf16) (ix2 a b) = (V c main_v1 : S256x768.Idx → EReal) (ix2 a b) := by
  obtain ⟨-, -, -, -, -, e20, e21, e30, e31, e40, e41, e50, e51, e60, e61, e70, e71, -, -⟩ := idx_facts t
  unfold iblk5
  rw [View.read_apply]
  show V c main_v1 _ = V c main_v1 _
  congr 1
  funext x
  apply Fin.ext
  match x with
  | ⟨0, _⟩ => show win5_2.index t (0 : Fin 2) * 256 + 1 * a.val = a.val; rw [e20]; omega
  | ⟨1, _⟩ => show win5_2.index t (1 : Fin 2) * 768 + 1 * b.val = b.val; rw [e21]; omega

/-- the bias row: its one block is the whole array -/
theorem blk3_at (c : Dev nD) (t : Fin cfg5.N) (a : Fin 1) (b : Fin 768) :
    (iblk5 V c 3 t : Vec Ideal S1x768 .f32) (ix2 a b) = (V c main_v2 : S1x768.Idx → EReal) (ix2 a b) := by
  obtain ⟨-, -, -, -, -, e20, e21, e30, e31, e40, e41, e50, e51, e60, e61, e70, e71, -, -⟩ := idx_facts t
  unfold iblk5
  rw [View.read_apply]
  show V c main_v2 _ = V c main_v2 _
  congr 1
  funext x
  apply Fin.ext
  match x with
  | ⟨0, _⟩ => show win5_3.index t (0 : Fin 2) * 1 + 1 * a.val = a.val; rw [e30]; omega
  | ⟨1, _⟩ => show win5_3.index t (1 : Fin 2) * 768 + 1 * b.val = b.val; rw [e31]; omega

/-- the first transposed half of the forget weights: its one block is the whole array -/
theorem blk4_at (c : Dev nD) (t : Fin cfg5.N) (a : Fin 256) (b : Fin 512) :
    (iblk5 V c 4 t : Vec Ideal S256x512 .f32) (ix2 a b) = (V c main_v4 : S256x512.Idx → EReal) (ix2 a b) := by
  obtain ⟨-, -, -, -, -, e20, e21, e30, e31, e40, e41, e50, e51, e60, e61, e70, e71, -, -⟩ := idx_facts t
  unfold iblk5
  rw [View.read_apply]
  show V c main_v4 _ = V c main_v4 _
  congr 1
  funext x
  apply Fin.ext
  match x with
  | ⟨0, _⟩ => show win5_4.index t (0 : Fin 2) * 256 + 1 * a.val = a.val; rw [e40]; omega
  | ⟨1, _⟩ => show win5_4.index t (1 : Fin 2) * 512 + 1 * b.val = b.val; rw [e41]; omega

/-- the second transposed half of the forget weights: its one block is the whole array -/
theorem blk5_at (c : Dev nD) (t : Fin cfg5.N) (a : Fin 256) (b : Fin 512) :
    (iblk5 V c 5 t : Vec Ideal S256x512 .f32) (ix2 a b) = (V c main_v6 : S256x512.Idx → EReal) (ix2 a b) := by
  obtain ⟨-, -, -, -, -, e20, e21, e30, e31, e40, e41, e50, e51, e60, e61, e70, e71, -, -⟩ := idx_facts t
  unfold iblk5
  rw [View.read_apply]
  show V c main_v6 _ = V c main_v6 _
  congr 1
  funext x
  apply Fin.ext
  match x with
  | ⟨0, _⟩ => show win5_5.index t (0 : Fin 2) * 256 + 1 * a.val = a.val; rw [e50]; omega
  | ⟨1, _⟩ => show win5_5.index t (1 : Fin 2) * 512 + 1 * b.val = b.val; rw [e51]; omega

/-- the first transposed half of the candidate weights: its one block is the whole array -/
theorem blk6_at (c : Dev nD) (t : Fin cfg5.N) (a : Fin 256) (b : Fin 256) :
    (iblk5 V c 6 t : Vec Ideal S256x256 .f32) (ix2 a b) = (V c main_v8 : S256x256.Idx → EReal) (ix2 a b) := by
  obtain ⟨-, -, -, -, -, e20, e21, e30, e31, e40, e41, e50, e51, e60, e61, e70, e71, -, -⟩ := idx_facts t
  unfold iblk5
  rw [View.read_apply]
  show V c main_v8 _ = V c main_v8 _
  congr 1
  funext x
  apply Fin.ext
  match x with
  | ⟨0, _⟩ => show win5_6.index t (0 : Fin 2) * 256 + 1 * a.val = a.val; rw [e60]; omega
  | ⟨1, _⟩ => show win5_6.index t (1 : Fin 2) * 256 + 1 * b.val = b.val; rw [e61]; omega

/-- the second transposed half of the candidate weights: its one block is the whole array -/
theorem blk7_at (c : Dev nD) (t : Fin cfg5.N) (a : Fin 256) (b : Fin 256) :
    (iblk5 V c 7 t : Vec Ideal S256x256 .f32) (ix2 a b) = (V c main_v10 : S256x256.Idx → EReal) (ix2 a b) := by
  obtain ⟨-, -, -, -, -, e20, e21, e30, e31, e40, e41, e50, e51, e60, e61, e70, e71, -, -⟩ := idx_facts t
  unfold iblk5
  rw [View.read_apply]
  show V c main_v10 _ = V c main_v10 _
  congr 1
  funext x
  apply Fin.ext
  match x with
  | ⟨0, _⟩ => show win5_7.index t (0 : Fin 2) * 256 + 1 * a.val = a.val; rw [e70]; omega
  | ⟨1, _⟩ => show win5_7.index t (1 : Fin 2) * 256 + 1 * b.val = b.val; rw [e71]; omega

/-! ## What a point writes back, the cover, the array -/

/-- WHAT POINT t WRITES BACK is block t of the level function. -/
theorem flushed_eq (c : Dev nD)
    (hx : ∀ (r : Fin 2048) (q : Fin 256), (V c main_v25 : S2048x256.Idx → EReal) (ix2 r q) = TreeSpec.xrow X (2047 + r.val) q)
    (hch : ∀ (r : Fin 2048) (q : Fin 512), (V c main_v26 : S2048x512.Idx → EReal) (ix2 r q) = TreeSpec.pair (TreeSpec.lvl X Ww Wb Uhc Uf 4) r.val q)
    (h2 : ∀ (a : Fin 256) (k : Fin 768), (V c main_v1 : S256x768.Idx → EReal) (ix2 a k) = Ww (ix2 k a))
    (h3 : ∀ k : Fin 768, (V c main_v2 : S1x768.Idx → EReal) (ix2 (0 : Fin 1) k) = Wb (ix1 k))
    (h4 : ∀ (q : Fin 256) (k : Fin 512), (V c main_v4 : S256x512.Idx → EReal) (ix2 q k) = Uf (ix2 k (TreeCell.lo q)))
    (h5 : ∀ (q : Fin 256) (k : Fin 512), (V c main_v6 : S256x512.Idx → EReal) (ix2 q k) = Uf (ix2 k (TreeCell.hi q)))
    (h6 : ∀ (q j : Fin 256), (V c main_v8 : S256x256.Idx → EReal) (ix2 q j) = Uhc (ix2 j (TreeCell.lo q)))
    (h7 : ∀ (q j : Fin 256), (V c main_v10 : S256x256.Idx → EReal) (ix2 q j) = Uhc (ix2 j (TreeCell.hi q)))
    (t : Fin cfg5.N) :
    (dat5 V c).flushed 8 t = ((cfg5.win 8).blk t).view.read (Elt Ideal) (G X Ww Wb Uhc Uf) := by
  show (cfg5.win 8).cut (grid5.coords t) ((dat5 V c).after 8 t) = _
  rw [after5_8]
  unfold out5_8
  rw [View.canon_unit_zero hz]
  simp only [View.ld_unit_zero (S := S2048x256) hz, View.ld_unit_zero (S := S2048x512) hz, View.ld_unit_zero (S := S256x768) hz,
    View.ld_unit_zero (S := S1x768) hz, View.ld_unit_zero (S := S256x512) hz, View.ld_unit_zero (S := S256x256) hz]
  rw [Pay.pay5_eq]
  obtain ⟨ht, -, -, -, -, -, -, -, -, -, -, -, -, -, -, -, -, e80, e81⟩ := idx_facts t
  funext y
  obtain ⟨r, j, rfl⟩ : ∃ (r : Fin 2048) (j : Fin 256), y = ix2 r j := ⟨y 0, y 1, eq_ix2 y⟩
  have hr : r.val < 2048 := r.isLt
  have hR : t.val * 2048 + r.val < 2048 := by omega
  have hemb : ((cfg5.win 8).blk t).view.emb (ix2 r j) = (ix2 ⟨t.val * 2048 + r.val, hR⟩ j : S2048x256.Idx) := by
    funext x
    apply Fin.ext
    match x with
    | ⟨0, _⟩ => show win5_8.index t (0 : Fin 2) * 2048 + 1 * r.val = t.val * 2048 + r.val; rw [e80]; omega
    | ⟨1, _⟩ => show win5_8.index t (1 : Fin 2) * 256 + 1 * j.val = j.val; rw [e81]; omega
  show _ = G X Ww Wb Uhc Uf (((cfg5.win 8).blk t).view.emb (ix2 r j))
  rw [hemb]
  show _ = TreeSpec.lvl X Ww Wb Uhc Uf 5 (t.val * 2048 + r.val) j
  exact KernLevel.kinner_lvl X Ww Wb Uhc Uf 4 2047 (by norm_num) _ _ _ _ _ _ _ _ _ _ _ _ _ _ _ _ _ _ _ _
    (fun a k => (blk2_at V c t a k).trans (h2 a k)) (fun k => (blk3_at V c t 0 k).trans (h3 k))
    (fun q k => (blk4_at V c t q k).trans (h4 q k)) (fun q k => (blk5_at V c t q k).trans (h5 q k))
    (fun q j' => (blk6_at V c t q j').trans (h6 q j')) (fun q j' => (blk7_at V c t q j').trans (h7 q j'))
    (t.val * 2048 + r.val) r
    (fun q => (blk0_at V c t r q ⟨t.val * 2048 + r.val, hR⟩ rfl).trans (hx ⟨t.val * 2048 + r.val, hR⟩ q))
    (fun q => (blk1_at V c t r q ⟨t.val * 2048 + r.val, hR⟩ rfl).trans (hch ⟨t.val * 2048 + r.val, hR⟩ q)) j

/-- An index of the output array is in point t's block iff each coordinate is in the block's range on its axis. -/
theorem mem_blk (t : Fin cfg5.N) (i : S2048x256.Idx) :
    i ∈ ((cfg5.win 8).blk t).view.set ↔ ∀ a : Fin 2, win5_8.index t a * S2048x256.size a ≤ (i a).val ∧ (i a).val < win5_8.index t a * S2048x256.size a + S2048x256.size a := by
  show i ∈ ((View.whole main_v27).slice (win5_8.rect t)).set ↔ _
  rw [View.set_slice_whole, Rect.mem_set_unit]
  exact Iff.rfl

/-- Every index of the output array is in some point's block: row r in the block of point r / 2048. -/
theorem cover (i : S2048x256.Idx) : ∃ t : Fin cfg5.N, (cfg5.win 8).flush t = true ∧ i ∈ ((cfg5.win 8).blk t).view.set := by
  have hi0 : (i 0).val < 2048 := (i 0).isLt
  have hi1 : (i 1).val < 256 := (i 1).isLt
  obtain ⟨t, ht⟩ := idx_onto ⟨(i 0).val / 2048, by omega⟩
  have q0 : win5_8.index t (0 : Fin 2) = (i 0).val / 2048 := congrFun ht 0
  have q1 : win5_8.index t (1 : Fin 2) = 0 := congrFun ht 1
  refine ⟨t, flush5_8 t, ?_⟩
  rw [mem_blk]
  intro a
  match a with
  | ⟨0, _⟩ => show win5_8.index t (0 : Fin 2) * 2048 ≤ (i 0).val ∧ (i 0).val < win5_8.index t (0 : Fin 2) * 2048 + 2048; omega
  | ⟨1, _⟩ => show win5_8.index t (1 : Fin 2) * 256 ≤ (i 1).val ∧ (i 1).val < win5_8.index t (1 : Fin 2) * 256 + 256; omega

/-- THE ARRAY after the region: level 5, row by row. -/
theorem final (c : Dev nD)
    (hx : ∀ (r : Fin 2048) (q : Fin 256), (V c main_v25 : S2048x256.Idx → EReal) (ix2 r q) = TreeSpec.xrow X (2047 + r.val) q)
    (hch : ∀ (r : Fin 2048) (q : Fin 512), (V c main_v26 : S2048x512.Idx → EReal) (ix2 r q) = TreeSpec.pair (TreeSpec.lvl X Ww Wb Uhc Uf 4) r.val q)
    (h2 : ∀ (a : Fin 256) (k : Fin 768), (V c main_v1 : S256x768.Idx → EReal) (ix2 a k) = Ww (ix2 k a))
    (h3 : ∀ k : Fin 768, (V c main_v2 : S1x768.Idx → EReal) (ix2 (0 : Fin 1) k) = Wb (ix1 k))
    (h4 : ∀ (q : Fin 256) (k : Fin 512), (V c main_v4 : S256x512.Idx → EReal) (ix2 q k) = Uf (ix2 k (TreeCell.lo q)))
    (h5 : ∀ (q : Fin 256) (k : Fin 512), (V c main_v6 : S256x512.Idx → EReal) (ix2 q k) = Uf (ix2 k (TreeCell.hi q)))
    (h6 : ∀ (q j : Fin 256), (V c main_v8 : S256x256.Idx → EReal) (ix2 q j) = Uhc (ix2 j (TreeCell.lo q)))
    (h7 : ∀ (q j : Fin 256), (V c main_v10 : S256x256.Idx → EReal) (ix2 q j) = Uhc (ix2 j (TreeCell.hi q))) :
    ∀ (r : Fin 2048) (j : Fin 256), (dat5 V c).arrAt 8 cfg5.N (ix2 r j) = TreeSpec.lvl X Ww Wb Uhc Uf 5 r.val j := by
  intro r j
  rw [(dat5 V c).arrAt_eq_of_cover 8 (G X Ww Wb Uhc Uf) (fun t _ => flushed_eq V X Ww Wb Uhc Uf c hx hch h2 h3 h4 h5 h6 h7 t) cover]

end Cert.KernelIdeal.Reg5

end
-- ==== Proof.KReg6.lean ====
/-
  Level 6 of the tree (`TreeSpec.lvl … 6`) as region 6 of the kernel program leaves it.

  The region runs the inner block computation over a grid of 1: point t reads the 1024 rows from row 1024 t on of the
  level's input rows and of the children rows laid two side by side, reads the six weight arrays whole, and writes the
  1024 rows from row 1024 t on of the output array.  When the region finds, in those arrays, the tree's input rows
  1023 + r, rows 2r and 2r + 1 of level 5 side by side and the transposed (halves of the) weights, every point writes
  back its block of ONE function of the output's index, the level function of `TreeSpec` at level 6; the blocks of the
  1 points cover the 1024 rows, so the output array ends holding that function.
-/
import proofs.«410862_j80719615361096_3_alg».proof.Proof.FrameIdealP
import proofs.«410862_j80719615361096_3_alg».proof.Proof.KPay
import proofs.«410862_j80719615361096_3_alg».proof.Proof.KernLevel
import Idealize.ShloMosaic.Lib.Pipeline.Value

noncomputable section

namespace Cert.KernelIdeal.Reg6

open Cert.KernelIdeal Cert.KernelIdeal.Gen Cert.KernelIdeal.GenP Idealize.ShloMosaic Idealize.ShloMosaic.TcCoe Idealize.SL.Sem
open Idealize.ShloMosaic.ValueIdx Cert.TreeOps Cert.KernChain
open Idealize.ShloMosaic.Pipeline (Dat)

variable (V : (c : Dev nD) → (b : Ref sig .tc) → Buf (Elt Ideal) ((c : Thread nD τ).loc b))
variable (X : Mat 131071 256) (Ww : Mat 768 256) (Wb : FVec Ideal (Sh1 768) .f32) (Uhc : Mat 256 512) (Uf : Mat 512 512)

theorem hz : (![0, 0] : Fin 2 → Nat) = fun _ => 0 := funext fun a => by fin_cases a <;> rfl

/-- the level as one function of the output array's index -/
abbrev G : S1024x256.Idx → EReal := fun i => TreeSpec.lvl X Ww Wb Uhc Uf 6 (i 0).val (i 1)

/-- The printed index maps, decided over the 1 grid points: the two row windows and the output window sit at block
    (t, 0), the six weight windows at block (0, 0). -/
theorem idx_facts : ∀ t : Fin cfg6.N, t.val < 1
    ∧ win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) = 0 ∧ win6_7.index t (1 : Fin 2) = 0
    ∧ win6_8.index t (0 : Fin 2) = t.val ∧ win6_8.index t (1 : Fin 2) = 0 :=
  (by decide +kernel : ∀ t : Fin grid6.N, _)

/-- Every block row of the output is some point's. -/
theorem idx_onto : ∀ q0 : Fin 1, ∃ t : Fin cfg6.N, win6_8.index t = ![q0.val, 0] :=
  (by decide +kernel : ∀ q0 : Fin 1, ∃ t : Fin grid6.N, win6_8.index t = ![q0.val, 0])

/-! ## Each input window's block, read where its index map says -/

/-- the level's input rows: row r of the block at point t is row 1024 t + r of the array -/
theorem blk0_at (c : Dev nD) (t : Fin cfg6.N) (r : Fin 1024) (q : Fin 256) (R : Fin 1024) (hR : R.val = t.val * 1024 + r.val) :
    (iblk6 V c 0 t : Vec Ideal S1024x256 .f32) (ix2 r q) = (V c main_v28 : S1024x256.Idx → EReal) (ix2 R q) := by
  obtain ⟨-, e00, e01, e10, e11, -⟩ := idx_facts t
  unfold iblk6
  rw [View.read_apply]
  show V c main_v28 _ = V c main_v28 _
  congr 1
  funext x
  apply Fin.ext
  match x with
  | ⟨0, _⟩ => show win6_0.index t (0 : Fin 2) * 1024 + 1 * r.val = R.val; rw [e00, hR]; omega
  | ⟨1, _⟩ => show win6_0.index t (1 : Fin 2) * 256 + 1 * q.val = q.val; rw [e01]; omega

/-- the children rows two side by side: row r of the block at point t is row 1024 t + r of the array -/
theorem blk1_at (c : Dev nD) (t : Fin cfg6.N) (r : Fin 1024) (q : Fin 512) (R : Fin 1024) (hR : R.val = t.val * 1024 + r.val) :
    (iblk6 V c 1 t : Vec Ideal S1024x512 .f32) (ix2 r q) = (V c main_v29 : S1024x512.Idx → EReal) (ix2 R q) := by
  obtain ⟨-, e00, e01, e10, e11, -⟩ := idx_facts t
  unfold iblk6
  rw [View.read_apply]
  show V c main_v29 _ = V c main_v29 _
  congr 1
  funext x
  apply Fin.ext
  match x with
  | ⟨0, _⟩ => show win6_1.index t (0 : Fin 2) * 1024 + 1 * r.val = R.val; rw [e10, hR]; omega
  | ⟨1, _⟩ => show win6_1.index t (1 : Fin 2) * 512 + 1 * q.val = q.val; rw [e11]; omega

/-- the transposed input weights: its one block is the whole array -/
theorem blk2_at (c : Dev nD) (t : Fin cfg6.N) (a : Fin 256) (b : Fin 768) :
    (iblk6 V c 2 t : Vec Ideal S256x768 .bf16) (ix2 a b) = (V c main_v1 : S256x768.Idx → EReal) (ix2 a b) := by
  obtain ⟨-, -, -, -, -, e20, e21, e30, e31, e40, e41, e50, e51, e60, e61, e70, e71, -, -⟩ := idx_facts t
  unfold iblk6
  rw [View.read_apply]
  show V c main_v1 _ = V c main_v1 _
  congr 1
  funext x
  apply Fin.ext
  match x with
  | ⟨0, _⟩ => show win6_2.index t (0 : Fin 2) * 256 + 1 * a.val = a.val; rw [e20]; omega
  | ⟨1, _⟩ => show win6_2.index t (1 : Fin 2) * 768 + 1 * b.val = b.val; rw [e21]; omega

/-- the bias row: its one block is the whole array -/
theorem blk3_at (c : Dev nD) (t : Fin cfg6.N) (a : Fin 1) (b : Fin 768) :
    (iblk6 V c 3 t : Vec Ideal S1x768 .f32) (ix2 a b) = (V c main_v2 : S1x768.Idx → EReal) (ix2 a b) := by
  obtain ⟨-, -, -, -, -, e20, e21, e30, e31, e40, e41, e50, e51, e60, e61, e70, e71, -, -⟩ := idx_facts t
  unfold iblk6
  rw [View.read_apply]
  show V c main_v2 _ = V c main_v2 _
  congr 1
  funext x
  apply Fin.ext
  match x with
  | ⟨0, _⟩ => show win6_3.index t (0 : Fin 2) * 1 + 1 * a.val = a.val; rw [e30]; omega
  | ⟨1, _⟩ => show win6_3.index t (1 : Fin 2) * 768 + 1 * b.val = b.val; rw [e31]; omega

/-- the first transposed half of the forget weights: its one block is the whole array -/
theorem blk4_at (c : Dev nD) (t : Fin cfg6.N) (a : Fin 256) (b : Fin 512) :
    (iblk6 V c 4 t : Vec Ideal S256x512 .f32) (ix2 a b) = (V c main_v4 : S256x512.Idx → EReal) (ix2 a b) := by
  obtain ⟨-, -, -, -, -, e20, e21, e30, e31, e40, e41, e50, e51, e60, e61, e70, e71, -, -⟩ := idx_facts t
  unfold iblk6
  rw [View.read_apply]
  show V c main_v4 _ = V c main_v4 _
  congr 1
  funext x
  apply Fin.ext
  match x with
  | ⟨0, _⟩ => show win6_4.index t (0 : Fin 2) * 256 + 1 * a.val = a.val; rw [e40]; omega
  | ⟨1, _⟩ => show win6_4.index t (1 : Fin 2) * 512 + 1 * b.val = b.val; rw [e41]; omega

/-- the second transposed half of the forget weights: its one block is the whole array -/
theorem blk5_at (c : Dev nD) (t : Fin cfg6.N) (a : Fin 256) (b : Fin 512) :
    (iblk6 V c 5 t : Vec Ideal S256x512 .f32) (ix2 a b) = (V c main_v6 : S256x512.Idx → EReal) (ix2 a b) := by
  obtain ⟨-, -, -, -, -, e20, e21, e30, e31, e40, e41, e50, e51, e60, e61, e70, e71, -, -⟩ := idx_facts t
  unfold iblk6
  rw [View.read_apply]
  show V c main_v6 _ = V c main_v6 _
  congr 1
  funext x
  apply Fin.ext
  match x with
  | ⟨0, _⟩ => show win6_5.index t (0 : Fin 2) * 256 + 1 * a.val = a.val; rw [e50]; omega
  | ⟨1, _⟩ => show win6_5.index t (1 : Fin 2) * 512 + 1 * b.val = b.val; rw [e51]; omega

/-- the first transposed half of the candidate weights: its one block is the whole array -/
theorem blk6_at (c : Dev nD) (t : Fin cfg6.N) (a : Fin 256) (b : Fin 256) :
    (iblk6 V c 6 t : Vec Ideal S256x256 .f32) (ix2 a b) = (V c main_v8 : S256x256.Idx → EReal) (ix2 a b) := by
  obtain ⟨-, -, -, -, -, e20, e21, e30, e31, e40, e41, e50, e51, e60, e61, e70, e71, -, -⟩ := idx_facts t
  unfold iblk6
  rw [View.read_apply]
  show V c main_v8 _ = V c main_v8 _
  congr 1
  funext x
  apply Fin.ext
  match x with
  | ⟨0, _⟩ => show win6_6.index t (0 : Fin 2) * 256 + 1 * a.val = a.val; rw [e60]; omega
  | ⟨1, _⟩ => show win6_6.index t (1 : Fin 2) * 256 + 1 * b.val = b.val; rw [e61]; omega

/-- the second transposed half of the candidate weights: its one block is the whole array -/
theorem blk7_at (c : Dev nD) (t : Fin cfg6.N) (a : Fin 256) (b : Fin 256) :
    (iblk6 V c 7 t : Vec Ideal S256x256 .f32) (ix2 a b) = (V c main_v10 : S256x256.Idx → EReal) (ix2 a b) := by
  obtain ⟨-, -, -, -, -, e20, e21, e30, e31, e40, e41, e50, e51, e60, e61, e70, e71, -, -⟩ := idx_facts t
  unfold iblk6
  rw [View.read_apply]
  show V c main_v10 _ = V c main_v10 _
  congr 1
  funext x
  apply Fin.ext
  match x with
  | ⟨0, _⟩ => show win6_7.index t (0 : Fin 2) * 256 + 1 * a.val = a.val; rw [e70]; omega
  | ⟨1, _⟩ => show win6_7.index t (1 : Fin 2) * 256 + 1 * b.val = b.val; rw [e71]; omega

/-! ## What a point writes back, the cover, the array -/

/-- WHAT POINT t WRITES BACK is block t of the level function. -/
theorem flushed_eq (c : Dev nD)
    (hx : ∀ (r : Fin 1024) (q : Fin 256), (V c main_v28 : S1024x256.Idx → EReal) (ix2 r q) = TreeSpec.xrow X (1023 + r.val) q)
    (hch : ∀ (r : Fin 1024) (q : Fin 512), (V c main_v29 : S1024x512.Idx → EReal) (ix2 r q) = TreeSpec.pair (TreeSpec.lvl X Ww Wb Uhc Uf 5) r.val q)
    (h2 : ∀ (a : Fin 256) (k : Fin 768), (V c main_v1 : S256x768.Idx → EReal) (ix2 a k) = Ww (ix2 k a))
    (h3 : ∀ k : Fin 768, (V c main_v2 : S1x768.Idx → EReal) (ix2 (0 : Fin 1) k) = Wb (ix1 k))
    (h4 : ∀ (q : Fin 256) (k : Fin 512), (V c main_v4 : S256x512.Idx → EReal) (ix2 q k) = Uf (ix2 k (TreeCell.lo q)))
    (h5 : ∀ (q : Fin 256) (k : Fin 512), (V c main_v6 : S256x512.Idx → EReal) (ix2 q k) = Uf (ix2 k (TreeCell.hi q)))
    (h6 : ∀ (q j : Fin 256), (V c main_v8 : S256x256.Idx → EReal) (ix2 q j) = Uhc (ix2 j (TreeCell.lo q)))
    (h7 : ∀ (q j : Fin 256), (V c main_v10 : S256x256.Idx → EReal) (ix2 q j) = Uhc (ix2 j (TreeCell.hi q)))
    (t : Fin cfg6.N) :
    (dat6 V c).flushed 8 t = ((cfg6.win 8).blk t).view.read (Elt Ideal) (G X Ww Wb Uhc Uf) := by
  show (cfg6.win 8).cut (grid6.coords t) ((dat6 V c).after 8 t) = _
  rw [after6_8]
  unfold out6_8
  rw [View.canon_unit_zero hz]
  simp only [View.ld_unit_zero (S := S1024x256) hz, View.ld_unit_zero (S := S1024x512) hz, View.ld_unit_zero (S := S256x768) hz,
    View.ld_unit_zero (S := S1x768) hz, View.ld_unit_zero (S := S256x512) hz, View.ld_unit_zero (S := S256x256) hz]
  rw [Pay.pay6_eq]
  obtain ⟨ht, -, -, -, -, -, -, -, -, -, -, -, -, -, -, -, -, e80, e81⟩ := idx_facts t
  funext y
  obtain ⟨r, j, rfl⟩ : ∃ (r : Fin 1024) (j : Fin 256), y = ix2 r j := ⟨y 0, y 1, eq_ix2 y⟩
  have hr : r.val < 1024 := r.isLt
  have hR : t.val * 1024 + r.val < 1024 := by omega
  have hemb : ((cfg6.win 8).blk t).view.emb (ix2 r j) = (ix2 ⟨t.val * 1024 + r.val, hR⟩ j : S1024x256.Idx) := by
    funext x
    apply Fin.ext
    match x with
    | ⟨0, _⟩ => show win6_8.index t (0 : Fin 2) * 1024 + 1 * r.val = t.val * 1024 + r.val; rw [e80]; omega
    | ⟨1, _⟩ => show win6_8.index t (1 : Fin 2) * 256 + 1 * j.val = j.val; rw [e81]; omega
  show _ = G X Ww Wb Uhc Uf (((cfg6.win 8).blk t).view.emb (ix2 r j))
  rw [hemb]
  show _ = TreeSpec.lvl X Ww Wb Uhc Uf 6 (t.val * 1024 + r.val) j
  exact KernLevel.kinner_lvl X Ww Wb Uhc Uf 5 1023 (by norm_num) _ _ _ _ _ _ _ _ _ _ _ _ _ _ _ _ _ _ _ _
    (fun a k => (blk2_at V c t a k).trans (h2 a k)) (fun k => (blk3_at V c t 0 k).trans (h3 k))
    (fun q k => (blk4_at V c t q k).trans (h4 q k)) (fun q k => (blk5_at V c t q k).trans (h5 q k))
    (fun q j' => (blk6_at V c t q j').trans (h6 q j')) (fun q j' => (blk7_at V c t q j').trans (h7 q j'))
    (t.val * 1024 + r.val) r
    (fun q => (blk0_at V c t r q ⟨t.val * 1024 + r.val, hR⟩ rfl).trans (hx ⟨t.val * 1024 + r.val, hR⟩ q))
    (fun q => (blk1_at V c t r q ⟨t.val * 1024 + r.val, hR⟩ rfl).trans (hch ⟨t.val * 1024 + r.val, hR⟩ q)) j

/-- An index of the output array is in point t's block iff each coordinate is in the block's range on its axis. -/
theorem mem_blk (t : Fin cfg6.N) (i : S1024x256.Idx) :
    i ∈ ((cfg6.win 8).blk t).view.set ↔ ∀ a : Fin 2, win6_8.index t a * S1024x256.size a ≤ (i a).val ∧ (i a).val < win6_8.index t a * S1024x256.size a + S1024x256.size a := by
  show i ∈ ((View.whole main_v30).slice (win6_8.rect t)).set ↔ _
  rw [View.set_slice_whole, Rect.mem_set_unit]
  exact Iff.rfl

/-- Every index of the output array is in some point's block: row r in the block of point r / 1024. -/
theorem cover (i : S1024x256.Idx) : ∃ t : Fin cfg6.N, (cfg6.win 8).flush t = true ∧ i ∈ ((cfg6.win 8).blk t).view.set := by
  have hi0 : (i 0).val < 1024 := (i 0).isLt
  have hi1 : (i 1).val < 256 := (i 1).isLt
  obtain ⟨t, ht⟩ := idx_onto ⟨(i 0).val / 1024, by omega⟩
  have q0 : win6_8.index t (0 : Fin 2) = (i 0).val / 1024 := congrFun ht 0
  have q1 : win6_8.index t (1 : Fin 2) = 0 := congrFun ht 1
  refine ⟨t, flush6_8 t, ?_⟩
  rw [mem_blk]
  intro a
  match a with
  | ⟨0, _⟩ => show win6_8.index t (0 : Fin 2) * 1024 ≤ (i 0).val ∧ (i 0).val < win6_8.index t (0 : Fin 2) * 1024 + 1024; omega
  | ⟨1, _⟩ => show win6_8.index t (1 : Fin 2) * 256 ≤ (i 1).val ∧ (i 1).val < win6_8.index t (1 : Fin 2) * 256 + 256; omega

/-- THE ARRAY after the region: level 6, row by row. -/
theorem final (c : Dev nD)
    (hx : ∀ (r : Fin 1024) (q : Fin 256), (V c main_v28 : S1024x256.Idx → EReal) (ix2 r q) = TreeSpec.xrow X (1023 + r.val) q)
    (hch : ∀ (r : Fin 1024) (q : Fin 512), (V c main_v29 : S1024x512.Idx → EReal) (ix2 r q) = TreeSpec.pair (TreeSpec.lvl X Ww Wb Uhc Uf 5) r.val q)
    (h2 : ∀ (a : Fin 256) (k : Fin 768), (V c main_v1 : S256x768.Idx → EReal) (ix2 a k) = Ww (ix2 k a))
    (h3 : ∀ k : Fin 768, (V c main_v2 : S1x768.Idx → EReal) (ix2 (0 : Fin 1) k) = Wb (ix1 k))
    (h4 : ∀ (q : Fin 256) (k : Fin 512), (V c main_v4 : S256x512.Idx → EReal) (ix2 q k) = Uf (ix2 k (TreeCell.lo q)))
    (h5 : ∀ (q : Fin 256) (k : Fin 512), (V c main_v6 : S256x512.Idx → EReal) (ix2 q k) = Uf (ix2 k (TreeCell.hi q)))
    (h6 : ∀ (q j : Fin 256), (V c main_v8 : S256x256.Idx → EReal) (ix2 q j) = Uhc (ix2 j (TreeCell.lo q)))
    (h7 : ∀ (q j : Fin 256), (V c main_v10 : S256x256.Idx → EReal) (ix2 q j) = Uhc (ix2 j (TreeCell.hi q))) :
    ∀ (r : Fin 1024) (j : Fin 256), (dat6 V c).arrAt 8 cfg6.N (ix2 r j) = TreeSpec.lvl X Ww Wb Uhc Uf 6 r.val j := by
  intro r j
  rw [(dat6 V c).arrAt_eq_of_cover 8 (G X Ww Wb Uhc Uf) (fun t _ => flushed_eq V X Ww Wb Uhc Uf c hx hch h2 h3 h4 h5 h6 h7 t) cover]

end Cert.KernelIdeal.Reg6

end
-- ==== Proof.TreeFinal.lean ====
/-
  The result array of the tree recurrence: the seventeen level functions of `TreeSpec` as arrays, written into an
  array Z of 131071 rows (the root first, the leaves last).  An array that agrees entry by entry with a level function is
  that level's array.
-/
import proofs.«410862_j80719615361096_3_alg».proof.Proof.TreeSpec
import proofs.«410862_j80719615361096_3_alg».proof.Proof.TreeOut

noncomputable section

namespace Cert.TreeFinal

open Idealize.ShloMosaic Idealize.ShloMosaic.ValueIdx Cert.TreeScatter

variable (X : FVec Ideal ⟨2, ![131071, 256]⟩ .f32) (Ww : FVec Ideal ⟨2, ![768, 256]⟩ .f32) (Wb : FVec Ideal ⟨1, ![768]⟩ .f32)
  (Uhc : FVec Ideal ⟨2, ![256, 512]⟩ .f32) (Uf : FVec Ideal ⟨2, ![512, 512]⟩ .f32)

/-- the level at depth 16 - k as an array of n rows -/
def lvArr (n k : ℕ) : (Sh2 n 256).Idx → EReal := fun i => TreeSpec.lvl X Ww Wb Uhc Uf k (i 0).val (i 1)

/-- An array that agrees with the level function entry by entry is the level's array. -/
theorem eq_lvArr {n : ℕ} (k : ℕ) (A : (Sh2 n 256).Idx → EReal)
    (h : ∀ (r : Fin n) (j : Fin 256), A (ix2 r j) = TreeSpec.lvl X Ww Wb Uhc Uf k r.val j) : A = lvArr X Ww Wb Uhc Uf n k := by
  funext i
  rw [eq_ix2 i]
  exact h (i 0) (i 1)

/-- the seventeen levels written into Z, the root first and the leaves last -/
def outArr (Z : (Sh2 131071 256).Idx → EReal) : (Sh2 131071 256).Idx → EReal :=
  TreeOut.nestK (lvArr X Ww Wb Uhc Uf 65536 0) (lvArr X Ww Wb Uhc Uf 32768 1) (lvArr X Ww Wb Uhc Uf 16384 2) (lvArr X Ww Wb Uhc Uf 8192 3) (lvArr X Ww Wb Uhc Uf 4096 4) (lvArr X Ww Wb Uhc Uf 2048 5) (lvArr X Ww Wb Uhc Uf 1024 6) (lvArr X Ww Wb Uhc Uf 512 7) (lvArr X Ww Wb Uhc Uf 256 8) (lvArr X Ww Wb Uhc Uf 128 9) (lvArr X Ww Wb Uhc Uf 64 10) (lvArr X Ww Wb Uhc Uf 32 11) (lvArr X Ww Wb Uhc Uf 16 12) (lvArr X Ww Wb Uhc Uf 8 13) (lvArr X Ww Wb Uhc Uf 4 14) (lvArr X Ww Wb Uhc Uf 2 15) (lvArr X Ww Wb Uhc Uf 1 16) Z

/-- … which is also what writing the leaves first and the root last leaves. -/
theorem outArr_eq_nestR (Z : (Sh2 131071 256).Idx → EReal) :
    outArr X Ww Wb Uhc Uf Z = TreeOut.nestR (lvArr X Ww Wb Uhc Uf 65536 0) (lvArr X Ww Wb Uhc Uf 32768 1) (lvArr X Ww Wb Uhc Uf 16384 2) (lvArr X Ww Wb Uhc Uf 8192 3) (lvArr X Ww Wb Uhc Uf 4096 4) (lvArr X Ww Wb Uhc Uf 2048 5) (lvArr X Ww Wb Uhc Uf 1024 6) (lvArr X Ww Wb Uhc Uf 512 7) (lvArr X Ww Wb Uhc Uf 256 8) (lvArr X Ww Wb Uhc Uf 128 9) (lvArr X Ww Wb Uhc Uf 64 10) (lvArr X Ww Wb Uhc Uf 32 11) (lvArr X Ww Wb Uhc Uf 16 12) (lvArr X Ww Wb Uhc Uf 8 13) (lvArr X Ww Wb Uhc Uf 4 14) (lvArr X Ww Wb Uhc Uf 2 15) (lvArr X Ww Wb Uhc Uf 1 16) Z :=
  TreeOut.nestK_eq_nestR _ _ _ _ _ _ _ _ _ _ _ _ _ _ _ _ _ _

end Cert.TreeFinal

end
-- ==== Proof.AssembleK.lean ====
/-
  The kernel program's result array is the result array of the tree recurrence.

  Region p of the program leaves level p of the tree (the leaves are level 0) in its output array: its input rows are the
  level's rows of the input, its children block is the level before it re-read with two rows side by side, and its weight
  blocks are the weights as the host prepared them.  The seven levels the regions leave reach the last host stretch
  unchanged; the stretch computes the ten levels above them and writes all seventeen into an array of zeros.  Each of the
  seventeen arrays agrees entry by entry with its level function, so the nest is the recurrence's result array.
-/
import proofs.«410862_j80719615361096_3_alg».proof.Proof.KChain
import proofs.«410862_j80719615361096_3_alg».proof.Proof.KTail
import proofs.«410862_j80719615361096_3_alg».proof.Proof.KReg0
import proofs.«410862_j80719615361096_3_alg».proof.Proof.KReg1
import proofs.«410862_j80719615361096_3_alg».proof.Proof.KReg2
import proofs.«410862_j80719615361096_3_alg».proof.Proof.KReg3
import proofs.«410862_j80719615361096_3_alg».proof.Proof.KReg4
import proofs.«410862_j80719615361096_3_alg».proof.Proof.KReg5
import proofs.«410862_j80719615361096_3_alg».proof.Proof.KReg6
import proofs.«410862_j80719615361096_3_alg».proof.Proof.TreeFinal

noncomputable section

namespace Cert.KernelIdeal.Assemble

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg) (c : Dev nD)

/-! ## What each region leaves: level p of the tree -/

/-- region 0 leaves the leaves -/
theorem F0 (r : Fin 65536) (j : Fin 256) : (dat0 (V1 m ρ) c).arrAt 3 cfg0.N (ix2 r j) = Chain.lev m c 0 r.val j :=
  Reg0.final (V1 m ρ) (Chain.X m c) (Chain.Ww m c) (Chain.Wb m c) (Chain.Uhc m c) (Chain.Uf m c) c
    (Chain.rows1 m ρ c) (Chain.inv1 m ρ c).v1 (Chain.inv1 m ρ c).v2 r j

/-- region 1 leaves level 1, from level 0 at the boundary before it -/
theorem F1 (r : Fin 32768) (j : Fin 256) : (dat1 (V3 m ρ) c).arrAt 8 cfg1.N (ix2 r j) = Chain.lev m c 1 r.val j :=
  Reg1.final (V3 m ρ) (Chain.X m c) (Chain.Ww m c) (Chain.Wb m c) (Chain.Uhc m c) (Chain.Uf m c) c
    (Chain.rows3 m ρ c) (Chain.kids3 m ρ c (Chain.lvl0_W2 m ρ c (F0 m ρ c)))
    (Chain.inv3 m ρ c).v1 (Chain.inv3 m ρ c).v2 (Chain.inv3 m ρ c).v4 (Chain.inv3 m ρ c).v6
    (Chain.inv3 m ρ c).v8 (Chain.inv3 m ρ c).v10 r j

/-- region 2 leaves level 2, from level 1 at the boundary before it -/
theorem F2 (r : Fin 16384) (j : Fin 256) : (dat2 (V5 m ρ) c).arrAt 8 cfg2.N (ix2 r j) = Chain.lev m c 2 r.val j :=
  Reg2.final (V5 m ρ) (Chain.X m c) (Chain.Ww m c) (Chain.Wb m c) (Chain.Uhc m c) (Chain.Uf m c) c
    (Chain.rows5 m ρ c) (Chain.kids5 m ρ c (Chain.lvl1_W4 m ρ c (F1 m ρ c)))
    (Chain.inv5 m ρ c).v1 (Chain.inv5 m ρ c).v2 (Chain.inv5 m ρ c).v4 (Chain.inv5 m ρ c).v6
    (Chain.inv5 m ρ c).v8 (Chain.inv5 m ρ c).v10 r j

/-- region 3 leaves level 3, from level 2 at the boundary before it -/
theorem F3 (r : Fin 8192) (j : Fin 256) : (dat3 (V7 m ρ) c).arrAt 8 cfg3.N (ix2 r j) = Chain.lev m c 3 r.val j :=
  Reg3.final (V7 m ρ) (Chain.X m c) (Chain.Ww m c) (Chain.Wb m c) (Chain.Uhc m c) (Chain.Uf m c) c
    (Chain.rows7 m ρ c) (Chain.kids7 m ρ c (Chain.lvl2_W6 m ρ c (F2 m ρ c)))
    (Chain.inv7 m ρ c).v1 (Chain.inv7 m ρ c).v2 (Chain.inv7 m ρ c).v4 (Chain.inv7 m ρ c).v6
    (Chain.inv7 m ρ c).v8 (Chain.inv7 m ρ c).v10 r j

/-- region 4 leaves level 4, from level 3 at the boundary before it -/
theorem F4 (r : Fin 4096) (j : Fin 256) : (dat4 (V9 m ρ) c).arrAt 8 cfg4.N (ix2 r j) = Chain.lev m c 4 r.val j :=
  Reg4.final (V9 m ρ) (Chain.X m c) (Chain.Ww m c) (Chain.Wb m c) (Chain.Uhc m c) (Chain.Uf m c) c
    (Chain.rows9 m ρ c) (Chain.kids9 m ρ c (Chain.lvl3_W8 m ρ c (F3 m ρ c)))
    (Chain.inv9 m ρ c).v1 (Chain.inv9 m ρ c).v2 (Chain.inv9 m ρ c).v4 (Chain.inv9 m ρ c).v6
    (Chain.inv9 m ρ c).v8 (Chain.inv9 m ρ c).v10 r j

/-- region 5 leaves level 5, from level 4 at the boundary before it -/
theorem F5 (r : Fin 2048) (j : Fin 256) : (dat5 (V11 m ρ) c).arrAt 8 cfg5.N (ix2 r j) = Chain.lev m c 5 r.val j :=
  Reg5.final (V11 m ρ) (Chain.X m c) (Chain.Ww m c) (Chain.Wb m c) (Chain.Uhc m c) (Chain.Uf m c) c
    (Chain.rows11 m ρ c) (Chain.kids11 m ρ c (Chain.lvl4_W10 m ρ c (F4 m ρ c)))
    (Chain.inv11 m ρ c).v1 (Chain.inv11 m ρ c).v2 (Chain.inv11 m ρ c).v4 (Chain.inv11 m ρ c).v6
    (Chain.inv11 m ρ c).v8 (Chain.inv11 m ρ c).v10 r j

/-- region 6 leaves level 6, from level 5 at the boundary before it -/
theorem F6 (r : Fin 1024) (j : Fin 256) : (dat6 (V13 m ρ) c).arrAt 8 cfg6.N (ix2 r j) = Chain.lev m c 6 r.val j :=
  Reg6.final (V13 m ρ) (Chain.X m c) (Chain.Ww m c) (Chain.Wb m c) (Chain.Uhc m c) (Chain.Uf m c) c
    (Chain.rows13 m ρ c) (Chain.kids13 m ρ c (Chain.lvl5_W12 m ρ c (F5 m ρ c)))
    (Chain.inv13 m ρ c).v1 (Chain.inv13 m ρ c).v2 (Chain.inv13 m ρ c).v4 (Chain.inv13 m ρ c).v6
    (Chain.inv13 m ρ c).v8 (Chain.inv13 m ρ c).v10 r j

/-! ## The result array -/

/-- THE KERNEL PROGRAM'S RESULT: the seventeen levels of the tree written into an array of zeros. -/
theorem kernel_value :
    GenP.W15 m ρ c (Proc.devRef .tc main_v374)
      = TreeFinal.outArr (Chain.X m c) (Chain.Ww m c) (Chain.Wb m c) (Chain.Uhc m c) (Chain.Uf m c)
          (broadcastInDim S131071x256 ![] bcast_S_S131071x256 (constant (F := Ideal) S_ .f32 0x00000000#32)) := by
  have i14 := Chain.inv14 m ρ c
  have h6 := Chain.lvl6_W14 m ρ c (F6 m ρ c)
  have e0 : (W14 m ρ c (Proc.devRef .tc main_v12) : HostChain.Mat 65536 256)
      = TreeFinal.lvArr (Chain.X m c) (Chain.Ww m c) (Chain.Wb m c) (Chain.Uhc m c) (Chain.Uf m c) 65536 0 :=
    TreeFinal.eq_lvArr _ _ _ _ _ 0 _ (Chain.lvl0_W14 m ρ c (F0 m ρ c))
  have e1 : (W14 m ρ c (Proc.devRef .tc main_v15) : HostChain.Mat 32768 256)
      = TreeFinal.lvArr (Chain.X m c) (Chain.Ww m c) (Chain.Wb m c) (Chain.Uhc m c) (Chain.Uf m c) 32768 1 :=
    TreeFinal.eq_lvArr _ _ _ _ _ 1 _ (Chain.lvl1_W14 m ρ c (F1 m ρ c))
  have e2 : (W14 m ρ c (Proc.devRef .tc main_v18) : HostChain.Mat 16384 256)
      = TreeFinal.lvArr (Chain.X m c) (Chain.Ww m c) (Chain.Wb m c) (Chain.Uhc m c) (Chain.Uf m c) 16384 2 :=
    TreeFinal.eq_lvArr _ _ _ _ _ 2 _ (Chain.lvl2_W14 m ρ c (F2 m ρ c))
  have e3 : (W14 m ρ c (Proc.devRef .tc main_v21) : HostChain.Mat 8192 256)
      = TreeFinal.lvArr (Chain.X m c) (Chain.Ww m c) (Chain.Wb m c) (Chain.Uhc m c) (Chain.Uf m c) 8192 3 :=
    TreeFinal.eq_lvArr _ _ _ _ _ 3 _ (Chain.lvl3_W14 m ρ c (F3 m ρ c))
  have e4 : (W14 m ρ c (Proc.devRef .tc main_v24) : HostChain.Mat 4096 256)
      = TreeFinal.lvArr (Chain.X m c) (Chain.Ww m c) (Chain.Wb m c) (Chain.Uhc m c) (Chain.Uf m c) 4096 4 :=
    TreeFinal.eq_lvArr _ _ _ _ _ 4 _ (Chain.lvl4_W14 m ρ c (F4 m ρ c))
  have e5 : (W14 m ρ c (Proc.devRef .tc main_v27) : HostChain.Mat 2048 256)
      = TreeFinal.lvArr (Chain.X m c) (Chain.Ww m c) (Chain.Wb m c) (Chain.Uhc m c) (Chain.Uf m c) 2048 5 :=
    TreeFinal.eq_lvArr _ _ _ _ _ 5 _ (Chain.lvl5_W14 m ρ c (F5 m ρ c))
  have e6 : (W14 m ρ c (Proc.devRef .tc main_v30) : HostChain.Mat 1024 256)
      = TreeFinal.lvArr (Chain.X m c) (Chain.Ww m c) (Chain.Wb m c) (Chain.Uhc m c) (Chain.Uf m c) 1024 6 :=
    TreeFinal.eq_lvArr _ _ _ _ _ 6 _ (Chain.lvl6_W14 m ρ c (F6 m ρ c))
  have e7 : Tail.K9 (W14 m ρ c) = TreeFinal.lvArr (Chain.X m c) (Chain.Ww m c) (Chain.Wb m c) (Chain.Uhc m c) (Chain.Uf m c) 512 7 :=
    TreeFinal.eq_lvArr _ _ _ _ _ 7 _
      (Tail.tail_lvl7 (W14 m ρ c) _ _ _ _ _ i14.arg0 i14.arg1 i14.arg2 i14.arg3 i14.arg4 h6)
  have e8 : Tail.K8 (W14 m ρ c) = TreeFinal.lvArr (Chain.X m c) (Chain.Ww m c) (Chain.Wb m c) (Chain.Uhc m c) (Chain.Uf m c) 256 8 :=
    TreeFinal.eq_lvArr _ _ _ _ _ 8 _
      (Tail.tail_lvl8 (W14 m ρ c) _ _ _ _ _ i14.arg0 i14.arg1 i14.arg2 i14.arg3 i14.arg4 h6)
  have e9 : Tail.K7 (W14 m ρ c) = TreeFinal.lvArr (Chain.X m c) (Chain.Ww m c) (Chain.Wb m c) (Chain.Uhc m c) (Chain.Uf m c) 128 9 :=
    TreeFinal.eq_lvArr _ _ _ _ _ 9 _
      (Tail.tail_lvl9 (W14 m ρ c) _ _ _ _ _ i14.arg0 i14.arg1 i14.arg2 i14.arg3 i14.arg4 h6)
  have e10 : Tail.K6 (W14 m ρ c) = TreeFinal.lvArr (Chain.X m c) (Chain.Ww m c) (Chain.Wb m c) (Chain.Uhc m c) (Chain.Uf m c) 64 10 :=
    TreeFinal.eq_lvArr _ _ _ _ _ 10 _
      (Tail.tail_lvl10 (W14 m ρ c) _ _ _ _ _ i14.arg0 i14.arg1 i14.arg2 i14.arg3 i14.arg4 h6)
  have e11 : Tail.K5 (W14 m ρ c) = TreeFinal.lvArr (Chain.X m c) (Chain.Ww m c) (Chain.Wb m c) (Chain.Uhc m c) (Chain.Uf m c) 32 11 :=
    TreeFinal.eq_lvArr _ _ _ _ _ 11 _
      (Tail.tail_lvl11 (W14 m ρ c) _ _ _ _ _ i14.arg0 i14.arg1 i14.arg2 i14.arg3 i14.arg4 h6)
  have e12 : Tail.K4 (W14 m ρ c) = TreeFinal.lvArr (Chain.X m c) (Chain.Ww m c) (Chain.Wb m c) (Chain.Uhc m c) (Chain.Uf m c) 16 12 :=
    TreeFinal.eq_lvArr _ _ _ _ _ 12 _
      (Tail.tail_lvl12 (W14 m ρ c) _ _ _ _ _ i14.arg0 i14.arg1 i14.arg2 i14.arg3 i14.arg4 h6)
  have e13 : Tail.K3 (W14 m ρ c) = TreeFinal.lvArr (Chain.X m c) (Chain.Ww m c) (Chain.Wb m c) (Chain.Uhc m c) (Chain.Uf m c) 8 13 :=
    TreeFinal.eq_lvArr _ _ _ _ _ 13 _
      (Tail.tail_lvl13 (W14 m ρ c) _ _ _ _ _ i14.arg0 i14.arg1 i14.arg2 i14.arg3 i14.arg4 h6)
  have e14 : Tail.K2 (W14 m ρ c) = TreeFinal.lvArr (Chain.X m c) (Chain.Ww m c) (Chain.Wb m c) (Chain.Uhc m c) (Chain.Uf m c) 4 14 :=
    TreeFinal.eq_lvArr _ _ _ _ _ 14 _
      (Tail.tail_lvl14 (W14 m ρ c) _ _ _ _ _ i14.arg0 i14.arg1 i14.arg2 i14.arg3 i14.arg4 h6)
  have e15 : Tail.K1 (W14 m ρ c) = TreeFinal.lvArr (Chain.X m c) (Chain.Ww m c) (Chain.Wb m c) (Chain.Uhc m c) (Chain.Uf m c) 2 15 :=
    TreeFinal.eq_lvArr _ _ _ _ _ 15 _
      (Tail.tail_lvl15 (W14 m ρ c) _ _ _ _ _ i14.arg0 i14.arg1 i14.arg2 i14.arg3 i14.arg4 h6)
  have e16 : Tail.K0 (W14 m ρ c) = TreeFinal.lvArr (Chain.X m c) (Chain.Ww m c) (Chain.Wb m c) (Chain.Uhc m c) (Chain.Uf m c) 1 16 :=
    TreeFinal.eq_lvArr _ _ _ _ _ 16 _
      (Tail.tail_lvl16 (W14 m ρ c) _ _ _ _ _ i14.arg0 i14.arg1 i14.arg2 i14.arg3 i14.arg4 h6)
  show StableHlo.after (hostOps7 (F := Ideal)) (W14 m ρ c) (Proc.devRef .tc main_v374) = _
  rw [Tail.tail_value (W14 m ρ c), e0, e1, e2, e3, e4, e5, e6, e7, e8, e9, e10, e11, e12, e13, e14, e15, e16]
  rfl

end Cert.KernelIdeal.Assemble

end
-- ==== Proof.RVal.lean ====
/-
  The value of the reference program's result array: the seventeen levels of the tree, each the level function of
  TreeSpec, written into the zero array from the leaves up to the root.

  The program computes the affine image of all input rows once and cuts its candidate and forget columns.  It writes the
  leaf level (rows 65535 ...) into the zero array; then, level by level, it reads the level below back out of the array it
  is filling, re-reads it with two rows side by side, computes the level from that and from the level's own rows of the
  candidate and forget columns, and writes it at the level's start row.  R k is level k as the program computes it; read
  at entry (r, j) it is TreeSpec.lvl k r j; the array after level k is level k placed over the array after level k - 1,
  because the rows read back are exactly the rows that were written.
-/
import proofs.«410862_j80719615361096_3_alg».proof.Proof.Gen.ReferenceIdeal.Run
import proofs.«410862_j80719615361096_3_alg».proof.Proof.HostLevel
import proofs.«410862_j80719615361096_3_alg».proof.Proof.TreeOut

set_option maxRecDepth 8192

noncomputable section

namespace Cert.ReferenceIdeal.RVal

open Cert.ReferenceIdeal Cert.ReferenceIdeal.Gen Cert.ReferenceIdeal.Value Idealize.ShloMosaic Idealize.ShloMosaic.ValueIdx
  Idealize.ShloMosaic.TcCoe Idealize.SL.Sem Idealize.ShloMosaic.StableHlo Cert.HostChain

variable (V0 : Valuation τ sig (Elt Ideal))

/-! ## The five arguments -/

/-- the input rows -/
abbrev X : Mat 131071 256 := V0 (Proc.devRef .tc main_arg0)
/-- the weights of the affine image -/
abbrev Ww : Mat 768 256 := V0 (Proc.devRef .tc main_arg1)
/-- its bias -/
abbrev Wb : FVec Ideal (TreeOps.Sh1 768) .f32 := V0 (Proc.devRef .tc main_arg2)
/-- the weights the gated children meet -/
abbrev Uhc : Mat 256 512 := V0 (Proc.devRef .tc main_arg3)
/-- the weights of the forget pre-activation -/
abbrev Uf : Mat 512 512 := V0 (Proc.devRef .tc main_arg4)

/-! ## The levels as the program computes them -/

/-- the leaf level: its 65536 rows, from the input rows 65535 + r -/
def R0 : Mat 65536 256 :=
  HostLevel.leafR 65535 (res_main_v5 V0) (res_main_v6 V0) slices_S131071x256_S65536x256_65535_0 slices_S131071x512_S65536x512_65535_0
    shapeCasts_S65536x512_S65536x2x256 reducesTo_S65536x2x256_S65536x256_d1 h_S_ bcast_S_S65536x512 bcast_S_S65536x256

/-- level 1: its 32768 rows, from the input rows 32767 + r and level 0 -/
def R1 : Mat 32768 256 :=
  HostLevel.levelR (Uhc V0) (Uf V0) 32767 (res_main_v5 V0) (res_main_v6 V0) (R0 V0) slices_S131071x256_S32768x256_32767_0 slices_S131071x512_S32768x512_32767_0
    shapeCasts_S65536x256_S32768x512 transposes_S512x512_S512x512_1_0 transposes_S256x512_S512x256_1_0 shapeCasts_S32768x512_S32768x2x256
    reducesTo_S32768x2x256_S32768x256_d1 h_S_ bcast_S_S32768x512 bcast_S_S32768x256

/-- level 2: its 16384 rows, from the input rows 16383 + r and level 1 -/
def R2 : Mat 16384 256 :=
  HostLevel.levelR (Uhc V0) (Uf V0) 16383 (res_main_v5 V0) (res_main_v6 V0) (R1 V0) slices_S131071x256_S16384x256_16383_0 slices_S131071x512_S16384x512_16383_0
    shapeCasts_S32768x256_S16384x512 transposes_S512x512_S512x512_1_0 transposes_S256x512_S512x256_1_0 shapeCasts_S16384x512_S16384x2x256
    reducesTo_S16384x2x256_S16384x256_d1 h_S_ bcast_S_S16384x512 bcast_S_S16384x256

/-- level 3: its 8192 rows, from the input rows 8191 + r and level 2 -/
def R3 : Mat 8192 256 :=
  HostLevel.levelR (Uhc V0) (Uf V0) 8191 (res_main_v5 V0) (res_main_v6 V0) (R2 V0) slices_S131071x256_S8192x256_8191_0 slices_S131071x512_S8192x512_8191_0
    shapeCasts_S16384x256_S8192x512 transposes_S512x512_S512x512_1_0 transposes_S256x512_S512x256_1_0 shapeCasts_S8192x512_S8192x2x256
    reducesTo_S8192x2x256_S8192x256_d1 h_S_ bcast_S_S8192x512 bcast_S_S8192x256

/-- level 4: its 4096 rows, from the input rows 4095 + r and level 3 -/
def R4 : Mat 4096 256 :=
  HostLevel.levelR (Uhc V0) (Uf V0) 4095 (res_main_v5 V0) (res_main_v6 V0) (R3 V0) slices_S131071x256_S4096x256_4095_0 slices_S131071x512_S4096x512_4095_0
    shapeCasts_S8192x256_S4096x512 transposes_S512x512_S512x512_1_0 transposes_S256x512_S512x256_1_0 shapeCasts_S4096x512_S4096x2x256
    reducesTo_S4096x2x256_S4096x256_d1 h_S_ bcast_S_S4096x512 bcast_S_S4096x256

/-- level 5: its 2048 rows, from the input rows 2047 + r and level 4 -/
def R5 : Mat 2048 256 :=
  HostLevel.levelR (Uhc V0) (Uf V0) 2047 (res_main_v5 V0) (res_main_v6 V0) (R4 V0) slices_S131071x256_S2048x256_2047_0 slices_S131071x512_S2048x512_2047_0
    shapeCasts_S4096x256_S2048x512 transposes_S512x512_S512x512_1_0 transposes_S256x512_S512x256_1_0 shapeCasts_S2048x512_S2048x2x256
    reducesTo_S2048x2x256_S2048x256_d1 h_S_ bcast_S_S2048x512 bcast_S_S2048x256

/-- level 6: its 1024 rows, from the input rows 1023 + r and level 5 -/
def R6 : Mat 1024 256 :=
  HostLevel.levelR (Uhc V0) (Uf V0) 1023 (res_main_v5 V0) (res_main_v6 V0) (R5 V0) slices_S131071x256_S1024x256_1023_0 slices_S131071x512_S1024x512_1023_0
    shapeCasts_S2048x256_S1024x512 transposes_S512x512_S512x512_1_0 transposes_S256x512_S512x256_1_0 shapeCasts_S1024x512_S1024x2x256
    reducesTo_S1024x2x256_S1024x256_d1 h_S_ bcast_S_S1024x512 bcast_S_S1024x256

/-- level 7: its 512 rows, from the input rows 511 + r and level 6 -/
def R7 : Mat 512 256 :=
  HostLevel.levelR (Uhc V0) (Uf V0) 511 (res_main_v5 V0) (res_main_v6 V0) (R6 V0) slices_S131071x256_S512x256_511_0 slices_S131071x512_S512x512_511_0
    shapeCasts_S1024x256_S512x512 transposes_S512x512_S512x512_1_0 transposes_S256x512_S512x256_1_0 shapeCasts_S512x512_S512x2x256
    reducesTo_S512x2x256_S512x256_d1 h_S_ bcast_S_S512x512 bcast_S_S512x256

/-- level 8: its 256 rows, from the input rows 255 + r and level 7 -/
def R8 : Mat 256 256 :=
  HostLevel.levelR (Uhc V0) (Uf V0) 255 (res_main_v5 V0) (res_main_v6 V0) (R7 V0) slices_S131071x256_S256x256_255_0 slices_S131071x512_S256x512_255_0
    shapeCasts_S512x256_S256x512 transposes_S512x512_S512x512_1_0 transposes_S256x512_S512x256_1_0 shapeCasts_S256x512_S256x2x256
    reducesTo_S256x2x256_S256x256_d1 h_S_ bcast_S_S256x512 bcast_S_S256x256

/-- level 9: its 128 rows, from the input rows 127 + r and level 8 -/
def R9 : Mat 128 256 :=
  HostLevel.levelR (Uhc V0) (Uf V0) 127 (res_main_v5 V0) (res_main_v6 V0) (R8 V0) slices_S131071x256_S128x256_127_0 slices_S131071x512_S128x512_127_0
    shapeCasts_S256x256_S128x512 transposes_S512x512_S512x512_1_0 transposes_S256x512_S512x256_1_0 shapeCasts_S128x512_S128x2x256
    reducesTo_S128x2x256_S128x256_d1 h_S_ bcast_S_S128x512 bcast_S_S128x256

/-- level 10: its 64 rows, from the input rows 63 + r and level 9 -/
def R10 : Mat 64 256 :=
  HostLevel.levelR (Uhc V0) (Uf V0) 63 (res_main_v5 V0) (res_main_v6 V0) (R9 V0) slices_S131071x256_S64x256_63_0 slices_S131071x512_S64x512_63_0
    shapeCasts_S128x256_S64x512 transposes_S512x512_S512x512_1_0 transposes_S256x512_S512x256_1_0 shapeCasts_S64x512_S64x2x256
    reducesTo_S64x2x256_S64x256_d1 h_S_ bcast_S_S64x512 bcast_S_S64x256

/-- level 11: its 32 rows, from the input rows 31 + r and level 10 -/
def R11 : Mat 32 256 :=
  HostLevel.levelR (Uhc V0) (Uf V0) 31 (res_main_v5 V0) (res_main_v6 V0) (R10 V0) slices_S131071x256_S32x256_31_0 slices_S131071x512_S32x512_31_0
    shapeCasts_S64x256_S32x512 transposes_S512x512_S512x512_1_0 transposes_S256x512_S512x256_1_0 shapeCasts_S32x512_S32x2x256
    reducesTo_S32x2x256_S32x256_d1 h_S_ bcast_S_S32x512 bcast_S_S32x256

/-- level 12: its 16 rows, from the input rows 15 + r and level 11 -/
def R12 : Mat 16 256 :=
  HostLevel.levelR (Uhc V0) (Uf V0) 15 (res_main_v5 V0) (res_main_v6 V0) (R11 V0) slices_S131071x256_S16x256_15_0 slices_S131071x512_S16x512_15_0
    shapeCasts_S32x256_S16x512 transposes_S512x512_S512x512_1_0 transposes_S256x512_S512x256_1_0 shapeCasts_S16x512_S16x2x256
    reducesTo_S16x2x256_S16x256_d1 h_S_ bcast_S_S16x512 bcast_S_S16x256

/-- level 13: its 8 rows, from the input rows 7 + r and level 12 -/
def R13 : Mat 8 256 :=
  HostLevel.levelR (Uhc V0) (Uf V0) 7 (res_main_v5 V0) (res_main_v6 V0) (R12 V0) slices_S131071x256_S8x256_7_0 slices_S131071x512_S8x512_7_0
    shapeCasts_S16x256_S8x512 transposes_S512x512_S512x512_1_0 transposes_S256x512_S512x256_1_0 shapeCasts_S8x512_S8x2x256
    reducesTo_S8x2x256_S8x256_d1 h_S_ bcast_S_S8x512 bcast_S_S8x256

/-- level 14: its 4 rows, from the input rows 3 + r and level 13 -/
def R14 : Mat 4 256 :=
  HostLevel.levelR (Uhc V0) (Uf V0) 3 (res_main_v5 V0) (res_main_v6 V0) (R13 V0) slices_S131071x256_S4x256_3_0 slices_S131071x512_S4x512_3_0
    shapeCasts_S8x256_S4x512 transposes_S512x512_S512x512_1_0 transposes_S256x512_S512x256_1_0 shapeCasts_S4x512_S4x2x256
    reducesTo_S4x2x256_S4x256_d1 h_S_ bcast_S_S4x512 bcast_S_S4x256

/-- level 15: its 2 rows, from the input rows 1 + r and level 14 -/
def R15 : Mat 2 256 :=
  HostLevel.levelR (Uhc V0) (Uf V0) 1 (res_main_v5 V0) (res_main_v6 V0) (R14 V0) slices_S131071x256_S2x256_1_0 slices_S131071x512_S2x512_1_0
    shapeCasts_S4x256_S2x512 transposes_S512x512_S512x512_1_0 transposes_S256x512_S512x256_1_0 shapeCasts_S2x512_S2x2x256
    reducesTo_S2x2x256_S2x256_d1 h_S_ bcast_S_S2x512 bcast_S_S2x256

/-- level 16: its 1 rows, from the input rows 0 + r and level 15 -/
def R16 : Mat 1 256 :=
  HostLevel.levelR (Uhc V0) (Uf V0) 0 (res_main_v5 V0) (res_main_v6 V0) (R15 V0) slices_S131071x256_S1x256_0_0 slices_S131071x512_S1x512_0_0
    shapeCasts_S2x256_S1x512 transposes_S512x512_S512x512_1_0 transposes_S256x512_S512x256_1_0 shapeCasts_S1x512_S1x2x256
    reducesTo_S1x2x256_S1x256_d1 h_S_ bcast_S_S1x512 bcast_S_S1x256

/-! ## The candidate and forget columns of the affine image of all rows -/

theorem v5_eq : res_main_v5 V0 = HostLevel.whAll (X V0) (Ww V0) (Wb V0) transposes_S768x256_S256x768_1_0 bcast_S768_S1x768_1
    bcast_S1x768_S131071x768_0_1 slices_S131071x768_S131071x256_0_0 := by
  unfold res_main_v5 res_main_v4
  rfl

theorem v6_eq : res_main_v6 V0 = HostLevel.wfAll (X V0) (Ww V0) (Wb V0) transposes_S768x256_S256x768_1_0 bcast_S768_S1x768_1
    bcast_S1x768_S131071x768_0_1 slices_S131071x768_S131071x512_0_256 := by
  unfold res_main_v6 res_main_v4
  rfl

/-- Row i of the candidate columns is the candidate slice of node i. -/
theorem wh_all (i : Fin 131071) (j : Fin 256) : (res_main_v5 V0 : Mat 131071 256) (ix2 i j) = TreeSpec.wh (X V0) (Ww V0) (Wb V0) i.val j := by
  rw [v5_eq]
  exact HostLevel.whAll_apply (X V0) (Ww V0) (Wb V0) _ _ _ _ i j

/-- Row i of the forget columns is the forget slice of node i. -/
theorem wf_all (i : Fin 131071) (q : Fin 512) : (res_main_v6 V0 : Mat 131071 512) (ix2 i q) = TreeSpec.wf (X V0) (Ww V0) (Wb V0) i.val q := by
  rw [v6_eq]
  exact HostLevel.wfAll_apply (X V0) (Ww V0) (Wb V0) _ _ _ _ i q

/-! ## Each level is the level function -/

theorem lvl0 (r : Fin 65536) (j : Fin 256) :
    R0 V0 (ix2 r j) = TreeSpec.lvl (X V0) (Ww V0) (Wb V0) (Uhc V0) (Uf V0) 0 r.val j :=
  HostLevel.leafR_spec (X V0) (Ww V0) (Wb V0) (Uhc V0) (Uf V0) (res_main_v5 V0) (res_main_v6 V0) (wh_all V0) (wf_all V0)
    _ _ _ _ _ _ _ r j

theorem lvl1 (r : Fin 32768) (j : Fin 256) :
    R1 V0 (ix2 r j) = TreeSpec.lvl (X V0) (Ww V0) (Wb V0) (Uhc V0) (Uf V0) 1 r.val j :=
  HostLevel.levelR_spec (n := 32768) (m := 65536) (X V0) (Ww V0) (Wb V0) (Uhc V0) (Uf V0) 0 32767 (by norm_num) (by norm_num)
    (res_main_v5 V0) (res_main_v6 V0) (wh_all V0) (wf_all V0) (R0 V0) (lvl0 V0) _ _ _ _ _ _ _ _ _ _ r j

theorem lvl2 (r : Fin 16384) (j : Fin 256) :
    R2 V0 (ix2 r j) = TreeSpec.lvl (X V0) (Ww V0) (Wb V0) (Uhc V0) (Uf V0) 2 r.val j :=
  HostLevel.levelR_spec (n := 16384) (m := 32768) (X V0) (Ww V0) (Wb V0) (Uhc V0) (Uf V0) 1 16383 (by norm_num) (by norm_num)
    (res_main_v5 V0) (res_main_v6 V0) (wh_all V0) (wf_all V0) (R1 V0) (lvl1 V0) _ _ _ _ _ _ _ _ _ _ r j

theorem lvl3 (r : Fin 8192) (j : Fin 256) :
    R3 V0 (ix2 r j) = TreeSpec.lvl (X V0) (Ww V0) (Wb V0) (Uhc V0) (Uf V0) 3 r.val j :=
  HostLevel.levelR_spec (n := 8192) (m := 16384) (X V0) (Ww V0) (Wb V0) (Uhc V0) (Uf V0) 2 8191 (by norm_num) (by norm_num)
    (res_main_v5 V0) (res_main_v6 V0) (wh_all V0) (wf_all V0) (R2 V0) (lvl2 V0) _ _ _ _ _ _ _ _ _ _ r j

theorem lvl4 (r : Fin 4096) (j : Fin 256) :
    R4 V0 (ix2 r j) = TreeSpec.lvl (X V0) (Ww V0) (Wb V0) (Uhc V0) (Uf V0) 4 r.val j :=
  HostLevel.levelR_spec (n := 4096) (m := 8192) (X V0) (Ww V0) (Wb V0) (Uhc V0) (Uf V0) 3 4095 (by norm_num) (by norm_num)
    (res_main_v5 V0) (res_main_v6 V0) (wh_all V0) (wf_all V0) (R3 V0) (lvl3 V0) _ _ _ _ _ _ _ _ _ _ r j

theorem lvl5 (r : Fin 2048) (j : Fin 256) :
    R5 V0 (ix2 r j) = TreeSpec.lvl (X V0) (Ww V0) (Wb V0) (Uhc V0) (Uf V0) 5 r.val j :=
  HostLevel.levelR_spec (n := 2048) (m := 4096) (X V0) (Ww V0) (Wb V0) (Uhc V0) (Uf V0) 4 2047 (by norm_num) (by norm_num)
    (res_main_v5 V0) (res_main_v6 V0) (wh_all V0) (wf_all V0) (R4 V0) (lvl4 V0) _ _ _ _ _ _ _ _ _ _ r j

theorem lvl6 (r : Fin 1024) (j : Fin 256) :
    R6 V0 (ix2 r j) = TreeSpec.lvl (X V0) (Ww V0) (Wb V0) (Uhc V0) (Uf V0) 6 r.val j :=
  HostLevel.levelR_spec (n := 1024) (m := 2048) (X V0) (Ww V0) (Wb V0) (Uhc V0) (Uf V0) 5 1023 (by norm_num) (by norm_num)
    (res_main_v5 V0) (res_main_v6 V0) (wh_all V0) (wf_all V0) (R5 V0) (lvl5 V0) _ _ _ _ _ _ _ _ _ _ r j

theorem lvl7 (r : Fin 512) (j : Fin 256) :
    R7 V0 (ix2 r j) = TreeSpec.lvl (X V0) (Ww V0) (Wb V0) (Uhc V0) (Uf V0) 7 r.val j :=
  HostLevel.levelR_spec (n := 512) (m := 1024) (X V0) (Ww V0) (Wb V0) (Uhc V0) (Uf V0) 6 511 (by norm_num) (by norm_num)
    (res_main_v5 V0) (res_main_v6 V0) (wh_all V0) (wf_all V0) (R6 V0) (lvl6 V0) _ _ _ _ _ _ _ _ _ _ r j

theorem lvl8 (r : Fin 256) (j : Fin 256) :
    R8 V0 (ix2 r j) = TreeSpec.lvl (X V0) (Ww V0) (Wb V0) (Uhc V0) (Uf V0) 8 r.val j :=
  HostLevel.levelR_spec (n := 256) (m := 512) (X V0) (Ww V0) (Wb V0) (Uhc V0) (Uf V0) 7 255 (by norm_num) (by norm_num)
    (res_main_v5 V0) (res_main_v6 V0) (wh_all V0) (wf_all V0) (R7 V0) (lvl7 V0) _ _ _ _ _ _ _ _ _ _ r j

theorem lvl9 (r : Fin 128) (j : Fin 256) :
    R9 V0 (ix2 r j) = TreeSpec.lvl (X V0) (Ww V0) (Wb V0) (Uhc V0) (Uf V0) 9 r.val j :=
  HostLevel.levelR_spec (n := 128) (m := 256) (X V0) (Ww V0) (Wb V0) (Uhc V0) (Uf V0) 8 127 (by norm_num) (by norm_num)
    (res_main_v5 V0) (res_main_v6 V0) (wh_all V0) (wf_all V0) (R8 V0) (lvl8 V0) _ _ _ _ _ _ _ _ _ _ r j

theorem lvl10 (r : Fin 64) (j : Fin 256) :
    R10 V0 (ix2 r j) = TreeSpec.lvl (X V0) (Ww V0) (Wb V0) (Uhc V0) (Uf V0) 10 r.val j :=
  HostLevel.levelR_spec (n := 64) (m := 128) (X V0) (Ww V0) (Wb V0) (Uhc V0) (Uf V0) 9 63 (by norm_num) (by norm_num)
    (res_main_v5 V0) (res_main_v6 V0) (wh_all V0) (wf_all V0) (R9 V0) (lvl9 V0) _ _ _ _ _ _ _ _ _ _ r j

theorem lvl11 (r : Fin 32) (j : Fin 256) :
    R11 V0 (ix2 r j) = TreeSpec.lvl (X V0) (Ww V0) (Wb V0) (Uhc V0) (Uf V0) 11 r.val j :=
  HostLevel.levelR_spec (n := 32) (m := 64) (X V0) (Ww V0) (Wb V0) (Uhc V0) (Uf V0) 10 31 (by norm_num) (by norm_num)
    (res_main_v5 V0) (res_main_v6 V0) (wh_all V0) (wf_all V0) (R10 V0) (lvl10 V0) _ _ _ _ _ _ _ _ _ _ r j

theorem lvl12 (r : Fin 16) (j : Fin 256) :
    R12 V0 (ix2 r j) = TreeSpec.lvl (X V0) (Ww V0) (Wb V0) (Uhc V0) (Uf V0) 12 r.val j :=
  HostLevel.levelR_spec (n := 16) (m := 32) (X V0) (Ww V0) (Wb V0) (Uhc V0) (Uf V0) 11 15 (by norm_num) (by norm_num)
    (res_main_v5 V0) (res_main_v6 V0) (wh_all V0) (wf_all V0) (R11 V0) (lvl11 V0) _ _ _ _ _ _ _ _ _ _ r j

theorem lvl13 (r : Fin 8) (j : Fin 256) :
    R13 V0 (ix2 r j) = TreeSpec.lvl (X V0) (Ww V0) (Wb V0) (Uhc V0) (Uf V0) 13 r.val j :=
  HostLevel.levelR_spec (n := 8) (m := 16) (X V0) (Ww V0) (Wb V0) (Uhc V0) (Uf V0) 12 7 (by norm_num) (by norm_num)
    (res_main_v5 V0) (res_main_v6 V0) (wh_all V0) (wf_all V0) (R12 V0) (lvl12 V0) _ _ _ _ _ _ _ _ _ _ r j

theorem lvl14 (r : Fin 4) (j : Fin 256) :
    R14 V0 (ix2 r j) = TreeSpec.lvl (X V0) (Ww V0) (Wb V0) (Uhc V0) (Uf V0) 14 r.val j :=
  HostLevel.levelR_spec (n := 4) (m := 8) (X V0) (Ww V0) (Wb V0) (Uhc V0) (Uf V0) 13 3 (by norm_num) (by norm_num)
    (res_main_v5 V0) (res_main_v6 V0) (wh_all V0) (wf_all V0) (R13 V0) (lvl13 V0) _ _ _ _ _ _ _ _ _ _ r j

theorem lvl15 (r : Fin 2) (j : Fin 256) :
    R15 V0 (ix2 r j) = TreeSpec.lvl (X V0) (Ww V0) (Wb V0) (Uhc V0) (Uf V0) 15 r.val j :=
  HostLevel.levelR_spec (n := 2) (m := 4) (X V0) (Ww V0) (Wb V0) (Uhc V0) (Uf V0) 14 1 (by norm_num) (by norm_num)
    (res_main_v5 V0) (res_main_v6 V0) (wh_all V0) (wf_all V0) (R14 V0) (lvl14 V0) _ _ _ _ _ _ _ _ _ _ r j

theorem lvl16 (r : Fin 1) (j : Fin 256) :
    R16 V0 (ix2 r j) = TreeSpec.lvl (X V0) (Ww V0) (Wb V0) (Uhc V0) (Uf V0) 16 r.val j :=
  HostLevel.levelR_spec (n := 1) (m := 2) (X V0) (Ww V0) (Wb V0) (Uhc V0) (Uf V0) 15 0 (by norm_num) (by norm_num)
    (res_main_v5 V0) (res_main_v6 V0) (wh_all V0) (wf_all V0) (R15 V0) (lvl15 V0) _ _ _ _ _ _ _ _ _ _ r j

/-! ## The array after each level -/

/-- The leaves written into the zero array. -/
theorem place0 : res_main_v23 V0 = TreeScatter.placeRows 65535 (R0 V0) (broadcastInDim S131071x256 ![] bcast_S_S131071x256 (constant S_ .f32 0x00000000#32)) := by
  unfold res_main_v23
  rw [TreeScatter.scatter_rows scatter_S131071x256_S1_S65536x256_01_n_0_0 rfl rfl rfl rfl 65535 (by norm_num) (by norm_num) _
    (broadcastInDim S1 ![] bcast_S_S1 (constantI S_ 32 65535#32)) rfl _]
  rfl

/-- Level 0 read back out of the array it was written into. -/
theorem child1 : extractStridedSlice S65536x256 ![65535, 0] (res_main_v23 V0) slices_S131071x256_S65536x256_65535_0 = R0 V0 := by
  rw [place0]
  exact TreeScatter.slice_placeRows_self 65535 (R0 V0) _ _

/-- Level 1 written over the levels below it. -/
theorem place1 : res_main_v51 V0 = TreeScatter.placeRows 32767 (R1 V0) (res_main_v23 V0) := by
  unfold res_main_v51 res_main_v30 res_main_v29 res_main_v27
  rw [child1]
  rw [TreeScatter.scatter_rows scatter_S131071x256_S1_S32768x256_01_n_0_0 rfl rfl rfl rfl 32767 (by norm_num) (by norm_num) _
    (broadcastInDim S1 ![] bcast_S_S1 (constantI S_ 32 32767#32)) rfl _]
  rfl

/-- Level 1 read back out of the array it was written into. -/
theorem child2 : extractStridedSlice S32768x256 ![32767, 0] (res_main_v51 V0) slices_S131071x256_S32768x256_32767_0 = R1 V0 := by
  rw [place1]
  exact TreeScatter.slice_placeRows_self 32767 (R1 V0) _ _

/-- Level 2 written over the levels below it. -/
theorem place2 : res_main_v79 V0 = TreeScatter.placeRows 16383 (R2 V0) (res_main_v51 V0) := by
  unfold res_main_v79 res_main_v58 res_main_v57 res_main_v55
  rw [child2]
  rw [TreeScatter.scatter_rows scatter_S131071x256_S1_S16384x256_01_n_0_0 rfl rfl rfl rfl 16383 (by norm_num) (by norm_num) _
    (broadcastInDim S1 ![] bcast_S_S1 (constantI S_ 32 16383#32)) rfl _]
  rfl

/-- Level 2 read back out of the array it was written into. -/
theorem child3 : extractStridedSlice S16384x256 ![16383, 0] (res_main_v79 V0) slices_S131071x256_S16384x256_16383_0 = R2 V0 := by
  rw [place2]
  exact TreeScatter.slice_placeRows_self 16383 (R2 V0) _ _

/-- Level 3 written over the levels below it. -/
theorem place3 : res_main_v107 V0 = TreeScatter.placeRows 8191 (R3 V0) (res_main_v79 V0) := by
  unfold res_main_v107 res_main_v86 res_main_v85 res_main_v83
  rw [child3]
  rw [TreeScatter.scatter_rows scatter_S131071x256_S1_S8192x256_01_n_0_0 rfl rfl rfl rfl 8191 (by norm_num) (by norm_num) _
    (broadcastInDim S1 ![] bcast_S_S1 (constantI S_ 32 8191#32)) rfl _]
  rfl

/-- Level 3 read back out of the array it was written into. -/
theorem child4 : extractStridedSlice S8192x256 ![8191, 0] (res_main_v107 V0) slices_S131071x256_S8192x256_8191_0 = R3 V0 := by
  rw [place3]
  exact TreeScatter.slice_placeRows_self 8191 (R3 V0) _ _

/-- Level 4 written over the levels below it. -/
theorem place4 : res_main_v135 V0 = TreeScatter.placeRows 4095 (R4 V0) (res_main_v107 V0) := by
  unfold res_main_v135 res_main_v114 res_main_v113 res_main_v111
  rw [child4]
  rw [TreeScatter.scatter_rows scatter_S131071x256_S1_S4096x256_01_n_0_0 rfl rfl rfl rfl 4095 (by norm_num) (by norm_num) _
    (broadcastInDim S1 ![] bcast_S_S1 (constantI S_ 32 4095#32)) rfl _]
  rfl

/-- Level 4 read back out of the array it was written into. -/
theorem child5 : extractStridedSlice S4096x256 ![4095, 0] (res_main_v135 V0) slices_S131071x256_S4096x256_4095_0 = R4 V0 := by
  rw [place4]
  exact TreeScatter.slice_placeRows_self 4095 (R4 V0) _ _

/-- Level 5 written over the levels below it. -/
theorem place5 : res_main_v163 V0 = TreeScatter.placeRows 2047 (R5 V0) (res_main_v135 V0) := by
  unfold res_main_v163 res_main_v142 res_main_v141 res_main_v139
  rw [child5]
  rw [TreeScatter.scatter_rows scatter_S131071x256_S1_S2048x256_01_n_0_0 rfl rfl rfl rfl 2047 (by norm_num) (by norm_num) _
    (broadcastInDim S1 ![] bcast_S_S1 (constantI S_ 32 2047#32)) rfl _]
  rfl

/-- Level 5 read back out of the array it was written into. -/
theorem child6 : extractStridedSlice S2048x256 ![2047, 0] (res_main_v163 V0) slices_S131071x256_S2048x256_2047_0 = R5 V0 := by
  rw [place5]
  exact TreeScatter.slice_placeRows_self 2047 (R5 V0) _ _

/-- Level 6 written over the levels below it. -/
theorem place6 : res_main_v191 V0 = TreeScatter.placeRows 1023 (R6 V0) (res_main_v163 V0) := by
  unfold res_main_v191 res_main_v170 res_main_v169 res_main_v167
  rw [child6]
  rw [TreeScatter.scatter_rows scatter_S131071x256_S1_S1024x256_01_n_0_0 rfl rfl rfl rfl 1023 (by norm_num) (by norm_num) _
    (broadcastInDim S1 ![] bcast_S_S1 (constantI S_ 32 1023#32)) rfl _]
  rfl

/-- Level 6 read back out of the array it was written into. -/
theorem child7 : extractStridedSlice S1024x256 ![1023, 0] (res_main_v191 V0) slices_S131071x256_S1024x256_1023_0 = R6 V0 := by
  rw [place6]
  exact TreeScatter.slice_placeRows_self 1023 (R6 V0) _ _

/-- Level 7 written over the levels below it. -/
theorem place7 : res_main_v219 V0 = TreeScatter.placeRows 511 (R7 V0) (res_main_v191 V0) := by
  unfold res_main_v219 res_main_v198 res_main_v197 res_main_v195
  rw [child7]
  rw [TreeScatter.scatter_rows scatter_S131071x256_S1_S512x256_01_n_0_0 rfl rfl rfl rfl 511 (by norm_num) (by norm_num) _
    (broadcastInDim S1 ![] bcast_S_S1 (constantI S_ 32 511#32)) rfl _]
  rfl

/-- Level 7 read back out of the array it was written into. -/
theorem child8 : extractStridedSlice S512x256 ![511, 0] (res_main_v219 V0) slices_S131071x256_S512x256_511_0 = R7 V0 := by
  rw [place7]
  exact TreeScatter.slice_placeRows_self 511 (R7 V0) _ _

/-- Level 8 written over the levels below it. -/
theorem place8 : res_main_v247 V0 = TreeScatter.placeRows 255 (R8 V0) (res_main_v219 V0) := by
  unfold res_main_v247 res_main_v226 res_main_v225 res_main_v223
  rw [child8]
  rw [TreeScatter.scatter_rows scatter_S131071x256_S1_S256x256_01_n_0_0 rfl rfl rfl rfl 255 (by norm_num) (by norm_num) _
    (broadcastInDim S1 ![] bcast_S_S1 (constantI S_ 32 255#32)) rfl _]
  rfl

/-- Level 8 read back out of the array it was written into. -/
theorem child9 : extractStridedSlice S256x256 ![255, 0] (res_main_v247 V0) slices_S131071x256_S256x256_255_0 = R8 V0 := by
  rw [place8]
  exact TreeScatter.slice_placeRows_self 255 (R8 V0) _ _

/-- Level 9 written over the levels below it. -/
theorem place9 : res_main_v275 V0 = TreeScatter.placeRows 127 (R9 V0) (res_main_v247 V0) := by
  unfold res_main_v275 res_main_v254 res_main_v253 res_main_v251
  rw [child9]
  rw [TreeScatter.scatter_rows scatter_S131071x256_S1_S128x256_01_n_0_0 rfl rfl rfl rfl 127 (by norm_num) (by norm_num) _
    (broadcastInDim S1 ![] bcast_S_S1 (constantI S_ 32 127#32)) rfl _]
  rfl

/-- Level 9 read back out of the array it was written into. -/
theorem child10 : extractStridedSlice S128x256 ![127, 0] (res_main_v275 V0) slices_S131071x256_S128x256_127_0 = R9 V0 := by
  rw [place9]
  exact TreeScatter.slice_placeRows_self 127 (R9 V0) _ _

/-- Level 10 written over the levels below it. -/
theorem place10 : res_main_v303 V0 = TreeScatter.placeRows 63 (R10 V0) (res_main_v275 V0) := by
  unfold res_main_v303 res_main_v282 res_main_v281 res_main_v279
  rw [child10]
  rw [TreeScatter.scatter_rows scatter_S131071x256_S1_S64x256_01_n_0_0 rfl rfl rfl rfl 63 (by norm_num) (by norm_num) _
    (broadcastInDim S1 ![] bcast_S_S1 (constantI S_ 32 63#32)) rfl _]
  rfl

/-- Level 10 read back out of the array it was written into. -/
theorem child11 : extractStridedSlice S64x256 ![63, 0] (res_main_v303 V0) slices_S131071x256_S64x256_63_0 = R10 V0 := by
  rw [place10]
  exact TreeScatter.slice_placeRows_self 63 (R10 V0) _ _

/-- Level 11 written over the levels below it. -/
theorem place11 : res_main_v331 V0 = TreeScatter.placeRows 31 (R11 V0) (res_main_v303 V0) := by
  unfold res_main_v331 res_main_v310 res_main_v309 res_main_v307
  rw [child11]
  rw [TreeScatter.scatter_rows scatter_S131071x256_S1_S32x256_01_n_0_0 rfl rfl rfl rfl 31 (by norm_num) (by norm_num) _
    (broadcastInDim S1 ![] bcast_S_S1 (constantI S_ 32 31#32)) rfl _]
  rfl

/-- Level 11 read back out of the array it was written into. -/
theorem child12 : extractStridedSlice S32x256 ![31, 0] (res_main_v331 V0) slices_S131071x256_S32x256_31_0 = R11 V0 := by
  rw [place11]
  exact TreeScatter.slice_placeRows_self 31 (R11 V0) _ _

/-- Level 12 written over the levels below it. -/
theorem place12 : res_main_v359 V0 = TreeScatter.placeRows 15 (R12 V0) (res_main_v331 V0) := by
  unfold res_main_v359 res_main_v338 res_main_v337 res_main_v335
  rw [child12]
  rw [TreeScatter.scatter_rows scatter_S131071x256_S1_S16x256_01_n_0_0 rfl rfl rfl rfl 15 (by norm_num) (by norm_num) _
    (broadcastInDim S1 ![] bcast_S_S1 (constantI S_ 32 15#32)) rfl _]
  rfl

/-- Level 12 read back out of the array it was written into. -/
theorem child13 : extractStridedSlice S16x256 ![15, 0] (res_main_v359 V0) slices_S131071x256_S16x256_15_0 = R12 V0 := by
  rw [place12]
  exact TreeScatter.slice_placeRows_self 15 (R12 V0) _ _

/-- Level 13 written over the levels below it. -/
theorem place13 : res_main_v387 V0 = TreeScatter.placeRows 7 (R13 V0) (res_main_v359 V0) := by
  unfold res_main_v387 res_main_v366 res_main_v365 res_main_v363
  rw [child13]
  rw [TreeScatter.scatter_rows scatter_S131071x256_S1_S8x256_01_n_0_0 rfl rfl rfl rfl 7 (by norm_num) (by norm_num) _
    (broadcastInDim S1 ![] bcast_S_S1 (constantI S_ 32 7#32)) rfl _]
  rfl

/-- Level 13 read back out of the array it was written into. -/
theorem child14 : extractStridedSlice S8x256 ![7, 0] (res_main_v387 V0) slices_S131071x256_S8x256_7_0 = R13 V0 := by
  rw [place13]
  exact TreeScatter.slice_placeRows_self 7 (R13 V0) _ _

/-- Level 14 written over the levels below it. -/
theorem place14 : res_main_v415 V0 = TreeScatter.placeRows 3 (R14 V0) (res_main_v387 V0) := by
  unfold res_main_v415 res_main_v394 res_main_v393 res_main_v391
  rw [child14]
  rw [TreeScatter.scatter_rows scatter_S131071x256_S1_S4x256_01_n_0_0 rfl rfl rfl rfl 3 (by norm_num) (by norm_num) _
    (broadcastInDim S1 ![] bcast_S_S1 (constantI S_ 32 3#32)) rfl _]
  rfl

/-- Level 14 read back out of the array it was written into. -/
theorem child15 : extractStridedSlice S4x256 ![3, 0] (res_main_v415 V0) slices_S131071x256_S4x256_3_0 = R14 V0 := by
  rw [place14]
  exact TreeScatter.slice_placeRows_self 3 (R14 V0) _ _

/-- Level 15 written over the levels below it. -/
theorem place15 : res_main_v443 V0 = TreeScatter.placeRows 1 (R15 V0) (res_main_v415 V0) := by
  unfold res_main_v443 res_main_v422 res_main_v421 res_main_v419
  rw [child15]
  rw [TreeScatter.scatter_rows scatter_S131071x256_S1_S2x256_01_n_0_0 rfl rfl rfl rfl 1 (by norm_num) (by norm_num) _
    (broadcastInDim S1 ![] bcast_S_S1 (constantI S_ 32 1#32)) rfl _]
  rfl

/-- Level 15 read back out of the array it was written into. -/
theorem child16 : extractStridedSlice S2x256 ![1, 0] (res_main_v443 V0) slices_S131071x256_S2x256_1_0 = R15 V0 := by
  rw [place15]
  exact TreeScatter.slice_placeRows_self 1 (R15 V0) _ _

/-- Level 16 written over the levels below it. -/
theorem place16 : Host.scatter scatter_S131071x256_S1_S1x256_01_n_0_0 (fun _ b => b) (res_main_v443 V0) (broadcastInDim S1 ![] bcast_S_S1 (constantI S_ 32 0#32)) (addf (Host.reduceAdd (shapeCast _ (res_main_v450 V0) shapeCasts_S1x512_S1x2x256) (constant S_ .f32 0x00000000#32) reducesTo_S1x2x256_S1x256_d1 h_S_) (mulf (subf (broadcastInDim S1x256 ![] bcast_S_S1x256 (constant S_ .f32 0x3F800000#32)) (Host.reduceAdd (shapeCast _ (Host.divf (broadcastInDim S1x512 ![] bcast_S_S1x512 (constant S_ .f32 0x3F800000#32)) (addf (broadcastInDim S1x512 ![] bcast_S_S1x512 (constant S_ .f32 0x3F800000#32)) (Host.exp (Host.negf (addf (res_main_v449 V0) (extractStridedSlice S1x512 ![0, 0] (res_main_v6 V0) slices_S131071x512_S1x512_0_0)))))) shapeCasts_S1x512_S1x2x256) (constant S_ .f32 0x00000000#32) reducesTo_S1x2x256_S1x256_d1 h_S_)) (Host.tanh (addf (extractStridedSlice S1x256 ![0, 0] (res_main_v5 V0) slices_S131071x256_S1x256_0_0) (Host.dotGeneral (φ₁ := .f32) (φ₂ := .f32) dot_S1x512_S512x256_S1x256_1_0_0_1_n_n none (res_main_v450 V0) (transpose S512x256 [1, 0] (V0 (Proc.devRef .tc main_arg3)) transposes_S256x512_S512x256_1_0)))))) = TreeScatter.placeRows 0 (R16 V0) (res_main_v443 V0) := by
  unfold res_main_v450 res_main_v449 res_main_v447
  rw [child16]
  rw [TreeScatter.scatter_rows scatter_S131071x256_S1_S1x256_01_n_0_0 rfl rfl rfl rfl 0 (by norm_num) (by norm_num) _
    (broadcastInDim S1 ![] bcast_S_S1 (constantI S_ 32 0#32)) rfl _]
  rfl

/-! ## The result -/

/-- THE RESULT ARRAY: the seventeen levels placed from the leaves up to the root over the zero array. -/
theorem result_value :
    Host.scatter scatter_S131071x256_S1_S1x256_01_n_0_0 (fun _ b => b) (res_main_v443 V0) (broadcastInDim S1 ![] bcast_S_S1 (constantI S_ 32 0#32)) (addf (Host.reduceAdd (shapeCast _ (res_main_v450 V0) shapeCasts_S1x512_S1x2x256) (constant S_ .f32 0x00000000#32) reducesTo_S1x2x256_S1x256_d1 h_S_) (mulf (subf (broadcastInDim S1x256 ![] bcast_S_S1x256 (constant S_ .f32 0x3F800000#32)) (Host.reduceAdd (shapeCast _ (Host.divf (broadcastInDim S1x512 ![] bcast_S_S1x512 (constant S_ .f32 0x3F800000#32)) (addf (broadcastInDim S1x512 ![] bcast_S_S1x512 (constant S_ .f32 0x3F800000#32)) (Host.exp (Host.negf (addf (res_main_v449 V0) (extractStridedSlice S1x512 ![0, 0] (res_main_v6 V0) slices_S131071x512_S1x512_0_0)))))) shapeCasts_S1x512_S1x2x256) (constant S_ .f32 0x00000000#32) reducesTo_S1x2x256_S1x256_d1 h_S_)) (Host.tanh (addf (extractStridedSlice S1x256 ![0, 0] (res_main_v5 V0) slices_S131071x256_S1x256_0_0) (Host.dotGeneral (φ₁ := .f32) (φ₂ := .f32) dot_S1x512_S512x256_S1x256_1_0_0_1_n_n none (res_main_v450 V0) (transpose S512x256 [1, 0] (V0 (Proc.devRef .tc main_arg3)) transposes_S256x512_S512x256_1_0))))))
      = TreeOut.nestR (R0 V0) (R1 V0) (R2 V0) (R3 V0) (R4 V0) (R5 V0) (R6 V0) (R7 V0) (R8 V0) (R9 V0) (R10 V0) (R11 V0) (R12 V0) (R13 V0) (R14 V0) (R15 V0) (R16 V0) (broadcastInDim S131071x256 ![] bcast_S_S131071x256 (constant S_ .f32 0x00000000#32)) := by
  rw [place16, place15, place14, place13, place12, place11, place10, place9, place8, place7, place6, place5, place4, place3, place2, place1, place0]
  rfl

end Cert.ReferenceIdeal.RVal

end
-- ==== Proof.AssembleR.lean ====
/-
  The reference program's result is the result array of the tree recurrence: each of its seventeen levels agrees entry by
  entry with the level function, so the levels written from the leaves up to the root are the array `TreeFinal.outArr`.
-/
import proofs.«410862_j80719615361096_3_alg».proof.Proof.RVal
import proofs.«410862_j80719615361096_3_alg».proof.Proof.TreeFinal

noncomputable section

namespace Cert.ReferenceIdeal.Assemble

open Cert.ReferenceIdeal Idealize.ShloMosaic Idealize.ShloMosaic.ValueIdx Idealize.ShloMosaic.TcCoe Idealize.SL.Sem

variable (V0 : Valuation τ sig (Elt Ideal))

theorem nestR_levels (Z : (TreeScatter.Sh2 131071 256).Idx → EReal) :
    TreeOut.nestR (RVal.R0 V0) (RVal.R1 V0) (RVal.R2 V0) (RVal.R3 V0) (RVal.R4 V0) (RVal.R5 V0) (RVal.R6 V0) (RVal.R7 V0) (RVal.R8 V0) (RVal.R9 V0) (RVal.R10 V0) (RVal.R11 V0) (RVal.R12 V0) (RVal.R13 V0) (RVal.R14 V0) (RVal.R15 V0) (RVal.R16 V0) Z
      = TreeFinal.outArr (RVal.X V0) (RVal.Ww V0) (RVal.Wb V0) (RVal.Uhc V0) (RVal.Uf V0) Z := by
  rw [TreeFinal.outArr_eq_nestR,
    TreeFinal.eq_lvArr (RVal.X V0) (RVal.Ww V0) (RVal.Wb V0) (RVal.Uhc V0) (RVal.Uf V0) 0 (RVal.R0 V0) (RVal.lvl0 V0),
    TreeFinal.eq_lvArr (RVal.X V0) (RVal.Ww V0) (RVal.Wb V0) (RVal.Uhc V0) (RVal.Uf V0) 1 (RVal.R1 V0) (RVal.lvl1 V0),
    TreeFinal.eq_lvArr (RVal.X V0) (RVal.Ww V0) (RVal.Wb V0) (RVal.Uhc V0) (RVal.Uf V0) 2 (RVal.R2 V0) (RVal.lvl2 V0),
    TreeFinal.eq_lvArr (RVal.X V0) (RVal.Ww V0) (RVal.Wb V0) (RVal.Uhc V0) (RVal.Uf V0) 3 (RVal.R3 V0) (RVal.lvl3 V0),
    TreeFinal.eq_lvArr (RVal.X V0) (RVal.Ww V0) (RVal.Wb V0) (RVal.Uhc V0) (RVal.Uf V0) 4 (RVal.R4 V0) (RVal.lvl4 V0),
    TreeFinal.eq_lvArr (RVal.X V0) (RVal.Ww V0) (RVal.Wb V0) (RVal.Uhc V0) (RVal.Uf V0) 5 (RVal.R5 V0) (RVal.lvl5 V0),
    TreeFinal.eq_lvArr (RVal.X V0) (RVal.Ww V0) (RVal.Wb V0) (RVal.Uhc V0) (RVal.Uf V0) 6 (RVal.R6 V0) (RVal.lvl6 V0),
    TreeFinal.eq_lvArr (RVal.X V0) (RVal.Ww V0) (RVal.Wb V0) (RVal.Uhc V0) (RVal.Uf V0) 7 (RVal.R7 V0) (RVal.lvl7 V0),
    TreeFinal.eq_lvArr (RVal.X V0) (RVal.Ww V0) (RVal.Wb V0) (RVal.Uhc V0) (RVal.Uf V0) 8 (RVal.R8 V0) (RVal.lvl8 V0),
    TreeFinal.eq_lvArr (RVal.X V0) (RVal.Ww V0) (RVal.Wb V0) (RVal.Uhc V0) (RVal.Uf V0) 9 (RVal.R9 V0) (RVal.lvl9 V0),
    TreeFinal.eq_lvArr (RVal.X V0) (RVal.Ww V0) (RVal.Wb V0) (RVal.Uhc V0) (RVal.Uf V0) 10 (RVal.R10 V0) (RVal.lvl10 V0),
    TreeFinal.eq_lvArr (RVal.X V0) (RVal.Ww V0) (RVal.Wb V0) (RVal.Uhc V0) (RVal.Uf V0) 11 (RVal.R11 V0) (RVal.lvl11 V0),
    TreeFinal.eq_lvArr (RVal.X V0) (RVal.Ww V0) (RVal.Wb V0) (RVal.Uhc V0) (RVal.Uf V0) 12 (RVal.R12 V0) (RVal.lvl12 V0),
    TreeFinal.eq_lvArr (RVal.X V0) (RVal.Ww V0) (RVal.Wb V0) (RVal.Uhc V0) (RVal.Uf V0) 13 (RVal.R13 V0) (RVal.lvl13 V0),
    TreeFinal.eq_lvArr (RVal.X V0) (RVal.Ww V0) (RVal.Wb V0) (RVal.Uhc V0) (RVal.Uf V0) 14 (RVal.R14 V0) (RVal.lvl14 V0),
    TreeFinal.eq_lvArr (RVal.X V0) (RVal.Ww V0) (RVal.Wb V0) (RVal.Uhc V0) (RVal.Uf V0) 15 (RVal.R15 V0) (RVal.lvl15 V0),
    TreeFinal.eq_lvArr (RVal.X V0) (RVal.Ww V0) (RVal.Wb V0) (RVal.Uhc V0) (RVal.Uf V0) 16 (RVal.R16 V0) (RVal.lvl16 V0)]

end Cert.ReferenceIdeal.Assemble

end
-- ==== Proof.lean ====
/-
  The tree-structured gated recurrence over a perfect binary tree of depth 16 in heap order (131071 nodes, 256 hidden
  units): the kernel program against its reference, over the extended reals.

  Node i's new hidden row is a function of the affine image of its input row and, for an inner node, of its two
  children's hidden rows (`TreeCell`); the levels are computed from the leaves up (`TreeSpec.lvl`), and the result array
  holds level d on the rows 2^d - 1 ≤ i < 2^(d+1) - 1 (`TreeFinal.outArr`).

  The kernel program computes the seven deepest levels (1024 to 65536 nodes) in seven pipelined regions, each block of a
  level by one body run: its matrix products go into a zero accumulator and are plain sums, a change of float format is
  the identity, and a product against the two transposed column halves of a weight array, added up, is the full-width
  sum split at column 256 (`KernChain`, `KernLevel`, `KReg0` … `KReg6`); the ten small levels it computes on the host
  (`HostChain`, `HostLevel`, `KTail`), and it writes the seventeen levels into a zero array from the root down to the leaves.
  The reference computes the affine image of all rows once, then every level on the host, reading the level below back out
  of the array it is filling, from the leaves up to the root (`RVal`).  Entry by entry both programs' levels are the level
  function; the seventeen row ranges are disjoint, so the two orders of writing leave the same array (`TreeOut`).  No
  step needs the inputs to be finite: sums are only regrouped, never distributed over.

  The three frames: the two kernel programs' by the frame certificates (`FrameBitsP`, `FrameIdealP`), the reference's by its
  run with the result dropped.  The idealization rewrote no operation, so `preserves` has nothing to state.
-/
import proofs.«410862_j80719615361096_3_alg».proof.Defs
import proofs.«410862_j80719615361096_3_alg».proof.Proof.Gen.Kernel
import proofs.«410862_j80719615361096_3_alg».proof.Proof.Gen.KernelIdeal
import proofs.«410862_j80719615361096_3_alg».proof.Proof.Gen.ReferenceIdeal
import proofs.«410862_j80719615361096_3_alg».proof.Proof.Gen.Pre_finite_inputs
import proofs.«410862_j80719615361096_3_alg».proof.Proof.Gen.ReferenceIdeal.Run
import proofs.«410862_j80719615361096_3_alg».proof.Proof.FrameBitsP
import proofs.«410862_j80719615361096_3_alg».proof.Proof.KRun
import proofs.«410862_j80719615361096_3_alg».proof.Proof.AssembleK
import proofs.«410862_j80719615361096_3_alg».proof.Proof.AssembleR
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.GenP.frame m ρ

theorem frame_kernelIdeal : Cert.frame_KernelIdeal := fun m ρ _ => Cert.KernelIdeal.GenP.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result array of the tree recurrence of the (agreeing) argument arrays. -/
theorem algebraic : Cert.algebraic_KernelIdeal_ReferenceIdeal := by
  intro m ρ m' ρ' _ hagree
  refine ⟨fun c => TreeFinal.outArr (Cert.KernelIdeal.Chain.X m c) (Cert.KernelIdeal.Chain.Ww m c) (Cert.KernelIdeal.Chain.Wb m c)
      (Cert.KernelIdeal.Chain.Uhc m c) (Cert.KernelIdeal.Chain.Uf m c)
      (broadcastInDim Cert.KernelIdeal.S131071x256 ![] Cert.KernelIdeal.Facts₀.bcast_S_S131071x256 (constant (F := Ideal) Cert.KernelIdeal.S_ .f32 0x00000000#32)), ?_, ?_⟩
  · exact (θ_run Cert.KernelIdeal.defs _ _).mono
      (fun _ h c => ⟨(h c).1.trans (Cert.KernelIdeal.Assemble.kernel_value m ρ c), (h c).2⟩) (Cert.KernelIdeal.RunV.run m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RVal.result_value, Cert.ReferenceIdeal.Assemble.nestR_levels]
    obtain ⟨e0, e1, e2, e3, e4⟩ := hagree c
    show TreeFinal.outArr (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4)) _ = _
    rw [e0, e1, e2, e3, e4]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
